-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "inv_1000000" .f32 0x358637BD#32 ((1 / 1000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S8x64x64 : Shape := ⟨3, ![8, 64, 64]⟩
abbrev S8 : Shape := ⟨1, ![8]⟩
abbrev S2x1000000 : Shape := ⟨2, ![2, 1000000]⟩
abbrev S1000000 : Shape := ⟨1, ![1000000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S8x64x64 : S_.BroadcastsInDim S8x64x64 (![] : Fin 0 → Fin S8x64x64.rank)
  reducesTo_S8x64x64_S_d0_1_2 : S8x64x64.ReducesTo [0, 1, 2] S_
  bcast_S_S8 : S_.BroadcastsInDim S8 (![] : Fin 0 → Fin S8.rank)
  reducesTo_S8_S_d0 : S8.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_v30 : IVec S_ 1) (main_v32 : IVec S1000000 1) : IVec S_ 1 :=
  let main_c_13 : IVec S_ 1 := constantI S_ 1 1#1
  let main_v33 : IVec S_ 1 := (fun x v => Host.reduce IntOp.andi x v reducesTo_S1000000_S_d0 h_S_) main_v32 main_c_13
  let main_v34 : IVec S_ 1 := andi main_v30 main_v33
  main_v34

def fn_part1 {F : FTy → Type} [FloatOps F] (main_arg5 : IVec S1000000 32) (main_arg7 : IVec S1000000 32) (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  let main_c_6 : IVec S_ 32 := constantI S_ 32 0#32
  let main_v19 : IVec S1000000 32 := broadcastInDim S1000000 ![] bcast_S_S1000000 main_c_6
  let main_v20 : IVec S1000000 1 := cmpi .sge main_arg5 main_v19
  let main_c_7 : IVec S_ 1 := constantI S_ 1 1#1
  let main_v21 : IVec S_ 1 := (fun x v => Host.reduce IntOp.andi x v reducesTo_S1000000_S_d0 h_S_) main_v20 main_c_7
  let main_v22 : IVec S_ 1 := andi main_v18 main_v21
  let main_c_8 : IVec S_ 32 := constantI S_ 32 8#32
  let main_v23 : IVec S1000000 32 := broadcastInDim S1000000 ![] bcast_S_S1000000 main_c_8
  let main_v24 : IVec S1000000 1 := cmpi .slt main_arg5 main_v23
  let main_c_9 : IVec S_ 1 := constantI S_ 1 1#1
  let main_v25 : IVec S_ 1 := (fun x v => Host.reduce IntOp.andi x v reducesTo_S1000000_S_d0 h_S_) main_v24 main_c_9
  let main_v26 : IVec S_ 1 := andi main_v22 main_v25
  let main_c_10 : IVec S_ 32 := constantI S_ 32 0#32
  let main_v27 : IVec S1000000 32 := broadcastInDim S1000000 ![] bcast_S_S1000000 main_c_10
  let main_v28 : IVec S1000000 1 := cmpi .sge main_arg7 main_v27
  let main_c_11 : IVec S_ 1 := constantI S_ 1 1#1
  let main_v29 : IVec S_ 1 := (fun x v => Host.reduce IntOp.andi x v reducesTo_S1000000_S_d0 h_S_) main_v28 main_c_11
  let main_v30 : IVec S_ 1 := andi main_v26 main_v29
  let main_c_12 : IVec S_ 32 := constantI S_ 32 8#32
  let main_v31 : IVec S1000000 32 := broadcastInDim S1000000 ![] bcast_S_S1000000 main_c_12
  let main_v32 : IVec S1000000 1 := cmpi .slt main_arg7 main_v31
  fn_part2 (F := F) main_v30 main_v32

def fn {F : FTy → Type} [FloatOps F] (main_arg0 : FVec F S50000x64 .f32) (main_arg1 : FVec F S8x64x64 .f32) (main_arg2 : FVec F S8x64x64 .f32) (main_arg3 : FVec F S8 .f32) (main_arg4 : IVec S2x1000000 32) (main_arg5 : IVec S1000000 32) (main_arg6 : IVec S2x1000000 32) (main_arg7 : IVec S1000000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S8x64x64 .f32 := Host.absf main_arg1
  let main_cst_0 : FVec F S_ .f32 := constant S_ .f32 0x7F800000#32
  let main_v5 : FVec F S8x64x64 .f32 := broadcastInDim S8x64x64 ![] bcast_S_S8x64x64 main_cst_0
  let main_v6 : IVec S8x64x64 1 := cmpf .olt main_v4 main_v5
  let main_c_1 : IVec S_ 1 := constantI S_ 1 1#1
  let main_v7 : IVec S_ 1 := (fun x v => Host.reduce IntOp.andi x v reducesTo_S8x64x64_S_d0_1_2 h_S_) main_v6 main_c_1
  let main_v8 : IVec S_ 1 := andi main_v3 main_v7
  let main_v9 : FVec F S8x64x64 .f32 := Host.absf main_arg2
  let main_cst_2 : FVec F S_ .f32 := constant S_ .f32 0x7F800000#32
  let main_v10 : FVec F S8x64x64 .f32 := broadcastInDim S8x64x64 ![] bcast_S_S8x64x64 main_cst_2
  let main_v11 : IVec S8x64x64 1 := cmpf .olt main_v9 main_v10
  let main_c_3 : IVec S_ 1 := constantI S_ 1 1#1
  let main_v12 : IVec S_ 1 := (fun x v => Host.reduce IntOp.andi x v reducesTo_S8x64x64_S_d0_1_2 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_arg5 main_arg7 main_v13 main_v16
-- ==== Kernel.lean ====
abbrev S50000x64 : Shape := ⟨2, ![50000, 64]⟩
abbrev S8x64x64 : Shape := ⟨3, ![8, 64, 64]⟩
abbrev S8 : Shape := ⟨1, ![8]⟩
abbrev S2x1000000 : Shape := ⟨2, ![2, 1000000]⟩
abbrev S1000000 : Shape := ⟨1, ![1000000]⟩
abbrev S_ : Shape := ⟨0, ![]⟩
abbrev S64x8x64 : Shape := ⟨3, ![64, 8, 64]⟩
abbrev S64x512 : Shape := ⟨2, ![64, 512]⟩
abbrev S1x8 : Shape := ⟨2, ![1, 8]⟩
abbrev S2x2000000 : Shape := ⟨2, ![2, 2000000]⟩
abbrev S2000000 : Shape := ⟨1, ![2000000]⟩
abbrev S1x2000000 : Shape := ⟨2, ![1, 2000000]⟩
abbrev S2000000x1 : Shape := ⟨2, ![2000000, 1]⟩
abbrev S2000000x64 : Shape := ⟨2, ![2000000, 64]⟩
abbrev S2007040x64 : Shape := ⟨2, ![2007040, 64]⟩
abbrev S2007040 : Shape := ⟨1, ![2007040]⟩
abbrev S2x1003520x64 : Shape := ⟨3, ![2, 1003520, 64]⟩
abbrev S2x1x1003520 : Shape := ⟨3, ![2, 1, 1003520]⟩
abbrev S2x1x1 : Shape := ⟨3, ![2, 1, 1]⟩
abbrev S1x5120x64 : Shape := ⟨3, ![1, 5120, 64]⟩
abbrev S1x1x5120 : Shape := ⟨3, ![1, 1, 5120]⟩
abbrev S1x1x1 : Shape := ⟨3, ![1, 1, 1]⟩
abbrev S1x1 : Shape := ⟨2, ![1, 1]⟩
abbrev S5120x64 : Shape := ⟨2, ![5120, 64]⟩
abbrev S1x5120 : Shape := ⟨2, ![1, 5120]⟩
abbrev S5120x1 : Shape := ⟨2, ![5120, 1]⟩
abbrev S5120x512 : Shape := ⟨2, ![5120, 512]⟩
abbrev S5120 : Shape := ⟨1, ![5120]⟩
abbrev S1 : Shape := ⟨1, ![1]⟩

abbrev nBuf : Space → Nat
  | .hbm => 93
  | .vmem => 13
  | .smem => 0
  | _ => 0

abbrev bufTy : (tb : Table) → Fin (tcTables nBuf tb) → BufTy
  | .hbm, ⟨0, _⟩ => ⟨S50000x64, .f32⟩
  | .hbm, ⟨1, _⟩ => ⟨S8x64x64, .f32⟩
  | .hbm, ⟨2, _⟩ => ⟨S8x64x64, .f32⟩
  | .hbm, ⟨3, _⟩ => ⟨S8, .f32⟩
  | .hbm, ⟨4, _⟩ => ⟨S2x1000000, .i32⟩
  | .hbm, ⟨5, _⟩ => ⟨S1000000, .i32⟩
  | .hbm, ⟨6, _⟩ => ⟨S2x1000000, .i32⟩
  | .hbm, ⟨7, _⟩ => ⟨S1000000, .i32⟩
  | .hbm, ⟨8, _⟩ => ⟨S8x64x64, .f32⟩
  | .hbm, ⟨9, _⟩ => ⟨S8x64x64, .f32⟩
  | .hbm, ⟨10, _⟩ => ⟨S_, .f32⟩
  | .hbm, ⟨11, _⟩ => ⟨S8x64x64, .f32⟩
  | .hbm, ⟨12, _⟩ => ⟨S8x64x64, .f32⟩
  | .hbm, ⟨13, _⟩ => ⟨S_, .f32⟩
  | .hbm, ⟨14, _⟩ => ⟨S8x64x64, .f32⟩
  | .hbm, ⟨15, _⟩ => ⟨S8x64x64, .f32⟩
  | .hbm, ⟨16, _⟩ => ⟨S_, .f32⟩
  | .hbm, ⟨17, _⟩ => ⟨S8x64x64, .f32⟩
  | .hbm, ⟨18, _⟩ => ⟨S8x64x64, .f32⟩
  | .hbm, ⟨19, _⟩ => ⟨S_, .f32⟩
  | .hbm, ⟨20, _⟩ => ⟨S8x64x64, .f32⟩
  | .hbm, ⟨21, _⟩ => ⟨S8x64x64, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x64x64, .f32⟩
  | .hbm, ⟨26, _⟩ => ⟨S8x64x64, .f32⟩
  | .hbm, ⟨27, _⟩ => ⟨S_, .f32⟩
  | .hbm, ⟨28, _⟩ => ⟨S8x64x64, .f32⟩
  | .hbm, ⟨29, _⟩ => ⟨S8x64x64, .f32⟩
  | .hbm, ⟨30, _⟩ => ⟨S8x64x64, .f32⟩
  | .hbm, ⟨31, _⟩ => ⟨S8x64x64, .f32⟩
  | .hbm, ⟨32, _⟩ => ⟨S_, .f32⟩
  | .hbm, ⟨33, _⟩ => ⟨S8x64x64, .f32⟩
  | .hbm, ⟨34, _⟩ => ⟨S8x64x64, .f32⟩
  | .hbm, ⟨35, _⟩ => ⟨S_, .f32⟩
  | .hbm, ⟨36, _⟩ => ⟨S8x64x64, .f32⟩
  | .hbm, ⟨37, _⟩ => ⟨S8x64x64, .f32⟩
  | .hbm, ⟨38, _⟩ => ⟨S8x64x64, .f32⟩
  | .hbm, ⟨39, _⟩ => ⟨S8x64x64, .f32⟩
  | .hbm, ⟨40, _⟩ => ⟨S64x8x64, .f32⟩
  | .hbm, ⟨41, _⟩ => ⟨S64x512, .f32⟩
  | .hbm, ⟨42, _⟩ => ⟨S64x512, .bf16⟩
  | .hbm, ⟨43, _⟩ => ⟨S1x8, .f32⟩
  | .hbm, ⟨44, _⟩ => ⟨S50000x64, .bf16⟩
  | .hbm, ⟨45, _⟩ => ⟨S2x2000000, .i32⟩
  | .hbm, ⟨46, _⟩ => ⟨S2000000, .i32⟩
  | .hbm, ⟨47, _⟩ => ⟨S_, .f32⟩
  | .hbm, ⟨48, _⟩ => ⟨S1000000, .f32⟩
  | .hbm, ⟨49, _⟩ => ⟨S_, .f32⟩
  | .hbm, ⟨50, _⟩ => ⟨S1000000, .f32⟩
  | .hbm, ⟨51, _⟩ => ⟨S2000000, .f32⟩
  | .hbm, ⟨52, _⟩ => ⟨S1x2000000, .i32⟩
  | .hbm, ⟨53, _⟩ => ⟨S2000000, .i32⟩
  | .hbm, ⟨54, _⟩ => ⟨S_, .i32⟩
  | .hbm, ⟨55, _⟩ => ⟨S2000000, .i32⟩
  | .hbm, ⟨56, _⟩ => ⟨S2000000, .i1⟩
  | .hbm, ⟨57, _⟩ => ⟨S_, .i32⟩
  | .hbm, ⟨58, _⟩ => ⟨S2000000, .i32⟩
  | .hbm, ⟨59, _⟩ => ⟨S2000000, .i32⟩
  | .hbm, ⟨60, _⟩ => ⟨S2000000, .i32⟩
  | .hbm, ⟨61, _⟩ => ⟨S2000000x1, .i32⟩
  | .hbm, ⟨62, _⟩ => ⟨S2000000x64, .bf16⟩
  | .hbm, ⟨63, _⟩ => ⟨S1x2000000, .i32⟩
  | .hbm, ⟨64, _⟩ => ⟨S2000000, .i32⟩
  | .hbm, ⟨65, _⟩ => ⟨S_, .i32⟩
  | .hbm, ⟨66, _⟩ => ⟨S2000000, .i32⟩
  | .hbm, ⟨67, _⟩ => ⟨S2000000, .i1⟩
  | .hbm, ⟨68, _⟩ => ⟨S_, .i32⟩
  | .hbm, ⟨69, _⟩ => ⟨S2000000, .i32⟩
  | .hbm, ⟨70, _⟩ => ⟨S2000000, .i32⟩
  | .hbm, ⟨71, _⟩ => ⟨S2000000, .i32⟩
  | .hbm, ⟨72, _⟩ => ⟨S2000000x1, .i32⟩
  | .hbm, ⟨73, _⟩ => ⟨S2000000x64, .bf16⟩
  | .hbm, ⟨74, _⟩ => ⟨S_, .i32⟩
  | .hbm, ⟨75, _⟩ => ⟨S_, .bf16⟩
  | .hbm, ⟨76, _⟩ => ⟨S2007040x64, .bf16⟩
  | .hbm, ⟨77, _⟩ => ⟨S_, .i32⟩
  | .hbm, ⟨78, _⟩ => ⟨S_, .bf16⟩
  | .hbm, ⟨79, _⟩ => ⟨S2007040x64, .bf16⟩
  | .hbm, ⟨80, _⟩ => ⟨S_, .i32⟩
  | .hbm, ⟨81, _⟩ => ⟨S_, .i32⟩
  | .hbm, ⟨82, _⟩ => ⟨S2007040, .i32⟩
  | .hbm, ⟨83, _⟩ => ⟨S_, .f32⟩
  | .hbm, ⟨84, _⟩ => ⟨S_, .f32⟩
  | .hbm, ⟨85, _⟩ => ⟨S2007040, .f32⟩
  | .hbm, ⟨86, _⟩ => ⟨S2x1003520x64, .bf16⟩
  | .hbm, ⟨87, _⟩ => ⟨S2x1003520x64, .bf16⟩
  | .hbm, ⟨88, _⟩ => ⟨S2x1x1003520, .i32⟩
  | .hbm, ⟨89, _⟩ => ⟨S2x1x1003520, .f32⟩
  | .hbm, ⟨90, _⟩ => ⟨S2x1x1, .f32⟩
  | .hbm, ⟨91, _⟩ => ⟨S_, .f32⟩
  | .hbm, ⟨92, _⟩ => ⟨S_, .f32⟩
  | .local _ .vmem, ⟨0, _⟩ => ⟨S1x5120x64, .bf16⟩
  | .local _ .vmem, ⟨1, _⟩ => ⟨S1x5120x64, .bf16⟩
  | .local _ .vmem, ⟨2, _⟩ => ⟨S1x5120x64, .bf16⟩
  | .local _ .vmem, ⟨3, _⟩ => ⟨S1x5120x64, .bf16⟩
  | .local _ .vmem, ⟨4, _⟩ => ⟨S1x1x5120, .i32⟩
  | .local _ .vmem, ⟨5, _⟩ => ⟨S1x1x5120, .i32⟩
  | .local _ .vmem, ⟨6, _⟩ => ⟨S1x1x5120, .f32⟩
  | .local _ .vmem, ⟨7, _⟩ => ⟨S1x1x5120, .f32⟩
  | .local _ .vmem, ⟨8, _⟩ => ⟨S64x512, .bf16⟩
  | .local _ .vmem, ⟨9, _⟩ => ⟨S1x8, .f32⟩
  | .local _ .vmem, ⟨10, _⟩ => ⟨S1x1x1, .f32⟩
  | .local _ .vmem, ⟨11, _⟩ => ⟨S1x1x1, .f32⟩
  | .local _ .vmem, ⟨12, _⟩ => ⟨S1x1, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_5 : Ref sig .tc := ⟨.hbm, 32, rfl⟩
abbrev main_v13 : Ref sig .tc := ⟨.hbm, 33, rfl⟩
abbrev main_v14 : Ref sig .tc := ⟨.hbm, 34, rfl⟩
abbrev main_cst_6 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_cst_8 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c : Ref sig .tc := ⟨.hbm, 54, rfl⟩
abbrev main_v31 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_v40 : Ref sig .tc := ⟨.hbm, 66, rfl⟩
abbrev main_v41 : Ref sig .tc := ⟨.hbm, 67, rfl⟩
abbrev main_c_11 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_c_12 : Ref sig .tc := ⟨.hbm, 74, rfl⟩
abbrev main_call1_v0 : Ref sig .tc := ⟨.hbm, 75, rfl⟩
abbrev main_v47 : Ref sig .tc := ⟨.hbm, 76, rfl⟩
abbrev main_c_13 : Ref sig .tc := ⟨.hbm, 77, rfl⟩
abbrev main_call2_v0 : Ref sig .tc := ⟨.hbm, 78, rfl⟩
abbrev main_v48 : Ref sig .tc := ⟨.hbm, 79, rfl⟩
abbrev main_c_14 : Ref sig .tc := ⟨.hbm, 80, rfl⟩
abbrev main_call3_v0 : Ref sig .tc := ⟨.hbm, 81, rfl⟩
abbrev main_v49 : Ref sig .tc := ⟨.hbm, 82, rfl⟩
abbrev main_cst_15 : Ref sig .tc := ⟨.hbm, 83, rfl⟩
abbrev main_call4_v0 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_16 : Ref sig .tc := ⟨.hbm, 91, rfl⟩
abbrev main_v56 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 196], ![false, false]⟩

def k0_cond2 (i : grid0.Coords) : BitVec 1 :=
  let arg1 : BitVec 32 := BitVec.ofNat 32 (i 1).val
  let c195_i32 : BitVec 32 := 195#32
  let v169 : BitVec 1 := Scalar.cmpi .eq arg1 c195_i32
  let v170 : BitVec 32 := Scalar.extui v169
  let c0_i32_35 : BitVec 32 := 0#32
  let v171 : BitVec 1 := Scalar.cmpi .ne v170 c0_i32_35
  v171

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x5120x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x5120x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x5120 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x5120 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S64x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S_S8x64x64 : S_.BroadcastsInDim S8x64x64 (![] : Fin 0 → Fin S8x64x64.rank)
  transposes_S8x64x64_S8x64x64_0_2_1 : S8x64x64.Transposes [0, 2, 1] S8x64x64
  transposes_S8x64x64_S64x8x64_1_0_2 : S8x64x64.Transposes [1, 0, 2] S64x8x64
  shapeCasts_S64x8x64_S64x512 : S64x8x64.ShapeCasts S64x512
  bitsLt_bf16_f32 : FTy.bits .bf16 < FTy.bits .f32
  shapeCasts_S8_S1x8 : S8.ShapeCasts S1x8
  concatenates_S2x1000000_S2x1000000_S2x2000000_d1 : Shape.Concatenates [S2x1000000, S2x1000000] S2x2000000 1
  concatenates_S1000000_S1000000_S2000000_d0 : Shape.Concatenates [S1000000, S1000000] S2000000 0
  bcast_S_S1000000 : S_.BroadcastsInDim S1000000 (![] : Fin 0 → Fin S1000000.rank)
  slices_S2x2000000_S1x2000000_0_0 : S2x2000000.Slices ![0, 0] S1x2000000
  shapeCasts_S1x2000000_S2000000 : S1x2000000.ShapeCasts S2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  slices_S2x2000000_S1x2000000_1_0 : S2x2000000.Slices ![1, 0] S1x2000000
  pads_S2000000x64_S2007040x64_070400_000 : S2000000x64.Pads (![0, 0] : Fin 2 → Nat) ![7040, 0] ![0, 0] S2007040x64
  h_S_ : 0 < S_.numel
  pads_S2000000_S2007040_070400 : S2000000.Pads (![0] : Fin 1 → Nat) ![7040] ![0] S2007040
  shapeCasts_S2007040x64_S2x1003520x64 : S2007040x64.ShapeCasts S2x1003520x64
  shapeCasts_S2007040_S2x1x1003520 : S2007040.ShapeCasts S2x1x1003520
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x5120x64_S1x5120x64_0_0_0 : ∀ a, (![0, 0, 0] : Fin 3 → Nat) a + S1x5120x64.size a ≤ S1x5120x64.size a
  h_S1x5120x64 : 0 < S1x5120x64.numel
  shapeCasts_S1x5120x64_S5120x64 : S1x5120x64.ShapeCasts S5120x64
  inb_S1x1x5120_S1x1x5120_0_0_0 : ∀ a, (![0, 0, 0] : Fin 3 → Nat) a + S1x1x5120.size a ≤ S1x1x5120.size a
  h_S1x1x5120 : 0 < S1x1x5120.numel
  shapeCasts_S1x1x5120_S1x5120 : S1x1x5120.ShapeCasts S1x5120
  transposes_S1x5120_p1_0_S5120x1 : S1x5120.Transposes [1, 0] S5120x1
  natLt_1_32 : 1 < 32
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S64x512_S64x512_0_0 : ∀ a, (![0, 0] : Fin 2 → Nat) a + S64x512.size a ≤ S64x512.size a
  h_S64x512 : 0 < S64x512.numel
  shapeCasts_S64x512_S64x512 : S64x512.ShapeCasts S64x512
  slices_S5120x512_o0_0_S5120x64 : S5120x512.Slices ![0, 0] S5120x64
  reduces_S5120x64_S5120 : S5120x64.Reduces [1] S5120
  shapeCasts_S5120_S5120x1 : S5120.ShapeCasts S5120x1
  slices_S1x8_o0_0_S1x1 : S1x8.Slices ![0, 0] S1x1
  inpos_S1x1_p0_0 : ∀ a, (![0, 0] : Fin 2 → Nat) a < S1x1.size a
  slices_S5120x512_o0_64_S5120x64 : S5120x512.Slices ![0, 64] S5120x64
  slices_S1x8_o0_1_S1x1 : S1x8.Slices ![0, 1] S1x1
  slices_S5120x512_o0_128_S5120x64 : S5120x512.Slices ![0, 128] S5120x64
  slices_S1x8_o0_2_S1x1 : S1x8.Slices ![0, 2] S1x1
  slices_S5120x512_o0_192_S5120x64 : S5120x512.Slices ![0, 192] S5120x64
  slices_S1x8_o0_3_S1x1 : S1x8.Slices ![0, 3] S1x1
  slices_S5120x512_o0_256_S5120x64 : S5120x512.Slices ![0, 256] S5120x64
  slices_S1x8_o0_4_S1x1 : S1x8.Slices ![0, 4] S1x1
  slices_S5120x512_o0_320_S5120x64 : S5120x512.Slices ![0, 320] S5120x64
  slices_S1x8_o0_5_S1x1 : S1x8.Slices ![0, 5] S1x1
  slices_S5120x512_o0_384_S5120x64 : S5120x512.Slices ![0, 384] S5120x64
  slices_S1x8_o0_6_S1x1 : S1x8.Slices ![0, 6] S1x1
  slices_S5120x512_o0_448_S5120x64 : S5120x512.Slices ![0, 448] S5120x64
  slices_S1x8_o0_7_S1x1 : S1x8.Slices ![0, 7] S1x1
  reduces_S5120x1_S1 : S5120x1.Reduces [0] S1
  shapeCasts_S1_S1x1 : S1.ShapeCasts S1x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S2x1x1_S_d0_1_2 : S2x1x1.ReducesTo [0, 1, 2] S_
  gather_S50000x64_S2000000x1_S2000000x64_1_0_n_n_0_1_164_wf : GatherDims.WF S50000x64 S2000000x1 S2000000x64 [1] [0] [] [0] [] 1 ![1, 64]
  dot_S5120x64_S64x512_S5120x512_1_0_0_1_n_n_wf : DotDims.WF S5120x64 S64x512 S5120x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x5120x64.size a ≤ S2x1003520x64.size a
  hwx0_0 : ∀ i : grid0.Coords, EltTy.bits .bf16 = 32 ∨ (Rect.block (s := S2x1003520x64) S1x5120x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x5120x64.size a ≤ S2x1003520x64.size a
  hwx0_1 : ∀ i : grid0.Coords, EltTy.bits .bf16 = 32 ∨ (Rect.block (s := S2x1003520x64) S1x5120x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x5120.size a ≤ S2x1x1003520.size a
  hwx0_2 : ∀ i : grid0.Coords, EltTy.bits .i32 = 32 ∨ (Rect.block (s := S2x1x1003520) S1x1x5120.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x5120.size a ≤ S2x1x1003520.size a
  hwx0_3 : ∀ i : grid0.Coords, EltTy.bits .f32 = 32 ∨ (Rect.block (s := S2x1x1003520) S1x1x5120.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x512.size a ≤ S64x512.size a
  hwx0_4 : ∀ i : grid0.Coords, EltTy.bits .bf16 = 32 ∨ (Rect.block (s := S64x512) S64x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8.size a ≤ S1x8.size a
  hwx0_5 : ∀ i : grid0.Coords, EltTy.bits .f32 = 32 ∨ (Rect.block (s := S1x8) S1x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)

variable [Facts₀]

def gather_S50000x64_S2000000x1_S2000000x64_1_0_n_n_0_1_164 : GatherDims S50000x64 S2000000x1 S2000000x64 where
  offsetDims := [1]
  collapsedSliceDims := [0]
  operandBatchingDims := []
  startIndicesBatchingDims := []
  startIndexMap := [0]
  indexVectorDim := 1
  sliceSizes := ![1, 64]
  wf := gather_S50000x64_S2000000x1_S2000000x64_1_0_n_n_0_1_164_wf
def dot_S5120x64_S64x512_S5120x512_1_0_0_1_n_n : DotDims S5120x64 S64x512 S5120x512 where
  lhsContracting := [1]
  rhsContracting := [0]
  lhsNonContracting := [0]
  rhsNonContracting := [1]
  lhsBatch := []
  rhsBatch := []
  wf := dot_S5120x64_S64x512_S5120x512_1_0_0_1_n_n_wf

abbrev win0_0 : Pipeline.Window sig grid0 :=
  Pipeline.Window.ofSpec (Memref.whole main_v51) S1x5120x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v52) S1x5120x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v53) S1x1x5120.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v54) S1x1x5120.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v21) S64x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v55) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S50000x64 : Shape := ⟨2, ![50000, 64]⟩
abbrev S8x64x64 : Shape := ⟨3, ![8, 64, 64]⟩
abbrev S8 : Shape := ⟨1, ![8]⟩
abbrev S2x1000000 : Shape := ⟨2, ![2, 1000000]⟩
abbrev S1000000 : Shape := ⟨1, ![1000000]⟩
abbrev S_ : Shape := ⟨0, ![]⟩
abbrev S1x1000000 : Shape := ⟨2, ![1, 1000000]⟩
abbrev S1000000x1 : Shape := ⟨2, ![1000000, 1]⟩
abbrev S1000000x64 : Shape := ⟨2, ![1000000, 64]⟩
abbrev S1x64x64 : Shape := ⟨3, ![1, 64, 64]⟩
abbrev S64x64 : Shape := ⟨2, ![64, 64]⟩
abbrev S1000000x8 : Shape := ⟨2, ![1000000, 8]⟩
abbrev S1000000x1x1 : Shape := ⟨3, ![1000000, 1, 1]⟩
abbrev S1 : Shape := ⟨1, ![1]⟩
abbrev S1x1x1 : Shape := ⟨3, ![1, 1, 1]⟩

abbrev nBuf : Space → Nat
  | .hbm => 319
  | .vmem => 0
  | .smem => 0
  | _ => 0

abbrev hbmTy0_0 (i : Nat) : BufTy := match i % 128 with
  | 0 => ⟨S50000x64, .f32⟩
  | 1 => ⟨S8x64x64, .f32⟩
  | 2 => ⟨S8x64x64, .f32⟩
  | 3 => ⟨S8, .f32⟩
  | 4 => ⟨S2x1000000, .i32⟩
  | 5 => ⟨S1000000, .i32⟩
  | 6 => ⟨S2x1000000, .i32⟩
  | 7 => ⟨S1000000, .i32⟩
  | 8 => ⟨S8x64x64, .f32⟩
  | 9 => ⟨S8x64x64, .f32⟩
  | 10 => ⟨S_, .f32⟩
  | 11 => ⟨S8x64x64, .f32⟩
  | 12 => ⟨S8x64x64, .f32⟩
  | 13 => ⟨S_, .f32⟩
  | 14 => ⟨S8x64x64, .f32⟩
  | 15 => ⟨S8x64x64, .f32⟩
  | 16 => ⟨S_, .f32⟩
  | 17 => ⟨S8x64x64, .f32⟩
  | 18 => ⟨S8x64x64, .f32⟩
  | 19 => ⟨S_, .f32⟩
  | 20 => ⟨S8x64x64, .f32⟩
  | 21 => ⟨S8x64x64, .f32⟩
  | 22 => ⟨S_, .f32⟩
  | 23 => ⟨S_, .f32⟩
  | 24 => ⟨S_, .f32⟩
  | 25 => ⟨S8x64x64, .f32⟩
  | 26 => ⟨S8x64x64, .f32⟩
  | 27 => ⟨S_, .f32⟩
  | 28 => ⟨S8x64x64, .f32⟩
  | 29 => ⟨S8x64x64, .f32⟩
  | 30 => ⟨S8x64x64, .f32⟩
  | 31 => ⟨S8x64x64, .f32⟩
  | 32 => ⟨S_, .f32⟩
  | 33 => ⟨S8x64x64, .f32⟩
  | 34 => ⟨S8x64x64, .f32⟩
  | 35 => ⟨S_, .f32⟩
  | 36 => ⟨S8x64x64, .f32⟩
  | 37 => ⟨S8x64x64, .f32⟩
  | 38 => ⟨S8x64x64, .f32⟩
  | 39 => ⟨S1x1000000, .i32⟩
  | 40 => ⟨S1000000, .i32⟩
  | 41 => ⟨S_, .i32⟩
  | 42 => ⟨S1000000, .i32⟩
  | 43 => ⟨S1000000, .i1⟩
  | 44 => ⟨S_, .i32⟩
  | 45 => ⟨S1000000, .i32⟩
  | 46 => ⟨S1000000, .i32⟩
  | 47 => ⟨S1000000, .i32⟩
  | 48 => ⟨S1000000x1, .i32⟩
  | 49 => ⟨S1000000x64, .f32⟩
  | 50 => ⟨S1x1000000, .i32⟩
  | 51 => ⟨S1000000, .i32⟩
  | 52 => ⟨S_, .i32⟩
  | 53 => ⟨S1000000, .i32⟩
  | 54 => ⟨S1000000, .i1⟩
  | 55 => ⟨S_, .i32⟩
  | 56 => ⟨S1000000, .i32⟩
  | 57 => ⟨S1000000, .i32⟩
  | 58 => ⟨S1000000, .i32⟩
  | 59 => ⟨S1000000x1, .i32⟩
  | 60 => ⟨S1000000x64, .f32⟩
  | 61 => ⟨S1x64x64, .f32⟩
  | 62 => ⟨S64x64, .f32⟩
  | 63 => ⟨S64x64, .f32⟩
  | 64 => ⟨S1000000x64, .f32⟩
  | 65 => ⟨S1000000x64, .f32⟩
  | 66 => ⟨S_, .f32⟩
  | 67 => ⟨S1000000, .f32⟩
  | 68 => ⟨S1x64x64, .f32⟩
  | 69 => ⟨S64x64, .f32⟩
  | 70 => ⟨S64x64, .f32⟩
  | 71 => ⟨S1000000x64, .f32⟩
  | 72 => ⟨S1000000x64, .f32⟩
  | 73 => ⟨S_, .f32⟩
  | 74 => ⟨S1000000, .f32⟩
  | 75 => ⟨S1x64x64, .f32⟩
  | 76 => ⟨S64x64, .f32⟩
  | 77 => ⟨S64x64, .f32⟩
  | 78 => ⟨S1000000x64, .f32⟩
  | 79 => ⟨S1000000x64, .f32⟩
  | 80 => ⟨S_, .f32⟩
  | 81 => ⟨S1000000, .f32⟩
  | 82 => ⟨S1x64x64, .f32⟩
  | 83 => ⟨S64x64, .f32⟩
  | 84 => ⟨S64x64, .f32⟩
  | 85 => ⟨S1000000x64, .f32⟩
  | 86 => ⟨S1000000x64, .f32⟩
  | 87 => ⟨S_, .f32⟩
  | 88 => ⟨S1000000, .f32⟩
  | 89 => ⟨S1x64x64, .f32⟩
  | 90 => ⟨S64x64, .f32⟩
  | 91 => ⟨S64x64, .f32⟩
  | 92 => ⟨S1000000x64, .f32⟩
  | 93 => ⟨S1000000x64, .f32⟩
  | 94 => ⟨S_, .f32⟩
  | 95 => ⟨S1000000, .f32⟩
  | 96 => ⟨S1x64x64, .f32⟩
  | 97 => ⟨S64x64, .f32⟩
  | 98 => ⟨S64x64, .f32⟩
  | 99 => ⟨S1000000x64, .f32⟩
  | 100 => ⟨S1000000x64, .f32⟩
  | 101 => ⟨S_, .f32⟩
  | 102 => ⟨S1000000, .f32⟩
  | 103 => ⟨S1x64x64, .f32⟩
  | 104 => ⟨S64x64, .f32⟩
  | 105 => ⟨S64x64, .f32⟩
  | 106 => ⟨S1000000x64, .f32⟩
  | 107 => ⟨S1000000x64, .f32⟩
  | 108 => ⟨S_, .f32⟩
  | 109 => ⟨S1000000, .f32⟩
  | 110 => ⟨S1x64x64, .f32⟩
  | 111 => ⟨S64x64, .f32⟩
  | 112 => ⟨S64x64, .f32⟩
  | 113 => ⟨S1000000x64, .f32⟩
  | 114 => ⟨S1000000x64, .f32⟩
  | 115 => ⟨S_, .f32⟩
  | 116 => ⟨S1000000, .f32⟩
  | 117 => ⟨S1000000x1, .f32⟩
  | 118 => ⟨S1000000x1, .f32⟩
  | 119 => ⟨S1000000x1, .f32⟩
  | 120 => ⟨S1000000x1, .f32⟩
  | 121 => ⟨S1000000x1, .f32⟩
  | 122 => ⟨S1000000x1, .f32⟩
  | 123 => ⟨S1000000x1, .f32⟩
  | 124 => ⟨S1000000x1, .f32⟩
  | 125 => ⟨S1000000x8, .f32⟩
  | 126 => ⟨S1000000x1, .i32⟩
  | 127 => ⟨S_, .i32⟩
  | _ => ⟨S50000x64, .f32⟩

abbrev hbmTy0_1 (i : Nat) : BufTy := match i % 128 with
  | 0 => ⟨S1000000x1, .i32⟩
  | 1 => ⟨S1000000x1, .i1⟩
  | 2 => ⟨S_, .i32⟩
  | 3 => ⟨S1000000x1, .i32⟩
  | 4 => ⟨S1000000x1, .i32⟩
  | 5 => ⟨S1000000x1, .i32⟩
  | 6 => ⟨S1000000x1x1, .i32⟩
  | 7 => ⟨S1, .i32⟩
  | 8 => ⟨S_, .i32⟩
  | 9 => ⟨S1000000x1x1, .i32⟩
  | 10 => ⟨S1000000x1x1, .i1⟩
  | 11 => ⟨S1x1x1, .i32⟩
  | 12 => ⟨S1000000x1x1, .i32⟩
  | 13 => ⟨S1000000x1x1, .i1⟩
  | 14 => ⟨S1000000x1x1, .i1⟩
  | 15 => ⟨S_, .i1⟩
  | 16 => ⟨S1000000x1, .i1⟩
  | 17 => ⟨S1000000x1, .f32⟩
  | 18 => ⟨S_, .f32⟩
  | 19 => ⟨S1000000x1, .f32⟩
  | 20 => ⟨S1000000x1, .f32⟩
  | 21 => ⟨S1000000, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000, .f32⟩
  | 31 => ⟨S1000000, .f32⟩
  | 32 => ⟨S1x1000000, .i32⟩
  | 33 => ⟨S1000000, .i32⟩
  | 34 => ⟨S_, .i32⟩
  | 35 => ⟨S1000000, .i32⟩
  | 36 => ⟨S1000000, .i1⟩
  | 37 => ⟨S_, .i32⟩
  | 38 => ⟨S1000000, .i32⟩
  | 39 => ⟨S1000000, .i32⟩
  | 40 => ⟨S1000000, .i32⟩
  | 41 => ⟨S1000000x1, .i32⟩
  | 42 => ⟨S1000000x64, .f32⟩
  | 43 => ⟨S1x1000000, .i32⟩
  | 44 => ⟨S1000000, .i32⟩
  | 45 => ⟨S_, .i32⟩
  | 46 => ⟨S1000000, .i32⟩
  | 47 => ⟨S1000000, .i1⟩
  | 48 => ⟨S_, .i32⟩
  | 49 => ⟨S1000000, .i32⟩
  | 50 => ⟨S1000000, .i32⟩
  | 51 => ⟨S1000000, .i32⟩
  | 52 => ⟨S1000000x1, .i32⟩
  | 53 => ⟨S1000000x64, .f32⟩
  | 54 => ⟨S1x64x64, .f32⟩
  | 55 => ⟨S64x64, .f32⟩
  | 56 => ⟨S64x64, .f32⟩
  | 57 => ⟨S1000000x64, .f32⟩
  | 58 => ⟨S1000000x64, .f32⟩
  | 59 => ⟨S_, .f32⟩
  | 60 => ⟨S1000000, .f32⟩
  | 61 => ⟨S1x64x64, .f32⟩
  | 62 => ⟨S64x64, .f32⟩
  | 63 => ⟨S64x64, .f32⟩
  | 64 => ⟨S1000000x64, .f32⟩
  | 65 => ⟨S1000000x64, .f32⟩
  | 66 => ⟨S_, .f32⟩
  | 67 => ⟨S1000000, .f32⟩
  | 68 => ⟨S1x64x64, .f32⟩
  | 69 => ⟨S64x64, .f32⟩
  | 70 => ⟨S64x64, .f32⟩
  | 71 => ⟨S1000000x64, .f32⟩
  | 72 => ⟨S1000000x64, .f32⟩
  | 73 => ⟨S_, .f32⟩
  | 74 => ⟨S1000000, .f32⟩
  | 75 => ⟨S1x64x64, .f32⟩
  | 76 => ⟨S64x64, .f32⟩
  | 77 => ⟨S64x64, .f32⟩
  | 78 => ⟨S1000000x64, .f32⟩
  | 79 => ⟨S1000000x64, .f32⟩
  | 80 => ⟨S_, .f32⟩
  | 81 => ⟨S1000000, .f32⟩
  | 82 => ⟨S1x64x64, .f32⟩
  | 83 => ⟨S64x64, .f32⟩
  | 84 => ⟨S64x64, .f32⟩
  | 85 => ⟨S1000000x64, .f32⟩
  | 86 => ⟨S1000000x64, .f32⟩
  | 87 => ⟨S_, .f32⟩
  | 88 => ⟨S1000000, .f32⟩
  | 89 => ⟨S1x64x64, .f32⟩
  | 90 => ⟨S64x64, .f32⟩
  | 91 => ⟨S64x64, .f32⟩
  | 92 => ⟨S1000000x64, .f32⟩
  | 93 => ⟨S1000000x64, .f32⟩
  | 94 => ⟨S_, .f32⟩
  | 95 => ⟨S1000000, .f32⟩
  | 96 => ⟨S1x64x64, .f32⟩
  | 97 => ⟨S64x64, .f32⟩
  | 98 => ⟨S64x64, .f32⟩
  | 99 => ⟨S1000000x64, .f32⟩
  | 100 => ⟨S1000000x64, .f32⟩
  | 101 => ⟨S_, .f32⟩
  | 102 => ⟨S1000000, .f32⟩
  | 103 => ⟨S1x64x64, .f32⟩
  | 104 => ⟨S64x64, .f32⟩
  | 105 => ⟨S64x64, .f32⟩
  | 106 => ⟨S1000000x64, .f32⟩
  | 107 => ⟨S1000000x64, .f32⟩
  | 108 => ⟨S_, .f32⟩
  | 109 => ⟨S1000000, .f32⟩
  | 110 => ⟨S1000000x1, .f32⟩
  | 111 => ⟨S1000000x1, .f32⟩
  | 112 => ⟨S1000000x1, .f32⟩
  | 113 => ⟨S1000000x1, .f32⟩
  | 114 => ⟨S1000000x1, .f32⟩
  | 115 => ⟨S1000000x1, .f32⟩
  | 116 => ⟨S1000000x1, .f32⟩
  | 117 => ⟨S1000000x1, .f32⟩
  | 118 => ⟨S1000000x8, .f32⟩
  | 119 => ⟨S1000000x1, .i32⟩
  | 120 => ⟨S_, .i32⟩
  | 121 => ⟨S1000000x1, .i32⟩
  | 122 => ⟨S1000000x1, .i1⟩
  | 123 => ⟨S_, .i32⟩
  | 124 => ⟨S1000000x1, .i32⟩
  | 125 => ⟨S1000000x1, .i32⟩
  | 126 => ⟨S1000000x1, .i32⟩
  | 127 => ⟨S1000000x1x1, .i32⟩
  | _ => ⟨S50000x64, .f32⟩

abbrev hbmTy0_2 (i : Nat) : BufTy := match i % 128 with
  | 0 => ⟨S1, .i32⟩
  | 1 => ⟨S_, .i32⟩
  | 2 => ⟨S1000000x1x1, .i32⟩
  | 3 => ⟨S1000000x1x1, .i1⟩
  | 4 => ⟨S1x1x1, .i32⟩
  | 5 => ⟨S1000000x1x1, .i32⟩
  | 6 => ⟨S1000000x1x1, .i1⟩
  | 7 => ⟨S1000000x1x1, .i1⟩
  | 8 => ⟨S_, .i1⟩
  | 9 => ⟨S1000000x1, .i1⟩
  | 10 => ⟨S1000000x1, .f32⟩
  | 11 => ⟨S_, .f32⟩
  | 12 => ⟨S1000000x1, .f32⟩
  | 13 => ⟨S1000000x1, .f32⟩
  | 14 => ⟨S1000000, .f32⟩
  | 15 => ⟨S_, .i32⟩
  | 16 => ⟨S1000000, .i32⟩
  | 17 => ⟨S1000000, .i1⟩
  | 18 => ⟨S_, .i32⟩
  | 19 => ⟨S1000000, .i32⟩
  | 20 => ⟨S1000000, .i32⟩
  | 21 => ⟨S1000000, .i32⟩
  | 22 => ⟨S1000000x1, .i32⟩
  | 23 => ⟨S1000000, .f32⟩
  | 24 => ⟨S1000000, .f32⟩
  | 25 => ⟨S1000000, .f32⟩
  | 26 => ⟨S_, .f32⟩
  | 27 => ⟨S1000000, .f32⟩
  | 28 => ⟨S1000000, .f32⟩
  | 29 => ⟨S1000000, .f32⟩
  | 30 => ⟨S1000000, .f32⟩
  | 31 => ⟨S1000000, .i1⟩
  | 32 => ⟨S1000000, .f32⟩
  | 33 => ⟨S1000000, .f32⟩
  | 34 => ⟨S1000000, .f32⟩
  | 35 => ⟨S1000000, .f32⟩
  | 36 => ⟨S1000000, .f32⟩
  | 37 => ⟨S1000000, .f32⟩
  | 38 => ⟨S1000000, .f32⟩
  | 39 => ⟨S1000000, .f32⟩
  | 40 => ⟨S_, .f32⟩
  | 41 => ⟨S_, .f32⟩
  | 42 => ⟨S_, .f32⟩
  | 43 => ⟨S_, .f32⟩
  | 44 => ⟨S_, .f32⟩
  | 45 => ⟨S1000000, .f32⟩
  | 46 => ⟨S1000000, .f32⟩
  | 47 => ⟨S1000000, .f32⟩
  | 48 => ⟨S1000000, .f32⟩
  | 49 => ⟨S1000000, .i1⟩
  | 50 => ⟨S1000000, .f32⟩
  | 51 => ⟨S1000000, .f32⟩
  | 52 => ⟨S1000000, .f32⟩
  | 53 => ⟨S1000000, .f32⟩
  | 54 => ⟨S1000000, .f32⟩
  | 55 => ⟨S1000000, .f32⟩
  | 56 => ⟨S1000000, .f32⟩
  | 57 => ⟨S1000000, .f32⟩
  | 58 => ⟨S_, .f32⟩
  | 59 => ⟨S_, .f32⟩
  | 60 => ⟨S_, .f32⟩
  | 61 => ⟨S_, .f32⟩
  | 62 => ⟨S_, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_5 : Ref sig .tc := ⟨.hbm, 32, rfl⟩
abbrev main_v13 : Ref sig .tc := ⟨.hbm, 33, rfl⟩
abbrev main_v14 : Ref sig .tc := ⟨.hbm, 34, rfl⟩
abbrev main_cst_6 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c : Ref sig .tc := ⟨.hbm, 41, rfl⟩
abbrev main_v20 : Ref sig .tc := ⟨.hbm, 42, rfl⟩
abbrev main_v21 : Ref sig .tc := ⟨.hbm, 43, rfl⟩
abbrev main_c_7 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_8 : Ref sig .tc := ⟨.hbm, 52, rfl⟩
abbrev main_v29 : Ref sig .tc := ⟨.hbm, 53, rfl⟩
abbrev main_v30 : Ref sig .tc := ⟨.hbm, 54, rfl⟩
abbrev main_c_9 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_13 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_15 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_call1_c : Ref sig .tc := ⟨.hbm, 127, rfl⟩
abbrev main_call1_v0 : Ref sig .tc := ⟨.hbm, 128, rfl⟩
abbrev main_call1_v1 : Ref sig .tc := ⟨.hbm, 129, rfl⟩
abbrev main_call1_c_0 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_call1_v5 : Ref sig .tc := ⟨.hbm, 134, rfl⟩
abbrev main_call1_c_1 : Ref sig .tc := ⟨.hbm, 135, rfl⟩
abbrev main_call1_c_2 : Ref sig .tc := ⟨.hbm, 136, rfl⟩
abbrev main_call1_v6 : Ref sig .tc := ⟨.hbm, 137, rfl⟩
abbrev main_call1_v7 : Ref sig .tc := ⟨.hbm, 138, rfl⟩
abbrev main_call1_v8 : Ref sig .tc := ⟨.hbm, 139, rfl⟩
abbrev main_call1_v9 : Ref sig .tc := ⟨.hbm, 140, rfl⟩
abbrev main_call1_v10 : Ref sig .tc := ⟨.hbm, 141, rfl⟩
abbrev main_call1_v11 : Ref sig .tc := ⟨.hbm, 142, rfl⟩
abbrev main_call1_c_3 : Ref sig .tc := ⟨.hbm, 143, rfl⟩
abbrev main_call1_v12 : Ref sig .tc := ⟨.hbm, 144, rfl⟩
abbrev main_call1_v13 : Ref sig .tc := ⟨.hbm, 145, rfl⟩
abbrev main_call1_cst : Ref sig .tc := ⟨.hbm, 146, rfl⟩
abbrev main_call1_v14 : Ref sig .tc := ⟨.hbm, 147, rfl⟩
abbrev main_v94 : Ref sig .tc := ⟨.hbm, 148, rfl⟩
abbrev main_v95 : Ref sig .tc := ⟨.hbm, 149, rfl⟩
abbrev main_c_18 : Ref sig .tc := ⟨.hbm, 150, rfl⟩
abbrev main_v96 : Ref sig .tc := ⟨.hbm, 151, rfl⟩
abbrev main_v97 : Ref sig .tc := ⟨.hbm, 152, rfl⟩
abbrev main_c_19 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_c_20 : Ref sig .tc := ⟨.hbm, 162, rfl⟩
abbrev main_v106 : Ref sig .tc := ⟨.hbm, 163, rfl⟩
abbrev main_v107 : Ref sig .tc := ⟨.hbm, 164, rfl⟩
abbrev main_c_21 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_c_22 : Ref sig .tc := ⟨.hbm, 173, rfl⟩
abbrev main_v115 : Ref sig .tc := ⟨.hbm, 174, rfl⟩
abbrev main_v116 : Ref sig .tc := ⟨.hbm, 175, rfl⟩
abbrev main_c_23 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_cst_24 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_cst_25 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_cst_26 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_cst_27 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_cst_28 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_v155 : Ref sig .tc := ⟨.hbm, 220, rfl⟩
abbrev main_v156 : Ref sig .tc := ⟨.hbm, 221, rfl⟩
abbrev main_cst_29 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_cst_30 : Ref sig .tc := ⟨.hbm, 229, rfl⟩
abbrev main_v163 : Ref sig .tc := ⟨.hbm, 230, rfl⟩
abbrev main_v164 : Ref sig .tc := ⟨.hbm, 231, rfl⟩
abbrev main_v165 : Ref sig .tc := ⟨.hbm, 232, rfl⟩
abbrev main_v166 : Ref sig .tc := ⟨.hbm, 233, rfl⟩
abbrev main_v167 : Ref sig .tc := ⟨.hbm, 234, rfl⟩
abbrev main_v168 : Ref sig .tc := ⟨.hbm, 235, rfl⟩
abbrev main_cst_31 : Ref sig .tc := ⟨.hbm, 236, rfl⟩
abbrev main_v169 : Ref sig .tc := ⟨.hbm, 237, rfl⟩
abbrev main_v170 : Ref sig .tc := ⟨.hbm, 238, rfl⟩
abbrev main_v171 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_v177 : Ref sig .tc := ⟨.hbm, 245, rfl⟩
abbrev main_v178 : Ref sig .tc := ⟨.hbm, 246, rfl⟩
abbrev main_v179 : Ref sig .tc := ⟨.hbm, 247, rfl⟩
abbrev main_call2_c : Ref sig .tc := ⟨.hbm, 248, rfl⟩
abbrev main_call2_v0 : Ref sig .tc := ⟨.hbm, 249, rfl⟩
abbrev main_call2_v1 : Ref sig .tc := ⟨.hbm, 250, rfl⟩
abbrev main_call2_c_0 : Ref sig .tc := ⟨.hbm, 251, rfl⟩
abbrev main_call2_v2 : Ref sig .tc := ⟨.hbm, 252, rfl⟩
abbrev main_call2_v3 : Ref sig .tc := ⟨.hbm, 253, rfl⟩
abbrev main_call2_v4 : Ref sig .tc := ⟨.hbm, 254, rfl⟩
abbrev main_call2_v5 : Ref sig .tc := ⟨.hbm, 255, rfl⟩
abbrev main_call2_c_1 : Ref sig .tc := ⟨.hbm, 256, rfl⟩
abbrev main_call2_c_2 : Ref sig .tc := ⟨.hbm, 257, rfl⟩
abbrev main_call2_v6 : Ref sig .tc := ⟨.hbm, 258, rfl⟩
abbrev main_call2_v7 : Ref sig .tc := ⟨.hbm, 259, rfl⟩
abbrev main_call2_v8 : Ref sig .tc := ⟨.hbm, 260, rfl⟩
abbrev main_call2_v9 : Ref sig .tc := ⟨.hbm, 261, rfl⟩
abbrev main_call2_v10 : Ref sig .tc := ⟨.hbm, 262, rfl⟩
abbrev main_call2_v11 : Ref sig .tc := ⟨.hbm, 263, rfl⟩
abbrev main_call2_c_3 : Ref sig .tc := ⟨.hbm, 264, rfl⟩
abbrev main_call2_v12 : Ref sig .tc := ⟨.hbm, 265, rfl⟩
abbrev main_call2_v13 : Ref sig .tc := ⟨.hbm, 266, rfl⟩
abbrev main_call2_cst : Ref sig .tc := ⟨.hbm, 267, rfl⟩
abbrev main_call2_v14 : Ref sig .tc := ⟨.hbm, 268, rfl⟩
abbrev main_v180 : Ref sig .tc := ⟨.hbm, 269, rfl⟩
abbrev main_v181 : Ref sig .tc := ⟨.hbm, 270, rfl⟩
abbrev main_c_32 : Ref sig .tc := ⟨.hbm, 271, rfl⟩
abbrev main_v182 : Ref sig .tc := ⟨.hbm, 272, rfl⟩
abbrev main_v183 : Ref sig .tc := ⟨.hbm, 273, rfl⟩
abbrev main_c_33 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_v189 : Ref sig .tc := ⟨.hbm, 280, rfl⟩
abbrev main_v190 : Ref sig .tc := ⟨.hbm, 281, rfl⟩
abbrev main_call3_cst : Ref sig .tc := ⟨.hbm, 282, rfl⟩
abbrev main_call3_v0 : Ref sig .tc := ⟨.hbm, 283, rfl⟩
abbrev main_call3_v1 : Ref sig .tc := ⟨.hbm, 284, rfl⟩
abbrev main_call3_v2 : Ref sig .tc := ⟨.hbm, 285, rfl⟩
abbrev main_call3_v3 : Ref sig .tc := ⟨.hbm, 286, rfl⟩
abbrev main_call3_v4 : Ref sig .tc := ⟨.hbm, 287, rfl⟩
abbrev main_call3_v5 : Ref sig .tc := ⟨.hbm, 288, rfl⟩
abbrev main_call3_v6 : Ref sig .tc := ⟨.hbm, 289, rfl⟩
abbrev main_call3_v7 : Ref sig .tc := ⟨.hbm, 290, rfl⟩
abbrev main_call3_v8 : Ref sig .tc := ⟨.hbm, 291, rfl⟩
abbrev main_call3_v9 : Ref sig .tc := ⟨.hbm, 292, rfl⟩
abbrev main_call3_v10 : Ref sig .tc := ⟨.hbm, 293, rfl⟩
abbrev main_call3_v11 : Ref sig .tc := ⟨.hbm, 294, rfl⟩
abbrev main_v191 : Ref sig .tc := ⟨.hbm, 295, rfl⟩
abbrev main_cst_34 : Ref sig .tc := ⟨.hbm, 296, rfl⟩
abbrev main_v192 : Ref sig .tc := ⟨.hbm, 297, rfl⟩
abbrev main_cst_35 : Ref sig .tc := ⟨.hbm, 298, rfl⟩
abbrev main_v193 : Ref sig .tc := ⟨.hbm, 299, rfl⟩
abbrev main_call4_cst : Ref sig .tc := ⟨.hbm, 300, rfl⟩
abbrev main_call4_v0 : Ref sig .tc := ⟨.hbm, 301, rfl⟩
abbrev main_call4_v1 : Ref sig .tc := ⟨.hbm, 302, rfl⟩
abbrev main_call4_v2 : Ref sig .tc := ⟨.hbm, 303, rfl⟩
abbrev main_call4_v3 : Ref sig .tc := ⟨.hbm, 304, rfl⟩
abbrev main_call4_v4 : Ref sig .tc := ⟨.hbm, 305, rfl⟩
abbrev main_call4_v5 : Ref sig .tc := ⟨.hbm, 306, rfl⟩
abbrev main_call4_v6 : Ref sig .tc := ⟨.hbm, 307, rfl⟩
abbrev main_call4_v7 : Ref sig .tc := ⟨.hbm, 308, rfl⟩
abbrev main_call4_v8 : Ref sig .tc := ⟨.hbm, 309, rfl⟩
abbrev main_call4_v9 : Ref sig .tc := ⟨.hbm, 310, rfl⟩
abbrev main_call4_v10 : Ref sig .tc := ⟨.hbm, 311, rfl⟩
abbrev main_call4_v11 : Ref sig .tc := ⟨.hbm, 312, rfl⟩
abbrev main_v194 : Ref sig .tc := ⟨.hbm, 313, rfl⟩
abbrev main_cst_36 : Ref sig .tc := ⟨.hbm, 314, rfl⟩
abbrev main_v195 : Ref sig .tc := ⟨.hbm, 315, rfl⟩
abbrev main_cst_37 : Ref sig .tc := ⟨.hbm, 316, rfl⟩
abbrev main_v196 : Ref sig .tc := ⟨.hbm, 317, rfl⟩
abbrev main_v197 : Ref sig .tc := ⟨.hbm, 318, rfl⟩

abbrev nD : Nat := 1
abbrev τ : Topo := Topo.v7x

variable {F : FTy → Type} [FloatOps F]

class Facts₀ : Prop where
  bcast_S_S8x64x64 : S_.BroadcastsInDim S8x64x64 (![] : Fin 0 → Fin S8x64x64.rank)
  slices_S2x1000000_S1x1000000_0_0 : S2x1000000.Slices ![0, 0] S1x1000000
  shapeCasts_S1x1000000_S1000000 : S1x1000000.ShapeCasts S1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S2x1000000_S1x1000000_1_0 : S2x1000000.Slices ![1, 0] S1x1000000
  slices_S8x64x64_S1x64x64_0_0_0 : S8x64x64.Slices ![0, 0, 0] S1x64x64
  shapeCasts_S1x64x64_S64x64 : S1x64x64.ShapeCasts S64x64
  transposes_S64x64_S64x64_1_0 : S64x64.Transposes [1, 0] S64x64
  reducesTo_S1000000x64_S1000000_d1 : S1000000x64.ReducesTo [1] S1000000
  h_S_ : 0 < S_.numel
  slices_S8x64x64_S1x64x64_1_0_0 : S8x64x64.Slices ![1, 0, 0] S1x64x64
  slices_S8x64x64_S1x64x64_2_0_0 : S8x64x64.Slices ![2, 0, 0] S1x64x64
  slices_S8x64x64_S1x64x64_3_0_0 : S8x64x64.Slices ![3, 0, 0] S1x64x64
  slices_S8x64x64_S1x64x64_4_0_0 : S8x64x64.Slices ![4, 0, 0] S1x64x64
  slices_S8x64x64_S1x64x64_5_0_0 : S8x64x64.Slices ![5, 0, 0] S1x64x64
  slices_S8x64x64_S1x64x64_6_0_0 : S8x64x64.Slices ![6, 0, 0] S1x64x64
  slices_S8x64x64_S1x64x64_7_0_0 : S8x64x64.Slices ![7, 0, 0] S1x64x64
  concatenates_S1000000x1_S1000000x1_S1000000x1_S1000000x1_S1000000x1_S1000000x1_S1000000x1_S1000000x1_S1000000x8_d1 : Shape.Concatenates [S1000000x1, S1000000x1, S1000000x1, S1000000x1, S1000000x1, S1000000x1, S1000000x1, S1000000x1] S1000000x8 1
  bcast_S_S1000000x1 : S_.BroadcastsInDim S1000000x1 (![] : Fin 0 → Fin S1000000x1.rank)
  shapeCasts_S1000000x1_S1000000x1x1 : S1000000x1.ShapeCasts S1000000x1x1
  bcast_S_S1000000x1x1 : S_.BroadcastsInDim S1000000x1x1 (![] : Fin 0 → Fin S1000000x1x1.rank)
  bcast_S1_S1x1x1_2 : S1.BroadcastsInDim S1x1x1 (![2] : Fin 1 → Fin S1x1x1.rank)
  bcast_S1x1x1_S1000000x1x1_0_1_2 : S1x1x1.BroadcastsInDim S1000000x1x1 (![0, 1, 2] : Fin 3 → Fin S1000000x1x1.rank)
  reducesTo_S1000000x1x1_S1000000x1_d2 : S1000000x1x1.ReducesTo [2] S1000000x1
  shapeCasts_S1000000x1_S1000000 : S1000000x1.ShapeCasts S1000000
  reducesTo_S1000000_S_d0 : S1000000.ReducesTo [0] S_
  gather_S50000x64_S1000000x1_S1000000x64_1_0_n_n_0_1_164_wf : GatherDims.WF S50000x64 S1000000x1 S1000000x64 [1] [0] [] [0] [] 1 ![1, 64]
  dot_S1000000x64_S64x64_S1000000x64_1_0_0_1_n_n_wf : DotDims.WF S1000000x64 S64x64 S1000000x64 [1] [0] [0] [1] [] []
  gather_S1000000x8_S1000000x1x1_S1000000x1_n_1_0_0_1_2_11_wf : GatherDims.WF S1000000x8 S1000000x1x1 S1000000x1 [] [1] [0] [1] [0] 2 ![1, 1]
  gather_S8_S1000000x1_S1000000_n_0_n_n_0_1_1_wf : GatherDims.WF S8 S1000000x1 S1000000 [] [0] [] [0] [] 1 ![1]

variable [Facts₀]

def gather_S50000x64_S1000000x1_S1000000x64_1_0_n_n_0_1_164 : GatherDims S50000x64 S1000000x1 S1000000x64 where
  offsetDims := [1]
  collapsedSliceDims := [0]
  operandBatchingDims := []
  startIndicesBatchingDims := []
  startIndexMap := [0]
  indexVectorDim := 1
  sliceSizes := ![1, 64]
  wf := gather_S50000x64_S1000000x1_S1000000x64_1_0_n_n_0_1_164_wf
def dot_S1000000x64_S64x64_S1000000x64_1_0_0_1_n_n : DotDims S1000000x64 S64x64 S1000000x64 where
  lhsContracting := [1]
  rhsContracting := [0]
  lhsNonContracting := [0]
  rhsNonContracting := [1]
  lhsBatch := []
  rhsBatch := []
  wf := dot_S1000000x64_S64x64_S1000000x64_1_0_0_1_n_n_wf
def gather_S1000000x8_S1000000x1x1_S1000000x1_n_1_0_0_1_2_11 : GatherDims S1000000x8 S1000000x1x1 S1000000x1 where
  offsetDims := []
  collapsedSliceDims := [1]
  operandBatchingDims := [0]
  startIndicesBatchingDims := [0]
  startIndexMap := [1]
  indexVectorDim := 2
  sliceSizes := ![1, 1]
  wf := gather_S1000000x8_S1000000x1x1_S1000000x1_n_1_0_0_1_2_11_wf
def gather_S8_S1000000x1_S1000000_n_0_n_n_0_1_1 : GatherDims S8 S1000000x1 S1000000 where
  offsetDims := []
  collapsedSliceDims := [0]
  operandBatchingDims := []
  startIndicesBatchingDims := []
  startIndexMap := [0]
  indexVectorDim := 1
  sliceSizes := ![1]
  wf := gather_S8_S1000000x1_S1000000_n_0_n_n_0_1_1_wf

class Facts : Prop extends Facts₀ where

variable [Facts]
-- ==== Proof.LibAfter.lean ====
/-
  The contents of a buffer after a line of host operations, read one operation at a time.

  Every buffer of a printed program is written by one operation. So what the line leaves in the buffer operation k
  writes is what operation k left there, and that is its function applied to what the WHOLE line leaves in the buffers
  it reads, since no operation from k on writes those. The bookkeeping is a list ys of the references the operations
  write, in order: "x is not written from position k on" is "x is not among ys from position k on", a decidable
  question about a list of references.
-/
import Idealize.ShloMosaic.Lib.StableHlo.Run

noncomputable section

namespace Cert.LibAfter

open Idealize.ShloMosaic Idealize.ShloMosaic.StableHlo

variable {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer no operation from position k on writes holds what the first k operations left. -/
theorem after_take (ops : List (HloOp τ sig Val)) (k : Nat) (V : Valuation τ sig Val) (b : DevRef τ sig)
    (h : ∀ o ∈ ops.drop k, b ∉ o.writes) : after ops V b = after (ops.take k) V b := by
  conv_lhs => rw [← List.take_append_drop k ops]
  rw [after_append, after_of_forall_not_mem _ _ h]

/-- A buffer no operation after position k writes holds what operation k left, run on what the first k operations left. -/
theorem after_at (ops : List (HloOp τ sig Val)) (k : Nat) (hk : k < ops.length) (V : Valuation τ sig Val)
    (b : DevRef τ sig) (h : ∀ o ∈ ops.drop (k + 1), b ∉ o.writes) :
    after ops V b = (ops[k]).result (after (ops.take k) V) b := by
  conv_lhs => rw [← List.take_append_drop k ops, List.drop_eq_getElem_cons hk]
  rw [after_append, after_cons, after_of_forall_not_mem _ _ h]

/-- The line writes, operation by operation, exactly the references ys, one each. -/
def Writes (ops : List (HloOp τ sig Val)) (ys : List (Ref sig .tc)) : Prop :=
  ops.map (fun o => o.writes) = ys.map fun y => ({Proc.devRef .tc y} : Finset (DevRef τ sig))

/-- A reference that is not among ys from position k on is written by no operation from position k on. -/
theorem Writes.not_written {ops : List (HloOp τ sig Val)} {ys : List (Ref sig .tc)} (hW : Writes ops ys) (k : Nat)
    (x : Ref sig .tc) (hx : x ∉ ys.drop k) : ∀ o ∈ ops.drop k, (Proc.devRef .tc x : DevRef τ sig) ∉ o.writes := by
  intro o ho hmem
  have h1 : o.writes ∈ (ops.drop k).map (fun o => o.writes) := List.mem_map_of_mem ho
  rw [List.map_drop, hW, ← List.map_drop] at h1
  obtain ⟨y', hy', he⟩ := List.mem_map.mp h1
  rw [← he, Finset.mem_singleton] at hmem
  have hxy : x = y' := Proc.devRef_injective _ hmem
  exact hx (hxy ▸ hy')

variable {ops : List (HloOp τ sig Val)} {ys : List (Ref sig .tc)}

/-- What the line leaves in the buffer operation k writes: operation k's result on what the first k operations left. -/
theorem Writes.at (hW : Writes ops ys) (V : Valuation τ sig Val) (k : Nat) {op : HloOp τ sig Val} {y : Ref sig .tc}
    (hop : ops[k]? = some op) (hy : y ∉ ys.drop (k + 1)) :
    after ops V (Proc.devRef .tc y) = op.result (after (ops.take k) V) (Proc.devRef .tc y) := by
  obtain ⟨hk, he⟩ := List.getElem?_eq_some_iff.mp hop
  rw [after_at ops k hk V _ (hW.not_written (k + 1) y hy), he]

/-- A buffer not written from position k on: what the first k operations left there is what the whole line leaves. -/
theorem Writes.back (hW : Writes ops ys) (V : Valuation τ sig Val) (k : Nat) (x : Ref sig .tc) (hx : x ∉ ys.drop k) :
    after (ops.take k) V (Proc.devRef .tc x) = after ops V (Proc.devRef .tc x) :=
  (after_take ops k V _ (hW.not_written k x hx)).symm

/-- A buffer the line never writes keeps its contents. -/
theorem Writes.kept (hW : Writes ops ys) (V : Valuation τ sig Val) (x : Ref sig .tc) (hx : x ∉ ys) :
    after ops V (Proc.devRef .tc x) = V (Proc.devRef .tc x) :=
  after_of_forall_not_mem ops V (hW.not_written 0 x hx)

/-! ## One operation: its result buffer from its operands' buffers, all after the whole line -/

theorem Writes.nullary (hW : Writes ops ys) (V : Valuation τ sig Val) (k : Nat) {y : Ref sig .tc} {v : y.ty.Contents Val} {hy}
    (hop : ops[k]? = some (nullary y v hy)) (hy' : y ∉ ys.drop (k + 1)) :
    after ops V (Proc.devRef .tc y) = v := by
  rw [hW.at V k hop hy', nullary_result]

theorem Writes.unary (hW : Writes ops ys) (V : Valuation τ sig Val) (k : Nat) {x y : Ref sig .tc}
    {f : x.ty.Contents Val → y.ty.Contents Val} {hx hy}
    (hop : ops[k]? = some (unary x y f hx hy)) (hy' : y ∉ ys.drop (k + 1)) (hx' : x ∉ ys.drop k) :
    after ops V (Proc.devRef .tc y) = f (after ops V (Proc.devRef .tc x)) := by
  rw [hW.at V k hop hy', unary_result]
  exact congrArg f (hW.back V k x hx')

theorem Writes.binary (hW : Writes ops ys) (V : Valuation τ sig Val) (k : Nat) {a b y : Ref sig .tc}
    {f : a.ty.Contents Val → b.ty.Contents Val → y.ty.Contents Val} {ha hb hy}
    (hop : ops[k]? = some (binary a b y f ha hb hy)) (hy' : y ∉ ys.drop (k + 1)) (ha' : a ∉ ys.drop k)
    (hb' : b ∉ ys.drop k) :
    after ops V (Proc.devRef .tc y) = f (after ops V (Proc.devRef .tc a)) (after ops V (Proc.devRef .tc b)) := by
  rw [hW.at V k hop hy', binary_result]
  exact congrArg₂ f (hW.back V k a ha') (hW.back V k b hb')

theorem Writes.ternary (hW : Writes ops ys) (V : Valuation τ sig Val) (k : Nat) {c a b y : Ref sig .tc}
    {f : c.ty.Contents Val → a.ty.Contents Val → b.ty.Contents Val → y.ty.Contents Val} {hc ha hb hy}
    (hop : ops[k]? = some (ternary c a b y f hc ha hb hy)) (hy' : y ∉ ys.drop (k + 1)) (hc' : c ∉ ys.drop k)
    (ha' : a ∉ ys.drop k) (hb' : b ∉ ys.drop k) :
    after ops V (Proc.devRef .tc y)
      = f (after ops V (Proc.devRef .tc c)) (after ops V (Proc.devRef .tc a)) (after ops V (Proc.devRef .tc b)) := by
  rw [hW.at V k hop hy', ternary_result, hW.back V k c hc', hW.back V k a ha', hW.back V k b hb']

theorem Writes.reshape (hW : Writes ops ys) (V : Valuation τ sig Val) (k : Nat) {x y : Ref sig .tc}
    {he : x.ty.elt = y.ty.elt} {hn : x.ty.shape.ShapeCasts y.ty.shape} {hx hy}
    (hop : ops[k]? = some (reshape x y he hn hx hy)) (hy' : y ∉ ys.drop (k + 1)) (hx' : x ∉ ys.drop k) :
    after ops V (Proc.devRef .tc y) = fun i => he ▸ shapeCast y.ty.shape (after ops V (Proc.devRef .tc x)) hn i := by
  rw [hW.at V k hop hy', reshape_result, hW.back V k x hx']

/-! ## The same for an operation of a called function

  A called function's operation names its buffers through typed references and carries contents across the equation
  "the buffer's type is the value's type". When that equation is the reflexive one the transport is the identity, and
  the operation's function applies to the buffers' contents as they are. -/

theorem Writes.tunary (hW : Writes ops ys) (V : Valuation τ sig Val) (k : Nat) {x y : Ref sig .tc} {ox ux oy uy}
    {g : x.ty.Contents Val → y.ty.Contents Val}
    (hop : ops[k]? = some (TRef.unary (⟨x, rfl, ox, ux⟩ : TRef sig x.ty) (⟨y, rfl, oy, uy⟩ : TRef sig y.ty) g))
    (hy' : y ∉ ys.drop (k + 1)) (hx' : x ∉ ys.drop k) :
    after ops V (Proc.devRef .tc y) = g (after ops V (Proc.devRef .tc x)) := by
  have h := hW.unary V k hop hy' hx'
  simpa only [TRef.toBuf, TRef.ofBuf, cast_eq] using h

theorem Writes.tbinary (hW : Writes ops ys) (V : Valuation τ sig Val) (k : Nat) {a b y : Ref sig .tc} {oa ua ob ub oy uy}
    {g : a.ty.Contents Val → b.ty.Contents Val → y.ty.Contents Val}
    (hop : ops[k]? = some (TRef.binary (⟨a, rfl, oa, ua⟩ : TRef sig a.ty) (⟨b, rfl, ob, ub⟩ : TRef sig b.ty)
      (⟨y, rfl, oy, uy⟩ : TRef sig y.ty) g))
    (hy' : y ∉ ys.drop (k + 1)) (ha' : a ∉ ys.drop k) (hb' : b ∉ ys.drop k) :
    after ops V (Proc.devRef .tc y) = g (after ops V (Proc.devRef .tc a)) (after ops V (Proc.devRef .tc b)) := by
  have h := hW.binary V k hop hy' ha' hb'
  simpa only [TRef.toBuf, TRef.ofBuf, cast_eq] using h

theorem Writes.tternary (hW : Writes ops ys) (V : Valuation τ sig Val) (k : Nat) {c a b y : Ref sig .tc}
    {oc uc oa ua ob ub oy uy} {g : c.ty.Contents Val → a.ty.Contents Val → b.ty.Contents Val → y.ty.Contents Val}
    (hop : ops[k]? = some (TRef.ternary (⟨c, rfl, oc, uc⟩ : TRef sig c.ty) (⟨a, rfl, oa, ua⟩ : TRef sig a.ty)
      (⟨b, rfl, ob, ub⟩ : TRef sig b.ty) (⟨y, rfl, oy, uy⟩ : TRef sig y.ty) g))
    (hy' : y ∉ ys.drop (k + 1)) (hc' : c ∉ ys.drop k) (ha' : a ∉ ys.drop k) (hb' : b ∉ ys.drop k) :
    after ops V (Proc.devRef .tc y)
      = g (after ops V (Proc.devRef .tc c)) (after ops V (Proc.devRef .tc a)) (after ops V (Proc.devRef .tc b)) := by
  have h := hW.ternary V k hop hy' hc' ha' hb'
  simpa only [TRef.toBuf, TRef.ofBuf, cast_eq] using h

end Cert.LibAfter

end
-- ==== Proof.LibNary8.lean ====
/-
  An operation over eight operands, read at its result.

  An operation that takes a family of operands (a concatenation of eight pieces is one) leaves its result
  buffer at its function applied to the family  k ↦ (contents of operand k).  When the family of references
  is a literal list of eight, the family of contents is the literal list of the eight contents, each at
  its own reference: position k of the list  a₀ :: a₁ :: … :: a₇  is  aₖ.  Stated in that form, the
  contents of each operand stand in the result as a term about ONE named buffer, so whatever is known of
  that buffer's contents can be put in its place; under the binder k of the general form no single buffer
  is named. Eight-operand companion of the library's statement for four operands, for any function, any
  valuation and any references.
-/
import Idealize.ShloMosaic.Lib.StableHlo.Run

noncomputable section

namespace Idealize.ShloMosaic.StableHlo

open Idealize.ShloMosaic Idealize.ShloMosaic.TcCoe Idealize.SL.Sem

variable {τ : Topo} {sig : RefSig} {Val : EltTy → Type}
variable {x0 x1 x2 x3 x4 x5 x6 x7 y : Ref sig .tc}

/-- The result of an operation over the literal family of eight references `![x0, …, x7]`: its function at
    the list of the eight operands' contents, operand `k`'s contents at position `k`. Both sides are the
    function applied to a family over `Fin 8`; the two families agree at each of the eight positions. -/
theorem nary8_result
    (f : ((k : Fin 8) → ((![x0, x1, x2, x3, x4, x5, x6, x7] : Fin 8 → Ref sig .tc) k).ty.Contents Val) → y.ty.Contents Val)
    (hxs hy) (G : Valuation τ sig Val) :
    (nary (τ := τ) ![x0, x1, x2, x3, x4, x5, x6, x7] y f hxs hy).result G (Proc.devRef .tc y)
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (fun i => i.elim0))))))))) := by
  rw [nary_result]; congr 1; funext k; fin_cases k <;> rfl

/-- The same equation as `nary8_result`, with the result buffer named by any expression equal to
    `y`'s device reference: the statement does not depend on how that reference is written. -/
theorem nary8_result'
    (f : ((k : Fin 8) → ((![x0, x1, x2, x3, x4, x5, x6, x7] : Fin 8 → Ref sig .tc) k).ty.Contents Val) → y.ty.Contents Val)
    (hxs hy) (G : Valuation τ sig Val) :
    (nary (τ := τ) ![x0, x1, x2, x3, x4, x5, x6, x7] y f hxs hy).result G (no_index (Proc.devRef .tc y))
      = f (Fin.cons (G (Proc.devRef .tc x0)) (Fin.cons (G (Proc.devRef .tc x1)) (Fin.cons (G (Proc.devRef .tc x2))
          (Fin.cons (G (Proc.devRef .tc x3)) (Fin.cons (G (Proc.devRef .tc x4)) (Fin.cons (G (Proc.devRef .tc x5))
          (Fin.cons (G (Proc.devRef .tc x6)) (Fin.cons (G (Proc.devRef .tc x7)) (fun i => i.elim0))))))))) :=
  nary8_result f hxs hy G

end Idealize.ShloMosaic.StableHlo

end
-- ==== Proof.RefStage0.lean ====
/-
  The reference program's line of host operations, one operation at a time: the references the operations write, in
  order; the contents A of a buffer after the whole line; for each kind of operation, the buffer it writes as its
  function of the buffers it reads, all after the whole line (every buffer is written once, and an operation reads only
  buffers written before it or never); and the arguments of the program, which no operation writes.
-/
import proofs.«421868_j31318901522602_3_alg».proof.Proof.RefRunOps
import proofs.«421868_j31318901522602_3_alg».proof.Proof.RefRead
import proofs.«421868_j31318901522602_3_alg».proof.Proof.LibAfter
import proofs.«421868_j31318901522602_3_alg».proof.Proof.LibNary8

set_option maxRecDepth 16384

noncomputable section

namespace Cert.ReferenceIdeal.Stage

open Cert.ReferenceIdeal Cert.ReferenceIdeal.Gen Cert.ReferenceIdeal.Value Cert.ReferenceIdeal.Read Idealize.ShloMosaic Idealize.ShloMosaic.TcCoe
open Idealize.SL.Sem Idealize.ShloMosaic.StableHlo Cert.LibAfter

variable {F : FTy → Type} [FloatOps F]

/-- The references the operations write, in order. -/
def ys : List (Ref sig .tc) :=
  [main_v0, main_v1, main_cst, main_v2, main_v3, main_cst_0, main_v4, main_v5, main_cst_1, main_v6, main_v7, main_cst_2, main_v8, main_v9, main_cst_3, main_cst_4, main_call0_v0, main_call0_v1, main_call0_v2, main_call0_v3, main_call0_v4, main_v10, main_v11, main_v12, main_cst_5, main_v13, main_v14, main_cst_6, main_v15, main_v16, main_v17, main_v18, main_v19, main_c, main_v20, main_v21, main_c_7, main_v22, main_v23, main_v24, main_v25, main_v26, main_v27, main_v28, main_c_8, main_v29, main_v30, main_c_9, main_v31, main_v32, main_v33, main_v34, main_v35, main_v36, main_v37, main_v38, main_v39, main_v40, main_cst_10, main_v41, main_v42, main_v43, main_v44, main_v45, main_v46, main_cst_11, main_v47, main_v48, main_v49, main_v50, main_v51, main_v52, main_cst_12, main_v53, main_v54, main_v55, main_v56, main_v57, main_v58, main_cst_13, main_v59, main_v60, main_v61, main_v62, main_v63, main_v64, main_cst_14, main_v65, main_v66, main_v67, main_v68, main_v69, main_v70, main_cst_15, main_v71, main_v72, main_v73, main_v74, main_v75, main_v76, main_cst_16, main_v77, main_v78, main_v79, main_v80, main_v81, main_v82, main_cst_17, main_v83, main_v84, main_v85, main_v86, main_v87, main_v88, main_v89, main_v90, main_v91, main_v92, main_v93, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v94, main_v95, main_c_18, main_v96, main_v97, main_c_19, main_v98, main_v99, main_v100, main_v101, main_v102, main_v103, main_v104, main_v105, main_c_20, main_v106, main_v107, main_c_21, main_v108, main_v109, main_v110, main_v111, main_v112, main_v113, main_v114, main_c_22, main_v115, main_v116, main_c_23, main_v117, main_v118, main_v119, main_v120, main_v121, main_v122, main_v123, main_v124, main_v125, main_v126, main_cst_24, main_v127, main_v128, main_v129, main_v130, main_v131, main_v132, main_cst_25, main_v133, main_v134, main_v135, main_v136, main_v137, main_v138, main_cst_26, main_v139, main_v140, main_v141, main_v142, main_v143, main_v144, main_cst_27, main_v145, main_v146, main_v147, main_v148, main_v149, main_v150, main_cst_28, main_v151, main_v152, main_v153, main_v154, main_v155, main_v156, main_cst_29, main_v157, main_v158, main_v159, main_v160, main_v161, main_v162, main_cst_30, main_v163, main_v164, main_v165, main_v166, main_v167, main_v168, main_cst_31, main_v169, main_v170, main_v171, main_v172, main_v173, main_v174, main_v175, main_v176, main_v177, main_v178, main_v179, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v180, main_v181, main_c_32, main_v182, main_v183, main_c_33, main_v184, main_v185, main_v186, main_v187, main_v188, main_v189, main_v190, main_call3_cst, main_call3_v0, main_call3_v1, main_call3_v2, main_call3_v3, main_call3_v4, main_call3_v5, main_call3_v6, main_call3_v7, main_call3_v8, main_call3_v9, main_call3_v10, main_call3_v11, main_v191, main_cst_34, main_v192, main_cst_35, main_v193, main_call4_cst, main_call4_v0, main_call4_v1, main_call4_v2, main_call4_v3, main_call4_v4, main_call4_v5, main_call4_v6, main_call4_v7, main_call4_v8, main_call4_v9, main_call4_v10, main_call4_v11, main_v194, main_cst_36, main_v195, main_cst_37, main_v196, main_v197]

/-- Operation k writes reference k of that list, and nothing else. -/
theorem hW : Writes (ops (F := F)) ys := by
  unfold Writes ys
  rfl

/-- The contents of a buffer after the whole line, from the launch contents. -/
def A (m : (ℓ : Loc nD τ sig) → Buf (Elt F) ℓ) (c : Dev nD) (b : Ref sig .tc) :=
  after (ops (F := F)) (launchContents m c) (Proc.devRef .tc b)

variable (m : (ℓ : Loc nD τ sig) → Buf (Elt F) ℓ) (c : Dev nD)

theorem A_nullary (k : Nat) {y : Ref sig .tc} {v : y.ty.Contents (Elt F)} {hy}
    (hop : (ops (F := F))[k]? = some (nullary y v hy)) (hy' : y ∉ ys.drop (k + 1)) : A m c y = v :=
  hW.nullary _ k hop hy'

theorem A_unary (k : Nat) {x y : Ref sig .tc} {f : x.ty.Contents (Elt F) → y.ty.Contents (Elt F)} {hx hy}
    (hop : (ops (F := F))[k]? = some (unary x y f hx hy)) (hy' : y ∉ ys.drop (k + 1)) (hx' : x ∉ ys.drop k) :
    A m c y = f (A m c x) :=
  hW.unary _ k hop hy' hx'

theorem A_binary (k : Nat) {a b y : Ref sig .tc} {f : a.ty.Contents (Elt F) → b.ty.Contents (Elt F) → y.ty.Contents (Elt F)} {ha hb hy}
    (hop : (ops (F := F))[k]? = some (binary a b y f ha hb hy)) (hy' : y ∉ ys.drop (k + 1)) (ha' : a ∉ ys.drop k)
    (hb' : b ∉ ys.drop k) : A m c y = f (A m c a) (A m c b) :=
  hW.binary _ k hop hy' ha' hb'

theorem A_ternary (k : Nat) {c' a b y : Ref sig .tc}
    {f : c'.ty.Contents (Elt F) → a.ty.Contents (Elt F) → b.ty.Contents (Elt F) → y.ty.Contents (Elt F)} {hc ha hb hy}
    (hop : (ops (F := F))[k]? = some (ternary c' a b y f hc ha hb hy)) (hy' : y ∉ ys.drop (k + 1)) (hc' : c' ∉ ys.drop k)
    (ha' : a ∉ ys.drop k) (hb' : b ∉ ys.drop k) : A m c y = f (A m c c') (A m c a) (A m c b) :=
  hW.ternary _ k hop hy' hc' ha' hb'

theorem A_reshape (k : Nat) {x y : Ref sig .tc} {he : x.ty.elt = y.ty.elt} {hn : x.ty.shape.ShapeCasts y.ty.shape} {hx hy}
    (hop : (ops (F := F))[k]? = some (reshape x y he hn hx hy)) (hy' : y ∉ ys.drop (k + 1)) (hx' : x ∉ ys.drop k) :
    A m c y = fun i => he ▸ shapeCast y.ty.shape (A m c x) hn i :=
  hW.reshape _ k hop hy' hx'

theorem A_tunary (k : Nat) {x y : Ref sig .tc} {ox ux oy uy} {g : x.ty.Contents (Elt F) → y.ty.Contents (Elt F)}
    (hop : (ops (F := F))[k]? = some (TRef.unary (⟨x, rfl, ox, ux⟩ : TRef sig x.ty) (⟨y, rfl, oy, uy⟩ : TRef sig y.ty) g))
    (hy' : y ∉ ys.drop (k + 1)) (hx' : x ∉ ys.drop k) : A m c y = g (A m c x) :=
  hW.tunary _ k hop hy' hx'

theorem A_tbinary (k : Nat) {a b y : Ref sig .tc} {oa ua ob ub oy uy}
    {g : a.ty.Contents (Elt F) → b.ty.Contents (Elt F) → y.ty.Contents (Elt F)}
    (hop : (ops (F := F))[k]? = some (TRef.binary (⟨a, rfl, oa, ua⟩ : TRef sig a.ty) (⟨b, rfl, ob, ub⟩ : TRef sig b.ty)
      (⟨y, rfl, oy, uy⟩ : TRef sig y.ty) g))
    (hy' : y ∉ ys.drop (k + 1)) (ha' : a ∉ ys.drop k) (hb' : b ∉ ys.drop k) : A m c y = g (A m c a) (A m c b) :=
  hW.tbinary _ k hop hy' ha' hb'

theorem A_tternary (k : Nat) {c' a b y : Ref sig .tc} {oc uc oa ua ob ub oy uy}
    {g : c'.ty.Contents (Elt F) → a.ty.Contents (Elt F) → b.ty.Contents (Elt F) → y.ty.Contents (Elt F)}
    (hop : (ops (F := F))[k]? = some (TRef.ternary (⟨c', rfl, oc, uc⟩ : TRef sig c'.ty) (⟨a, rfl, oa, ua⟩ : TRef sig a.ty)
      (⟨b, rfl, ob, ub⟩ : TRef sig b.ty) (⟨y, rfl, oy, uy⟩ : TRef sig y.ty) g))
    (hy' : y ∉ ys.drop (k + 1)) (hc' : c' ∉ ys.drop k) (ha' : a ∉ ys.drop k) (hb' : b ∉ ys.drop k) :
    A m c y = g (A m c c') (A m c a) (A m c b) :=
  hW.tternary _ k hop hy' hc' ha' hb'

theorem A_nary (k : Nat) {x0 x1 x2 x3 x4 x5 x6 x7 y : Ref sig .tc}
    {f : ((j : Fin 8) → ((![x0, x1, x2, x3, x4, x5, x6, x7] : Fin 8 → Ref sig .tc) j).ty.Contents (Elt F)) → y.ty.Contents (Elt F)} {hxs hy}
    (hop : (ops (F := F))[k]? = some (nary ![x0, x1, x2, x3, x4, x5, x6, x7] y f hxs hy)) (hy' : y ∉ ys.drop (k + 1))
    (h0 : x0 ∉ ys.drop k) (h1 : x1 ∉ ys.drop k) (h2 : x2 ∉ ys.drop k) (h3 : x3 ∉ ys.drop k) (h4 : x4 ∉ ys.drop k)
    (h5 : x5 ∉ ys.drop k) (h6 : x6 ∉ ys.drop k) (h7 : x7 ∉ ys.drop k) :
    A m c y = f (Fin.cons (A m c x0) (Fin.cons (A m c x1) (Fin.cons (A m c x2) (Fin.cons (A m c x3) (Fin.cons (A m c x4)
      (Fin.cons (A m c x5) (Fin.cons (A m c x6) (Fin.cons (A m c x7) (fun i => i.elim0))))))))) := by
  unfold A
  rw [hW.at _ k hop hy', nary8_result, hW.back _ k x0 h0, hW.back _ k x1 h1, hW.back _ k x2 h2, hW.back _ k x3 h3,
    hW.back _ k x4 h4, hW.back _ k x5 h5, hW.back _ k x6 h6, hW.back _ k x7 h7]

/-- No operation writes argument 0. -/
theorem S_main_arg0 : A m c main_arg0 = m ((c.tc : Thread nD τ).loc main_arg0) :=
  (hW.kept _ main_arg0 (by decide)).trans rfl

/-- No operation writes argument 1. -/
theorem S_main_arg1 : A m c main_arg1 = m ((c.tc : Thread nD τ).loc main_arg1) :=
  (hW.kept _ main_arg1 (by decide)).trans rfl

/-- No operation writes argument 2. -/
theorem S_main_arg2 : A m c main_arg2 = m ((c.tc : Thread nD τ).loc main_arg2) :=
  (hW.kept _ main_arg2 (by decide)).trans rfl

/-- No operation writes argument 3. -/
theorem S_main_arg3 : A m c main_arg3 = m ((c.tc : Thread nD τ).loc main_arg3) :=
  (hW.kept _ main_arg3 (by decide)).trans rfl

/-- No operation writes argument 4. -/
theorem S_main_arg4 : A m c main_arg4 = m ((c.tc : Thread nD τ).loc main_arg4) :=
  (hW.kept _ main_arg4 (by decide)).trans rfl

/-- No operation writes argument 5. -/
theorem S_main_arg5 : A m c main_arg5 = m ((c.tc : Thread nD τ).loc main_arg5) :=
  (hW.kept _ main_arg5 (by decide)).trans rfl

/-- No operation writes argument 6. -/
theorem S_main_arg6 : A m c main_arg6 = m ((c.tc : Thread nD τ).loc main_arg6) :=
  (hW.kept _ main_arg6 (by decide)).trans rfl

/-- No operation writes argument 7. -/
theorem S_main_arg7 : A m c main_arg7 = m ((c.tc : Thread nD τ).loc main_arg7) :=
  (hW.kept _ main_arg7 (by decide)).trans rfl

end Cert.ReferenceIdeal.Stage

end
-- ==== Proof.RefStageA.lean ====
/-
  The reference program's stages, positions 0 to 61 of its line: after the whole line, the buffer an operation
  writes holds the stage value of that operation, as a function of the program's arguments. Each statement is the
  operation's one-step equation followed by the statements of the buffers it reads.
-/
import proofs.«421868_j31318901522602_3_alg».proof.Proof.RefStage0

set_option maxRecDepth 16384

noncomputable section

namespace Cert.ReferenceIdeal.Stage

open Cert.ReferenceIdeal Cert.ReferenceIdeal.Gen Cert.ReferenceIdeal.Value Cert.ReferenceIdeal.Read Idealize.ShloMosaic Idealize.ShloMosaic.TcCoe
open Idealize.SL.Sem Idealize.ShloMosaic.StableHlo Cert.LibAfter

variable {F : FTy → Type} [FloatOps F]

variable (m : (ℓ : Loc nD τ sig) → Buf (Elt F) ℓ) (c : Dev nD)

theorem S_main_v0 : A m c main_v0 = val_main_v0 (F := F) (m ((c.tc : Thread nD τ).loc main_arg2)) := by
  refine (A_unary m c 0 rfl (by decide) (by decide)).trans ?_
  rw [S_main_arg2 m c]
  rfl
theorem S_main_v1 : A m c main_v1 = val_main_v1 (F := F) (m ((c.tc : Thread nD τ).loc main_arg2)) := by
  refine (A_unary m c 1 rfl (by decide) (by decide)).trans ?_
  rw [S_main_v0 m c]
  rfl
theorem S_main_cst : A m c main_cst = val_main_cst (F := F) :=
  (A_nullary m c 2 rfl (by decide)).trans rfl
theorem S_main_v2 : A m c main_v2 = val_main_v2 (F := F) := by
  refine (A_unary m c 3 rfl (by decide) (by decide)).trans ?_
  rw [S_main_cst m c]
  rfl
theorem S_main_v3 : A m c main_v3 = val_main_v3 (F := F) (m ((c.tc : Thread nD τ).loc main_arg2)) := by
  refine (A_binary m c 4 rfl (by decide) (by decide) (by decide)).trans ?_
  rw [S_main_v2 m c, S_main_v1 m c]
  rfl
theorem S_main_cst_0 : A m c main_cst_0 = val_main_cst_0 (F := F) :=
  (A_nullary m c 5 rfl (by decide)).trans rfl
theorem S_main_v4 : A m c main_v4 = val_main_v4 (F := F) := by
  refine (A_unary m c 6 rfl (by decide) (by decide)).trans ?_
  rw [S_main_cst_0 m c]
  rfl
theorem S_main_v5 : A m c main_v5 = val_main_v5 (F := F) (m ((c.tc : Thread nD τ).loc main_arg2)) := by
  refine (A_binary m c 7 rfl (by decide) (by decide) (by decide)).trans ?_
  rw [S_main_v4 m c, S_main_v3 m c]
  rfl
theorem S_main_cst_1 : A m c main_cst_1 = val_main_cst_1 (F := F) :=
  (A_nullary m c 8 rfl (by decide)).trans rfl
theorem S_main_v6 : A m c main_v6 = val_main_v6 (F := F) := by
  refine (A_unary m c 9 rfl (by decide) (by decide)).trans ?_
  rw [S_main_cst_1 m c]
  rfl
theorem S_main_v7 : A m c main_v7 = val_main_v7 (F := F) (m ((c.tc : Thread nD τ).loc main_arg2)) := by
  refine (A_binary m c 10 rfl (by decide) (by decide) (by decide)).trans ?_
  rw [S_main_v5 m c, S_main_v6 m c]
  rfl
theorem S_main_cst_2 : A m c main_cst_2 = val_main_cst_2 (F := F) :=
  (A_nullary m c 11 rfl (by decide)).trans rfl
theorem S_main_v8 : A m c main_v8 = val_main_v8 (F := F) := by
  refine (A_unary m c 12 rfl (by decide) (by decide)).trans ?_
  rw [S_main_cst_2 m c]
  rfl
theorem S_main_v9 : A m c main_v9 = val_main_v9 (F := F) (m ((c.tc : Thread nD τ).loc main_arg2)) := by
  refine (A_binary m c 13 rfl (by decide) (by decide) (by decide)).trans ?_
  rw [S_main_v7 m c, S_main_v8 m c]
  rfl
theorem S_main_cst_3 : A m c main_cst_3 = val_main_cst_3 (F := F) :=
  (A_nullary m c 14 rfl (by decide)).trans rfl
theorem S_main_cst_4 : A m c main_cst_4 = val_main_cst_4 (F := F) :=
  (A_nullary m c 15 rfl (by decide)).trans rfl
theorem S_main_call0_v0 : A m c main_call0_v0 = val_main_call0_v0 (F := F) := by
  refine (A_tunary m c 16 rfl (by decide) (by decide)).trans ?_
  rw [S_main_cst_3 m c]
  rfl
theorem S_main_call0_v1 : A m c main_call0_v1 = val_main_call0_v1 (F := F) := by
  refine (A_tunary m c 17 rfl (by decide) (by decide)).trans ?_
  rw [S_main_call0_v0 m c]
  rfl
theorem S_main_call0_v2 : A m c main_call0_v2 = val_main_call0_v2 (F := F) (m ((c.tc : Thread nD τ).loc main_arg2)) := by
  refine (A_tbinary m c 18 rfl (by decide) (by decide) (by decide)).trans ?_
  rw [S_main_call0_v1 m c, S_main_v9 m c]
  rfl
theorem S_main_call0_v3 : A m c main_call0_v3 = val_main_call0_v3 (F := F) := by
  refine (A_tunary m c 19 rfl (by decide) (by decide)).trans ?_
  rw [S_main_cst_4 m c]
  rfl
theorem S_main_call0_v4 : A m c main_call0_v4 = val_main_call0_v4 (F := F) := by
  refine (A_tunary m c 20 rfl (by decide) (by decide)).trans ?_
  rw [S_main_call0_v3 m c]
  rfl
theorem S_main_v10 : A m c main_v10 = val_main_v10 (F := F) (m ((c.tc : Thread nD τ).loc main_arg2)) := by
  refine (A_tbinary m c 21 rfl (by decide) (by decide) (by decide)).trans ?_
  rw [S_main_call0_v4 m c, S_main_call0_v2 m c]
  rfl
theorem S_main_v11 : A m c main_v11 = val_main_v11 (F := F) (m ((c.tc : Thread nD τ).loc main_arg1)) := by
  refine (A_unary m c 22 rfl (by decide) (by decide)).trans ?_
  rw [S_main_arg1 m c]
  rfl
theorem S_main_v12 : A m c main_v12 = val_main_v12 (F := F) (m ((c.tc : Thread nD τ).loc main_arg1)) := by
  refine (A_unary m c 23 rfl (by decide) (by decide)).trans ?_
  rw [S_main_v11 m c]
  rfl
theorem S_main_cst_5 : A m c main_cst_5 = val_main_cst_5 (F := F) :=
  (A_nullary m c 24 rfl (by decide)).trans rfl
theorem S_main_v13 : A m c main_v13 = val_main_v13 (F := F) := by
  refine (A_unary m c 25 rfl (by decide) (by decide)).trans ?_
  rw [S_main_cst_5 m c]
  rfl
theorem S_main_v14 : A m c main_v14 = val_main_v14 (F := F) (m ((c.tc : Thread nD τ).loc main_arg1)) := by
  refine (A_binary m c 26 rfl (by decide) (by decide) (by decide)).trans ?_
  rw [S_main_v13 m c, S_main_v12 m c]
  rfl
theorem S_main_cst_6 : A m c main_cst_6 = val_main_cst_6 (F := F) :=
  (A_nullary m c 27 rfl (by decide)).trans rfl
theorem S_main_v15 : A m c main_v15 = val_main_v15 (F := F) := by
  refine (A_unary m c 28 rfl (by decide) (by decide)).trans ?_
  rw [S_main_cst_6 m c]
  rfl
theorem S_main_v16 : A m c main_v16 = val_main_v16 (F := F) (m ((c.tc : Thread nD τ).loc main_arg1)) := by
  refine (A_binary m c 29 rfl (by decide) (by decide) (by decide)).trans ?_
  rw [S_main_v15 m c, S_main_v14 m c]
  rfl
theorem S_main_v17 : A m c main_v17 = val_main_v17 (F := F) (m ((c.tc : Thread nD τ).loc main_arg1)) (m ((c.tc : Thread nD τ).loc main_arg2)) := by
  refine (A_binary m c 30 rfl (by decide) (by decide) (by decide)).trans ?_
  rw [S_main_v16 m c, S_main_v10 m c]
  rfl
theorem S_main_v18 : A m c main_v18 = val_main_v18 (F := F) (m ((c.tc : Thread nD τ).loc main_arg4)) := by
  refine (A_unary m c 31 rfl (by decide) (by decide)).trans ?_
  rw [S_main_arg4 m c]
  rfl
theorem S_main_v19 : A m c main_v19 = val_main_v19 (F := F) (m ((c.tc : Thread nD τ).loc main_arg4)) := by
  refine (A_reshape m c 32 rfl (by decide) (by decide)).trans ?_
  rw [S_main_v18 m c]
  rfl
theorem S_main_c : A m c main_c = val_main_c (F := F) :=
  (A_nullary m c 33 rfl (by decide)).trans rfl
theorem S_main_v20 : A m c main_v20 = val_main_v20 (F := F) := by
  refine (A_unary m c 34 rfl (by decide) (by decide)).trans ?_
  rw [S_main_c m c]
  rfl
theorem S_main_v21 : A m c main_v21 = val_main_v21 (F := F) (m ((c.tc : Thread nD τ).loc main_arg4)) := by
  refine (A_binary m c 35 rfl (by decide) (by decide) (by decide)).trans ?_
  rw [S_main_v19 m c, S_main_v20 m c]
  rfl
theorem S_main_c_7 : A m c main_c_7 = val_main_c_7 (F := F) :=
  (A_nullary m c 36 rfl (by decide)).trans rfl
theorem S_main_v22 : A m c main_v22 = val_main_v22 (F := F) := by
  refine (A_unary m c 37 rfl (by decide) (by decide)).trans ?_
  rw [S_main_c_7 m c]
  rfl
theorem S_main_v23 : A m c main_v23 = val_main_v23 (F := F) (m ((c.tc : Thread nD τ).loc main_arg4)) := by
  refine (A_binary m c 38 rfl (by decide) (by decide) (by decide)).trans ?_
  rw [S_main_v19 m c, S_main_v22 m c]
  rfl
theorem S_main_v24 : A m c main_v24 = val_main_v24 (F := F) (m ((c.tc : Thread nD τ).loc main_arg4)) := by
  refine (A_ternary m c 39 rfl (by decide) (by decide) (by decide) (by decide)).trans ?_
  rw [S_main_v21 m c, S_main_v23 m c, S_main_v19 m c]
  rfl
theorem S_main_v25 : A m c main_v25 = val_main_v25 (F := F) (m ((c.tc : Thread nD τ).loc main_arg4)) := by
  refine (A_unary m c 40 rfl (by decide) (by decide)).trans ?_
  rw [S_main_v24 m c]
  rfl
theorem S_main_v26 : A m c main_v26 = val_main_v26 (F := F) (m ((c.tc : Thread nD τ).loc main_arg0)) (m ((c.tc : Thread nD τ).loc main_arg4)) := by
  refine (A_binary m c 41 rfl (by decide) (by decide) (by decide)).trans ?_
  rw [S_main_arg0 m c, S_main_v25 m c]
  rfl
theorem S_main_v27 : A m c main_v27 = val_main_v27 (F := F) (m ((c.tc : Thread nD τ).loc main_arg4)) := by
  refine (A_unary m c 42 rfl (by decide) (by decide)).trans ?_
  rw [S_main_arg4 m c]
  rfl
theorem S_main_v28 : A m c main_v28 = val_main_v28 (F := F) (m ((c.tc : Thread nD τ).loc main_arg4)) := by
  refine (A_reshape m c 43 rfl (by decide) (by decide)).trans ?_
  rw [S_main_v27 m c]
  rfl
theorem S_main_c_8 : A m c main_c_8 = val_main_c_8 (F := F) :=
  (A_nullary m c 44 rfl (by decide)).trans rfl
theorem S_main_v29 : A m c main_v29 = val_main_v29 (F := F) := by
  refine (A_unary m c 45 rfl (by decide) (by decide)).trans ?_
  rw [S_main_c_8 m c]
  rfl
theorem S_main_v30 : A m c main_v30 = val_main_v30 (F := F) (m ((c.tc : Thread nD τ).loc main_arg4)) := by
  refine (A_binary m c 46 rfl (by decide) (by decide) (by decide)).trans ?_
  rw [S_main_v28 m c, S_main_v29 m c]
  rfl
theorem S_main_c_9 : A m c main_c_9 = val_main_c_9 (F := F) :=
  (A_nullary m c 47 rfl (by decide)).trans rfl
theorem S_main_v31 : A m c main_v31 = val_main_v31 (F := F) := by
  refine (A_unary m c 48 rfl (by decide) (by decide)).trans ?_
  rw [S_main_c_9 m c]
  rfl
theorem S_main_v32 : A m c main_v32 = val_main_v32 (F := F) (m ((c.tc : Thread nD τ).loc main_arg4)) := by
  refine (A_binary m c 49 rfl (by decide) (by decide) (by decide)).trans ?_
  rw [S_main_v28 m c, S_main_v31 m c]
  rfl
theorem S_main_v33 : A m c main_v33 = val_main_v33 (F := F) (m ((c.tc : Thread nD τ).loc main_arg4)) := by
  refine (A_ternary m c 50 rfl (by decide) (by decide) (by decide) (by decide)).trans ?_
  rw [S_main_v30 m c, S_main_v32 m c, S_main_v28 m c]
  rfl
theorem S_main_v34 : A m c main_v34 = val_main_v34 (F := F) (m ((c.tc : Thread nD τ).loc main_arg4)) := by
  refine (A_unary m c 51 rfl (by decide) (by decide)).trans ?_
  rw [S_main_v33 m c]
  rfl
theorem S_main_v35 : A m c main_v35 = val_main_v35 (F := F) (m ((c.tc : Thread nD τ).loc main_arg0)) (m ((c.tc : Thread nD τ).loc main_arg4)) := by
  refine (A_binary m c 52 rfl (by decide) (by decide) (by decide)).trans ?_
  rw [S_main_arg0 m c, S_main_v34 m c]
  rfl
theorem S_main_v36 : A m c main_v36 = val_main_v36 (F := F) (m ((c.tc : Thread nD τ).loc main_arg1)) (m ((c.tc : Thread nD τ).loc main_arg2)) := by
  refine (A_unary m c 53 rfl (by decide) (by decide)).trans ?_
  rw [S_main_v17 m c]
  rfl
theorem S_main_v37 : A m c main_v37 = val_main_v37 (F := F) (m ((c.tc : Thread nD τ).loc main_arg1)) (m ((c.tc : Thread nD τ).loc main_arg2)) := by
  refine (A_reshape m c 54 rfl (by decide) (by decide)).trans ?_
  rw [S_main_v36 m c]
  rfl
theorem S_main_v38 : A m c main_v38 = val_main_v38 (F := F) (m ((c.tc : Thread nD τ).loc main_arg1)) (m ((c.tc : Thread nD τ).loc main_arg2)) := by
  refine (A_unary m c 55 rfl (by decide) (by decide)).trans ?_
  rw [S_main_v37 m c]
  rfl
theorem S_main_v39 : A m c main_v39 = val_main_v39 (F := F) (m ((c.tc : Thread nD τ).loc main_arg0)) (m ((c.tc : Thread nD τ).loc main_arg1)) (m ((c.tc : Thread nD τ).loc main_arg2)) (m ((c.tc : Thread nD τ).loc main_arg4)) := by
  refine (A_binary m c 56 rfl (by decide) (by decide) (by decide)).trans ?_
  rw [S_main_v35 m c, S_main_v38 m c]
  rfl
theorem S_main_v40 : A m c main_v40 = val_main_v40 (F := F) (m ((c.tc : Thread nD τ).loc main_arg0)) (m ((c.tc : Thread nD τ).loc main_arg1)) (m ((c.tc : Thread nD τ).loc main_arg2)) (m ((c.tc : Thread nD τ).loc main_arg4)) := by
  refine (A_binary m c 57 rfl (by decide) (by decide) (by decide)).trans ?_
  rw [S_main_v26 m c, S_main_v39 m c]
  rfl
theorem S_main_cst_10 : A m c main_cst_10 = val_main_cst_10 (F := F) :=
  (A_nullary m c 58 rfl (by decide)).trans rfl
theorem S_main_v41 : A m c main_v41 = val_main_v41 (F := F) (m ((c.tc : Thread nD τ).loc main_arg0)) (m ((c.tc : Thread nD τ).loc main_arg1)) (m ((c.tc : Thread nD τ).loc main_arg2)) (m ((c.tc : Thread nD τ).loc main_arg4)) := by
  refine (A_binary m c 59 rfl (by decide) (by decide) (by decide)).trans ?_
  rw [S_main_v40 m c, S_main_cst_10 m c]
  rfl
theorem S_main_v42 : A m c main_v42 = val_main_v42 (F := F) (m ((c.tc : Thread nD τ).loc main_arg1)) (m ((c.tc : Thread nD τ).loc main_arg2)) := by
  refine (A_unary m c 60 rfl (by decide) (by decide)).trans ?_
  rw [S_main_v17 m c]
  rfl
theorem S_main_v43 : A m c main_v43 = val_main_v43 (F := F) (m ((c.tc : Thread nD τ).loc main_arg1)) (m ((c.tc : Thread nD τ).loc main_arg2)) := by
  refine (A_reshape m c 61 rfl (by decide) (by decide)).trans ?_
  rw [S_main_v42 m c]
  rfl

end Cert.ReferenceIdeal.Stage

end
-- ==== Proof.RefStageB.lean ====
/-
  The reference program's stages, positions 62 to 123 of its line: after the whole line, the buffer an operation
  writes holds the stage value of that operation, as a function of the program's arguments. Each statement is the
  operation's one-step equation followed by the statements of the buffers it reads.
-/
import proofs.«421868_j31318901522602_3_alg».proof.Proof.RefStageA

set_option maxRecDepth 16384

noncomputable section

namespace Cert.ReferenceIdeal.Stage

open Cert.ReferenceIdeal Cert.ReferenceIdeal.Gen Cert.ReferenceIdeal.Value Cert.ReferenceIdeal.Read Idealize.ShloMosaic Idealize.ShloMosaic.TcCoe
open Idealize.SL.Sem Idealize.ShloMosaic.StableHlo Cert.LibAfter

variable {F : FTy → Type} [FloatOps F]

variable (m : (ℓ : Loc nD τ sig) → Buf (Elt F) ℓ) (c : Dev nD)

theorem S_main_v44 : A m c main_v44 = val_main_v44 (F := F) (m ((c.tc : Thread nD τ).loc main_arg1)) (m ((c.tc : Thread nD τ).loc main_arg2)) := by
  refine (A_unary m c 62 rfl (by decide) (by decide)).trans ?_
  rw [S_main_v43 m c]
  rfl
theorem S_main_v45 : A m c main_v45 = val_main_v45 (F := F) (m ((c.tc : Thread nD τ).loc main_arg0)) (m ((c.tc : Thread nD τ).loc main_arg1)) (m ((c.tc : Thread nD τ).loc main_arg2)) (m ((c.tc : Thread nD τ).loc main_arg4)) := by
  refine (A_binary m c 63 rfl (by decide) (by decide) (by decide)).trans ?_
  rw [S_main_v35 m c, S_main_v44 m c]
  rfl
theorem S_main_v46 : A m c main_v46 = val_main_v46 (F := F) (m ((c.tc : Thread nD τ).loc main_arg0)) (m ((c.tc : Thread nD τ).loc main_arg1)) (m ((c.tc : Thread nD τ).loc main_arg2)) (m ((c.tc : Thread nD τ).loc main_arg4)) := by
  refine (A_binary m c 64 rfl (by decide) (by decide) (by decide)).trans ?_
  rw [S_main_v26 m c, S_main_v45 m c]
  rfl
theorem S_main_cst_11 : A m c main_cst_11 = val_main_cst_11 (F := F) :=
  (A_nullary m c 65 rfl (by decide)).trans rfl
theorem S_main_v47 : A m c main_v47 = val_main_v47 (F := F) (m ((c.tc : Thread nD τ).loc main_arg0)) (m ((c.tc : Thread nD τ).loc main_arg1)) (m ((c.tc : Thread nD τ).loc main_arg2)) (m ((c.tc : Thread nD τ).loc main_arg4)) := by
  refine (A_binary m c 66 rfl (by decide) (by decide) (by decide)).trans ?_
  rw [S_main_v46 m c, S_main_cst_11 m c]
  rfl
theorem S_main_v48 : A m c main_v48 = val_main_v48 (F := F) (m ((c.tc : Thread nD τ).loc main_arg1)) (m ((c.tc : Thread nD τ).loc main_arg2)) := by
  refine (A_unary m c 67 rfl (by decide) (by decide)).trans ?_
  rw [S_main_v17 m c]
  rfl
theorem S_main_v49 : A m c main_v49 = val_main_v49 (F := F) (m ((c.tc : Thread nD τ).loc main_arg1)) (m ((c.tc : Thread nD τ).loc main_arg2)) := by
  refine (A_reshape m c 68 rfl (by decide) (by decide)).trans ?_
  rw [S_main_v48 m c]
  rfl
theorem S_main_v50 : A m c main_v50 = val_main_v50 (F := F) (m ((c.tc : Thread nD τ).loc main_arg1)) (m ((c.tc : Thread nD τ).loc main_arg2)) := by
  refine (A_unary m c 69 rfl (by decide) (by decide)).trans ?_
  rw [S_main_v49 m c]
  rfl
theorem S_main_v51 : A m c main_v51 = val_main_v51 (F := F) (m ((c.tc : Thread nD τ).loc main_arg0)) (m ((c.tc : Thread nD τ).loc main_arg1)) (m ((c.tc : Thread nD τ).loc main_arg2)) (m ((c.tc : Thread nD τ).loc main_arg4)) := by
  refine (A_binary m c 70 rfl (by decide) (by decide) (by decide)).trans ?_
  rw [S_main_v35 m c, S_main_v50 m c]
  rfl
theorem S_main_v52 : A m c main_v52 = val_main_v52 (F := F) (m ((c.tc : Thread nD τ).loc main_arg0)) (m ((c.tc : Thread nD τ).loc main_arg1)) (m ((c.tc : Thread nD τ).loc main_arg2)) (m ((c.tc : Thread nD τ).loc main_arg4)) := by
  refine (A_binary m c 71 rfl (by decide) (by decide) (by decide)).trans ?_
  rw [S_main_v26 m c, S_main_v51 m c]
  rfl
theorem S_main_cst_12 : A m c main_cst_12 = val_main_cst_12 (F := F) :=
  (A_nullary m c 72 rfl (by decide)).trans rfl
theorem S_main_v53 : A m c main_v53 = val_main_v53 (F := F) (m ((c.tc : Thread nD τ).loc main_arg0)) (m ((c.tc : Thread nD τ).loc main_arg1)) (m ((c.tc : Thread nD τ).loc main_arg2)) (m ((c.tc : Thread nD τ).loc main_arg4)) := by
  refine (A_binary m c 73 rfl (by decide) (by decide) (by decide)).trans ?_
  rw [S_main_v52 m c, S_main_cst_12 m c]
  rfl
theorem S_main_v54 : A m c main_v54 = val_main_v54 (F := F) (m ((c.tc : Thread nD τ).loc main_arg1)) (m ((c.tc : Thread nD τ).loc main_arg2)) := by
  refine (A_unary m c 74 rfl (by decide) (by decide)).trans ?_
  rw [S_main_v17 m c]
  rfl
theorem S_main_v55 : A m c main_v55 = val_main_v55 (F := F) (m ((c.tc : Thread nD τ).loc main_arg1)) (m ((c.tc : Thread nD τ).loc main_arg2)) := by
  refine (A_reshape m c 75 rfl (by decide) (by decide)).trans ?_
  rw [S_main_v54 m c]
  rfl
theorem S_main_v56 : A m c main_v56 = val_main_v56 (F := F) (m ((c.tc : Thread nD τ).loc main_arg1)) (m ((c.tc : Thread nD τ).loc main_arg2)) := by
  refine (A_unary m c 76 rfl (by decide) (by decide)).trans ?_
  rw [S_main_v55 m c]
  rfl
theorem S_main_v57 : A m c main_v57 = val_main_v57 (F := F) (m ((c.tc : Thread nD τ).loc main_arg0)) (m ((c.tc : Thread nD τ).loc main_arg1)) (m ((c.tc : Thread nD τ).loc main_arg2)) (m ((c.tc : Thread nD τ).loc main_arg4)) := by
  refine (A_binary m c 77 rfl (by decide) (by decide) (by decide)).trans ?_
  rw [S_main_v35 m c, S_main_v56 m c]
  rfl
theorem S_main_v58 : A m c main_v58 = val_main_v58 (F := F) (m ((c.tc : Thread nD τ).loc main_arg0)) (m ((c.tc : Thread nD τ).loc main_arg1)) (m ((c.tc : Thread nD τ).loc main_arg2)) (m ((c.tc : Thread nD τ).loc main_arg4)) := by
  refine (A_binary m c 78 rfl (by decide) (by decide) (by decide)).trans ?_
  rw [S_main_v26 m c, S_main_v57 m c]
  rfl
theorem S_main_cst_13 : A m c main_cst_13 = val_main_cst_13 (F := F) :=
  (A_nullary m c 79 rfl (by decide)).trans rfl
theorem S_main_v59 : A m c main_v59 = val_main_v59 (F := F) (m ((c.tc : Thread nD τ).loc main_arg0)) (m ((c.tc : Thread nD τ).loc main_arg1)) (m ((c.tc : Thread nD τ).loc main_arg2)) (m ((c.tc : Thread nD τ).loc main_arg4)) := by
  refine (A_binary m c 80 rfl (by decide) (by decide) (by decide)).trans ?_
  rw [S_main_v58 m c, S_main_cst_13 m c]
  rfl
theorem S_main_v60 : A m c main_v60 = val_main_v60 (F := F) (m ((c.tc : Thread nD τ).loc main_arg1)) (m ((c.tc : Thread nD τ).loc main_arg2)) := by
  refine (A_unary m c 81 rfl (by decide) (by decide)).trans ?_
  rw [S_main_v17 m c]
  rfl
theorem S_main_v61 : A m c main_v61 = val_main_v61 (F := F) (m ((c.tc : Thread nD τ).loc main_arg1)) (m ((c.tc : Thread nD τ).loc main_arg2)) := by
  refine (A_reshape m c 82 rfl (by decide) (by decide)).trans ?_
  rw [S_main_v60 m c]
  rfl
theorem S_main_v62 : A m c main_v62 = val_main_v62 (F := F) (m ((c.tc : Thread nD τ).loc main_arg1)) (m ((c.tc : Thread nD τ).loc main_arg2)) := by
  refine (A_unary m c 83 rfl (by decide) (by decide)).trans ?_
  rw [S_main_v61 m c]
  rfl
theorem S_main_v63 : A m c main_v63 = val_main_v63 (F := F) (m ((c.tc : Thread nD τ).loc main_arg0)) (m ((c.tc : Thread nD τ).loc main_arg1)) (m ((c.tc : Thread nD τ).loc main_arg2)) (m ((c.tc : Thread nD τ).loc main_arg4)) := by
  refine (A_binary m c 84 rfl (by decide) (by decide) (by decide)).trans ?_
  rw [S_main_v35 m c, S_main_v62 m c]
  rfl
theorem S_main_v64 : A m c main_v64 = val_main_v64 (F := F) (m ((c.tc : Thread nD τ).loc main_arg0)) (m ((c.tc : Thread nD τ).loc main_arg1)) (m ((c.tc : Thread nD τ).loc main_arg2)) (m ((c.tc : Thread nD τ).loc main_arg4)) := by
  refine (A_binary m c 85 rfl (by decide) (by decide) (by decide)).trans ?_
  rw [S_main_v26 m c, S_main_v63 m c]
  rfl
theorem S_main_cst_14 : A m c main_cst_14 = val_main_cst_14 (F := F) :=
  (A_nullary m c 86 rfl (by decide)).trans rfl
theorem S_main_v65 : A m c main_v65 = val_main_v65 (F := F) (m ((c.tc : Thread nD τ).loc main_arg0)) (m ((c.tc : Thread nD τ).loc main_arg1)) (m ((c.tc : Thread nD τ).loc main_arg2)) (m ((c.tc : Thread nD τ).loc main_arg4)) := by
  refine (A_binary m c 87 rfl (by decide) (by decide) (by decide)).trans ?_
  rw [S_main_v64 m c, S_main_cst_14 m c]
  rfl
theorem S_main_v66 : A m c main_v66 = val_main_v66 (F := F) (m ((c.tc : Thread nD τ).loc main_arg1)) (m ((c.tc : Thread nD τ).loc main_arg2)) := by
  refine (A_unary m c 88 rfl (by decide) (by decide)).trans ?_
  rw [S_main_v17 m c]
  rfl
theorem S_main_v67 : A m c main_v67 = val_main_v67 (F := F) (m ((c.tc : Thread nD τ).loc main_arg1)) (m ((c.tc : Thread nD τ).loc main_arg2)) := by
  refine (A_reshape m c 89 rfl (by decide) (by decide)).trans ?_
  rw [S_main_v66 m c]
  rfl
theorem S_main_v68 : A m c main_v68 = val_main_v68 (F := F) (m ((c.tc : Thread nD τ).loc main_arg1)) (m ((c.tc : Thread nD τ).loc main_arg2)) := by
  refine (A_unary m c 90 rfl (by decide) (by decide)).trans ?_
  rw [S_main_v67 m c]
  rfl
theorem S_main_v69 : A m c main_v69 = val_main_v69 (F := F) (m ((c.tc : Thread nD τ).loc main_arg0)) (m ((c.tc : Thread nD τ).loc main_arg1)) (m ((c.tc : Thread nD τ).loc main_arg2)) (m ((c.tc : Thread nD τ).loc main_arg4)) := by
  refine (A_binary m c 91 rfl (by decide) (by decide) (by decide)).trans ?_
  rw [S_main_v35 m c, S_main_v68 m c]
  rfl
theorem S_main_v70 : A m c main_v70 = val_main_v70 (F := F) (m ((c.tc : Thread nD τ).loc main_arg0)) (m ((c.tc : Thread nD τ).loc main_arg1)) (m ((c.tc : Thread nD τ).loc main_arg2)) (m ((c.tc : Thread nD τ).loc main_arg4)) := by
  refine (A_binary m c 92 rfl (by decide) (by decide) (by decide)).trans ?_
  rw [S_main_v26 m c, S_main_v69 m c]
  rfl
theorem S_main_cst_15 : A m c main_cst_15 = val_main_cst_15 (F := F) :=
  (A_nullary m c 93 rfl (by decide)).trans rfl
theorem S_main_v71 : A m c main_v71 = val_main_v71 (F := F) (m ((c.tc : Thread nD τ).loc main_arg0)) (m ((c.tc : Thread nD τ).loc main_arg1)) (m ((c.tc : Thread nD τ).loc main_arg2)) (m ((c.tc : Thread nD τ).loc main_arg4)) := by
  refine (A_binary m c 94 rfl (by decide) (by decide) (by decide)).trans ?_
  rw [S_main_v70 m c, S_main_cst_15 m c]
  rfl
theorem S_main_v72 : A m c main_v72 = val_main_v72 (F := F) (m ((c.tc : Thread nD τ).loc main_arg1)) (m ((c.tc : Thread nD τ).loc main_arg2)) := by
  refine (A_unary m c 95 rfl (by decide) (by decide)).trans ?_
  rw [S_main_v17 m c]
  rfl
theorem S_main_v73 : A m c main_v73 = val_main_v73 (F := F) (m ((c.tc : Thread nD τ).loc main_arg1)) (m ((c.tc : Thread nD τ).loc main_arg2)) := by
  refine (A_reshape m c 96 rfl (by decide) (by decide)).trans ?_
  rw [S_main_v72 m c]
  rfl
theorem S_main_v74 : A m c main_v74 = val_main_v74 (F := F) (m ((c.tc : Thread nD τ).loc main_arg1)) (m ((c.tc : Thread nD τ).loc main_arg2)) := by
  refine (A_unary m c 97 rfl (by decide) (by decide)).trans ?_
  rw [S_main_v73 m c]
  rfl
theorem S_main_v75 : A m c main_v75 = val_main_v75 (F := F) (m ((c.tc : Thread nD τ).loc main_arg0)) (m ((c.tc : Thread nD τ).loc main_arg1)) (m ((c.tc : Thread nD τ).loc main_arg2)) (m ((c.tc : Thread nD τ).loc main_arg4)) := by
  refine (A_binary m c 98 rfl (by decide) (by decide) (by decide)).trans ?_
  rw [S_main_v35 m c, S_main_v74 m c]
  rfl
theorem S_main_v76 : A m c main_v76 = val_main_v76 (F := F) (m ((c.tc : Thread nD τ).loc main_arg0)) (m ((c.tc : Thread nD τ).loc main_arg1)) (m ((c.tc : Thread nD τ).loc main_arg2)) (m ((c.tc : Thread nD τ).loc main_arg4)) := by
  refine (A_binary m c 99 rfl (by decide) (by decide) (by decide)).trans ?_
  rw [S_main_v26 m c, S_main_v75 m c]
  rfl
theorem S_main_cst_16 : A m c main_cst_16 = val_main_cst_16 (F := F) :=
  (A_nullary m c 100 rfl (by decide)).trans rfl
theorem S_main_v77 : A m c main_v77 = val_main_v77 (F := F) (m ((c.tc : Thread nD τ).loc main_arg0)) (m ((c.tc : Thread nD τ).loc main_arg1)) (m ((c.tc : Thread nD τ).loc main_arg2)) (m ((c.tc : Thread nD τ).loc main_arg4)) := by
  refine (A_binary m c 101 rfl (by decide) (by decide) (by decide)).trans ?_
  rw [S_main_v76 m c, S_main_cst_16 m c]
  rfl
theorem S_main_v78 : A m c main_v78 = val_main_v78 (F := F) (m ((c.tc : Thread nD τ).loc main_arg1)) (m ((c.tc : Thread nD τ).loc main_arg2)) := by
  refine (A_unary m c 102 rfl (by decide) (by decide)).trans ?_
  rw [S_main_v17 m c]
  rfl
theorem S_main_v79 : A m c main_v79 = val_main_v79 (F := F) (m ((c.tc : Thread nD τ).loc main_arg1)) (m ((c.tc : Thread nD τ).loc main_arg2)) := by
  refine (A_reshape m c 103 rfl (by decide) (by decide)).trans ?_
  rw [S_main_v78 m c]
  rfl
theorem S_main_v80 : A m c main_v80 = val_main_v80 (F := F) (m ((c.tc : Thread nD τ).loc main_arg1)) (m ((c.tc : Thread nD τ).loc main_arg2)) := by
  refine (A_unary m c 104 rfl (by decide) (by decide)).trans ?_
  rw [S_main_v79 m c]
  rfl
theorem S_main_v81 : A m c main_v81 = val_main_v81 (F := F) (m ((c.tc : Thread nD τ).loc main_arg0)) (m ((c.tc : Thread nD τ).loc main_arg1)) (m ((c.tc : Thread nD τ).loc main_arg2)) (m ((c.tc : Thread nD τ).loc main_arg4)) := by
  refine (A_binary m c 105 rfl (by decide) (by decide) (by decide)).trans ?_
  rw [S_main_v35 m c, S_main_v80 m c]
  rfl
theorem S_main_v82 : A m c main_v82 = val_main_v82 (F := F) (m ((c.tc : Thread nD τ).loc main_arg0)) (m ((c.tc : Thread nD τ).loc main_arg1)) (m ((c.tc : Thread nD τ).loc main_arg2)) (m ((c.tc : Thread nD τ).loc main_arg4)) := by
  refine (A_binary m c 106 rfl (by decide) (by decide) (by decide)).trans ?_
  rw [S_main_v26 m c, S_main_v81 m c]
  rfl
theorem S_main_cst_17 : A m c main_cst_17 = val_main_cst_17 (F := F) :=
  (A_nullary m c 107 rfl (by decide)).trans rfl
theorem S_main_v83 : A m c main_v83 = val_main_v83 (F := F) (m ((c.tc : Thread nD τ).loc main_arg0)) (m ((c.tc : Thread nD τ).loc main_arg1)) (m ((c.tc : Thread nD τ).loc main_arg2)) (m ((c.tc : Thread nD τ).loc main_arg4)) := by
  refine (A_binary m c 108 rfl (by decide) (by decide) (by decide)).trans ?_
  rw [S_main_v82 m c, S_main_cst_17 m c]
  rfl
theorem S_main_v84 : A m c main_v84 = val_main_v84 (F := F) (m ((c.tc : Thread nD τ).loc main_arg0)) (m ((c.tc : Thread nD τ).loc main_arg1)) (m ((c.tc : Thread nD τ).loc main_arg2)) (m ((c.tc : Thread nD τ).loc main_arg4)) := by
  refine (A_unary m c 109 rfl (by decide) (by decide)).trans ?_
  rw [S_main_v41 m c]
  rfl
theorem S_main_v85 : A m c main_v85 = val_main_v85 (F := F) (m ((c.tc : Thread nD τ).loc main_arg0)) (m ((c.tc : Thread nD τ).loc main_arg1)) (m ((c.tc : Thread nD τ).loc main_arg2)) (m ((c.tc : Thread nD τ).loc main_arg4)) := by
  refine (A_unary m c 110 rfl (by decide) (by decide)).trans ?_
  rw [S_main_v47 m c]
  rfl
theorem S_main_v86 : A m c main_v86 = val_main_v86 (F := F) (m ((c.tc : Thread nD τ).loc main_arg0)) (m ((c.tc : Thread nD τ).loc main_arg1)) (m ((c.tc : Thread nD τ).loc main_arg2)) (m ((c.tc : Thread nD τ).loc main_arg4)) := by
  refine (A_unary m c 111 rfl (by decide) (by decide)).trans ?_
  rw [S_main_v53 m c]
  rfl
theorem S_main_v87 : A m c main_v87 = val_main_v87 (F := F) (m ((c.tc : Thread nD τ).loc main_arg0)) (m ((c.tc : Thread nD τ).loc main_arg1)) (m ((c.tc : Thread nD τ).loc main_arg2)) (m ((c.tc : Thread nD τ).loc main_arg4)) := by
  refine (A_unary m c 112 rfl (by decide) (by decide)).trans ?_
  rw [S_main_v59 m c]
  rfl
theorem S_main_v88 : A m c main_v88 = val_main_v88 (F := F) (m ((c.tc : Thread nD τ).loc main_arg0)) (m ((c.tc : Thread nD τ).loc main_arg1)) (m ((c.tc : Thread nD τ).loc main_arg2)) (m ((c.tc : Thread nD τ).loc main_arg4)) := by
  refine (A_unary m c 113 rfl (by decide) (by decide)).trans ?_
  rw [S_main_v65 m c]
  rfl
theorem S_main_v89 : A m c main_v89 = val_main_v89 (F := F) (m ((c.tc : Thread nD τ).loc main_arg0)) (m ((c.tc : Thread nD τ).loc main_arg1)) (m ((c.tc : Thread nD τ).loc main_arg2)) (m ((c.tc : Thread nD τ).loc main_arg4)) := by
  refine (A_unary m c 114 rfl (by decide) (by decide)).trans ?_
  rw [S_main_v71 m c]
  rfl
theorem S_main_v90 : A m c main_v90 = val_main_v90 (F := F) (m ((c.tc : Thread nD τ).loc main_arg0)) (m ((c.tc : Thread nD τ).loc main_arg1)) (m ((c.tc : Thread nD τ).loc main_arg2)) (m ((c.tc : Thread nD τ).loc main_arg4)) := by
  refine (A_unary m c 115 rfl (by decide) (by decide)).trans ?_
  rw [S_main_v77 m c]
  rfl
theorem S_main_v91 : A m c main_v91 = val_main_v91 (F := F) (m ((c.tc : Thread nD τ).loc main_arg0)) (m ((c.tc : Thread nD τ).loc main_arg1)) (m ((c.tc : Thread nD τ).loc main_arg2)) (m ((c.tc : Thread nD τ).loc main_arg4)) := by
  refine (A_unary m c 116 rfl (by decide) (by decide)).trans ?_
  rw [S_main_v83 m c]
  rfl
theorem S_main_v92 : A m c main_v92 = val_main_v92 (F := F) (m ((c.tc : Thread nD τ).loc main_arg0)) (m ((c.tc : Thread nD τ).loc main_arg1)) (m ((c.tc : Thread nD τ).loc main_arg2)) (m ((c.tc : Thread nD τ).loc main_arg4)) := by
  refine (A_nary m c 117 rfl (by decide) (by decide) (by decide) (by decide) (by decide) (by decide) (by decide) (by decide) (by decide)).trans ?_
  rw [S_main_v84 m c, S_main_v85 m c, S_main_v86 m c, S_main_v87 m c, S_main_v88 m c, S_main_v89 m c, S_main_v90 m c, S_main_v91 m c]
  rfl
theorem S_main_v93 : A m c main_v93 = val_main_v93 (F := F) (m ((c.tc : Thread nD τ).loc main_arg5)) := by
  refine (A_unary m c 118 rfl (by decide) (by decide)).trans ?_
  rw [S_main_arg5 m c]
  rfl
theorem S_main_call1_c : A m c main_call1_c = val_main_call1_c (F := F) :=
  (A_nullary m c 119 rfl (by decide)).trans rfl
theorem S_main_call1_v0 : A m c main_call1_v0 = val_main_call1_v0 (F := F) := by
  refine (A_tunary m c 120 rfl (by decide) (by decide)).trans ?_
  rw [S_main_call1_c m c]
  rfl
theorem S_main_call1_v1 : A m c main_call1_v1 = val_main_call1_v1 (F := F) (m ((c.tc : Thread nD τ).loc main_arg5)) := by
  refine (A_tbinary m c 121 rfl (by decide) (by decide) (by decide)).trans ?_
  rw [S_main_v93 m c, S_main_call1_v0 m c]
  rfl
theorem S_main_call1_c_0 : A m c main_call1_c_0 = val_main_call1_c_0 (F := F) :=
  (A_nullary m c 122 rfl (by decide)).trans rfl
theorem S_main_call1_v2 : A m c main_call1_v2 = val_main_call1_v2 (F := F) := by
  refine (A_tunary m c 123 rfl (by decide) (by decide)).trans ?_
  rw [S_main_call1_c_0 m c]
  rfl

end Cert.ReferenceIdeal.Stage

end
-- ==== Proof.RefStageC.lean ====
/-
  The reference program's stages, positions 124 to 185 of its line: after the whole line, the buffer an operation
  writes holds the stage value of that operation, as a function of the program's arguments. Each statement is the
  operation's one-step equation followed by the statements of the buffers it reads.
-/
import proofs.«421868_j31318901522602_3_alg».proof.Proof.RefStageB

set_option maxRecDepth 16384

noncomputable section

namespace Cert.ReferenceIdeal.Stage

open Cert.ReferenceIdeal Cert.ReferenceIdeal.Gen Cert.ReferenceIdeal.Value Cert.ReferenceIdeal.Read Idealize.ShloMosaic Idealize.ShloMosaic.TcCoe
open Idealize.SL.Sem Idealize.ShloMosaic.StableHlo Cert.LibAfter

variable {F : FTy → Type} [FloatOps F]

variable (m : (ℓ : Loc nD τ sig) → Buf (Elt F) ℓ) (c : Dev nD)

theorem S_main_call1_v3 : A m c main_call1_v3 = val_main_call1_v3 (F := F) (m ((c.tc : Thread nD τ).loc main_arg5)) := by
  refine (A_tbinary m c 124 rfl (by decide) (by decide) (by decide)).trans ?_
  rw [S_main_v93 m c, S_main_call1_v2 m c]
  rfl
theorem S_main_call1_v4 : A m c main_call1_v4 = val_main_call1_v4 (F := F) (m ((c.tc : Thread nD τ).loc main_arg5)) := by
  refine (A_tternary m c 125 rfl (by decide) (by decide) (by decide) (by decide)).trans ?_
  rw [S_main_call1_v1 m c, S_main_call1_v3 m c, S_main_v93 m c]
  rfl
theorem S_main_call1_v5 : A m c main_call1_v5 = val_main_call1_v5 (F := F) (m ((c.tc : Thread nD τ).loc main_arg5)) := by
  refine (A_reshape m c 126 rfl (by decide) (by decide)).trans ?_
  rw [S_main_call1_v4 m c]
  rfl
theorem S_main_call1_c_1 : A m c main_call1_c_1 = val_main_call1_c_1 (F := F) :=
  (A_nullary m c 127 rfl (by decide)).trans rfl
theorem S_main_call1_c_2 : A m c main_call1_c_2 = val_main_call1_c_2 (F := F) :=
  (A_nullary m c 128 rfl (by decide)).trans rfl
theorem S_main_call1_v6 : A m c main_call1_v6 = val_main_call1_v6 (F := F) := by
  refine (A_tunary m c 129 rfl (by decide) (by decide)).trans ?_
  rw [S_main_call1_c_2 m c]
  rfl
theorem S_main_call1_v7 : A m c main_call1_v7 = val_main_call1_v7 (F := F) (m ((c.tc : Thread nD τ).loc main_arg5)) := by
  refine (A_tbinary m c 130 rfl (by decide) (by decide) (by decide)).trans ?_
  rw [S_main_call1_v5 m c, S_main_call1_v6 m c]
  rfl
theorem S_main_call1_v8 : A m c main_call1_v8 = val_main_call1_v8 (F := F) := by
  refine (A_tunary m c 131 rfl (by decide) (by decide)).trans ?_
  rw [S_main_call1_c_1 m c]
  rfl
theorem S_main_call1_v9 : A m c main_call1_v9 = val_main_call1_v9 (F := F) := by
  refine (A_tunary m c 132 rfl (by decide) (by decide)).trans ?_
  rw [S_main_call1_v8 m c]
  rfl
theorem S_main_call1_v10 : A m c main_call1_v10 = val_main_call1_v10 (F := F) (m ((c.tc : Thread nD τ).loc main_arg5)) := by
  refine (A_tbinary m c 133 rfl (by decide) (by decide) (by decide)).trans ?_
  rw [S_main_call1_v5 m c, S_main_call1_v9 m c]
  rfl
theorem S_main_call1_v11 : A m c main_call1_v11 = val_main_call1_v11 (F := F) (m ((c.tc : Thread nD τ).loc main_arg5)) := by
  refine (A_tbinary m c 134 rfl (by decide) (by decide) (by decide)).trans ?_
  rw [S_main_call1_v7 m c, S_main_call1_v10 m c]
  rfl
theorem S_main_call1_c_3 : A m c main_call1_c_3 = val_main_call1_c_3 (F := F) :=
  (A_nullary m c 135 rfl (by decide)).trans rfl
theorem S_main_call1_v12 : A m c main_call1_v12 = val_main_call1_v12 (F := F) (m ((c.tc : Thread nD τ).loc main_arg5)) := by
  refine (A_tbinary m c 136 rfl (by decide) (by decide) (by decide)).trans ?_
  rw [S_main_call1_v11 m c, S_main_call1_c_3 m c]
  rfl
theorem S_main_call1_v13 : A m c main_call1_v13 = val_main_call1_v13 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  refine (A_tbinary m c 137 rfl (by decide) (by decide) (by decide)).trans ?_
  rw [S_main_v92 m c, S_main_call1_v5 m c]
  rfl
theorem S_main_call1_cst : A m c main_call1_cst = val_main_call1_cst (F := F) :=
  (A_nullary m c 138 rfl (by decide)).trans rfl
theorem S_main_call1_v14 : A m c main_call1_v14 = val_main_call1_v14 (F := F) := by
  refine (A_tunary m c 139 rfl (by decide) (by decide)).trans ?_
  rw [S_main_call1_cst m c]
  rfl
theorem S_main_v94 : A m c main_v94 = val_main_v94 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  refine (A_tternary m c 140 rfl (by decide) (by decide) (by decide) (by decide)).trans ?_
  rw [S_main_call1_v12 m c, S_main_call1_v13 m c, S_main_call1_v14 m c]
  rfl
theorem S_main_v95 : A m c main_v95 = val_main_v95 (F := F) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) := by
  refine (A_reshape m c 141 rfl (by decide) (by decide)).trans ?_
  rw [S_main_v94 m c]
  rfl
theorem S_main_c_18 : A m c main_c_18 = val_main_c_18 (F := F) :=
  (A_nullary m c 142 rfl (by decide)).trans rfl
theorem S_main_v96 : A m c main_v96 = val_main_v96 (F := F) := by
  refine (A_unary m c 143 rfl (by decide) (by decide)).trans ?_
  rw [S_main_c_18 m c]
  rfl
theorem S_main_v97 : A m c main_v97 = val_main_v97 (F := F) (m ((c.tc : Thread nD τ).loc main_arg5)) := by
  refine (A_binary m c 144 rfl (by decide) (by decide) (by decide)).trans ?_
  rw [S_main_arg5 m c, S_main_v96 m c]
  rfl
theorem S_main_c_19 : A m c main_c_19 = val_main_c_19 (F := F) :=
  (A_nullary m c 145 rfl (by decide)).trans rfl
theorem S_main_v98 : A m c main_v98 = val_main_v98 (F := F) := by
  refine (A_unary m c 146 rfl (by decide) (by decide)).trans ?_
  rw [S_main_c_19 m c]
  rfl
theorem S_main_v99 : A m c main_v99 = val_main_v99 (F := F) (m ((c.tc : Thread nD τ).loc main_arg5)) := by
  refine (A_binary m c 147 rfl (by decide) (by decide) (by decide)).trans ?_
  rw [S_main_arg5 m c, S_main_v98 m c]
  rfl
theorem S_main_v100 : A m c main_v100 = val_main_v100 (F := F) (m ((c.tc : Thread nD τ).loc main_arg5)) := by
  refine (A_ternary m c 148 rfl (by decide) (by decide) (by decide) (by decide)).trans ?_
  rw [S_main_v97 m c, S_main_v99 m c, S_main_arg5 m c]
  rfl
theorem S_main_v101 : A m c main_v101 = val_main_v101 (F := F) (m ((c.tc : Thread nD τ).loc main_arg5)) := by
  refine (A_unary m c 149 rfl (by decide) (by decide)).trans ?_
  rw [S_main_v100 m c]
  rfl
theorem S_main_v102 : A m c main_v102 = val_main_v102 (F := F) (m ((c.tc : Thread nD τ).loc main_arg3)) (m ((c.tc : Thread nD τ).loc main_arg5)) := by
  refine (A_binary m c 150 rfl (by decide) (by decide) (by decide)).trans ?_
  rw [S_main_arg3 m c, S_main_v101 m c]
  rfl
theorem S_main_v103 : A m c main_v103 = val_main_v103 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (A_binary m c 151 rfl (by decide) (by decide) (by decide)).trans ?_
  rw [S_main_v95 m c, S_main_v102 m c]
  rfl
theorem S_main_v104 : A m c main_v104 = val_main_v104 (F := F) (m ((c.tc : Thread nD τ).loc main_arg6)) := by
  refine (A_unary m c 152 rfl (by decide) (by decide)).trans ?_
  rw [S_main_arg6 m c]
  rfl
theorem S_main_v105 : A m c main_v105 = val_main_v105 (F := F) (m ((c.tc : Thread nD τ).loc main_arg6)) := by
  refine (A_reshape m c 153 rfl (by decide) (by decide)).trans ?_
  rw [S_main_v104 m c]
  rfl
theorem S_main_c_20 : A m c main_c_20 = val_main_c_20 (F := F) :=
  (A_nullary m c 154 rfl (by decide)).trans rfl
theorem S_main_v106 : A m c main_v106 = val_main_v106 (F := F) := by
  refine (A_unary m c 155 rfl (by decide) (by decide)).trans ?_
  rw [S_main_c_20 m c]
  rfl
theorem S_main_v107 : A m c main_v107 = val_main_v107 (F := F) (m ((c.tc : Thread nD τ).loc main_arg6)) := by
  refine (A_binary m c 156 rfl (by decide) (by decide) (by decide)).trans ?_
  rw [S_main_v105 m c, S_main_v106 m c]
  rfl
theorem S_main_c_21 : A m c main_c_21 = val_main_c_21 (F := F) :=
  (A_nullary m c 157 rfl (by decide)).trans rfl
theorem S_main_v108 : A m c main_v108 = val_main_v108 (F := F) := by
  refine (A_unary m c 158 rfl (by decide) (by decide)).trans ?_
  rw [S_main_c_21 m c]
  rfl
theorem S_main_v109 : A m c main_v109 = val_main_v109 (F := F) (m ((c.tc : Thread nD τ).loc main_arg6)) := by
  refine (A_binary m c 159 rfl (by decide) (by decide) (by decide)).trans ?_
  rw [S_main_v105 m c, S_main_v108 m c]
  rfl
theorem S_main_v110 : A m c main_v110 = val_main_v110 (F := F) (m ((c.tc : Thread nD τ).loc main_arg6)) := by
  refine (A_ternary m c 160 rfl (by decide) (by decide) (by decide) (by decide)).trans ?_
  rw [S_main_v107 m c, S_main_v109 m c, S_main_v105 m c]
  rfl
theorem S_main_v111 : A m c main_v111 = val_main_v111 (F := F) (m ((c.tc : Thread nD τ).loc main_arg6)) := by
  refine (A_unary m c 161 rfl (by decide) (by decide)).trans ?_
  rw [S_main_v110 m c]
  rfl
theorem S_main_v112 : A m c main_v112 = val_main_v112 (F := F) (m ((c.tc : Thread nD τ).loc main_arg0)) (m ((c.tc : Thread nD τ).loc main_arg6)) := by
  refine (A_binary m c 162 rfl (by decide) (by decide) (by decide)).trans ?_
  rw [S_main_arg0 m c, S_main_v111 m c]
  rfl
theorem S_main_v113 : A m c main_v113 = val_main_v113 (F := F) (m ((c.tc : Thread nD τ).loc main_arg6)) := by
  refine (A_unary m c 163 rfl (by decide) (by decide)).trans ?_
  rw [S_main_arg6 m c]
  rfl
theorem S_main_v114 : A m c main_v114 = val_main_v114 (F := F) (m ((c.tc : Thread nD τ).loc main_arg6)) := by
  refine (A_reshape m c 164 rfl (by decide) (by decide)).trans ?_
  rw [S_main_v113 m c]
  rfl
theorem S_main_c_22 : A m c main_c_22 = val_main_c_22 (F := F) :=
  (A_nullary m c 165 rfl (by decide)).trans rfl
theorem S_main_v115 : A m c main_v115 = val_main_v115 (F := F) := by
  refine (A_unary m c 166 rfl (by decide) (by decide)).trans ?_
  rw [S_main_c_22 m c]
  rfl
theorem S_main_v116 : A m c main_v116 = val_main_v116 (F := F) (m ((c.tc : Thread nD τ).loc main_arg6)) := by
  refine (A_binary m c 167 rfl (by decide) (by decide) (by decide)).trans ?_
  rw [S_main_v114 m c, S_main_v115 m c]
  rfl
theorem S_main_c_23 : A m c main_c_23 = val_main_c_23 (F := F) :=
  (A_nullary m c 168 rfl (by decide)).trans rfl
theorem S_main_v117 : A m c main_v117 = val_main_v117 (F := F) := by
  refine (A_unary m c 169 rfl (by decide) (by decide)).trans ?_
  rw [S_main_c_23 m c]
  rfl
theorem S_main_v118 : A m c main_v118 = val_main_v118 (F := F) (m ((c.tc : Thread nD τ).loc main_arg6)) := by
  refine (A_binary m c 170 rfl (by decide) (by decide) (by decide)).trans ?_
  rw [S_main_v114 m c, S_main_v117 m c]
  rfl
theorem S_main_v119 : A m c main_v119 = val_main_v119 (F := F) (m ((c.tc : Thread nD τ).loc main_arg6)) := by
  refine (A_ternary m c 171 rfl (by decide) (by decide) (by decide) (by decide)).trans ?_
  rw [S_main_v116 m c, S_main_v118 m c, S_main_v114 m c]
  rfl
theorem S_main_v120 : A m c main_v120 = val_main_v120 (F := F) (m ((c.tc : Thread nD τ).loc main_arg6)) := by
  refine (A_unary m c 172 rfl (by decide) (by decide)).trans ?_
  rw [S_main_v119 m c]
  rfl
theorem S_main_v121 : A m c main_v121 = val_main_v121 (F := F) (m ((c.tc : Thread nD τ).loc main_arg0)) (m ((c.tc : Thread nD τ).loc main_arg6)) := by
  refine (A_binary m c 173 rfl (by decide) (by decide) (by decide)).trans ?_
  rw [S_main_arg0 m c, S_main_v120 m c]
  rfl
theorem S_main_v122 : A m c main_v122 = val_main_v122 (F := F) (m ((c.tc : Thread nD τ).loc main_arg1)) (m ((c.tc : Thread nD τ).loc main_arg2)) := by
  refine (A_unary m c 174 rfl (by decide) (by decide)).trans ?_
  rw [S_main_v17 m c]
  rfl
theorem S_main_v123 : A m c main_v123 = val_main_v123 (F := F) (m ((c.tc : Thread nD τ).loc main_arg1)) (m ((c.tc : Thread nD τ).loc main_arg2)) := by
  refine (A_reshape m c 175 rfl (by decide) (by decide)).trans ?_
  rw [S_main_v122 m c]
  rfl
theorem S_main_v124 : A m c main_v124 = val_main_v124 (F := F) (m ((c.tc : Thread nD τ).loc main_arg1)) (m ((c.tc : Thread nD τ).loc main_arg2)) := by
  refine (A_unary m c 176 rfl (by decide) (by decide)).trans ?_
  rw [S_main_v123 m c]
  rfl
theorem S_main_v125 : A m c main_v125 = val_main_v125 (F := F) (m ((c.tc : Thread nD τ).loc main_arg0)) (m ((c.tc : Thread nD τ).loc main_arg1)) (m ((c.tc : Thread nD τ).loc main_arg2)) (m ((c.tc : Thread nD τ).loc main_arg6)) := by
  refine (A_binary m c 177 rfl (by decide) (by decide) (by decide)).trans ?_
  rw [S_main_v121 m c, S_main_v124 m c]
  rfl
theorem S_main_v126 : A m c main_v126 = val_main_v126 (F := F) (m ((c.tc : Thread nD τ).loc main_arg0)) (m ((c.tc : Thread nD τ).loc main_arg1)) (m ((c.tc : Thread nD τ).loc main_arg2)) (m ((c.tc : Thread nD τ).loc main_arg6)) := by
  refine (A_binary m c 178 rfl (by decide) (by decide) (by decide)).trans ?_
  rw [S_main_v112 m c, S_main_v125 m c]
  rfl
theorem S_main_cst_24 : A m c main_cst_24 = val_main_cst_24 (F := F) :=
  (A_nullary m c 179 rfl (by decide)).trans rfl
theorem S_main_v127 : A m c main_v127 = val_main_v127 (F := F) (m ((c.tc : Thread nD τ).loc main_arg0)) (m ((c.tc : Thread nD τ).loc main_arg1)) (m ((c.tc : Thread nD τ).loc main_arg2)) (m ((c.tc : Thread nD τ).loc main_arg6)) := by
  refine (A_binary m c 180 rfl (by decide) (by decide) (by decide)).trans ?_
  rw [S_main_v126 m c, S_main_cst_24 m c]
  rfl
theorem S_main_v128 : A m c main_v128 = val_main_v128 (F := F) (m ((c.tc : Thread nD τ).loc main_arg1)) (m ((c.tc : Thread nD τ).loc main_arg2)) := by
  refine (A_unary m c 181 rfl (by decide) (by decide)).trans ?_
  rw [S_main_v17 m c]
  rfl
theorem S_main_v129 : A m c main_v129 = val_main_v129 (F := F) (m ((c.tc : Thread nD τ).loc main_arg1)) (m ((c.tc : Thread nD τ).loc main_arg2)) := by
  refine (A_reshape m c 182 rfl (by decide) (by decide)).trans ?_
  rw [S_main_v128 m c]
  rfl
theorem S_main_v130 : A m c main_v130 = val_main_v130 (F := F) (m ((c.tc : Thread nD τ).loc main_arg1)) (m ((c.tc : Thread nD τ).loc main_arg2)) := by
  refine (A_unary m c 183 rfl (by decide) (by decide)).trans ?_
  rw [S_main_v129 m c]
  rfl
theorem S_main_v131 : A m c main_v131 = val_main_v131 (F := F) (m ((c.tc : Thread nD τ).loc main_arg0)) (m ((c.tc : Thread nD τ).loc main_arg1)) (m ((c.tc : Thread nD τ).loc main_arg2)) (m ((c.tc : Thread nD τ).loc main_arg6)) := by
  refine (A_binary m c 184 rfl (by decide) (by decide) (by decide)).trans ?_
  rw [S_main_v121 m c, S_main_v130 m c]
  rfl
theorem S_main_v132 : A m c main_v132 = val_main_v132 (F := F) (m ((c.tc : Thread nD τ).loc main_arg0)) (m ((c.tc : Thread nD τ).loc main_arg1)) (m ((c.tc : Thread nD τ).loc main_arg2)) (m ((c.tc : Thread nD τ).loc main_arg6)) := by
  refine (A_binary m c 185 rfl (by decide) (by decide) (by decide)).trans ?_
  rw [S_main_v112 m c, S_main_v131 m c]
  rfl

end Cert.ReferenceIdeal.Stage

end
-- ==== Proof.RefStageD.lean ====
/-
  The reference program's stages, positions 186 to 247 of its line: after the whole line, the buffer an operation
  writes holds the stage value of that operation, as a function of the program's arguments. Each statement is the
  operation's one-step equation followed by the statements of the buffers it reads.
-/
import proofs.«421868_j31318901522602_3_alg».proof.Proof.RefStageC

set_option maxRecDepth 16384

noncomputable section

namespace Cert.ReferenceIdeal.Stage

open Cert.ReferenceIdeal Cert.ReferenceIdeal.Gen Cert.ReferenceIdeal.Value Cert.ReferenceIdeal.Read Idealize.ShloMosaic Idealize.ShloMosaic.TcCoe
open Idealize.SL.Sem Idealize.ShloMosaic.StableHlo Cert.LibAfter

variable {F : FTy → Type} [FloatOps F]

variable (m : (ℓ : Loc nD τ sig) → Buf (Elt F) ℓ) (c : Dev nD)

theorem S_main_cst_25 : A m c main_cst_25 = val_main_cst_25 (F := F) :=
  (A_nullary m c 186 rfl (by decide)).trans rfl
theorem S_main_v133 : A m c main_v133 = val_main_v133 (F := F) (m ((c.tc : Thread nD τ).loc main_arg0)) (m ((c.tc : Thread nD τ).loc main_arg1)) (m ((c.tc : Thread nD τ).loc main_arg2)) (m ((c.tc : Thread nD τ).loc main_arg6)) := by
  refine (A_binary m c 187 rfl (by decide) (by decide) (by decide)).trans ?_
  rw [S_main_v132 m c, S_main_cst_25 m c]
  rfl
theorem S_main_v134 : A m c main_v134 = val_main_v134 (F := F) (m ((c.tc : Thread nD τ).loc main_arg1)) (m ((c.tc : Thread nD τ).loc main_arg2)) := by
  refine (A_unary m c 188 rfl (by decide) (by decide)).trans ?_
  rw [S_main_v17 m c]
  rfl
theorem S_main_v135 : A m c main_v135 = val_main_v135 (F := F) (m ((c.tc : Thread nD τ).loc main_arg1)) (m ((c.tc : Thread nD τ).loc main_arg2)) := by
  refine (A_reshape m c 189 rfl (by decide) (by decide)).trans ?_
  rw [S_main_v134 m c]
  rfl
theorem S_main_v136 : A m c main_v136 = val_main_v136 (F := F) (m ((c.tc : Thread nD τ).loc main_arg1)) (m ((c.tc : Thread nD τ).loc main_arg2)) := by
  refine (A_unary m c 190 rfl (by decide) (by decide)).trans ?_
  rw [S_main_v135 m c]
  rfl
theorem S_main_v137 : A m c main_v137 = val_main_v137 (F := F) (m ((c.tc : Thread nD τ).loc main_arg0)) (m ((c.tc : Thread nD τ).loc main_arg1)) (m ((c.tc : Thread nD τ).loc main_arg2)) (m ((c.tc : Thread nD τ).loc main_arg6)) := by
  refine (A_binary m c 191 rfl (by decide) (by decide) (by decide)).trans ?_
  rw [S_main_v121 m c, S_main_v136 m c]
  rfl
theorem S_main_v138 : A m c main_v138 = val_main_v138 (F := F) (m ((c.tc : Thread nD τ).loc main_arg0)) (m ((c.tc : Thread nD τ).loc main_arg1)) (m ((c.tc : Thread nD τ).loc main_arg2)) (m ((c.tc : Thread nD τ).loc main_arg6)) := by
  refine (A_binary m c 192 rfl (by decide) (by decide) (by decide)).trans ?_
  rw [S_main_v112 m c, S_main_v137 m c]
  rfl
theorem S_main_cst_26 : A m c main_cst_26 = val_main_cst_26 (F := F) :=
  (A_nullary m c 193 rfl (by decide)).trans rfl
theorem S_main_v139 : A m c main_v139 = val_main_v139 (F := F) (m ((c.tc : Thread nD τ).loc main_arg0)) (m ((c.tc : Thread nD τ).loc main_arg1)) (m ((c.tc : Thread nD τ).loc main_arg2)) (m ((c.tc : Thread nD τ).loc main_arg6)) := by
  refine (A_binary m c 194 rfl (by decide) (by decide) (by decide)).trans ?_
  rw [S_main_v138 m c, S_main_cst_26 m c]
  rfl
theorem S_main_v140 : A m c main_v140 = val_main_v140 (F := F) (m ((c.tc : Thread nD τ).loc main_arg1)) (m ((c.tc : Thread nD τ).loc main_arg2)) := by
  refine (A_unary m c 195 rfl (by decide) (by decide)).trans ?_
  rw [S_main_v17 m c]
  rfl
theorem S_main_v141 : A m c main_v141 = val_main_v141 (F := F) (m ((c.tc : Thread nD τ).loc main_arg1)) (m ((c.tc : Thread nD τ).loc main_arg2)) := by
  refine (A_reshape m c 196 rfl (by decide) (by decide)).trans ?_
  rw [S_main_v140 m c]
  rfl
theorem S_main_v142 : A m c main_v142 = val_main_v142 (F := F) (m ((c.tc : Thread nD τ).loc main_arg1)) (m ((c.tc : Thread nD τ).loc main_arg2)) := by
  refine (A_unary m c 197 rfl (by decide) (by decide)).trans ?_
  rw [S_main_v141 m c]
  rfl
theorem S_main_v143 : A m c main_v143 = val_main_v143 (F := F) (m ((c.tc : Thread nD τ).loc main_arg0)) (m ((c.tc : Thread nD τ).loc main_arg1)) (m ((c.tc : Thread nD τ).loc main_arg2)) (m ((c.tc : Thread nD τ).loc main_arg6)) := by
  refine (A_binary m c 198 rfl (by decide) (by decide) (by decide)).trans ?_
  rw [S_main_v121 m c, S_main_v142 m c]
  rfl
theorem S_main_v144 : A m c main_v144 = val_main_v144 (F := F) (m ((c.tc : Thread nD τ).loc main_arg0)) (m ((c.tc : Thread nD τ).loc main_arg1)) (m ((c.tc : Thread nD τ).loc main_arg2)) (m ((c.tc : Thread nD τ).loc main_arg6)) := by
  refine (A_binary m c 199 rfl (by decide) (by decide) (by decide)).trans ?_
  rw [S_main_v112 m c, S_main_v143 m c]
  rfl
theorem S_main_cst_27 : A m c main_cst_27 = val_main_cst_27 (F := F) :=
  (A_nullary m c 200 rfl (by decide)).trans rfl
theorem S_main_v145 : A m c main_v145 = val_main_v145 (F := F) (m ((c.tc : Thread nD τ).loc main_arg0)) (m ((c.tc : Thread nD τ).loc main_arg1)) (m ((c.tc : Thread nD τ).loc main_arg2)) (m ((c.tc : Thread nD τ).loc main_arg6)) := by
  refine (A_binary m c 201 rfl (by decide) (by decide) (by decide)).trans ?_
  rw [S_main_v144 m c, S_main_cst_27 m c]
  rfl
theorem S_main_v146 : A m c main_v146 = val_main_v146 (F := F) (m ((c.tc : Thread nD τ).loc main_arg1)) (m ((c.tc : Thread nD τ).loc main_arg2)) := by
  refine (A_unary m c 202 rfl (by decide) (by decide)).trans ?_
  rw [S_main_v17 m c]
  rfl
theorem S_main_v147 : A m c main_v147 = val_main_v147 (F := F) (m ((c.tc : Thread nD τ).loc main_arg1)) (m ((c.tc : Thread nD τ).loc main_arg2)) := by
  refine (A_reshape m c 203 rfl (by decide) (by decide)).trans ?_
  rw [S_main_v146 m c]
  rfl
theorem S_main_v148 : A m c main_v148 = val_main_v148 (F := F) (m ((c.tc : Thread nD τ).loc main_arg1)) (m ((c.tc : Thread nD τ).loc main_arg2)) := by
  refine (A_unary m c 204 rfl (by decide) (by decide)).trans ?_
  rw [S_main_v147 m c]
  rfl
theorem S_main_v149 : A m c main_v149 = val_main_v149 (F := F) (m ((c.tc : Thread nD τ).loc main_arg0)) (m ((c.tc : Thread nD τ).loc main_arg1)) (m ((c.tc : Thread nD τ).loc main_arg2)) (m ((c.tc : Thread nD τ).loc main_arg6)) := by
  refine (A_binary m c 205 rfl (by decide) (by decide) (by decide)).trans ?_
  rw [S_main_v121 m c, S_main_v148 m c]
  rfl
theorem S_main_v150 : A m c main_v150 = val_main_v150 (F := F) (m ((c.tc : Thread nD τ).loc main_arg0)) (m ((c.tc : Thread nD τ).loc main_arg1)) (m ((c.tc : Thread nD τ).loc main_arg2)) (m ((c.tc : Thread nD τ).loc main_arg6)) := by
  refine (A_binary m c 206 rfl (by decide) (by decide) (by decide)).trans ?_
  rw [S_main_v112 m c, S_main_v149 m c]
  rfl
theorem S_main_cst_28 : A m c main_cst_28 = val_main_cst_28 (F := F) :=
  (A_nullary m c 207 rfl (by decide)).trans rfl
theorem S_main_v151 : A m c main_v151 = val_main_v151 (F := F) (m ((c.tc : Thread nD τ).loc main_arg0)) (m ((c.tc : Thread nD τ).loc main_arg1)) (m ((c.tc : Thread nD τ).loc main_arg2)) (m ((c.tc : Thread nD τ).loc main_arg6)) := by
  refine (A_binary m c 208 rfl (by decide) (by decide) (by decide)).trans ?_
  rw [S_main_v150 m c, S_main_cst_28 m c]
  rfl
theorem S_main_v152 : A m c main_v152 = val_main_v152 (F := F) (m ((c.tc : Thread nD τ).loc main_arg1)) (m ((c.tc : Thread nD τ).loc main_arg2)) := by
  refine (A_unary m c 209 rfl (by decide) (by decide)).trans ?_
  rw [S_main_v17 m c]
  rfl
theorem S_main_v153 : A m c main_v153 = val_main_v153 (F := F) (m ((c.tc : Thread nD τ).loc main_arg1)) (m ((c.tc : Thread nD τ).loc main_arg2)) := by
  refine (A_reshape m c 210 rfl (by decide) (by decide)).trans ?_
  rw [S_main_v152 m c]
  rfl
theorem S_main_v154 : A m c main_v154 = val_main_v154 (F := F) (m ((c.tc : Thread nD τ).loc main_arg1)) (m ((c.tc : Thread nD τ).loc main_arg2)) := by
  refine (A_unary m c 211 rfl (by decide) (by decide)).trans ?_
  rw [S_main_v153 m c]
  rfl
theorem S_main_v155 : A m c main_v155 = val_main_v155 (F := F) (m ((c.tc : Thread nD τ).loc main_arg0)) (m ((c.tc : Thread nD τ).loc main_arg1)) (m ((c.tc : Thread nD τ).loc main_arg2)) (m ((c.tc : Thread nD τ).loc main_arg6)) := by
  refine (A_binary m c 212 rfl (by decide) (by decide) (by decide)).trans ?_
  rw [S_main_v121 m c, S_main_v154 m c]
  rfl
theorem S_main_v156 : A m c main_v156 = val_main_v156 (F := F) (m ((c.tc : Thread nD τ).loc main_arg0)) (m ((c.tc : Thread nD τ).loc main_arg1)) (m ((c.tc : Thread nD τ).loc main_arg2)) (m ((c.tc : Thread nD τ).loc main_arg6)) := by
  refine (A_binary m c 213 rfl (by decide) (by decide) (by decide)).trans ?_
  rw [S_main_v112 m c, S_main_v155 m c]
  rfl
theorem S_main_cst_29 : A m c main_cst_29 = val_main_cst_29 (F := F) :=
  (A_nullary m c 214 rfl (by decide)).trans rfl
theorem S_main_v157 : A m c main_v157 = val_main_v157 (F := F) (m ((c.tc : Thread nD τ).loc main_arg0)) (m ((c.tc : Thread nD τ).loc main_arg1)) (m ((c.tc : Thread nD τ).loc main_arg2)) (m ((c.tc : Thread nD τ).loc main_arg6)) := by
  refine (A_binary m c 215 rfl (by decide) (by decide) (by decide)).trans ?_
  rw [S_main_v156 m c, S_main_cst_29 m c]
  rfl
theorem S_main_v158 : A m c main_v158 = val_main_v158 (F := F) (m ((c.tc : Thread nD τ).loc main_arg1)) (m ((c.tc : Thread nD τ).loc main_arg2)) := by
  refine (A_unary m c 216 rfl (by decide) (by decide)).trans ?_
  rw [S_main_v17 m c]
  rfl
theorem S_main_v159 : A m c main_v159 = val_main_v159 (F := F) (m ((c.tc : Thread nD τ).loc main_arg1)) (m ((c.tc : Thread nD τ).loc main_arg2)) := by
  refine (A_reshape m c 217 rfl (by decide) (by decide)).trans ?_
  rw [S_main_v158 m c]
  rfl
theorem S_main_v160 : A m c main_v160 = val_main_v160 (F := F) (m ((c.tc : Thread nD τ).loc main_arg1)) (m ((c.tc : Thread nD τ).loc main_arg2)) := by
  refine (A_unary m c 218 rfl (by decide) (by decide)).trans ?_
  rw [S_main_v159 m c]
  rfl
theorem S_main_v161 : A m c main_v161 = val_main_v161 (F := F) (m ((c.tc : Thread nD τ).loc main_arg0)) (m ((c.tc : Thread nD τ).loc main_arg1)) (m ((c.tc : Thread nD τ).loc main_arg2)) (m ((c.tc : Thread nD τ).loc main_arg6)) := by
  refine (A_binary m c 219 rfl (by decide) (by decide) (by decide)).trans ?_
  rw [S_main_v121 m c, S_main_v160 m c]
  rfl
theorem S_main_v162 : A m c main_v162 = val_main_v162 (F := F) (m ((c.tc : Thread nD τ).loc main_arg0)) (m ((c.tc : Thread nD τ).loc main_arg1)) (m ((c.tc : Thread nD τ).loc main_arg2)) (m ((c.tc : Thread nD τ).loc main_arg6)) := by
  refine (A_binary m c 220 rfl (by decide) (by decide) (by decide)).trans ?_
  rw [S_main_v112 m c, S_main_v161 m c]
  rfl
theorem S_main_cst_30 : A m c main_cst_30 = val_main_cst_30 (F := F) :=
  (A_nullary m c 221 rfl (by decide)).trans rfl
theorem S_main_v163 : A m c main_v163 = val_main_v163 (F := F) (m ((c.tc : Thread nD τ).loc main_arg0)) (m ((c.tc : Thread nD τ).loc main_arg1)) (m ((c.tc : Thread nD τ).loc main_arg2)) (m ((c.tc : Thread nD τ).loc main_arg6)) := by
  refine (A_binary m c 222 rfl (by decide) (by decide) (by decide)).trans ?_
  rw [S_main_v162 m c, S_main_cst_30 m c]
  rfl
theorem S_main_v164 : A m c main_v164 = val_main_v164 (F := F) (m ((c.tc : Thread nD τ).loc main_arg1)) (m ((c.tc : Thread nD τ).loc main_arg2)) := by
  refine (A_unary m c 223 rfl (by decide) (by decide)).trans ?_
  rw [S_main_v17 m c]
  rfl
theorem S_main_v165 : A m c main_v165 = val_main_v165 (F := F) (m ((c.tc : Thread nD τ).loc main_arg1)) (m ((c.tc : Thread nD τ).loc main_arg2)) := by
  refine (A_reshape m c 224 rfl (by decide) (by decide)).trans ?_
  rw [S_main_v164 m c]
  rfl
theorem S_main_v166 : A m c main_v166 = val_main_v166 (F := F) (m ((c.tc : Thread nD τ).loc main_arg1)) (m ((c.tc : Thread nD τ).loc main_arg2)) := by
  refine (A_unary m c 225 rfl (by decide) (by decide)).trans ?_
  rw [S_main_v165 m c]
  rfl
theorem S_main_v167 : A m c main_v167 = val_main_v167 (F := F) (m ((c.tc : Thread nD τ).loc main_arg0)) (m ((c.tc : Thread nD τ).loc main_arg1)) (m ((c.tc : Thread nD τ).loc main_arg2)) (m ((c.tc : Thread nD τ).loc main_arg6)) := by
  refine (A_binary m c 226 rfl (by decide) (by decide) (by decide)).trans ?_
  rw [S_main_v121 m c, S_main_v166 m c]
  rfl
theorem S_main_v168 : A m c main_v168 = val_main_v168 (F := F) (m ((c.tc : Thread nD τ).loc main_arg0)) (m ((c.tc : Thread nD τ).loc main_arg1)) (m ((c.tc : Thread nD τ).loc main_arg2)) (m ((c.tc : Thread nD τ).loc main_arg6)) := by
  refine (A_binary m c 227 rfl (by decide) (by decide) (by decide)).trans ?_
  rw [S_main_v112 m c, S_main_v167 m c]
  rfl
theorem S_main_cst_31 : A m c main_cst_31 = val_main_cst_31 (F := F) :=
  (A_nullary m c 228 rfl (by decide)).trans rfl
theorem S_main_v169 : A m c main_v169 = val_main_v169 (F := F) (m ((c.tc : Thread nD τ).loc main_arg0)) (m ((c.tc : Thread nD τ).loc main_arg1)) (m ((c.tc : Thread nD τ).loc main_arg2)) (m ((c.tc : Thread nD τ).loc main_arg6)) := by
  refine (A_binary m c 229 rfl (by decide) (by decide) (by decide)).trans ?_
  rw [S_main_v168 m c, S_main_cst_31 m c]
  rfl
theorem S_main_v170 : A m c main_v170 = val_main_v170 (F := F) (m ((c.tc : Thread nD τ).loc main_arg0)) (m ((c.tc : Thread nD τ).loc main_arg1)) (m ((c.tc : Thread nD τ).loc main_arg2)) (m ((c.tc : Thread nD τ).loc main_arg6)) := by
  refine (A_unary m c 230 rfl (by decide) (by decide)).trans ?_
  rw [S_main_v127 m c]
  rfl
theorem S_main_v171 : A m c main_v171 = val_main_v171 (F := F) (m ((c.tc : Thread nD τ).loc main_arg0)) (m ((c.tc : Thread nD τ).loc main_arg1)) (m ((c.tc : Thread nD τ).loc main_arg2)) (m ((c.tc : Thread nD τ).loc main_arg6)) := by
  refine (A_unary m c 231 rfl (by decide) (by decide)).trans ?_
  rw [S_main_v133 m c]
  rfl
theorem S_main_v172 : A m c main_v172 = val_main_v172 (F := F) (m ((c.tc : Thread nD τ).loc main_arg0)) (m ((c.tc : Thread nD τ).loc main_arg1)) (m ((c.tc : Thread nD τ).loc main_arg2)) (m ((c.tc : Thread nD τ).loc main_arg6)) := by
  refine (A_unary m c 232 rfl (by decide) (by decide)).trans ?_
  rw [S_main_v139 m c]
  rfl
theorem S_main_v173 : A m c main_v173 = val_main_v173 (F := F) (m ((c.tc : Thread nD τ).loc main_arg0)) (m ((c.tc : Thread nD τ).loc main_arg1)) (m ((c.tc : Thread nD τ).loc main_arg2)) (m ((c.tc : Thread nD τ).loc main_arg6)) := by
  refine (A_unary m c 233 rfl (by decide) (by decide)).trans ?_
  rw [S_main_v145 m c]
  rfl
theorem S_main_v174 : A m c main_v174 = val_main_v174 (F := F) (m ((c.tc : Thread nD τ).loc main_arg0)) (m ((c.tc : Thread nD τ).loc main_arg1)) (m ((c.tc : Thread nD τ).loc main_arg2)) (m ((c.tc : Thread nD τ).loc main_arg6)) := by
  refine (A_unary m c 234 rfl (by decide) (by decide)).trans ?_
  rw [S_main_v151 m c]
  rfl
theorem S_main_v175 : A m c main_v175 = val_main_v175 (F := F) (m ((c.tc : Thread nD τ).loc main_arg0)) (m ((c.tc : Thread nD τ).loc main_arg1)) (m ((c.tc : Thread nD τ).loc main_arg2)) (m ((c.tc : Thread nD τ).loc main_arg6)) := by
  refine (A_unary m c 235 rfl (by decide) (by decide)).trans ?_
  rw [S_main_v157 m c]
  rfl
theorem S_main_v176 : A m c main_v176 = val_main_v176 (F := F) (m ((c.tc : Thread nD τ).loc main_arg0)) (m ((c.tc : Thread nD τ).loc main_arg1)) (m ((c.tc : Thread nD τ).loc main_arg2)) (m ((c.tc : Thread nD τ).loc main_arg6)) := by
  refine (A_unary m c 236 rfl (by decide) (by decide)).trans ?_
  rw [S_main_v163 m c]
  rfl
theorem S_main_v177 : A m c main_v177 = val_main_v177 (F := F) (m ((c.tc : Thread nD τ).loc main_arg0)) (m ((c.tc : Thread nD τ).loc main_arg1)) (m ((c.tc : Thread nD τ).loc main_arg2)) (m ((c.tc : Thread nD τ).loc main_arg6)) := by
  refine (A_unary m c 237 rfl (by decide) (by decide)).trans ?_
  rw [S_main_v169 m c]
  rfl
theorem S_main_v178 : A m c main_v178 = val_main_v178 (F := F) (m ((c.tc : Thread nD τ).loc main_arg0)) (m ((c.tc : Thread nD τ).loc main_arg1)) (m ((c.tc : Thread nD τ).loc main_arg2)) (m ((c.tc : Thread nD τ).loc main_arg6)) := by
  refine (A_nary m c 238 rfl (by decide) (by decide) (by decide) (by decide) (by decide) (by decide) (by decide) (by decide) (by decide)).trans ?_
  rw [S_main_v170 m c, S_main_v171 m c, S_main_v172 m c, S_main_v173 m c, S_main_v174 m c, S_main_v175 m c, S_main_v176 m c, S_main_v177 m c]
  rfl
theorem S_main_v179 : A m c main_v179 = val_main_v179 (F := F) (m ((c.tc : Thread nD τ).loc main_arg7)) := by
  refine (A_unary m c 239 rfl (by decide) (by decide)).trans ?_
  rw [S_main_arg7 m c]
  rfl
theorem S_main_call2_c : A m c main_call2_c = val_main_call2_c (F := F) :=
  (A_nullary m c 240 rfl (by decide)).trans rfl
theorem S_main_call2_v0 : A m c main_call2_v0 = val_main_call2_v0 (F := F) := by
  refine (A_tunary m c 241 rfl (by decide) (by decide)).trans ?_
  rw [S_main_call2_c m c]
  rfl
theorem S_main_call2_v1 : A m c main_call2_v1 = val_main_call2_v1 (F := F) (m ((c.tc : Thread nD τ).loc main_arg7)) := by
  refine (A_tbinary m c 242 rfl (by decide) (by decide) (by decide)).trans ?_
  rw [S_main_v179 m c, S_main_call2_v0 m c]
  rfl
theorem S_main_call2_c_0 : A m c main_call2_c_0 = val_main_call2_c_0 (F := F) :=
  (A_nullary m c 243 rfl (by decide)).trans rfl
theorem S_main_call2_v2 : A m c main_call2_v2 = val_main_call2_v2 (F := F) := by
  refine (A_tunary m c 244 rfl (by decide) (by decide)).trans ?_
  rw [S_main_call2_c_0 m c]
  rfl
theorem S_main_call2_v3 : A m c main_call2_v3 = val_main_call2_v3 (F := F) (m ((c.tc : Thread nD τ).loc main_arg7)) := by
  refine (A_tbinary m c 245 rfl (by decide) (by decide) (by decide)).trans ?_
  rw [S_main_v179 m c, S_main_call2_v2 m c]
  rfl
theorem S_main_call2_v4 : A m c main_call2_v4 = val_main_call2_v4 (F := F) (m ((c.tc : Thread nD τ).loc main_arg7)) := by
  refine (A_tternary m c 246 rfl (by decide) (by decide) (by decide) (by decide)).trans ?_
  rw [S_main_call2_v1 m c, S_main_call2_v3 m c, S_main_v179 m c]
  rfl
theorem S_main_call2_v5 : A m c main_call2_v5 = val_main_call2_v5 (F := F) (m ((c.tc : Thread nD τ).loc main_arg7)) := by
  refine (A_reshape m c 247 rfl (by decide) (by decide)).trans ?_
  rw [S_main_call2_v4 m c]
  rfl

end Cert.ReferenceIdeal.Stage

end
-- ==== Proof.RefStageE.lean ====
/-
  The reference program's stages, positions 248 to 310 of its line: after the whole line, the buffer an operation
  writes holds the stage value of that operation, as a function of the program's arguments. Each statement is the
  operation's one-step equation followed by the statements of the buffers it reads.
-/
import proofs.«421868_j31318901522602_3_alg».proof.Proof.RefStageD

set_option maxRecDepth 16384

noncomputable section

namespace Cert.ReferenceIdeal.Stage

open Cert.ReferenceIdeal Cert.ReferenceIdeal.Gen Cert.ReferenceIdeal.Value Cert.ReferenceIdeal.Read Idealize.ShloMosaic Idealize.ShloMosaic.TcCoe
open Idealize.SL.Sem Idealize.ShloMosaic.StableHlo Cert.LibAfter

variable {F : FTy → Type} [FloatOps F]

variable (m : (ℓ : Loc nD τ sig) → Buf (Elt F) ℓ) (c : Dev nD)

theorem S_main_call2_c_1 : A m c main_call2_c_1 = val_main_call2_c_1 (F := F) :=
  (A_nullary m c 248 rfl (by decide)).trans rfl
theorem S_main_call2_c_2 : A m c main_call2_c_2 = val_main_call2_c_2 (F := F) :=
  (A_nullary m c 249 rfl (by decide)).trans rfl
theorem S_main_call2_v6 : A m c main_call2_v6 = val_main_call2_v6 (F := F) := by
  refine (A_tunary m c 250 rfl (by decide) (by decide)).trans ?_
  rw [S_main_call2_c_2 m c]
  rfl
theorem S_main_call2_v7 : A m c main_call2_v7 = val_main_call2_v7 (F := F) (m ((c.tc : Thread nD τ).loc main_arg7)) := by
  refine (A_tbinary m c 251 rfl (by decide) (by decide) (by decide)).trans ?_
  rw [S_main_call2_v5 m c, S_main_call2_v6 m c]
  rfl
theorem S_main_call2_v8 : A m c main_call2_v8 = val_main_call2_v8 (F := F) := by
  refine (A_tunary m c 252 rfl (by decide) (by decide)).trans ?_
  rw [S_main_call2_c_1 m c]
  rfl
theorem S_main_call2_v9 : A m c main_call2_v9 = val_main_call2_v9 (F := F) := by
  refine (A_tunary m c 253 rfl (by decide) (by decide)).trans ?_
  rw [S_main_call2_v8 m c]
  rfl
theorem S_main_call2_v10 : A m c main_call2_v10 = val_main_call2_v10 (F := F) (m ((c.tc : Thread nD τ).loc main_arg7)) := by
  refine (A_tbinary m c 254 rfl (by decide) (by decide) (by decide)).trans ?_
  rw [S_main_call2_v5 m c, S_main_call2_v9 m c]
  rfl
theorem S_main_call2_v11 : A m c main_call2_v11 = val_main_call2_v11 (F := F) (m ((c.tc : Thread nD τ).loc main_arg7)) := by
  refine (A_tbinary m c 255 rfl (by decide) (by decide) (by decide)).trans ?_
  rw [S_main_call2_v7 m c, S_main_call2_v10 m c]
  rfl
theorem S_main_call2_c_3 : A m c main_call2_c_3 = val_main_call2_c_3 (F := F) :=
  (A_nullary m c 256 rfl (by decide)).trans rfl
theorem S_main_call2_v12 : A m c main_call2_v12 = val_main_call2_v12 (F := F) (m ((c.tc : Thread nD τ).loc main_arg7)) := by
  refine (A_tbinary m c 257 rfl (by decide) (by decide) (by decide)).trans ?_
  rw [S_main_call2_v11 m c, S_main_call2_c_3 m c]
  rfl
theorem S_main_call2_v13 : A m c main_call2_v13 = val_main_call2_v13 (F := F) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) := by
  refine (A_tbinary m c 258 rfl (by decide) (by decide) (by decide)).trans ?_
  rw [S_main_v178 m c, S_main_call2_v5 m c]
  rfl
theorem S_main_call2_cst : A m c main_call2_cst = val_main_call2_cst (F := F) :=
  (A_nullary m c 259 rfl (by decide)).trans rfl
theorem S_main_call2_v14 : A m c main_call2_v14 = val_main_call2_v14 (F := F) := by
  refine (A_tunary m c 260 rfl (by decide) (by decide)).trans ?_
  rw [S_main_call2_cst m c]
  rfl
theorem S_main_v180 : A m c main_v180 = val_main_v180 (F := F) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) := by
  refine (A_tternary m c 261 rfl (by decide) (by decide) (by decide) (by decide)).trans ?_
  rw [S_main_call2_v12 m c, S_main_call2_v13 m c, S_main_call2_v14 m c]
  rfl
theorem S_main_v181 : A m c main_v181 = val_main_v181 (F := F) (m ((c.tc : Thread nD τ).loc main_arg0)) (m ((c.tc : Thread nD τ).loc main_arg1)) (m ((c.tc : Thread nD τ).loc main_arg2)) (m ((c.tc : Thread nD τ).loc main_arg6)) (m ((c.tc : Thread nD τ).loc main_arg7)) := by
  refine (A_reshape m c 262 rfl (by decide) (by decide)).trans ?_
  rw [S_main_v180 m c]
  rfl
theorem S_main_c_32 : A m c main_c_32 = val_main_c_32 (F := F) :=
  (A_nullary m c 263 rfl (by decide)).trans rfl
theorem S_main_v182 : A m c main_v182 = val_main_v182 (F := F) := by
  refine (A_unary m c 264 rfl (by decide) (by decide)).trans ?_
  rw [S_main_c_32 m c]
  rfl
theorem S_main_v183 : A m c main_v183 = val_main_v183 (F := F) (m ((c.tc : Thread nD τ).loc main_arg7)) := by
  refine (A_binary m c 265 rfl (by decide) (by decide) (by decide)).trans ?_
  rw [S_main_arg7 m c, S_main_v182 m c]
  rfl
theorem S_main_c_33 : A m c main_c_33 = val_main_c_33 (F := F) :=
  (A_nullary m c 266 rfl (by decide)).trans rfl
theorem S_main_v184 : A m c main_v184 = val_main_v184 (F := F) := by
  refine (A_unary m c 267 rfl (by decide) (by decide)).trans ?_
  rw [S_main_c_33 m c]
  rfl
theorem S_main_v185 : A m c main_v185 = val_main_v185 (F := F) (m ((c.tc : Thread nD τ).loc main_arg7)) := by
  refine (A_binary m c 268 rfl (by decide) (by decide) (by decide)).trans ?_
  rw [S_main_arg7 m c, S_main_v184 m c]
  rfl
theorem S_main_v186 : A m c main_v186 = val_main_v186 (F := F) (m ((c.tc : Thread nD τ).loc main_arg7)) := by
  refine (A_ternary m c 269 rfl (by decide) (by decide) (by decide) (by decide)).trans ?_
  rw [S_main_v183 m c, S_main_v185 m c, S_main_arg7 m c]
  rfl
theorem S_main_v187 : A m c main_v187 = val_main_v187 (F := F) (m ((c.tc : Thread nD τ).loc main_arg7)) := by
  refine (A_unary m c 270 rfl (by decide) (by decide)).trans ?_
  rw [S_main_v186 m c]
  rfl
theorem S_main_v188 : A m c main_v188 = val_main_v188 (F := F) (m ((c.tc : Thread nD τ).loc main_arg3)) (m ((c.tc : Thread nD τ).loc main_arg7)) := by
  refine (A_binary m c 271 rfl (by decide) (by decide) (by decide)).trans ?_
  rw [S_main_arg3 m c, S_main_v187 m c]
  rfl
theorem S_main_v189 : A m c main_v189 = val_main_v189 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (A_binary m c 272 rfl (by decide) (by decide) (by decide)).trans ?_
  rw [S_main_v181 m c, S_main_v188 m c]
  rfl
theorem S_main_v190 : A m c main_v190 = val_main_v190 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (A_unary m c 273 rfl (by decide) (by decide)).trans ?_
  rw [S_main_v103 m c]
  rfl
theorem S_main_call3_cst : A m c main_call3_cst = val_main_call3_cst (F := F) :=
  (A_nullary m c 274 rfl (by decide)).trans rfl
theorem S_main_call3_v0 : A m c main_call3_v0 = val_main_call3_v0 (F := F) := by
  refine (A_tunary m c 275 rfl (by decide) (by decide)).trans ?_
  rw [S_main_call3_cst m c]
  rfl
theorem S_main_call3_v1 : A m c main_call3_v1 = val_main_call3_v1 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (A_tbinary m c 276 rfl (by decide) (by decide) (by decide)).trans ?_
  rw [S_main_v190 m c, S_main_call3_v0 m c]
  rfl
theorem S_main_call3_v2 : A m c main_call3_v2 = val_main_call3_v2 (F := F) := by
  refine (A_tunary m c 277 rfl (by decide) (by decide)).trans ?_
  rw [S_main_call3_cst m c]
  rfl
theorem S_main_call3_v3 : A m c main_call3_v3 = val_main_call3_v3 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (A_tbinary m c 278 rfl (by decide) (by decide) (by decide)).trans ?_
  rw [S_main_v190 m c, S_main_call3_v2 m c]
  rfl
theorem S_main_call3_v4 : A m c main_call3_v4 = val_main_call3_v4 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (A_tbinary m c 279 rfl (by decide) (by decide) (by decide)).trans ?_
  rw [S_main_call3_v3 m c]
  rfl
theorem S_main_call3_v5 : A m c main_call3_v5 = val_main_call3_v5 (F := F) := by
  refine (A_tunary m c 280 rfl (by decide) (by decide)).trans ?_
  rw [S_main_call3_cst m c]
  rfl
theorem S_main_call3_v6 : A m c main_call3_v6 = val_main_call3_v6 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (A_tbinary m c 281 rfl (by decide) (by decide) (by decide)).trans ?_
  rw [S_main_v190 m c, S_main_call3_v5 m c]
  rfl
theorem S_main_call3_v7 : A m c main_call3_v7 = val_main_call3_v7 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (A_tunary m c 282 rfl (by decide) (by decide)).trans ?_
  rw [S_main_call3_v3 m c]
  rfl
theorem S_main_call3_v8 : A m c main_call3_v8 = val_main_call3_v8 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (A_tunary m c 283 rfl (by decide) (by decide)).trans ?_
  rw [S_main_call3_v7 m c]
  rfl
theorem S_main_call3_v9 : A m c main_call3_v9 = val_main_call3_v9 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (A_tunary m c 284 rfl (by decide) (by decide)).trans ?_
  rw [S_main_call3_v8 m c]
  rfl
theorem S_main_call3_v10 : A m c main_call3_v10 = val_main_call3_v10 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (A_tunary m c 285 rfl (by decide) (by decide)).trans ?_
  rw [S_main_call3_v9 m c]
  rfl
theorem S_main_call3_v11 : A m c main_call3_v11 = val_main_call3_v11 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (A_tbinary m c 286 rfl (by decide) (by decide) (by decide)).trans ?_
  rw [S_main_call3_v1 m c, S_main_call3_v10 m c]
  rfl
theorem S_main_v191 : A m c main_v191 = val_main_v191 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (A_tternary m c 287 rfl (by decide) (by decide) (by decide) (by decide)).trans ?_
  rw [S_main_call3_v4 m c, S_main_call3_v6 m c, S_main_call3_v11 m c]
  rfl
theorem S_main_cst_34 : A m c main_cst_34 = val_main_cst_34 (F := F) :=
  (A_nullary m c 288 rfl (by decide)).trans rfl
theorem S_main_v192 : A m c main_v192 = val_main_v192 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (A_binary m c 289 rfl (by decide) (by decide) (by decide)).trans ?_
  rw [S_main_v191 m c, S_main_cst_34 m c]
  rfl
theorem S_main_cst_35 : A m c main_cst_35 = val_main_cst_35 (F := F) :=
  (A_nullary m c 290 rfl (by decide)).trans rfl
theorem S_main_v193 : A m c main_v193 = val_main_v193 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (A_binary m c 291 rfl (by decide) (by decide) (by decide)).trans ?_
  rw [S_main_v192 m c, S_main_cst_35 m c]
  rfl
theorem S_main_call4_cst : A m c main_call4_cst = val_main_call4_cst (F := F) :=
  (A_nullary m c 292 rfl (by decide)).trans rfl
theorem S_main_call4_v0 : A m c main_call4_v0 = val_main_call4_v0 (F := F) := by
  refine (A_tunary m c 293 rfl (by decide) (by decide)).trans ?_
  rw [S_main_call4_cst m c]
  rfl
theorem S_main_call4_v1 : A m c main_call4_v1 = val_main_call4_v1 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (A_tbinary m c 294 rfl (by decide) (by decide) (by decide)).trans ?_
  rw [S_main_v189 m c, S_main_call4_v0 m c]
  rfl
theorem S_main_call4_v2 : A m c main_call4_v2 = val_main_call4_v2 (F := F) := by
  refine (A_tunary m c 295 rfl (by decide) (by decide)).trans ?_
  rw [S_main_call4_cst m c]
  rfl
theorem S_main_call4_v3 : A m c main_call4_v3 = val_main_call4_v3 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (A_tbinary m c 296 rfl (by decide) (by decide) (by decide)).trans ?_
  rw [S_main_v189 m c, S_main_call4_v2 m c]
  rfl
theorem S_main_call4_v4 : A m c main_call4_v4 = val_main_call4_v4 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (A_tbinary m c 297 rfl (by decide) (by decide) (by decide)).trans ?_
  rw [S_main_call4_v3 m c]
  rfl
theorem S_main_call4_v5 : A m c main_call4_v5 = val_main_call4_v5 (F := F) := by
  refine (A_tunary m c 298 rfl (by decide) (by decide)).trans ?_
  rw [S_main_call4_cst m c]
  rfl
theorem S_main_call4_v6 : A m c main_call4_v6 = val_main_call4_v6 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (A_tbinary m c 299 rfl (by decide) (by decide) (by decide)).trans ?_
  rw [S_main_v189 m c, S_main_call4_v5 m c]
  rfl
theorem S_main_call4_v7 : A m c main_call4_v7 = val_main_call4_v7 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (A_tunary m c 300 rfl (by decide) (by decide)).trans ?_
  rw [S_main_call4_v3 m c]
  rfl
theorem S_main_call4_v8 : A m c main_call4_v8 = val_main_call4_v8 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (A_tunary m c 301 rfl (by decide) (by decide)).trans ?_
  rw [S_main_call4_v7 m c]
  rfl
theorem S_main_call4_v9 : A m c main_call4_v9 = val_main_call4_v9 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (A_tunary m c 302 rfl (by decide) (by decide)).trans ?_
  rw [S_main_call4_v8 m c]
  rfl
theorem S_main_call4_v10 : A m c main_call4_v10 = val_main_call4_v10 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (A_tunary m c 303 rfl (by decide) (by decide)).trans ?_
  rw [S_main_call4_v9 m c]
  rfl
theorem S_main_call4_v11 : A m c main_call4_v11 = val_main_call4_v11 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (A_tbinary m c 304 rfl (by decide) (by decide) (by decide)).trans ?_
  rw [S_main_call4_v1 m c, S_main_call4_v10 m c]
  rfl
theorem S_main_v194 : A m c main_v194 = val_main_v194 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (A_tternary m c 305 rfl (by decide) (by decide) (by decide) (by decide)).trans ?_
  rw [S_main_call4_v4 m c, S_main_call4_v6 m c, S_main_call4_v11 m c]
  rfl
theorem S_main_cst_36 : A m c main_cst_36 = val_main_cst_36 (F := F) :=
  (A_nullary m c 306 rfl (by decide)).trans rfl
theorem S_main_v195 : A m c main_v195 = val_main_v195 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (A_binary m c 307 rfl (by decide) (by decide) (by decide)).trans ?_
  rw [S_main_v194 m c, S_main_cst_36 m c]
  rfl
theorem S_main_cst_37 : A m c main_cst_37 = val_main_cst_37 (F := F) :=
  (A_nullary m c 308 rfl (by decide)).trans rfl
theorem S_main_v196 : A m c main_v196 = val_main_v196 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) := by
  refine (A_binary m c 309 rfl (by decide) (by decide) (by decide)).trans ?_
  rw [S_main_v195 m c, S_main_cst_37 m c]
  rfl
theorem S_main_v197 : A m c main_v197 = val_main_v197 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (A_binary m c 310 rfl (by decide) (by decide) (by decide)).trans ?_
  rw [S_main_v193 m c, S_main_v196 m c]
  rfl

end Cert.ReferenceIdeal.Stage

end
-- ==== Proof.RefStageRun.lean ====
/-
  The reference program's line of host operations leaves, in the result buffer, the last stage's value as a function of
  the program's arguments, and leaves every argument as launched.
-/
import proofs.«421868_j31318901522602_3_alg».proof.Proof.RefStageE

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- After the whole line the result buffer holds the last stage's value. -/
theorem after_v197 (m : (ℓ : Loc nD τ sig) → Buf (Elt F) ℓ) (c : Dev nD) :
    StableHlo.after (Cert.ReferenceIdeal.Value.ops (F := F)) (launchContents m c) (Proc.devRef .tc main_v197)
      = Cert.ReferenceIdeal.Read.val_main_v197 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  Cert.ReferenceIdeal.Stage.S_main_v197 m c

/-- No operation writes argument 0. -/
theorem after_arg0 (m : (ℓ : Loc nD τ sig) → Buf (Elt F) ℓ) (c : Dev nD) :
    StableHlo.after (Cert.ReferenceIdeal.Value.ops (F := F)) (launchContents m c) (Proc.devRef .tc main_arg0)
      = m ((c.tc : Thread nD τ).loc main_arg0) :=
  Cert.ReferenceIdeal.Stage.S_main_arg0 m c

/-- No operation writes argument 1. -/
theorem after_arg1 (m : (ℓ : Loc nD τ sig) → Buf (Elt F) ℓ) (c : Dev nD) :
    StableHlo.after (Cert.ReferenceIdeal.Value.ops (F := F)) (launchContents m c) (Proc.devRef .tc main_arg1)
      = m ((c.tc : Thread nD τ).loc main_arg1) :=
  Cert.ReferenceIdeal.Stage.S_main_arg1 m c

/-- No operation writes argument 2. -/
theorem after_arg2 (m : (ℓ : Loc nD τ sig) → Buf (Elt F) ℓ) (c : Dev nD) :
    StableHlo.after (Cert.ReferenceIdeal.Value.ops (F := F)) (launchContents m c) (Proc.devRef .tc main_arg2)
      = m ((c.tc : Thread nD τ).loc main_arg2) :=
  Cert.ReferenceIdeal.Stage.S_main_arg2 m c

/-- No operation writes argument 3. -/
theorem after_arg3 (m : (ℓ : Loc nD τ sig) → Buf (Elt F) ℓ) (c : Dev nD) :
    StableHlo.after (Cert.ReferenceIdeal.Value.ops (F := F)) (launchContents m c) (Proc.devRef .tc main_arg3)
      = m ((c.tc : Thread nD τ).loc main_arg3) :=
  Cert.ReferenceIdeal.Stage.S_main_arg3 m c

/-- No operation writes argument 4. -/
theorem after_arg4 (m : (ℓ : Loc nD τ sig) → Buf (Elt F) ℓ) (c : Dev nD) :
    StableHlo.after (Cert.ReferenceIdeal.Value.ops (F := F)) (launchContents m c) (Proc.devRef .tc main_arg4)
      = m ((c.tc : Thread nD τ).loc main_arg4) :=
  Cert.ReferenceIdeal.Stage.S_main_arg4 m c

/-- No operation writes argument 5. -/
theorem after_arg5 (m : (ℓ : Loc nD τ sig) → Buf (Elt F) ℓ) (c : Dev nD) :
    StableHlo.after (Cert.ReferenceIdeal.Value.ops (F := F)) (launchContents m c) (Proc.devRef .tc main_arg5)
      = m ((c.tc : Thread nD τ).loc main_arg5) :=
  Cert.ReferenceIdeal.Stage.S_main_arg5 m c

/-- No operation writes argument 6. -/
theorem after_arg6 (m : (ℓ : Loc nD τ sig) → Buf (Elt F) ℓ) (c : Dev nD) :
    StableHlo.after (Cert.ReferenceIdeal.Value.ops (F := F)) (launchContents m c) (Proc.devRef .tc main_arg6)
      = m ((c.tc : Thread nD τ).loc main_arg6) :=
  Cert.ReferenceIdeal.Stage.S_main_arg6 m c

/-- No operation writes argument 7. -/
theorem after_arg7 (m : (ℓ : Loc nD τ sig) → Buf (Elt F) ℓ) (c : Dev nD) :
    StableHlo.after (Cert.ReferenceIdeal.Value.ops (F := F)) (launchContents m c) (Proc.devRef .tc main_arg7)
      = m ((c.tc : Thread nD τ).loc main_arg7) :=
  Cert.ReferenceIdeal.Stage.S_main_arg7 m c

end Cert.ReferenceIdeal.RefValue

end
-- ==== Proof.RefRunVal.lean ====
/-
  The reference program's run: a straight line of host operations, so every weakly fair execution terminates with each
  buffer at what the line leaves in it; the result buffer is read at the last stage of the line, the value the
  operations compute from the arguments one stage after another, and no operation writes an argument.
-/
import proofs.«421868_j31318901522602_3_alg».proof.Proof.RefRunOps
import proofs.«421868_j31318901522602_3_alg».proof.Proof.RefRead
import proofs.«421868_j31318901522602_3_alg».proof.Proof.RefStageRun
import Idealize.ShloMosaic.Lib.StableHlo.Run

noncomputable section

namespace Cert.ReferenceIdeal.RefValue

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

set_option maxRecDepth 8192 in
set_option maxHeartbeats 124400000 in
/-- On every device, from any memory with zero counters: every weakly fair execution of the reference program
    terminates with its result at the last stage's value of the arguments, and the arguments unchanged. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v197)
        = val_main_v197 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v197).trans (after_v197 m c),
      (h c main_arg0).trans (after_arg0 m c),
      (h c main_arg1).trans (after_arg1 m c),
      (h c main_arg2).trans (after_arg2 m c),
      (h c main_arg3).trans (after_arg3 m c),
      (h c main_arg4).trans (after_arg4 m c),
      (h c main_arg5).trans (after_arg5 m c),
      (h c main_arg6).trans (after_arg6 m c),
      (h c main_arg7).trans (after_arg7 m c)⟩)
    (run_seq scopedRefs_eq scopedSems_eq defs main (fun _ => ops) main_eq (fun _ => ops_sub) m ρ)

end Cert.ReferenceIdeal.RefValue

end
-- ==== Proof.Spec.lean ====
/-
  The quantity both programs compute, written once over the argument arrays.

  A table `A` of 50000 node rows of 64 entries; stacked relation weights `W r b a` (8 relations, 64 × 64); a bias per
  relation; a stream of 1000000 positive edges and one of 1000000 negative edges, each edge a source node, a destination
  node and a relation. The logit of an edge is  Σ_b A[s, b] · (Σ_a A[d, a] · W[t, b, a]) + bias[t];  the loss is the mean
  over the positive edges of softplus(−logit) plus the mean over the negative edges of softplus(logit), the mean taken
  as the product with 1/1000000.
-/
import Idealize.ShloMosaic.PureOps.Ideal
import Idealize.ShloMosaic.PureOps.Ideal.Laws
import Idealize.ShloMosaic.Lib.ValueIdx

noncomputable section

namespace Cert.EdgeLoss

open Idealize.ShloMosaic Idealize.ShloMosaic.ValueIdx

/-! ## Shapes -/

abbrev SA : Shape := ⟨2, ![50000, 64]⟩
abbrev SW : Shape := ⟨3, ![8, 64, 64]⟩
abbrev SB : Shape := ⟨1, ![8]⟩
abbrev SEI : Shape := ⟨2, ![2, 1000000]⟩
abbrev SET : Shape := ⟨1, ![1000000]⟩
abbrev S0 : Shape := ⟨0, ![]⟩

/-! ## Scalars -/

/-- softplus as both programs spell it: max(x, 0) + log(1 + exp(−|x|)), with |x| = max(x, −x). -/
def softplus (x : EReal) : EReal := max x 0 + Ideal.log1p (Ideal.exp (-(max x (-x))))

/-- 1/1000000, the factor that turns a sum over an edge stream into its mean. -/
def kappa : EReal := ((1 / 1000000 : ℝ) : EReal)

/-- A one-bit comparison result widened to a word and read as a number: 1 or 0. -/
def msk (b : BitVec 1) : EReal := (((b.setWidth 32).toInt : ℝ) : EReal)

/-- A node word as the row gather reads it: a negative word has 50000 added; the result, read signed, is clamped to the table. -/
def nodeRow (w : BitVec 32) : Fin 50000 :=
  ⟨min (Scalar.select (IntOp.cmpi .slt w 0#32) (IntOp.addi w 50000#32) w).toInt.toNat 49999, by omega⟩

/-- A relation word in range, as an index. -/
def rel (w : BitVec 32) : Fin 8 := ⟨w.toNat % 8, Nat.mod_lt _ (by decide)⟩

/-- Every relation word of a stream names one of the 8 relations. -/
def InRange (t : SET.Idx → BitVec 32) : Prop := ∀ e : Fin 1000000, (t (ix1 e)).toNat < 8

/-! ## The loss -/

/-- The score of source row `s` against destination row `d` under relation `r`. -/
def score (A : SA.Idx → EReal) (W : SW.Idx → EReal) (s d : BitVec 32) (r : Fin 8) : EReal :=
  ∑ b : Fin 64, A (ix2 (nodeRow s) b) * ∑ a : Fin 64, A (ix2 (nodeRow d) a) * W (ix3 r b a)

/-- An edge's logit: its score under its relation, plus that relation's bias. -/
def logit (A : SA.Idx → EReal) (W : SW.Idx → EReal) (bias : SB.Idx → EReal) (s d t : BitVec 32) : EReal :=
  score A W s d (rel t) + bias (ix1 (rel t))

/-- The whole loss. -/
def total (A : SA.Idx → EReal) (W : SW.Idx → EReal) (bias : SB.Idx → EReal)
    (ei : SEI.Idx → BitVec 32) (et : SET.Idx → BitVec 32) (nei : SEI.Idx → BitVec 32) (net : SET.Idx → BitVec 32) : EReal :=
  (∑ e : Fin 1000000, softplus (-(logit A W bias (ei (ix2 (0 : Fin 2) e)) (ei (ix2 (1 : Fin 2) e)) (et (ix1 e))))) * kappa
    + (∑ e : Fin 1000000, softplus (logit A W bias (nei (ix2 (0 : Fin 2) e)) (nei (ix2 (1 : Fin 2) e)) (net (ix1 e)))) * kappa

/-! ## The relation weights: sigmoid(logits) · clip(sigmoid(log_alpha) · 1.2 − 0.1, 0, 1), as both programs spell them -/

theorem bcastW : S0.BroadcastsInDim SW (![] : Fin 0 → Fin SW.rank) := by decide

/-- The gate and the weights, one host operation after another exactly as both programs print them. -/
def weights {F : FTy → Type} [FloatOps F] (x1 x2 : FVec F SW .f32) : FVec F SW .f32 :=
  mulf
    (Host.divf (broadcastInDim SW ![] bcastW (constant S0 .f32 0x3F800000#32))
      (addf (broadcastInDim SW ![] bcastW (constant S0 .f32 0x3F800000#32)) (Host.exp (Host.negf x1))))
    (minimumf (broadcastInDim SW ![] bcastW (id (constant S0 .f32 0x3F800000#32)))
      (maximumf (broadcastInDim SW ![] bcastW (id (constant S0 .f32 0x00000000#32)))
        (addf
          (mulf
            (Host.divf (broadcastInDim SW ![] bcastW (constant S0 .f32 0x3F800000#32))
              (addf (broadcastInDim SW ![] bcastW (constant S0 .f32 0x3F800000#32)) (Host.exp (Host.negf x2))))
            (broadcastInDim SW ![] bcastW (constant S0 .f32 0x3F99999A#32)))
          (broadcastInDim SW ![] bcastW (constant S0 .f32 0xBDCCCCCD#32)))))

/-! ## One row of a block, as the kernel computes it -/

/-- The kernel's value for one row: `u`, `v` the source and destination rows, `t` the relation word, `σ` the sign,
    `Wc a (64 r + b)` the weights laid side by side, `bias` the biases. The relation is selected by eight masks, the
    sign multiplies the logit, and a row whose relation word is negative counts for nothing. -/
def rowLoss (Wc : Fin 64 → Fin 512 → EReal) (bias : Fin 8 → EReal) (u v : Fin 64 → EReal) (t : BitVec 32) (σ : EReal) : EReal :=
  let l : Fin 8 → EReal := fun r => ∑ b : Fin 64, u b * ∑ a : Fin 64, v a * Wc a ⟨64 * r.val + b.val, by omega⟩
  let m : Fin 8 → EReal := fun r => msk (IntOp.cmpi .eq t (BitVec.ofNat 32 r.val))
  softplus (σ * (((((((((0 + l 0 * m 0) + l 1 * m 1) + l 2 * m 2) + l 3 * m 3) + l 4 * m 4) + l 5 * m 5) + l 6 * m 6) + l 7 * m 7)
      + ((((((((0 + bias 0 * m 0) + bias 1 * m 1) + bias 2 * m 2) + bias 3 * m 3) + bias 4 * m 4) + bias 5 * m 5) + bias 6 * m 6) + bias 7 * m 7)))
    * msk (IntOp.cmpi .sge t 0#32)

/-! ## The kernel's layout of the edges: both streams end to end, then 7040 rows of padding

  Position `p` of the 2007040 padded rows is positive edge `p` for `p < 1000000`, negative edge `p − 1000000` for
  `1000000 ≤ p < 2000000`, and padding after that: zero rows, relation word −1, sign 0. -/

/-- Row `j` (0 the sources, 1 the destinations) of the gathered node rows at padded position `p`. -/
def padRow (A : SA.Idx → EReal) (ei nei : SEI.Idx → BitVec 32) (j : Fin 2) (p : ℕ) : Fin 64 → EReal := fun k =>
  if h : p < 1000000 then A (ix2 (nodeRow (ei (ix2 j ⟨p, h⟩))) k)
  else if h2 : p < 2000000 then A (ix2 (nodeRow (nei (ix2 j ⟨p - 1000000, by omega⟩))) k)
  else 0

/-- The relation word at padded position `p`. -/
def padTy (et net : SET.Idx → BitVec 32) (p : ℕ) : BitVec 32 :=
  if h : p < 1000000 then et (ix1 ⟨p, h⟩)
  else if h2 : p < 2000000 then net (ix1 ⟨p - 1000000, by omega⟩)
  else 4294967295#32

/-- The sign at padded position `p`: −1 on the positive stream, 1 on the negative stream, 0 on the padding. -/
def padSign (p : ℕ) : EReal := if p < 1000000 then -1 else if p < 2000000 then 1 else 0

/-- The weights laid side by side: column `64 r + b` of row `a` is `W r b a`. -/
def wcat (W : SW.Idx → EReal) : Fin 64 → Fin 512 → EReal := fun a j =>
  W (ix3 (⟨j.val / 64, by omega⟩ : Fin 8) (⟨j.val % 64, Nat.mod_lt _ (by decide)⟩ : Fin 64) a)

/-- What the kernel adds for padded position `p`. -/
def padLoss (A : SA.Idx → EReal) (W : SW.Idx → EReal) (bias : SB.Idx → EReal)
    (ei : SEI.Idx → BitVec 32) (et : SET.Idx → BitVec 32) (nei : SEI.Idx → BitVec 32) (net : SET.Idx → BitVec 32) (p : ℕ) : EReal :=
  rowLoss (wcat W) (fun r => bias (ix1 r)) (padRow A ei nei 0 p) (padRow A ei nei 1 p) (padTy et net p) (padSign p)

/-- The kernel's result: per core `c` the 196 blocks of 5120 rows summed, scaled by 1/1000000; the two cores added to 0. -/
def kernelTotal (A : SA.Idx → EReal) (W : SW.Idx → EReal) (bias : SB.Idx → EReal)
    (ei : SEI.Idx → BitVec 32) (et : SET.Idx → BitVec 32) (nei : SEI.Idx → BitVec 32) (net : SET.Idx → BitVec 32) : EReal :=
  0 + ∑ c : Fin 2, (∑ k ∈ Finset.range 196, ∑ row : Fin 5120,
        padLoss A W bias ei et nei net (c.val * 1003520 + k * 5120 + row.val)) * kappa

end Cert.EdgeLoss

end
-- ==== Proof.Algebra.lean ====
/-
  The kernel's blocked, padded, per-core sum is the loss: the masks select the edge's relation, the sign turns the
  logit, the padding rows add nothing, and the blocks of the two cores together run through both edge streams once.
-/
import proofs.«421868_j31318901522602_3_alg».proof.Proof.Spec
import Mathlib.Data.EReal.Operations
import Mathlib.Algebra.BigOperators.Fin
import Mathlib.Algebra.BigOperators.Group.Finset.Basic
import Mathlib.Data.Fintype.BigOperators
import Mathlib.Tactic.FinCases
import Mathlib.Tactic.NormNum

noncomputable section

namespace Cert.EdgeLoss

open Idealize.ShloMosaic Idealize.ShloMosaic.ValueIdx

/-! ## The masks: a comparison bit read as the number 1 or 0 -/

/-- A truth value's bit, widened and read as a number, is 1 or 0. -/
theorem msk_ofBool (c : Bool) : msk (BitVec.ofBool c) = if c then 1 else 0 := by
  cases c
  · have h : ((BitVec.ofBool false).setWidth 32).toInt = 0 := by decide
    simp [msk, h]
  · have h : ((BitVec.ofBool true).setWidth 32).toInt = 1 := by decide
    simp [msk, h]

/-- The equality mask of a word against the relation number r is 1 exactly when the word is r. -/
theorem msk_eq_word (t : BitVec 32) (r : ℕ) (hr : r < 8) :
    msk (IntOp.cmpi .eq t (BitVec.ofNat 32 r)) = if t.toNat = r then 1 else 0 := by
  have h : IntOp.cmpi .eq t (BitVec.ofNat 32 r) = BitVec.ofBool (t == BitVec.ofNat 32 r) := rfl
  rw [h, msk_ofBool]
  have hr' : (BitVec.ofNat 32 r).toNat = r := by
    rw [BitVec.toNat_ofNat]; omega
  by_cases hh : t.toNat = r
  · have h3 : t = BitVec.ofNat 32 r := by
      apply BitVec.eq_of_toNat_eq; rw [hr', hh]
    rw [if_pos hh, h3]; simp
  · have h3 : ¬ t = BitVec.ofNat 32 r := by
      intro h2; apply hh; rw [h2, hr']
    have h4 : (t == BitVec.ofNat 32 r) = false := by simpa using h3
    rw [if_neg hh, h4]; simp

/-- A word below 8 is nonnegative when read signed. -/
theorem msk_sge_word (t : BitVec 32) (ht : t.toNat < 8) : msk (IntOp.cmpi .sge t 0#32) = 1 := by
  have h : IntOp.cmpi .sge t 0#32 = BitVec.ofBool ((0#32).sle t) := rfl
  rw [h, msk_ofBool]
  have h2 : (0#32 : BitVec 32).sle t = true := by
    rw [BitVec.sle_eq_decide, BitVec.toInt_eq_toNat_of_lt (x := t) (by omega)]
    simp
  simp [h2]

/-- The padding's relation word, −1, is negative when read signed. -/
theorem msk_sge_pad : msk (IntOp.cmpi .sge 4294967295#32 0#32) = 0 := by
  have h : IntOp.cmpi .sge 4294967295#32 0#32 = BitVec.ofBool false := by decide
  rw [h, msk_ofBool]; simp

/-! ## Selecting one of eight by masks -/

/-- Eight terms, each times a mask that is 1 at i and 0 elsewhere, add up to the i-th term. No finiteness is needed:
    x · 0 = 0, x · 1 = x and 0 + x = x hold for every extended real. -/
theorem select8 (f m : Fin 8 → EReal) (i : Fin 8) (hm : ∀ r, m r = if i = r then 1 else 0) :
    ((((((((0 + f 0 * m 0) + f 1 * m 1) + f 2 * m 2) + f 3 * m 3) + f 4 * m 4) + f 5 * m 5) + f 6 * m 6) + f 7 * m 7)
      = f i := by
  simp only [hm]
  fin_cases i <;> simp

/-- In range, the relation index of a word is the word itself. -/
theorem rel_val (t : BitVec 32) (ht : t.toNat < 8) : (rel t).val = t.toNat := Nat.mod_eq_of_lt ht

/-- The eight equality masks of an in-range word are 1 at its relation and 0 elsewhere. -/
theorem msk_rel (t : BitVec 32) (ht : t.toNat < 8) (r : Fin 8) :
    msk (IntOp.cmpi .eq t (BitVec.ofNat 32 r.val)) = if rel t = r then 1 else 0 := by
  rw [msk_eq_word t r.val r.isLt]
  have : (t.toNat = r.val) ↔ (rel t = r) := by
    rw [Fin.ext_iff, rel_val t ht]
  simp only [this]

/-- A row with an in-range relation word: the masks pick the score and the bias of that relation, and the row counts. -/
theorem rowLoss_inRange (Wc : Fin 64 → Fin 512 → EReal) (bias : Fin 8 → EReal) (u v : Fin 64 → EReal)
    (t : BitVec 32) (σ : EReal) (ht : t.toNat < 8) :
    rowLoss Wc bias u v t σ
      = softplus (σ * ((∑ b : Fin 64, u b * ∑ a : Fin 64, v a * Wc a ⟨64 * (rel t).val + b.val, by omega⟩)
          + bias (rel t))) := by
  have h1 := select8 (fun r : Fin 8 => ∑ b : Fin 64, u b * ∑ a : Fin 64, v a * Wc a ⟨64 * r.val + b.val, by omega⟩)
    (fun r : Fin 8 => msk (IntOp.cmpi .eq t (BitVec.ofNat 32 r.val))) (rel t) (msk_rel t ht)
  have h2 := select8 bias (fun r : Fin 8 => msk (IntOp.cmpi .eq t (BitVec.ofNat 32 r.val))) (rel t) (msk_rel t ht)
  unfold rowLoss
  simp only [] at h1 h2 ⊢
  rw [h1, h2, msk_sge_word t ht, mul_one]

/-! ## The weights side by side, and one padded position -/

/-- Column 64 r + b of row a of the weights laid side by side is W r b a. -/
theorem wcat_apply (W : SW.Idx → EReal) (a : Fin 64) (r : Fin 8) (b : Fin 64) (h : 64 * r.val + b.val < 512) :
    wcat W a ⟨64 * r.val + b.val, h⟩ = W (ix3 r b a) := by
  unfold wcat
  have h1 : (⟨(64 * r.val + b.val) / 64, by omega⟩ : Fin 8) = r := by
    apply Fin.ext; show (64 * r.val + b.val) / 64 = r.val; omega
  have h2 : (⟨(64 * r.val + b.val) % 64, Nat.mod_lt _ (by decide)⟩ : Fin 64) = b := by
    apply Fin.ext; show (64 * r.val + b.val) % 64 = b.val; omega
  simp only [h1, h2]

/-- The kernel's row value on the rows of an edge with an in-range relation word: softplus of the signed logit. -/
theorem rowLoss_edge (A : SA.Idx → EReal) (W : SW.Idx → EReal) (bias : SB.Idx → EReal) (s d t : BitVec 32) (σ : EReal)
    (ht : t.toNat < 8) :
    rowLoss (wcat W) (fun r => bias (ix1 r)) (fun k => A (ix2 (nodeRow s) k)) (fun k => A (ix2 (nodeRow d) k)) t σ
      = softplus (σ * logit A W bias s d t) := by
  rw [rowLoss_inRange _ _ _ _ _ _ ht]
  unfold logit score
  simp only [wcat_apply]

/-- A position of the positive stream adds softplus of minus the edge's logit. -/
theorem padLoss_pos (A : SA.Idx → EReal) (W : SW.Idx → EReal) (bias : SB.Idx → EReal)
    (ei : SEI.Idx → BitVec 32) (et : SET.Idx → BitVec 32) (nei : SEI.Idx → BitVec 32) (net : SET.Idx → BitVec 32)
    (hp : InRange et) (e : Fin 1000000) :
    padLoss A W bias ei et nei net e.val
      = softplus (-(logit A W bias (ei (ix2 (0 : Fin 2) e)) (ei (ix2 (1 : Fin 2) e)) (et (ix1 e)))) := by
  have hr : ∀ j : Fin 2, padRow A ei nei j e.val = fun k => A (ix2 (nodeRow (ei (ix2 j e))) k) := by
    intro j; funext k; unfold padRow; rw [dif_pos e.isLt]
  have hty : padTy et net e.val = et (ix1 e) := by
    unfold padTy; rw [dif_pos e.isLt]
  have hs : padSign e.val = -1 := by
    unfold padSign; rw [if_pos e.isLt]
  unfold padLoss
  rw [hr, hr, hty, hs, rowLoss_edge A W bias _ _ _ _ (hp e), neg_mul, one_mul]

/-- A position of the negative stream adds softplus of the edge's logit. -/
theorem padLoss_neg (A : SA.Idx → EReal) (W : SW.Idx → EReal) (bias : SB.Idx → EReal)
    (ei : SEI.Idx → BitVec 32) (et : SET.Idx → BitVec 32) (nei : SEI.Idx → BitVec 32) (net : SET.Idx → BitVec 32)
    (hn : InRange net) (e : Fin 1000000) :
    padLoss A W bias ei et nei net (1000000 + e.val)
      = softplus (logit A W bias (nei (ix2 (0 : Fin 2) e)) (nei (ix2 (1 : Fin 2) e)) (net (ix1 e))) := by
  have h1 : ¬ (1000000 + e.val < 1000000) := by omega
  have h2 : 1000000 + e.val < 2000000 := by have := e.isLt; omega
  have hfin : (⟨1000000 + e.val - 1000000, by omega⟩ : Fin 1000000) = e := by
    apply Fin.ext; show 1000000 + e.val - 1000000 = e.val; omega
  have hr : ∀ j : Fin 2, padRow A ei nei j (1000000 + e.val) = fun k => A (ix2 (nodeRow (nei (ix2 j e))) k) := by
    intro j; funext k; unfold padRow; rw [dif_neg h1, dif_pos h2, hfin]
  have hty : padTy et net (1000000 + e.val) = net (ix1 e) := by
    unfold padTy; rw [dif_neg h1, dif_pos h2, hfin]
  have hs : padSign (1000000 + e.val) = 1 := by
    unfold padSign; rw [if_neg h1, if_pos h2]
  unfold padLoss
  rw [hr, hr, hty, hs, rowLoss_edge A W bias _ _ _ _ (hn e), one_mul]

/-- A padding position adds nothing: its relation word is −1, so its row does not count. -/
theorem padLoss_pad (A : SA.Idx → EReal) (W : SW.Idx → EReal) (bias : SB.Idx → EReal)
    (ei : SEI.Idx → BitVec 32) (et : SET.Idx → BitVec 32) (nei : SEI.Idx → BitVec 32) (net : SET.Idx → BitVec 32)
    (p : ℕ) (h : 2000000 ≤ p) : padLoss A W bias ei et nei net p = 0 := by
  have h1 : ¬ (p < 1000000) := by omega
  have h2 : ¬ (p < 2000000) := by omega
  have hty : padTy et net p = 4294967295#32 := by
    unfold padTy; rw [dif_neg h1, dif_neg h2]
  unfold padLoss rowLoss
  simp only []
  rw [hty, msk_sge_pad, mul_zero]

/-! ## The blocks of the two cores run through the padded positions once -/

/-- a blocks of b consecutive positions are the first a · b positions. -/
theorem sum_range_mul (g : ℕ → EReal) (a b : ℕ) :
    ∑ k ∈ Finset.range a, ∑ j ∈ Finset.range b, g (k * b + j) = ∑ p ∈ Finset.range (a * b), g p := by
  induction a with
  | zero => simp
  | succ a ih => rw [Finset.sum_range_succ, ih, Nat.succ_mul, Finset.sum_range_add]

/-- a blocks of b rows starting at an offset are a · b consecutive positions from that offset. -/
theorem core_sum (g : ℕ → EReal) (a b off : ℕ) :
    ∑ k ∈ Finset.range a, ∑ row : Fin b, g (off + k * b + row.val)
      = ∑ p ∈ Finset.range (a * b), g (off + p) := by
  rw [← sum_range_mul (fun p => g (off + p)) a b]
  refine Finset.sum_congr rfl fun k _ => ?_
  rw [Fin.sum_univ_eq_sum_range (fun j => g (off + k * b + j)) b]
  refine Finset.sum_congr rfl fun j _ => ?_
  rw [Nat.add_assoc]

theorem kappa_nonneg : 0 ≤ kappa := by
  unfold kappa; exact EReal.coe_nonneg.mpr (by norm_num)

theorem kappa_ne_top : kappa ≠ ⊤ := by
  unfold kappa; exact EReal.coe_ne_top _

/-- The regrouping, with the sizes as letters: two cores of a blocks of b rows, M = a · b positions each, cover two
    streams of N positions and P further positions on which g vanishes. Sums of extended reals may be re-indexed
    freely; the one law used beyond that is distributing the product with κ over a sum, which holds because κ is
    nonnegative and finite. -/
theorem regroup_gen (g : ℕ → EReal) (κ : EReal) (h0 : 0 ≤ κ) (ht : κ ≠ ⊤) (a b M N P : ℕ)
    (hab : a * b = M) (hMN : M + M = N + N + P) (hg : ∀ p, N + N ≤ p → g p = 0) :
    ∑ c : Fin 2, (∑ k ∈ Finset.range a, ∑ row : Fin b, g (c.val * M + k * b + row.val)) * κ
      = (∑ e : Fin N, g e.val) * κ + (∑ e : Fin N, g (N + e.val)) * κ := by
  rw [Fin.sum_univ_two, core_sum, core_sum, hab]
  rw [← EReal.right_distrib_of_nonneg_of_ne_top h0 ht, ← EReal.right_distrib_of_nonneg_of_ne_top h0 ht]
  congr 1
  rw [Fin.sum_univ_eq_sum_range (fun p => g p) N, Fin.sum_univ_eq_sum_range (fun p => g (N + p)) N]
  have e0 : ∀ p, g ((0 : Fin 2).val * M + p) = g p := by
    intro p; congr 1; show 0 * M + p = p; omega
  have e1 : ∀ p, g ((1 : Fin 2).val * M + p) = g (M + p) := by
    intro p; congr 1; show 1 * M + p = M + p; omega
  simp only [e0, e1]
  rw [← Finset.sum_range_add g M M, ← Finset.sum_range_add g N N, hMN, Finset.sum_range_add g (N + N) P]
  have hz : ∑ x ∈ Finset.range P, g (N + N + x) = 0 :=
    Finset.sum_eq_zero fun x _ => hg _ (Nat.le_add_right _ _)
  rw [hz, add_zero]

/-- The regrouping at the kernel's sizes: 2 cores × 196 blocks × 5120 rows = 2007040 = 2 × 1000000 + 7040. -/
theorem regroup (g : ℕ → EReal) (hg : ∀ p, 2000000 ≤ p → g p = 0) :
    ∑ c : Fin 2, (∑ k ∈ Finset.range 196, ∑ row : Fin 5120, g (c.val * 1003520 + k * 5120 + row.val)) * kappa
      = (∑ e : Fin 1000000, g e.val) * kappa + (∑ e : Fin 1000000, g (1000000 + e.val)) * kappa :=
  regroup_gen g kappa kappa_nonneg kappa_ne_top 196 5120 1003520 1000000 7040 (by norm_num) (by norm_num)
    (fun p hp => hg p (by omega))

/-! ## The kernel's total is the loss -/

/-- The kernel's total is the loss, when every relation word names a relation. -/
theorem kernelTotal_eq (A : SA.Idx → EReal) (W : SW.Idx → EReal) (bias : SB.Idx → EReal)
    (ei : SEI.Idx → BitVec 32) (et : SET.Idx → BitVec 32) (nei : SEI.Idx → BitVec 32) (net : SET.Idx → BitVec 32)
    (hp : InRange et) (hn : InRange net) :
    kernelTotal A W bias ei et nei net = total A W bias ei et nei net := by
  have hP : ∑ e : Fin 1000000, padLoss A W bias ei et nei net e.val
      = ∑ e : Fin 1000000, softplus (-(logit A W bias (ei (ix2 (0 : Fin 2) e)) (ei (ix2 (1 : Fin 2) e)) (et (ix1 e)))) :=
    Finset.sum_congr rfl fun e _ => padLoss_pos A W bias ei et nei net hp e
  have hN : ∑ e : Fin 1000000, padLoss A W bias ei et nei net (1000000 + e.val)
      = ∑ e : Fin 1000000, softplus (logit A W bias (nei (ix2 (0 : Fin 2) e)) (nei (ix2 (1 : Fin 2) e)) (net (ix1 e))) :=
    Finset.sum_congr rfl fun e _ => padLoss_neg A W bias ei et nei net hn e
  unfold kernelTotal total
  refine (zero_add _).trans ?_
  refine (regroup (padLoss A W bias ei et nei net) (padLoss_pad A W bias ei et nei net)).trans ?_
  exact congrArg₂ (· + ·) (congrArg (· * kappa) hP) (congrArg (· * kappa) hN)

end Cert.EdgeLoss

end
-- ==== Proof.PreRange.lean ====
/-
  The precondition, read: each of its eight conjuncts is an all-true reduction; the four on the relation words say
  that every word of both streams is at least 0 and below 8.
-/
import proofs.«421868_j31318901522602_3_alg».proof.Pre_finite_inputs
import proofs.«421868_j31318901522602_3_alg».proof.Proof.Gen.Pre_finite_inputs
import proofs.«421868_j31318901522602_3_alg».proof.Proof.Spec
import Idealize.ShloMosaic.Lib.ReduceAll
import Idealize.ShloMosaic.Lib.StableHlo.Predicate

noncomputable section

namespace Cert.EdgeLoss

open Idealize.ShloMosaic Idealize.ShloMosaic.ValueIdx Cert.Pre_finite_inputs

/-- A 32-bit word that is at least 0 and below 8, both comparisons signed, is below 8 read unsigned: a word whose
    signed value is not negative has its top bit clear, so its signed and unsigned values agree. -/
theorem word_lt_eight (w : BitVec 32) (h0 : IntOp.cmpi .sge w 0#32 = 1#1) (h8 : IntOp.cmpi .slt w 8#32 = 1#1) :
    w.toNat < 8 := by
  have a : (0#32 : BitVec 32).sle w = true := (StableHlo.Predicate.ofBool_eq_one_iff _).1 h0
  have b : w.slt 8#32 = true := (StableHlo.Predicate.ofBool_eq_one_iff _).1 h8
  rw [BitVec.sle_iff_toInt_le] at a
  rw [BitVec.slt_iff_toInt_lt] at b
  have z : (0#32 : BitVec 32).toInt = 0 := by decide
  have e : (8#32 : BitVec 32).toInt = 8 := by decide
  rw [z] at a
  rw [e] at b
  have hw := w.isLt
  -- the signed value is the unsigned one, less 2³² when the word is 2³¹ or more; the second case is negative
  rw [BitVec.toInt_eq_toNat_cond] at a b
  split at a <;> omega

/-- A rank-0 array has one index. -/
instance : Subsingleton S_.Idx := ⟨fun a b => funext fun d => d.elim0⟩

/-- Where the precondition holds, every relation word of both streams names a relation. -/
theorem range_of_pre {F : FTy → Type} [FloatOps F] (x0 : FVec F S50000x64 .f32) (x1 x2 : FVec F S8x64x64 .f32) (x3 : FVec F S8 .f32)
    (x4 : IVec S2x1000000 32) (x5 : IVec S1000000 32) (x6 : IVec S2x1000000 32) (x7 : IVec S1000000 32)
    (h : Cert.Pre_finite_inputs.fn (F := F) x0 x1 x2 x3 x4 x5 x6 x7 = fun _ => 1#1) :
    InRange x5 ∧ InRange x7 := by
  -- the predicate's one result bit is the conjunction of eight all-true reductions; the first four (the float
  -- arrays are finite) are not needed here
  have e := congrFun h ix0
  dsimp only [fn, fn_part1, fn_part2] at e
  simp only [andi, IntOp.andi_eq_one] at e
  obtain ⟨⟨⟨⟨-, h50⟩, h58⟩, h70⟩, h78⟩ := e
  -- an all-true reduction that is 1 had a 1 at every position: at position i the two comparisons of the word with
  -- the constants 0 and 8 (a scalar laid over the whole array reads that scalar everywhere) both hold
  have r5 : ∀ i : S1000000.Idx, (x5 i).toNat < 8 := fun i =>
    word_lt_eight (x5 i) (Host.reduce_andi_all _ _ _ _ _ h50 i) (Host.reduce_andi_all _ _ _ _ _ h58 i)
  have r7 : ∀ i : S1000000.Idx, (x7 i).toNat < 8 := fun i =>
    word_lt_eight (x7 i) (Host.reduce_andi_all _ _ _ _ _ h70 i) (Host.reduce_andi_all _ _ _ _ _ h78 i)
  exact ⟨fun e => r5 (ix1 e), fun e => r7 (ix1 e)⟩

end Cert.EdgeLoss

end
-- ==== Proof.LibRowRead.lean ====
/-
  Rows of a rank-2 array read through a reduction over the columns, and a unit middle axis dropped.

  A sum or a maximum over axis 1 of an [R, C] array, at row p, ranges over the entries (p, k), k a column:
  the sum is their sum, the maximum the fold of max from the starting value. An [R, 1, C] array cast to [R, C]
  reads, at (p, k), the entry (p, 0, k). And the four float words these programs use, as extended reals.
-/
import Idealize.ShloMosaic.PureOps.Ideal.Laws
import Idealize.ShloMosaic.Lib.Pipeline.Value
import Idealize.ShloMosaic.Lib.ValueIdx

noncomputable section

namespace Cert.RowRead

open Idealize.ShloMosaic Idealize.ShloMosaic.ValueIdx

variable {R C : ℕ} {φ : FTy}

/-- The reduced index p with column k put back is (p, k). -/
theorem lift_row (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- A sum over the columns, at row p. -/
theorem rowSum_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, src (ix2 p k) := by
  rw [Ideal.multiReduction_add_single]
  exact Finset.sum_congr rfl fun k _ => congrArg src (lift_row h p k)

/-- A maximum over the columns, at row p: the fold of max from the accumulator's value. -/
theorem rowMax_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin C)).fold max (Ideal.ofBits φ acc) (fun k => src (ix2 p k)) := by
  rw [Ideal.multiReduction_maximumf_single]
  have hf : (src ∘ h.lift (ix1 p)) = fun k : Fin C => src (ix2 p k) := funext fun k => congrArg src (lift_row h p k)
  exact congrArg (fun f => Finset.fold max (Ideal.ofBits φ acc) f (Finset.univ : Finset (Fin C))) hf

/-- The f32 sum from the zero word, its side proofs typed as a program spells them. -/
theorem rowSum_f32 (src : FVec Ideal (⟨2, ![R, C]⟩ : Shape) .f32)
    (h : (⟨2, ![R, C]⟩ : Shape).Reduces [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, src (ix2 p k) :=
  rowSum_apply src _ h hφ hacc p

/-- The f32 maximum from the word of -∞, likewise: the fold of max from the bottom element. -/
theorem rowMax_f32 (src : FVec Ideal (⟨2, ![R, C]⟩ : Shape) .f32)
    (h : (⟨2, ![R, C]⟩ : Shape).Reduces [1] (⟨1, ![R]⟩ : Shape)) (hφ : FKind.Formats .f32)
    (hacc : (0xFF800000#32 : BitVec 32) = 0xFF800000#32) (p : Fin R) :
    multiReduction .maximumf [1] (⟨1, ![R]⟩ : Shape) src 0xFF800000#32 h hφ hacc (ix1 p)
      = (Finset.univ : Finset (Fin C)).fold max ⊥ (fun k => src (ix2 p k)) := by
  have e : Ideal.ofBits .f32 0xFF800000#32 = ⊥ := by simp [Ideal.ofBits, Ideal.ieee]
  rw [← e]
  exact rowMax_apply src _ h hφ hacc p

/-- The host's maximum over the columns, at row p: the fold of max from the initial value. -/
theorem hostRowMax_apply (x : FVec Ideal (⟨2, ![R, C]⟩ : Shape) φ) (init : (⟨0, ![]⟩ : Shape).Idx → Ideal φ)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  have hf : (x ∘ h.lift (ix1 p)) = fun k : Fin C => x (ix2 p k) := funext fun k => congrArg x (lift_row h p k)
  exact congrArg (fun f => Finset.fold max (init (Shape.Idx.first hu)) f (Finset.univ : Finset (Fin C))) hf

/-- An [R, 1, C] array with its unit axis dropped reads, at (p, k), the entry (p, 0, k). -/
theorem squeeze_apply {α : Type} (x : (⟨3, ![R, 1, C]⟩ : Shape).Idx → α)
    (h : (⟨3, ![R, 1, C]⟩ : Shape).ShapeCasts (⟨2, ![R, C]⟩ : Shape)) (p : Fin R) (k : Fin C) :
    shapeCast (⟨2, ![R, C]⟩ : Shape) x h (ix2 p k) = x (ix3 p (0 : Fin 1) k) :=
  shapeCast_apply x h _ _ (by
    rw [Shape.rowMajor_val_three, Shape.rowMajor_val_two]
    show (p.val * 1 + 0) * C + k.val = p.val * C + k.val
    rw [Nat.mul_one, Nat.add_zero])

/-- Reading a vector through `exp`, entry by entry. -/
theorem exp_apply {s : Shape} (a : FVec Ideal s φ) (i : s.Idx) : exp a i = Ideal.exp (a i) := rfl

/-! ## The float words -/

theorem word_zero : Ideal.ofBits .f32 0x00000000#32 = 0 := Ideal.ofBits_zero_f32
theorem word_one : Ideal.ofBits .f32 0x3F800000#32 = 1 := by simp [Ideal.ofBits, Ideal.ieee, -EReal.coe_mul]; norm_num
theorem word_thousand : Ideal.ofBits .f32 0x447A0000#32 = ((1000 : ℝ) : EReal) := by
  simp [Ideal.ofBits, Ideal.ieee, -EReal.coe_mul]; norm_num
theorem word_neg_inf : Ideal.ofBits .f32 0xFF800000#32 = ⊥ := by simp [Ideal.ofBits, Ideal.ieee]

end Cert.RowRead

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.KerPay.lean ====
/-
  The kernel body's arithmetic at the ideal values: what one grid point adds to the accumulator, and what the last
  point of a core writes out.
-/
import proofs.«421868_j31318901522602_3_alg».proof.Proof.Gen.KernelIdeal.Skeleton
import proofs.«421868_j31318901522602_3_alg».proof.Proof.Spec
import Idealize.ShloMosaic.Lib.Pipeline.Value
import Idealize.ShloMosaic.Lib.ValueLayout
import proofs.«421868_j31318901522602_3_alg».proof.Proof.LibRowRead
import proofs.«421868_j31318901522602_3_alg».proof.Proof.LibPlainDot

noncomputable section

namespace Cert.KernelIdeal.Pay

open Idealize.ShloMosaic Idealize.ShloMosaic.ValueIdx Cert.KernelIdeal Cert.KernelIdeal.Gen Cert.EdgeLoss
open Cert.RowRead Idealize.ShloMosaic.PlainDot

section
variable {F : FTy → Type} [FloatOps F] [Named F]

/-- What a grid point leaves in the accumulator, from the point's six input blocks and what the accumulator held. -/
def blockAcc (x0 x1 : Vec F S1x5120x64 .bf16) (x2 : Vec F S1x1x5120 .i32) (x3 : Vec F S1x1x5120 .f32)
    (x4 : Vec F S64x512 .bf16) (x5 : Vec F S1x8 .f32) (acc : Vec F S1x1 .f32) : FVec F S1x1 .f32 :=
  k0_pay1 (k0_pay6 x3) (k0_pay7 x2) (k0_pay8 x5)
    (k0_pay23 (k0_pay4 x0) (k0_pay5 (F := F) x2) (k0_pay9 x1 x4)
      (k0_pay17 (k0_pay4 x0) (k0_pay5 (F := F) x2) (k0_pay9 x1 x4) k0_pay10 (k0_pay12 x0 x1 x4) (k0_pay13 x2))
      (k0_pay19 (k0_pay4 x0) (k0_pay9 x1 x4)))
    (k0_pay24 (k0_pay5 (F := F) x2) (k0_pay8 x5) (k0_pay18 (k0_pay5 (F := F) x2) (k0_pay8 x5) k0_pay11 (k0_pay13 x2)))
    (k0_pay25 (k0_pay5 (F := F) x2)) (k0_pay26 (k0_pay4 x0) (k0_pay5 (F := F) x2) (k0_pay9 x1 x4)) acc

end

/-! ## The blocks read by rows -/

/-- A source row's entry: the block with its unit axis dropped; widening the format changes nothing. -/
theorem srcRow_apply (x0 : Vec Ideal S1x5120x64 .bf16) (row : Fin 5120) (b : Fin 64) :
    k0_pay4 (F := Ideal) x0 (ix2 row b) = x0 (ix3 (0 : Fin 1) row b) := by
  unfold k0_pay4
  exact shapeCast_1ab_ab_apply x0 _ row b

/-- The relation words stood up as a column: row `row` holds the block's word `row`. -/
theorem relCol_apply (x2 : Vec Ideal S1x1x5120 .i32) (row : Fin 5120) :
    k0_pay5 (F := Ideal) x2 (ix2 row (0 : Fin 1)) = x2 (ix3 (0 : Fin 1) (0 : Fin 1) row) := by
  unfold k0_pay5
  exact (transpose_ix2_apply _ _ row (0 : Fin 1)).trans (shapeCast_1ab_ab_apply x2 _ (0 : Fin 1) row)

/-- The signs stood up as a column, likewise. -/
theorem signCol_apply (x3 : Vec Ideal S1x1x5120 .f32) (row : Fin 5120) :
    k0_pay6 (F := Ideal) x3 (ix2 row (0 : Fin 1)) = x3 (ix3 (0 : Fin 1) (0 : Fin 1) row) := by
  unfold k0_pay6
  exact (transpose_ix2_apply _ _ row (0 : Fin 1)).trans (shapeCast_1ab_ab_apply x3 _ (0 : Fin 1) row)

/-- A row counts when its relation word is not negative. -/
theorem live_apply (x2 : Vec Ideal S1x1x5120 .i32) (row : Fin 5120) :
    k0_pay7 (F := Ideal) x2 (ix2 row (0 : Fin 1)) = msk (IntOp.cmpi .sge (x2 (ix3 (0 : Fin 1) (0 : Fin 1) row)) 0#32) := by
  unfold k0_pay7
  exact congrArg (fun t => msk (IntOp.cmpi .sge t 0#32)) (relCol_apply x2 row)

/-- The biases are read as they come. -/
theorem bias_eq (x5 : Vec Ideal S1x8 .f32) : k0_pay8 (F := Ideal) x5 = x5 := by
  unfold k0_pay8
  exact shapeCast_self x5 _

/-- All eight relations' transformed destination rows at once: entry `(row, j)` is the destination row against column `j` of
    the weights laid side by side. -/
theorem prod_apply (x1 : Vec Ideal S1x5120x64 .bf16) (x4 : Vec Ideal S64x512 .bf16) (row : Fin 5120) (j : Fin 512) :
    k0_pay9 (F := Ideal) x1 x4 (ix2 row j) = ∑ a : Fin 64, x1 (ix3 (0 : Fin 1) row a) * x4 (ix2 a j) := by
  unfold k0_pay9
  refine (matmul_zero_apply dot_S5120x64_S64x512_S5120x512_1_0_0_1_n_n rfl rfl rfl rfl rfl rfl rfl rfl none _ _ row j).trans ?_
  refine Finset.sum_congr rfl fun a _ => ?_
  exact congrArg₂ (· * ·) (shapeCast_1ab_ab_apply x1 _ row a) (congrFun (shapeCast_self x4 _) (ix2 a j))

/-- The two running sums start from zero. -/
theorem zeroCol_apply (row : Fin 5120) : k0_pay10 (F := Ideal) (ix2 row (0 : Fin 1)) = 0 := by
  unfold k0_pay10
  exact Ideal.ofBits_zero_f32

theorem zeroCol'_apply (row : Fin 5120) : k0_pay11 (F := Ideal) (ix2 row (0 : Fin 1)) = 0 := by
  unfold k0_pay11
  exact Ideal.ofBits_zero_f32

/-! ## The eight relation masks -/

theorem mask0_apply (x2 : Vec Ideal S1x1x5120 .i32) (row : Fin 5120) :
    k0_pay13 (F := Ideal) x2 (ix2 row (0 : Fin 1)) = msk (IntOp.cmpi .eq (x2 (ix3 (0 : Fin 1) (0 : Fin 1) row)) 0#32) := by
  unfold k0_pay13
  exact congrArg (fun t => msk (IntOp.cmpi .eq t 0#32)) (relCol_apply x2 row)

theorem mask1_apply (v12 : IVec S5120x1 32) (y : S5120x1.Idx) : k0_pay14 (F := Ideal) v12 y = msk (IntOp.cmpi .eq (v12 y) 1#32) := rfl
theorem mask2_apply (v12 : IVec S5120x1 32) (y : S5120x1.Idx) : k0_pay15 (F := Ideal) v12 y = msk (IntOp.cmpi .eq (v12 y) 2#32) := rfl
theorem mask3_apply (v12 : IVec S5120x1 32) (y : S5120x1.Idx) : k0_pay16 (F := Ideal) v12 y = msk (IntOp.cmpi .eq (v12 y) 3#32) := rfl
theorem mask4_apply (v12 : IVec S5120x1 32) (y : S5120x1.Idx) : k0_pay20 (F := Ideal) v12 y = msk (IntOp.cmpi .eq (v12 y) 4#32) := rfl
theorem mask5_apply (v12 : IVec S5120x1 32) (y : S5120x1.Idx) : k0_pay21 (F := Ideal) v12 y = msk (IntOp.cmpi .eq (v12 y) 5#32) := rfl
theorem mask6_apply (v12 : IVec S5120x1 32) (y : S5120x1.Idx) : k0_pay22 (F := Ideal) v12 y = msk (IntOp.cmpi .eq (v12 y) 6#32) := rfl
theorem mask7_apply (v12 : IVec S5120x1 32) (y : S5120x1.Idx) : k0_pay25 (F := Ideal) v12 y = msk (IntOp.cmpi .eq (v12 y) 7#32) := rfl

/-! ## The scale and the reset -/

/-- The written-out value is the accumulator times 1/1000000. -/
theorem pay2_apply (acc : Vec Ideal S1x1 .f32) :
    k0_pay2 (F := Ideal) acc (ix3 (0 : Fin 1) (0 : Fin 1) (0 : Fin 1)) = acc (ix2 (0 : Fin 1) (0 : Fin 1)) * kappa := by
  unfold k0_pay2
  exact shapeCast_ab_1ab_apply _ _ (0 : Fin 1) (0 : Fin 1) (0 : Fin 1)

/-- The accumulator is reset to zero. -/
theorem pay3_apply : k0_pay3 (F := Ideal) (ix2 (0 : Fin 1) (0 : Fin 1)) = 0 := by
  unfold k0_pay3
  exact (congrFun (shapeCast_self _ _) _).trans Ideal.ofBits_zero_f32

/-! ## Scalars: the kernel's spelling of softplus -/

/-- The kernel computes max(z, 0) + log(1 + exp(0 − |z − 0|)) and keeps `z + 0` only where `z − 0` differs from itself;
    no extended real differs from itself, and subtracting zero changes nothing, so this is softplus. -/
theorem softplus_spelling (z : EReal) :
    Scalar.select (Ideal.cmp .one (z - Ideal.ofBits .f32 0x00000000#32) (z - Ideal.ofBits .f32 0x00000000#32))
        (z + Ideal.ofBits .f32 0x00000000#32)
        (max z (Ideal.ofBits .f32 0x00000000#32)
          + Ideal.log1p (Ideal.exp (Ideal.ofBits .f32 0x00000000#32
              - max (z - Ideal.ofBits .f32 0x00000000#32) (-(z - Ideal.ofBits .f32 0x00000000#32)))))
      = softplus z := by
  rw [Ideal.ofBits_zero_f32, sub_zero, zero_sub]
  have h : Ideal.cmp .one z z = 0#1 := by simp [Ideal.cmp]
  rw [h, select_zero]
  rfl

/-! ## Sums over the rows and over a row -/

/-- The one reduced index with row `k` put back is `(k, 0)`. -/
theorem lift_col (h : S5120x1.Reduces [0] S1) (k : Fin (S5120x1.size 0)) :
    h.lift (ix1 (0 : Fin 1)) k = ix2 (⟨k.val, k.isLt⟩ : Fin 5120) (0 : Fin 1) := by
  funext c; apply Fin.ext
  fin_cases c <;> rfl

/-- A column summed over its rows. -/
theorem colSum_apply (src : FVec Ideal S5120x1 .f32) (h : S5120x1.Reduces [0] S1) (hφ : FKind.Formats .f32)
    (hacc : (0x00000000#32 : BitVec 32) = 0x00000000#32) :
    multiReduction (F := Ideal) .add [0] S1 src 0x00000000#32 h hφ hacc (ix1 (0 : Fin 1))
      = ∑ row : Fin 5120, src (ix2 row (0 : Fin 1)) := by
  refine (Ideal.multiReduction_add_single src 0x00000000#32 h hφ hacc (ix1 (0 : Fin 1))).trans ?_
  exact Finset.sum_congr rfl fun k _ => congrArg src (lift_col h k)

/-- The kernel's spelling of one relation's score column: the source rows times 64 columns of the product cut from column
    `o`, summed along each row, stood up as a column. -/
abbrev scoreCol (v5 : FVec Ideal S5120x64 .f32) (v22 : FVec Ideal S5120x512 .f32) (o : Nat)
    (hs : S5120x512.Slices ![0, o] S5120x64) : FVec Ideal S5120x1 .f32 :=
  shapeCast S5120x1 (multiReduction (F := Ideal) .add [1] S5120 (mulf v5 (extractStridedSlice S5120x64 ![0, o] v22 hs))
    0x00000000#32 reduces_S5120x64_S5120 (.inl rfl) rfl) shapeCasts_S5120_S5120x1

/-- At row `row` it is the sum over `b` of the source entry `b` times the product's entry `o + b`. -/
theorem scoreCol_apply (v5 : FVec Ideal S5120x64 .f32) (v22 : FVec Ideal S5120x512 .f32) (o : Nat)
    (hs : S5120x512.Slices ![0, o] S5120x64) (row : Fin 5120) :
    scoreCol v5 v22 o hs (ix2 row (0 : Fin 1))
      = ∑ b : Fin 64, v5 (ix2 row b)
          * v22 (ix2 row ⟨o + b.val, Nat.lt_of_lt_of_le (Nat.add_lt_add_left b.isLt o) (hs.2 1)⟩) := by
  refine (shapeCast_apply _ _ _ (ix1 row) ?_).trans ?_
  · rw [Shape.rowMajor_val_one, Shape.rowMajor_val_two]
    show row.val = row.val * 1 + 0
    rw [Nat.mul_one, Nat.add_zero]
  refine (rowSum_f32 _ _ _ _ row).trans ?_
  exact Finset.sum_congr rfl fun b _ => congrArg (v5 (ix2 row b) * ·) (slice2_axis1_eq o v22 hs row b)

/-- One relation's score of a row over the blocks: the source row against the destination row transformed by the
    relation's 64 columns of the weights. -/
def relScore (x0 x1 : Vec Ideal S1x5120x64 .bf16) (x4 : Vec Ideal S64x512 .bf16) (row : Fin 5120) (r : Fin 8) : EReal :=
  ∑ b : Fin 64, x0 (ix3 (0 : Fin 1) row b)
    * ∑ a : Fin 64, x1 (ix3 (0 : Fin 1) row a) * x4 (ix2 a ⟨64 * r.val + b.val, by omega⟩)

/-- The kernel's score column cut at `64 r` holds relation `r`'s score. -/
theorem scoreCol_eq (x0 x1 : Vec Ideal S1x5120x64 .bf16) (x4 : Vec Ideal S64x512 .bf16) (o : Nat)
    (hs : S5120x512.Slices ![0, o] S5120x64) (row : Fin 5120) (r : Fin 8) (ho : o = 64 * r.val) :
    scoreCol (k0_pay4 (F := Ideal) x0) (k0_pay9 (F := Ideal) x1 x4) o hs (ix2 row (0 : Fin 1)) = relScore x0 x1 x4 row r := by
  refine (scoreCol_apply _ _ o hs row).trans ?_
  refine Finset.sum_congr rfl fun b _ => ?_
  refine congrArg₂ (· * ·) (srcRow_apply x0 row b) ((prod_apply x1 x4 row _).trans ?_)
  refine Finset.sum_congr rfl fun a _ => ?_
  exact congrArg (fun j => x1 (ix3 (0 : Fin 1) row a) * x4 (ix2 a j)) (Fin.ext (by show o + b.val = 64 * r.val + b.val; rw [ho]))

/-! ## A bias entry -/

/-- The kernel's spelling of one bias: the 1 × 1 cut at column `o`, its one entry taken out. -/
abbrev biasWord (v19 : FVec Ideal S1x8 .f32) (o : Nat) (hs : S1x8.Slices ![0, o] S1x1) : EReal :=
  extractAt ![0, 0] (extractStridedSlice S1x1 ![0, o] v19 hs) inpos_S1x1_p0_0

/-- It is the bias of relation `o`. -/
theorem biasWord_eq (x5 : Vec Ideal S1x8 .f32) (o : Nat) (hs : S1x8.Slices ![0, o] S1x1) (r : Fin 8) (ho : r.val = o) :
    biasWord (k0_pay8 (F := Ideal) x5) o hs = x5 (ix2 (0 : Fin 1) r) := by
  have e : (fun a => (⟨(![0, 0] : Fin 2 → Nat) a, inpos_S1x1_p0_0 a⟩ : Fin (S1x1.size a))) = ix2 (0 : Fin 1) (0 : Fin 1) :=
    funext fun a => Fin.ext (by fin_cases a <;> rfl)
  show extractStridedSlice S1x1 ![0, o] (k0_pay8 (F := Ideal) x5) hs _ = _
  rw [e, bias_eq]
  exact slice2_axis1_apply o x5 hs (0 : Fin 1) (0 : Fin 1) r (by rw [ho]; rfl)

/-! ## What one grid point adds -/

/-- The new accumulator from the row-level columns: what it held, plus the sum over the rows of softplus of the signed
    logit (the two running sums added, the last relation's terms joining here), times the row's weight. -/
theorem update_apply (v13 v17 : FVec Ideal S5120x1 .f32) (v19 : FVec Ideal S1x8 .f32)
    (v124 v129 v137 v138 : FVec Ideal S5120x1 .f32) (v164 : Vec Ideal S1x1 .f32) :
    k0_pay1 (F := Ideal) v13 v17 v19 v124 v129 v137 v138 v164 (ix2 (0 : Fin 1) (0 : Fin 1))
      = v164 (ix2 (0 : Fin 1) (0 : Fin 1))
        + ∑ row : Fin 5120,
            softplus (v13 (ix2 row (0 : Fin 1)) * ((v124 (ix2 row (0 : Fin 1)) + v138 (ix2 row (0 : Fin 1)))
                + (v129 (ix2 row (0 : Fin 1)) + biasWord v19 7 slices_S1x8_o0_7_S1x1 * v137 (ix2 row (0 : Fin 1)))))
              * v17 (ix2 row (0 : Fin 1)) := by
  unfold k0_pay1
  refine (congrFun (shapeCast_self _ _) _).trans ?_
  refine congrArg (v164 (ix2 (0 : Fin 1) (0 : Fin 1)) + ·) ?_
  refine (shapeCast_a_1a_apply _ _ (0 : Fin 1) (0 : Fin 1)).trans ?_
  refine (colSum_apply _ _ _ _).trans ?_
  refine Finset.sum_congr rfl fun row _ => ?_
  exact congrArg (· * v17 (ix2 row (0 : Fin 1))) (softplus_spelling _)

/-- One more product joins a running sum. -/
theorem chain_step {a a' s s' m m' : EReal} (ha : a = a') (hs : s = s') (hm : m = m') : a + s * m = a' + s' * m' := by
  rw [ha, hs, hm]

/-- The mask of relation `r` at relation word `t`: 1 if the word is `r`, else 0. -/
abbrev relMaskOf (t : BitVec 32) (r : Fin 8) : EReal := msk (IntOp.cmpi .eq t (BitVec.ofNat 32 r.val))

/-- A mask column built on the relation words' column reads the block's word. -/
theorem relMask (x2 : Vec Ideal S1x1x5120 .i32) (row : Fin 5120) (f : IVec S5120x1 32 → FVec Ideal S5120x1 .f32) (w : BitVec 32)
    (hf : ∀ (v : IVec S5120x1 32) (y : S5120x1.Idx), f v y = msk (IntOp.cmpi .eq (v y) w)) :
    f (k0_pay5 (F := Ideal) x2) (ix2 row (0 : Fin 1)) = msk (IntOp.cmpi .eq (x2 (ix3 (0 : Fin 1) (0 : Fin 1) row)) w) :=
  (hf _ _).trans (congrArg (fun t => msk (IntOp.cmpi .eq t w)) (relCol_apply x2 row))

/-- The eight relations' masked scores of a row, added left to right onto zero. -/
theorem scoreSum_apply (x0 x1 : Vec Ideal S1x5120x64 .bf16) (x2 : Vec Ideal S1x1x5120 .i32) (x4 : Vec Ideal S64x512 .bf16)
    (row : Fin 5120) :
    k0_pay23 (F := Ideal) (k0_pay4 (F := Ideal) x0) (k0_pay5 (F := Ideal) x2) (k0_pay9 (F := Ideal) x1 x4)
          (k0_pay17 (k0_pay4 (F := Ideal) x0) (k0_pay5 (F := Ideal) x2) (k0_pay9 (F := Ideal) x1 x4) k0_pay10 (k0_pay12 x0 x1 x4) (k0_pay13 x2))
          (k0_pay19 (k0_pay4 (F := Ideal) x0) (k0_pay9 (F := Ideal) x1 x4)) (ix2 row (0 : Fin 1))
        + k0_pay26 (F := Ideal) (k0_pay4 (F := Ideal) x0) (k0_pay5 (F := Ideal) x2) (k0_pay9 (F := Ideal) x1 x4) (ix2 row (0 : Fin 1))
      = (((((((0 + relScore x0 x1 x4 row 0 * relMaskOf (x2 (ix3 (0 : Fin 1) (0 : Fin 1) row)) 0) + relScore x0 x1 x4 row 1 * relMaskOf (x2 (ix3 (0 : Fin 1) (0 : Fin 1) row)) 1) + relScore x0 x1 x4 row 2 * relMaskOf (x2 (ix3 (0 : Fin 1) (0 : Fin 1) row)) 2) + relScore x0 x1 x4 row 3 * relMaskOf (x2 (ix3 (0 : Fin 1) (0 : Fin 1) row)) 3) + relScore x0 x1 x4 row 4 * relMaskOf (x2 (ix3 (0 : Fin 1) (0 : Fin 1) row)) 4) + relScore x0 x1 x4 row 5 * relMaskOf (x2 (ix3 (0 : Fin 1) (0 : Fin 1) row)) 5) + relScore x0 x1 x4 row 6 * relMaskOf (x2 (ix3 (0 : Fin 1) (0 : Fin 1) row)) 6) + relScore x0 x1 x4 row 7 * relMaskOf (x2 (ix3 (0 : Fin 1) (0 : Fin 1) row)) 7 :=
  chain_step (chain_step (chain_step (chain_step (chain_step (chain_step (chain_step (chain_step (zeroCol_apply row)
      (scoreCol_eq x0 x1 x4 0 slices_S5120x512_o0_0_S5120x64 row 0 (by decide)) (mask0_apply x2 row))
      (scoreCol_eq x0 x1 x4 64 slices_S5120x512_o0_64_S5120x64 row 1 (by decide)) (relMask x2 row k0_pay14 1#32 mask1_apply))
      (scoreCol_eq x0 x1 x4 128 slices_S5120x512_o0_128_S5120x64 row 2 (by decide)) (relMask x2 row k0_pay15 2#32 mask2_apply))
      (scoreCol_eq x0 x1 x4 192 slices_S5120x512_o0_192_S5120x64 row 3 (by decide)) (relMask x2 row k0_pay16 3#32 mask3_apply))
      (scoreCol_eq x0 x1 x4 256 slices_S5120x512_o0_256_S5120x64 row 4 (by decide)) (relMask x2 row k0_pay20 4#32 mask4_apply))
      (scoreCol_eq x0 x1 x4 320 slices_S5120x512_o0_320_S5120x64 row 5 (by decide)) (relMask x2 row k0_pay21 5#32 mask5_apply))
      (scoreCol_eq x0 x1 x4 384 slices_S5120x512_o0_384_S5120x64 row 6 (by decide)) (relMask x2 row k0_pay22 6#32 mask6_apply))
      (scoreCol_eq x0 x1 x4 448 slices_S5120x512_o0_448_S5120x64 row 7 (by decide)) (relMask x2 row k0_pay25 7#32 mask7_apply)

/-- The eight relations' masked biases, likewise. -/
theorem biasSum_apply (x2 : Vec Ideal S1x1x5120 .i32) (x5 : Vec Ideal S1x8 .f32) (row : Fin 5120) :
    k0_pay24 (F := Ideal) (k0_pay5 (F := Ideal) x2) (k0_pay8 (F := Ideal) x5) (k0_pay18 (k0_pay5 (F := Ideal) x2) (k0_pay8 (F := Ideal) x5) k0_pay11 (k0_pay13 x2)) (ix2 row (0 : Fin 1))
        + biasWord (k0_pay8 (F := Ideal) x5) 7 slices_S1x8_o0_7_S1x1 * k0_pay25 (F := Ideal) (k0_pay5 (F := Ideal) x2) (ix2 row (0 : Fin 1))
      = (((((((0 + x5 (ix2 (0 : Fin 1) 0) * relMaskOf (x2 (ix3 (0 : Fin 1) (0 : Fin 1) row)) 0) + x5 (ix2 (0 : Fin 1) 1) * relMaskOf (x2 (ix3 (0 : Fin 1) (0 : Fin 1) row)) 1) + x5 (ix2 (0 : Fin 1) 2) * relMaskOf (x2 (ix3 (0 : Fin 1) (0 : Fin 1) row)) 2) + x5 (ix2 (0 : Fin 1) 3) * relMaskOf (x2 (ix3 (0 : Fin 1) (0 : Fin 1) row)) 3) + x5 (ix2 (0 : Fin 1) 4) * relMaskOf (x2 (ix3 (0 : Fin 1) (0 : Fin 1) row)) 4) + x5 (ix2 (0 : Fin 1) 5) * relMaskOf (x2 (ix3 (0 : Fin 1) (0 : Fin 1) row)) 5) + x5 (ix2 (0 : Fin 1) 6) * relMaskOf (x2 (ix3 (0 : Fin 1) (0 : Fin 1) row)) 6) + x5 (ix2 (0 : Fin 1) 7) * relMaskOf (x2 (ix3 (0 : Fin 1) (0 : Fin 1) row)) 7 :=
  chain_step (chain_step (chain_step (chain_step (chain_step (chain_step (chain_step (chain_step (zeroCol'_apply row)
      (biasWord_eq x5 0 slices_S1x8_o0_0_S1x1 0 (by decide)) (mask0_apply x2 row))
      (biasWord_eq x5 1 slices_S1x8_o0_1_S1x1 1 (by decide)) (relMask x2 row k0_pay14 1#32 mask1_apply))
      (biasWord_eq x5 2 slices_S1x8_o0_2_S1x1 2 (by decide)) (relMask x2 row k0_pay15 2#32 mask2_apply))
      (biasWord_eq x5 3 slices_S1x8_o0_3_S1x1 3 (by decide)) (relMask x2 row k0_pay16 3#32 mask3_apply))
      (biasWord_eq x5 4 slices_S1x8_o0_4_S1x1 4 (by decide)) (relMask x2 row k0_pay20 4#32 mask4_apply))
      (biasWord_eq x5 5 slices_S1x8_o0_5_S1x1 5 (by decide)) (relMask x2 row k0_pay21 5#32 mask5_apply))
      (biasWord_eq x5 6 slices_S1x8_o0_6_S1x1 6 (by decide)) (relMask x2 row k0_pay22 6#32 mask6_apply))
      (biasWord_eq x5 7 slices_S1x8_o0_7_S1x1 7 (by decide)) (relMask x2 row k0_pay25 7#32 mask7_apply)

/-- At the ideal values a point adds, to what the accumulator held, the sum of its 5120 rows' values. -/
theorem blockAcc_apply (x0 x1 : Vec Ideal S1x5120x64 .bf16) (x2 : Vec Ideal S1x1x5120 .i32) (x3 : Vec Ideal S1x1x5120 .f32)
    (x4 : Vec Ideal S64x512 .bf16) (x5 : Vec Ideal S1x8 .f32) (acc : Vec Ideal S1x1 .f32) :
    blockAcc (F := Ideal) x0 x1 x2 x3 x4 x5 acc (ix2 (0 : Fin 1) (0 : Fin 1))
      = acc (ix2 (0 : Fin 1) (0 : Fin 1))
        + ∑ row : Fin 5120, rowLoss (fun a j => x4 (ix2 a j)) (fun r => x5 (ix2 (0 : Fin 1) r))
            (fun b => x0 (ix3 (0 : Fin 1) row b)) (fun a => x1 (ix3 (0 : Fin 1) row a))
            (x2 (ix3 (0 : Fin 1) (0 : Fin 1) row)) (x3 (ix3 (0 : Fin 1) (0 : Fin 1) row)) := by
  unfold blockAcc
  refine (update_apply _ _ _ _ _ _ _ _).trans ?_
  refine congrArg (acc (ix2 (0 : Fin 1) (0 : Fin 1)) + ·) (Finset.sum_congr rfl fun row _ => ?_)
  exact congrArg₂ (fun p q => softplus p * q)
    (congrArg₂ (· * ·) (signCol_apply x3 row)
      (congrArg₂ (· + ·) (scoreSum_apply x0 x1 x2 x4 row) (biasSum_apply x2 x5 row)))
    (live_apply x2 row)

end Cert.KernelIdeal.Pay

end
-- ==== Proof.KerPieces.lean ====
/-
  What each case of the kernel body leaves in the accumulator and in the output block, as the body's arithmetic of
  the point's input blocks: the first point of a core resets the accumulator before adding, every later point adds to
  what the point before left, and the last point of a core also writes the scaled accumulator out.
-/
import proofs.«421868_j31318901522602_3_alg».proof.Proof.Gen.KernelIdeal.Frame
import proofs.«421868_j31318901522602_3_alg».proof.Proof.KerPay

set_option maxRecDepth 16384

noncomputable section

namespace Cert.KernelIdeal.Pieces

open Idealize.ShloMosaic Idealize.ShloMosaic.TcCoe Idealize.ShloMosaic.Tactic Cert.KernelIdeal Cert.KernelIdeal.Gen Cert.KernelIdeal.Pay
open Idealize.SL Idealize.SL.Sem

variable {F : FTy → Type} [FloatOps F] [Named F]

/-- The origin of a rank-2 rectangle, as the constant-zero offset. -/
theorem origin2 : (![0, 0] : Fin 2 → Nat) = fun _ => 0 := funext fun a => by fin_cases a <;> rfl

/-- The origin of a rank-3 rectangle, as the constant-zero offset. -/
theorem origin3 : (![0, 0, 0] : Fin 3 → Nat) = fun _ => 0 := funext fun a => by fin_cases a <;> rfl

/-- The first point of a core: the accumulator is reset, then the block is added. -/
theorem sout_A (c : Dev nD) (i : grid0.Coords) (arg2 : Memref sig .tc .vmem S1x5120x64 .bf16) (harg2 : arg2.IsWhole) (arg3 : Memref sig .tc .vmem S1x5120x64 .bf16) (harg3 : arg3.IsWhole) (arg4 : Memref sig .tc .vmem S1x1x5120 .i32) (harg4 : arg4.IsWhole) (arg5 : Memref sig .tc .vmem S1x1x5120 .f32) (harg5 : arg5.IsWhole) (arg6 : Memref sig .tc .vmem S64x512 .bf16) (harg6 : arg6.IsWhole) (arg7 : Memref sig .tc .vmem S1x8 .f32) (harg7 : arg7.IsWhole) (arg8 : Memref sig .tc .vmem S1x1x1 .f32) (harg8 : arg8.IsWhole) (arg9 : Memref sig .tc .vmem S1x1 .f32) (harg9 : arg9.IsWhole) (hc0 : cond0_0 i) (hc1 : ¬cond0_1 i)
    (x0 : Vec F S1x5120x64 .bf16) (x1 : Vec F S1x5120x64 .bf16) (x2 : Vec F S1x1x5120 .i32) (x3 : Vec F S1x1x5120 .f32) (x4 : Vec F S64x512 .bf16) (x5 : Vec F S1x8 .f32) :
    sout0_A_0 (F := F) c i arg2 harg2 arg3 harg3 arg4 harg4 arg5 harg5 arg6 harg6 arg7 harg7 arg8 harg8 arg9 harg9 hc0 hc1 x0 x1 x2 x3 x4 x5 = blockAcc x0 x1 x2 x3 x4 x5 k0_pay3 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x1) origin2, View.readCov_unit_zero (S := S1x1) _ origin2]
  unfold blockAcc
  simp only [View.readAt_eq_ld, harg2.read_unread, harg3.read_unread, harg4.read_unread, harg5.read_unread, harg6.read_unread, harg7.read_unread, harg9.read_unread,
    View.ld_unit_zero (S := S1x5120x64) origin3, View.ld_unit_zero (S := S1x1x5120) origin3, View.ld_unit_zero (S := S64x512) origin2, View.ld_unit_zero (S := S1x8) origin2, View.ld_unit_zero (S := S1x1) origin2]

/-- A middle point: the block is added to what the point before left. -/
theorem sout_B (c : Dev nD) (i : grid0.Coords) (arg2 : Memref sig .tc .vmem S1x5120x64 .bf16) (harg2 : arg2.IsWhole) (arg3 : Memref sig .tc .vmem S1x5120x64 .bf16) (harg3 : arg3.IsWhole) (arg4 : Memref sig .tc .vmem S1x1x5120 .i32) (harg4 : arg4.IsWhole) (arg5 : Memref sig .tc .vmem S1x1x5120 .f32) (harg5 : arg5.IsWhole) (arg6 : Memref sig .tc .vmem S64x512 .bf16) (harg6 : arg6.IsWhole) (arg7 : Memref sig .tc .vmem S1x8 .f32) (harg7 : arg7.IsWhole) (arg8 : Memref sig .tc .vmem S1x1x1 .f32) (harg8 : arg8.IsWhole) (arg9 : Memref sig .tc .vmem S1x1 .f32) (harg9 : arg9.IsWhole) (hc0 : ¬cond0_0 i) (hc1 : ¬cond0_1 i)
    (x0 : Vec F S1x5120x64 .bf16) (x1 : Vec F S1x5120x64 .bf16) (x2 : Vec F S1x1x5120 .i32) (x3 : Vec F S1x1x5120 .f32) (x4 : Vec F S64x512 .bf16) (x5 : Vec F S1x8 .f32) (xs0 : Vec F S1x1 .f32) :
    sout0_B_0 (F := F) c i arg2 harg2 arg3 harg3 arg4 harg4 arg5 harg5 arg6 harg6 arg7 harg7 arg8 harg8 arg9 harg9 hc0 hc1 x0 x1 x2 x3 x4 x5 xs0 = blockAcc x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero origin2]
  unfold blockAcc
  simp only [View.readAt_eq_ld, harg2.read_unread, harg3.read_unread, harg4.read_unread, harg5.read_unread, harg6.read_unread, harg7.read_unread, harg9.read_unread,
    View.ld_unit_zero (S := S1x5120x64) origin3, View.ld_unit_zero (S := S1x1x5120) origin3, View.ld_unit_zero (S := S64x512) origin2, View.ld_unit_zero (S := S1x8) origin2, View.ld_unit_zero (S := S1x1) origin2]

/-- The last point of a core: the same in the accumulator, -/
theorem sout_C (c : Dev nD) (i : grid0.Coords) (arg2 : Memref sig .tc .vmem S1x5120x64 .bf16) (harg2 : arg2.IsWhole) (arg3 : Memref sig .tc .vmem S1x5120x64 .bf16) (harg3 : arg3.IsWhole) (arg4 : Memref sig .tc .vmem S1x1x5120 .i32) (harg4 : arg4.IsWhole) (arg5 : Memref sig .tc .vmem S1x1x5120 .f32) (harg5 : arg5.IsWhole) (arg6 : Memref sig .tc .vmem S64x512 .bf16) (harg6 : arg6.IsWhole) (arg7 : Memref sig .tc .vmem S1x8 .f32) (harg7 : arg7.IsWhole) (arg8 : Memref sig .tc .vmem S1x1x1 .f32) (harg8 : arg8.IsWhole) (arg9 : Memref sig .tc .vmem S1x1 .f32) (harg9 : arg9.IsWhole) (hc0 : ¬cond0_0 i) (hc1 : cond0_1 i)
    (x0 : Vec F S1x5120x64 .bf16) (x1 : Vec F S1x5120x64 .bf16) (x2 : Vec F S1x1x5120 .i32) (x3 : Vec F S1x1x5120 .f32) (x4 : Vec F S64x512 .bf16) (x5 : Vec F S1x8 .f32) (xs0 : Vec F S1x1 .f32) :
    sout0_C_0 (F := F) c i arg2 harg2 arg3 harg3 arg4 harg4 arg5 harg5 arg6 harg6 arg7 harg7 arg8 harg8 arg9 harg9 hc0 hc1 x0 x1 x2 x3 x4 x5 xs0 = blockAcc x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero origin2]
  unfold blockAcc
  simp only [View.readAt_eq_ld, harg2.read_unread, harg3.read_unread, harg4.read_unread, harg5.read_unread, harg6.read_unread, harg7.read_unread, harg9.read_unread,
    View.ld_unit_zero (S := S1x5120x64) origin3, View.ld_unit_zero (S := S1x1x5120) origin3, View.ld_unit_zero (S := S64x512) origin2, View.ld_unit_zero (S := S1x8) origin2, View.ld_unit_zero (S := S1x1) origin2]

/-- and the output block holds the new accumulator, scaled. -/
theorem out_C (c : Dev nD) (i : grid0.Coords) (arg2 : Memref sig .tc .vmem S1x5120x64 .bf16) (harg2 : arg2.IsWhole) (arg3 : Memref sig .tc .vmem S1x5120x64 .bf16) (harg3 : arg3.IsWhole) (arg4 : Memref sig .tc .vmem S1x1x5120 .i32) (harg4 : arg4.IsWhole) (arg5 : Memref sig .tc .vmem S1x1x5120 .f32) (harg5 : arg5.IsWhole) (arg6 : Memref sig .tc .vmem S64x512 .bf16) (harg6 : arg6.IsWhole) (arg7 : Memref sig .tc .vmem S1x8 .f32) (harg7 : arg7.IsWhole) (arg8 : Memref sig .tc .vmem S1x1x1 .f32) (harg8 : arg8.IsWhole) (arg9 : Memref sig .tc .vmem S1x1 .f32) (harg9 : arg9.IsWhole) (hc0 : ¬cond0_0 i) (hc1 : cond0_1 i)
    (x0 : Vec F S1x5120x64 .bf16) (x1 : Vec F S1x5120x64 .bf16) (x2 : Vec F S1x1x5120 .i32) (x3 : Vec F S1x1x5120 .f32) (x4 : Vec F S64x512 .bf16) (x5 : Vec F S1x8 .f32) (xs0 : Vec F S1x1 .f32) :
    out0_C_6 (F := F) c i arg2 harg2 arg3 harg3 arg4 harg4 arg5 harg5 arg6 harg6 arg7 harg7 arg8 harg8 arg9 harg9 hc0 hc1 x0 x1 x2 x3 x4 x5 xs0 = k0_pay2 (blockAcc x0 x1 x2 x3 x4 x5 xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero origin3]
  unfold blockAcc
  simp only [View.readAt_eq_ld, harg2.read_unread, harg3.read_unread, harg4.read_unread, harg5.read_unread, harg6.read_unread, harg7.read_unread, harg9.read_unread,
    View.ld_unit_zero (S := S1x5120x64) origin3, View.ld_unit_zero (S := S1x1x5120) origin3, View.ld_unit_zero (S := S64x512) origin2, View.ld_unit_zero (S := S1x8) origin2, View.ld_unit_zero (S := S1x1) origin2, View.readCov_unit_zero (S := S1x1) _ origin2]

end Cert.KernelIdeal.Pieces

end
-- ==== Proof.LibRowGather.lean ====
/-
  A `stablehlo.gather` of WHOLE ROWS of a rank-2 operand, read at an index.

  What `x[idx]` of a table `x : [N, C]` at an integer vector `idx : [R]` lowers to: start indices `[R, 1]`, offset_dims
  `[1]`, collapsed_slice_dims `[0]`, start_index_map `[0]`, index_vector_dim `1`, slice sizes `[1, C]`. Result element
  `(r, j)` is the operand at row `idx[r, 0]` — read as a signed integer and clamped into `[0, N − 1]`, as the host gather
  clamps every start index — and column `j`.
-/
import Idealize.ShloMosaic.PureOps.Ideal
import Idealize.ShloMosaic.Lib.ValueIdx

noncomputable section

namespace Cert.LibRowGather

open Idealize.ShloMosaic Idealize.ShloMosaic.ValueIdx

variable {α : Type}

/-- Those dimension numbers for an operand `[N, C]`, start indices `[R, 1]` and result `[R, C]`; their conditions `wf`
    are decided on a program's literal shapes. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(r, j)`: the operand at the start index `idx[r, 0]`, read signed and clamped into
    `[0, N − 1]`, and at column `j`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (y : (⟨2, ![R, C]⟩ : Shape).Idx) :
    Host.gather (rowDims N C R wf) x idx y
      = x (ix2 (⟨min (idx (ix2 (⟨(y 0).val, idx2_lt0 y⟩ : Fin R) (0 : Fin 1))).toInt.toNat (N - 1), by omega⟩ : Fin N)
            (⟨(y 1).val, idx2_lt1 y⟩ : Fin C)) := by
  unfold Host.gather
  congr 1
  funext a
  refine Fin.ext ?_
  show (rowDims N C R wf).start y idx a + (rowDims N C R wf).batchCoord y a + (rowDims N C R wf).offCoord y a = _
  rw [GatherDims.batchCoord_eq_zero _ _ _ List.not_mem_nil]
  simp only [Nat.add_zero]
  match a with
  | ⟨0, _⟩ =>
    -- operand axis 0 (rows): in the start index map and collapsed, so the coordinate is the clamped start alone
    rw [GatherDims.offCoord_eq_zero _ _ _ (fun h => ((GatherDims.mem_sKept _ _).mp h).1 (List.mem_singleton.mpr rfl))]
    simp only [Nat.add_zero]
    unfold GatherDims.start
    rw [dif_pos (show (⟨0, by omega⟩ : Fin 2) ∈ (rowDims N C R wf).startIndexMap from List.mem_singleton.mpr rfl)]
    have hsi : (rowDims N C R wf).siIdx y ⟨List.idxOf (⟨0, by omega⟩ : Fin 2) (rowDims N C R wf).startIndexMap,
        List.idxOf_lt_length_iff.2 (List.mem_singleton.mpr rfl)⟩
          = ix2 (⟨(y 0).val, idx2_lt0 y⟩ : Fin R) (0 : Fin 1) := by
      funext b; refine Fin.ext ?_
      match b with
      | ⟨0, _⟩ => rfl
      | ⟨1, _⟩ => rfl
    rw [hsi]
    rfl
  | ⟨1, h1⟩ =>
    -- operand axis 1 (columns): not in the start index map, so the start is 0; it is the one kept axis, read by the
    -- result's offset axis 1
    have hne : (⟨1, h1⟩ : Fin 2) ≠ 0 := fun h => Nat.one_ne_zero (congrArg Fin.val h)
    have hst : (rowDims N C R wf).start y idx ⟨1, h1⟩ = 0 := by
      unfold GatherDims.start
      rw [dif_neg (fun h => hne (List.mem_singleton.mp h))]
    have hk : (⟨1, h1⟩ : Fin 2) ∈ (rowDims N C R wf).sKept :=
      (GatherDims.mem_sKept _ _).mpr ⟨fun h => hne (List.mem_singleton.mp h), List.not_mem_nil⟩
    rw [hst, Nat.zero_add]
    unfold GatherDims.offCoord
    rw [dif_pos hk]
    rfl

end Cert.LibRowGather

end
-- ==== Proof.KerHostW.lean ====
/-
  The weights laid side by side and the biases as a row, as the kernel's pallas_call is handed them, read at an index
  as functions of the program's arguments.
-/
import proofs.«421868_j31318901522602_3_alg».proof.Proof.Gen.KernelIdeal.Frame.Runs
import proofs.«421868_j31318901522602_3_alg».proof.Proof.Spec
import Idealize.ShloMosaic.Lib.Pipeline.Value
import Idealize.ShloMosaic.Lib.ValueLayout
import Idealize.ShloMosaic.Lib.StableHlo.Run

set_option maxRecDepth 16384

noncomputable section

namespace Cert.KernelIdeal.HostVal

open Idealize.ShloMosaic Idealize.ShloMosaic.TcCoe Idealize.ShloMosaic.ValueIdx Idealize.SL.Sem
open Cert.KernelIdeal Cert.KernelIdeal.Gen Cert.EdgeLoss

variable (m : (ℓ : Loc nD τ sig) → Buf (Elt Ideal) ℓ)

/-- The biases as a row. -/
theorem v22_apply' (c : Dev nD) (r : Fin 8) :
    (V m c main_v22 : S1x8.Idx → EReal) (ix2 (0 : Fin 1) r) = (m ((c.tc : Thread nD τ).loc main_arg3)) (ix1 r) := by
  have e : (V m c main_v22 : S1x8.Idx → EReal)
      = shapeCast S1x8 (m ((c.tc : Thread nD τ).loc main_arg3) : S8.Idx → EReal) shapeCasts_S8_S1x8 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results
    rfl
  rw [e]
  exact shapeCast_a_1a_apply _ _ (0 : Fin 1) r

/-- The weights laid side by side: the relation weights with the last two axes exchanged, the relation axis moved
    inside, and the relation and its 64 columns merged, so that column `j` of row `a` is relation `j / 64`, entry
    `(j % 64, a)`; narrowing the format changes nothing. -/
theorem v21_apply' (c : Dev nD) (a : Fin 64) (j : Fin 512) :
    (V m c main_v21 : S64x512.Idx → EReal) (ix2 a j) = wcat (weights (F := Ideal) (m ((c.tc : Thread nD τ).loc main_arg1)) (m ((c.tc : Thread nD τ).loc main_arg2))) a j := by
  have e : (V m c main_v21 : S64x512.Idx → EReal)
      = truncf .bf16 (shapeCast S64x512 (transpose S64x8x64 [1, 0, 2] (transpose S8x64x64 [0, 2, 1]
          (weights (F := Ideal) (m ((c.tc : Thread nD τ).loc main_arg1)) (m ((c.tc : Thread nD τ).loc main_arg2)))
          transposes_S8x64x64_S8x64x64_0_2_1) transposes_S8x64x64_S64x8x64_1_0_2) shapeCasts_S64x8x64_S64x512) bitsLt_bf16_f32 := by
    dsimp only [Gen.V, Gen.V0]
    simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
    after_results_simp
    unfold weights
    rfl
  refine (congrFun e (ix2 a j)).trans ?_
  refine (truncf_apply _ bitsLt_bf16_f32 (ix2 a j)).trans ?_
  refine (shapeCast_apply _ _ _ (ix3 a (⟨j.val / 64, by omega⟩ : Fin 8) (⟨j.val % 64, Nat.mod_lt _ (by decide)⟩ : Fin 64)) ?_).trans ?_
  · rw [Shape.rowMajor_val_three, Shape.rowMajor_val_two]
    show (a.val * 8 + j.val / 64) * 64 + j.val % 64 = a.val * 512 + j.val
    omega
  refine (transpose_apply _ _ _ _
    (ix3 (⟨j.val / 64, by omega⟩ : Fin 8) a (⟨j.val % 64, Nat.mod_lt _ (by decide)⟩ : Fin 64))
    (fun b => by match b with | ⟨0, _⟩ => rfl | ⟨1, _⟩ => rfl | ⟨2, _⟩ => rfl)).trans ?_
  exact transpose_ix3_021_apply _ _ (⟨j.val / 64, by omega⟩ : Fin 8) a (⟨j.val % 64, Nat.mod_lt _ (by decide)⟩ : Fin 64)

end Cert.KernelIdeal.HostVal

end
-- ==== Proof.KerHostT.lean ====
/-
  The relation words as the kernel's pallas_call is handed them — both streams end to end, padded with −1 and split
  per core — read at an index as a function of the program's arguments.
-/
import proofs.«421868_j31318901522602_3_alg».proof.Proof.Gen.KernelIdeal.Frame.Runs
import proofs.«421868_j31318901522602_3_alg».proof.Proof.Spec
import proofs.«421868_j31318901522602_3_alg».proof.Proof.LibRowGather
import Idealize.ShloMosaic.Lib.Pipeline.Value
import Idealize.ShloMosaic.Lib.ValueLayout
import Idealize.ShloMosaic.Lib.StableHlo.Run
import Idealize.ShloMosaic.Lib.KernelVsHost

set_option maxRecDepth 16384

noncomputable section

namespace Cert.KernelIdeal.HostVal

open Idealize.ShloMosaic Idealize.ShloMosaic.TcCoe Idealize.ShloMosaic.ValueIdx Idealize.SL.Sem
open Cert.KernelIdeal Cert.KernelIdeal.Gen Cert.EdgeLoss

variable (m : (ℓ : Loc nD τ sig) → Buf (Elt Ideal) ℓ)

/-! A function call's values sit in buffers named by typed references; for a literal reference the passage between the
    value's type and the buffer's own type is the identity. -/

theorem padded_toBuf (p1 : main_v49.ty = ⟨S2007040, .i32⟩) (p2 : main_v49.space ≠ .host) (p3 : main_v49.isScoped = false)
    (v : (⟨S2007040, .i32⟩ : BufTy).Contents (Elt Ideal)) :
    (StableHlo.TRef.of (T := ⟨S2007040, .i32⟩) main_v49 p1 p2 p3).toBuf v = v := rfl

theorem streams_ofBuf (p1 : main_v25.ty = ⟨S2000000, .i32⟩) (p2 : main_v25.space ≠ .host) (p3 : main_v25.isScoped = false)
    (v : main_v25.ty.Contents (Elt Ideal)) :
    (StableHlo.TRef.of (T := ⟨S2000000, .i32⟩) main_v25 p1 p2 p3).ofBuf v = v := rfl

theorem fill_ofBuf (p1 : main_call3_v0.ty = ⟨S_, .i32⟩) (p2 : main_call3_v0.space ≠ .host) (p3 : main_call3_v0.isScoped = false)
    (v : main_call3_v0.ty.Contents (Elt Ideal)) :
    (StableHlo.TRef.of (T := ⟨S_, .i32⟩) main_call3_v0 p1 p2 p3).ofBuf v = v := rfl

theorem fill_toBuf (p1 : main_call3_v0.ty = ⟨S_, .i32⟩) (p2 : main_call3_v0.space ≠ .host) (p3 : main_call3_v0.isScoped = false)
    (v : (⟨S_, .i32⟩ : BufTy).Contents (Elt Ideal)) :
    (StableHlo.TRef.of (T := ⟨S_, .i32⟩) main_call3_v0 p1 p2 p3).toBuf v = v := rfl

theorem minusOne_ofBuf (p1 : main_c_14.ty = ⟨S_, .i32⟩) (p2 : main_c_14.space ≠ .host) (p3 : main_c_14.isScoped = false)
    (v : main_c_14.ty.Contents (Elt Ideal)) :
    (StableHlo.TRef.of (T := ⟨S_, .i32⟩) main_c_14 p1 p2 p3).ofBuf v = v := rfl

set_option maxHeartbeats 2000000 in
/-- The relation words handed to the kernel's call, as one term over the program's arguments: both streams end to end,
    7040 words of −1 appended, the 2007040 words regrouped as 2 × 1 × 1003520. -/
theorem relWords_eq (c : Dev nD) :
    (V m c main_v53 : S2x1x1003520.Idx → BitVec 32)
      = shapeCast S2x1x1003520 (pad S2007040 ![0] ![7040] ![0]
          (concatenate S2000000 0 [⟨S1000000, ((m ((c.tc : Thread nD τ).loc main_arg5)) : S1000000.Idx → BitVec 32)⟩, ⟨S1000000, ((m ((c.tc : Thread nD τ).loc main_arg7)) : S1000000.Idx → BitVec 32)⟩]
            concatenates_S1000000_S1000000_S2000000_d0)
          (constantI S_ 32 4294967295#32) pads_S2000000_S2007040_070400 h_S_) shapeCasts_S2007040_S2x1x1003520 := by
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  -- the two streams sit inside the concatenation's list of pieces: no earlier operation writes either argument
  repeat (first
    | (rw [StableHlo.nullary_result_ne]; rotate_left; decide)
    | (rw [StableHlo.unary_result_ne]; rotate_left; decide)
    | (rw [StableHlo.binary_result_ne]; rotate_left; decide)
    | (rw [StableHlo.reshape_result_ne]; rotate_left; decide))
  rw [padded_toBuf, streams_ofBuf, fill_ofBuf, fill_toBuf, minusOne_ofBuf]
  rfl

/-- Word `r` of core `cc` is the word at padded position `1003520 cc + r`: the positive stream's word there, or the
    negative stream's word `1000000` places back, or −1 in the padding. -/
theorem v53_apply' (c : Dev nD) (cc : Fin 2) (r : Fin 1003520) :
    (V m c main_v53 : S2x1x1003520.Idx → BitVec 32) (ix3 cc (0 : Fin 1) r)
      = padTy (m ((c.tc : Thread nD τ).loc main_arg5)) (m ((c.tc : Thread nD τ).loc main_arg7)) (cc.val * 1003520 + r.val) := by
  have e := relWords_eq m c
  have hp : cc.val * 1003520 + r.val < 2007040 := by omega
  refine (congrFun e _).trans ?_
  refine (shapeCast_apply _ _ _ (ix1 (⟨cc.val * 1003520 + r.val, hp⟩ : Fin 2007040)) ?_).trans ?_
  · rw [Shape.rowMajor_val_one, Shape.rowMajor_val_three]
    show cc.val * 1003520 + r.val = (cc.val * 1 + 0) * 1003520 + r.val
    omega
  unfold padTy
  by_cases h1 : cc.val * 1003520 + r.val < 1000000
  · -- inside the positive stream
    have hq : cc.val * 1003520 + r.val < 2000000 := by omega
    rw [dif_pos h1]
    refine (pad_apply_of_inside _ _ _ _ _ _ _ _ (ix1 (⟨cc.val * 1003520 + r.val, hq⟩ : Fin 2000000)) (fun a => by
      match a with
      | ⟨0, _⟩ => show cc.val * 1003520 + r.val = 0 + (cc.val * 1003520 + r.val) * (0 + 1); omega)).trans ?_
    exact concatenate_pair_apply_left (t := S2000000) (s₁ := S1000000) (s₂ := S1000000) (0 : Fin 1) _ _ _
      (ix1 (⟨cc.val * 1003520 + r.val, hq⟩ : Fin 2000000)) rfl (ix1 (⟨cc.val * 1003520 + r.val, h1⟩ : Fin 1000000)) (fun b => by
        match b with
        | ⟨0, _⟩ => rfl)
  · rw [dif_neg h1]
    by_cases h2 : cc.val * 1003520 + r.val < 2000000
    · -- inside the negative stream
      rw [dif_pos h2]
      refine (pad_apply_of_inside _ _ _ _ _ _ _ _ (ix1 (⟨cc.val * 1003520 + r.val, h2⟩ : Fin 2000000)) (fun a => by
        match a with
        | ⟨0, _⟩ => show cc.val * 1003520 + r.val = 0 + (cc.val * 1003520 + r.val) * (0 + 1); omega)).trans ?_
      exact concatenate_pair_apply_right (t := S2000000) (s₁ := S1000000) (s₂ := S1000000) (0 : Fin 1) _ _ _
        (ix1 (⟨cc.val * 1003520 + r.val, h2⟩ : Fin 2000000)) rfl rfl (ix1 (⟨cc.val * 1003520 + r.val - 1000000, by omega⟩ : Fin 1000000))
        (fun b hb => by
          match b with
          | ⟨0, _⟩ => exact absurd rfl hb)
        (by show (cc.val * 1003520 + r.val - 1000000) + 1000000 = cc.val * 1003520 + r.val; omega)
    · -- in the padding
      rw [dif_neg h2]
      refine (pad_apply_of_not_inside _ _ _ _ _ _ _ _ (0 : Fin 1) (by
        show ¬(0 ≤ cc.val * 1003520 + r.val ∧ (cc.val * 1003520 + r.val - 0) % (0 + 1) = 0 ∧ (cc.val * 1003520 + r.val - 0) / (0 + 1) < 2000000)
        omega)).trans ?_
      rfl

end Cert.KernelIdeal.HostVal

end
-- ==== Proof.KerHostS.lean ====
/-
  The signs the kernel's pallas_call is handed, read at an index: −1 on the positive stream, 1 on the negative stream,
  0 on the padding.
-/
import proofs.«421868_j31318901522602_3_alg».proof.Proof.Gen.KernelIdeal.Frame.Runs
import proofs.«421868_j31318901522602_3_alg».proof.Proof.Spec
import Idealize.ShloMosaic.Lib.Pipeline.Value
import Idealize.ShloMosaic.Lib.ValueLayout
import Idealize.ShloMosaic.Lib.KernelVsHost
import Idealize.ShloMosaic.Lib.StableHlo.Run

set_option maxRecDepth 16384

noncomputable section

namespace Cert.KernelIdeal.HostVal

open Idealize.ShloMosaic Idealize.ShloMosaic.TcCoe Idealize.ShloMosaic.ValueIdx Idealize.SL.Sem
open Cert.KernelIdeal Cert.KernelIdeal.Gen Cert.EdgeLoss

variable (m : (ℓ : Loc nD τ sig) → Buf (Elt Ideal) ℓ)

/-! ## The three sign words -/

/-- The word of −1. -/
theorem word_neg_one : Ideal.ofBits .f32 0xBF800000#32 = -1 := by
  simp [Ideal.ofBits, Ideal.ieee, -EReal.coe_mul]; norm_num

/-- The word of 1. -/
theorem word_pos_one : Ideal.ofBits .f32 0x3F800000#32 = 1 := by
  simp [Ideal.ofBits, Ideal.ieee, -EReal.coe_mul]; norm_num

/-! ## The signs -/

/-- The signs: −1 on the positive stream, 1 on the negative stream, 0 on the padding. Core `cc`'s entry `r` is padded
    position `1003520 cc + r` of the 2007040: the two constant streams end to end, then the zero padding. -/
theorem v54_apply' (c : Dev nD) (cc : Fin 2) (r : Fin 1003520) :
    (V m c main_v54 : S2x1x1003520.Idx → EReal) (ix3 cc (0 : Fin 1) r) = padSign (cc.val * 1003520 + r.val) := by
  have hcc : cc.val < 2 := cc.isLt
  have hr : r.val < 1003520 := r.isLt
  have hp : cc.val * 1003520 + r.val < 2007040 := by omega
  dsimp only [Gen.V, Gen.V0]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, List.flatten_cons, List.flatten_nil, List.append_nil, List.cons_append, List.nil_append]
  after_results_simp
  simp only [StableHlo.TRef.ofBuf, StableHlo.TRef.toBuf, cast_eq]
  refine (shapeCast_apply (s := S2007040) (t := S2x1x1003520) _ _ _ (ix1 (⟨cc.val * 1003520 + r.val, hp⟩ : Fin 2007040)) ?_).trans ?_
  · rw [Shape.rowMajor_val_one, Shape.rowMajor_val_three]
    show cc.val * 1003520 + r.val = (cc.val * 1 + 0) * 1003520 + r.val
    omega
  by_cases h2 : cc.val * 1003520 + r.val < 2000000
  · refine (pad_apply_of_inside (s := S2000000) (t := S2007040) _ _ _ _ _ _ _ _ (ix1 (⟨cc.val * 1003520 + r.val, h2⟩ : Fin 2000000)) ?_).trans ?_
    · intro a
      match a with
      | ⟨0, _⟩ => show cc.val * 1003520 + r.val = 0 + (cc.val * 1003520 + r.val) * (0 + 1); omega
    by_cases h1 : cc.val * 1003520 + r.val < 1000000
    · refine (concatenate_pair_apply_left (t := S2000000) (s₁ := S1000000) (s₂ := S1000000) (0 : Fin 1) _ _ _ _ rfl
        (ix1 (⟨cc.val * 1003520 + r.val, h1⟩ : Fin 1000000)) ?_).trans ?_
      · intro b
        match b with
        | ⟨0, _⟩ => rfl
      after_results_simp
      refine (broadcastInDim_apply _ _ _ _ (fun a => a.elim0) (fun a => a.elim0)).trans ?_
      show Ideal.ofBits .f32 0xBF800000#32 = _
      rw [word_neg_one, padSign, if_pos h1]
    · refine (concatenate_pair_apply_right (t := S2000000) (s₁ := S1000000) (s₂ := S1000000) (0 : Fin 1) _ _ _ _ rfl rfl
        (ix1 (⟨cc.val * 1003520 + r.val - 1000000, by omega⟩ : Fin 1000000)) ?_ ?_).trans ?_
      · intro b hb
        match b with
        | ⟨0, _⟩ => exact absurd rfl hb
      · show cc.val * 1003520 + r.val - 1000000 + 1000000 = cc.val * 1003520 + r.val
        omega
      after_results_simp
      refine (broadcastInDim_apply _ _ _ _ (fun a => a.elim0) (fun a => a.elim0)).trans ?_
      show Ideal.ofBits .f32 0x3F800000#32 = _
      rw [word_pos_one, padSign, if_neg h1, if_pos h2]
  · refine (pad_apply_of_not_inside (s := S2000000) (t := S2007040) _ _ _ _ _ _ _ _ (0 : Fin 1) ?_).trans ?_
    · intro hin
      have e : (cc.val * 1003520 + r.val - 0) / (0 + 1) < 2000000 := hin.2.2
      simp only [Nat.sub_zero, Nat.zero_add, Nat.div_one] at e
      exact h2 e
    show Ideal.ofBits .f32 0x00000000#32 = _
    rw [Ideal.ofBits_zero_f32, padSign, if_neg (by omega), if_neg h2]

end Cert.KernelIdeal.HostVal

end
-- ==== Proof.KerHost.lean ====
/-
  The arrays the kernel's pallas_call is handed, read at an index as functions of the program's arguments: the two
  gathered and padded row arrays, the padded relation words and signs, the weights laid side by side, the biases.
-/
import proofs.«421868_j31318901522602_3_alg».proof.Proof.Gen.KernelIdeal.Frame.Runs
import proofs.«421868_j31318901522602_3_alg».proof.Proof.Spec
import proofs.«421868_j31318901522602_3_alg».proof.Proof.LibRowGather
import proofs.«421868_j31318901522602_3_alg».proof.Proof.KerHostW
import proofs.«421868_j31318901522602_3_alg».proof.Proof.KerHostT
import proofs.«421868_j31318901522602_3_alg».proof.Proof.KerHostS
import Idealize.ShloMosaic.Lib.Pipeline.Value
import Idealize.ShloMosaic.Lib.ValueLayout
import Idealize.ShloMosaic.Lib.KernelVsHost
import Idealize.ShloMosaic.Lib.StableHlo.Run

set_option maxRecDepth 16384

noncomputable section

namespace Cert.KernelIdeal.HostVal

open Idealize.ShloMosaic Idealize.ShloMosaic.TcCoe Idealize.ShloMosaic.ValueIdx Idealize.SL.Sem
open Cert.KernelIdeal Cert.KernelIdeal.Gen Cert.EdgeLoss

namespace Rows

/-! ## The row arrays as terms

  `T` is the node table, `cat` the two streams' node words laid end to end (row 0 the sources, row 1 the destinations). -/

/-- The two streams' node words laid end to end. -/
def catIdx (ei nei : S2x1000000.Idx → BitVec 32) : IVec S2x2000000 32 :=
  concatenate S2x2000000 1 [⟨S2x1000000, ei⟩, ⟨S2x1000000, nei⟩] concatenates_S2x1000000_S2x1000000_S2x2000000_d1

/-- The node words of one side (the row at offsets `off` of the joined index array), as a flat array. -/
def sideWords (cat : IVec S2x2000000 32) (off : Fin 2 → Nat) (hs : S2x2000000.Slices off S1x2000000) : IVec S2000000 32 :=
  shapeCast S2000000 (extractStridedSlice S1x2000000 off cat hs) shapeCasts_S1x2000000_S2000000

/-- One side's gathered rows: the table's row at each node word, a negative word first moved up by the table's height. -/
def sideGather (T : S50000x64.Idx → EReal) (cat : IVec S2x2000000 32) (off : Fin 2 → Nat)
    (hs : S2x2000000.Slices off S1x2000000) : S2000000x64.Idx → EReal :=
  Host.gather gather_S50000x64_S2000000x1_S2000000x64_1_0_n_n_0_1_164 T
    (broadcastInDim S2000000x1 ![0] bcast_S2000000_S2000000x1_0
      (select (cmpi .slt (sideWords cat off hs) (broadcastInDim S2000000 ![] bcast_S_S2000000 (constantI S_ 32 0#32)))
        (addi (sideWords cat off hs) (broadcastInDim S2000000 ![] bcast_S_S2000000 (constantI S_ 32 50000#32)))
        (sideWords cat off hs)))

/-- One side's gathered rows, padded with zero rows and split per core. -/
def sideRows (T : S50000x64.Idx → EReal) (cat : IVec S2x2000000 32) (off : Fin 2 → Nat)
    (hs : S2x2000000.Slices off S1x2000000) : S2x1003520x64.Idx → EReal :=
  shapeCast S2x1003520x64
    (pad S2007040x64 ![0, 0] ![7040, 0] ![0, 0] (sideGather T cat off hs)
      (sitofp (F := Ideal) .bf16 (constantI S_ 32 0#32) : FVec Ideal S_ .bf16) pads_S2000000x64_S2007040x64_070400_000 h_S_)
    shapeCasts_S2007040x64_S2x1003520x64

/-! ## The terms read at an index -/

/-- The flat node words of side `j` at position `p`: the positive stream's word for `p < 1000000`, else the negative stream's. -/
theorem sideWords_apply (ei nei : S2x1000000.Idx → BitVec 32) (j : Fin 2) (hs : S2x2000000.Slices ![j.val, 0] S1x2000000)
    (p : Fin 2000000) :
    sideWords (catIdx ei nei) ![j.val, 0] hs (ix1 p)
      = if h : p.val < 1000000 then ei (ix2 j ⟨p.val, h⟩) else nei (ix2 j ⟨p.val - 1000000, by omega⟩) := by
  unfold sideWords catIdx
  rw [shapeCast_apply _ _ (ix1 p) (ix2 (0 : Fin 1) p) (by
    rw [Shape.rowMajor_val_two, Shape.rowMajor_val_one]
    show 0 * 2000000 + p.val = p.val
    omega)]
  rw [extractStridedSlice_apply _ _ _ (ix2 (0 : Fin 1) p) (ix2 j p) (fun a => by
    match a with
    | ⟨0, _⟩ => exact (Nat.add_zero _).symm
    | ⟨1, _⟩ => exact (Nat.zero_add _).symm)]
  by_cases h : p.val < 1000000
  · rw [dif_pos h]
    exact concatenate_pair_apply_left (1 : Fin 2) ei nei _ (ix2 j p) rfl (ix2 j ⟨p.val, h⟩) (fun b => by
      match b with
      | ⟨0, _⟩ => rfl
      | ⟨1, _⟩ => rfl)
  · rw [dif_neg h]
    exact concatenate_pair_apply_right (1 : Fin 2) ei nei _ (ix2 j p) rfl rfl (ix2 j ⟨p.val - 1000000, by omega⟩)
      (fun b hb => by
        match b, hb with
        | ⟨0, _⟩, _ => rfl
        | ⟨1, _⟩, hb => exact absurd rfl hb)
      (by show p.val - 1000000 + 1000000 = p.val; omega)

/-- The converted integer zero is the number zero. -/
theorem padZero : (sitofp (F := Ideal) .bf16 (constantI S_ 32 0#32) : FVec Ideal S_ .bf16) (Shape.Idx.first h_S_) = 0 := by
  show ((((0#32 : BitVec 32).toInt : ℤ) : ℝ) : EReal) = 0
  simp

/-- A start word read signed and clamped to the table's rows. -/
def clampRow (w : BitVec 32) : Fin 50000 := ⟨min w.toInt.toNat 49999, by omega⟩

/-- The program's row gather at row `p`, column `k`: the table's row at the start word, read signed and clamped. -/
theorem gatherRow (x : S50000x64.Idx → EReal) (idx : IVec S2000000x1 32) (p : Fin 2000000) (k : Fin 64) :
    Host.gather gather_S50000x64_S2000000x1_S2000000x64_1_0_n_n_0_1_164 x idx (ix2 p k)
      = x (ix2 (clampRow (idx (ix2 p (0 : Fin 1)))) k) :=
  Cert.LibRowGather.gather_rows_apply (by decide) gather_S50000x64_S2000000x1_S2000000x64_1_0_n_n_0_1_164_wf x idx (ix2 p k)

/-- One side's gathered rows at position `p`: the table's row for the positive stream's edge `p`, or the negative
    stream's edge `p − 1000000`. The table's narrowing to bf16 is the identity on extended reals. -/
theorem sideGather_apply (A : S50000x64.Idx → EReal) (ei nei : S2x1000000.Idx → BitVec 32) (j : Fin 2)
    (hs : S2x2000000.Slices ![j.val, 0] S1x2000000) (p : Fin 2000000) (k : Fin 64) :
    sideGather (truncf (F := Ideal) .bf16 (A : FVec Ideal S50000x64 .f32) bitsLt_bf16_f32 : FVec Ideal S50000x64 .bf16)
        (catIdx ei nei) ![j.val, 0] hs (ix2 p k)
      = if h : p.val < 1000000 then A (ix2 (nodeRow (ei (ix2 j ⟨p.val, h⟩))) k)
        else A (ix2 (nodeRow (nei (ix2 j ⟨p.val - 1000000, by omega⟩))) k) := by
  unfold sideGather
  rw [gatherRow, truncf_apply]
  rw [broadcastInDim_apply (s := S2000000) (t := S2000000x1) ![0] bcast_S2000000_S2000000x1_0 _ (ix2 p (0 : Fin 1)) (ix1 p) (fun a => by
    match a with
    | ⟨0, _⟩ => show p.val = if (2000000 : ℕ) = 1 then 0 else p.val
                rw [if_neg (by decide)])]
  rw [select_apply]
  show A (ix2 (nodeRow (sideWords (catIdx ei nei) ![j.val, 0] hs (ix1 p))) k) = _
  rw [sideWords_apply]
  by_cases h1 : p.val < 1000000
  · rw [dif_pos h1, dif_pos h1]
  · rw [dif_neg h1, dif_neg h1]

/-- One side's rows at core `cc`, row `r`: the table's row for the edge at padded position `1003520 cc + r`, and
    zeros past the two streams. -/
theorem sideRows_apply (A : S50000x64.Idx → EReal) (ei nei : S2x1000000.Idx → BitVec 32) (j : Fin 2)
    (hs : S2x2000000.Slices ![j.val, 0] S1x2000000) (cc : Fin 2) (r : Fin 1003520) (k : Fin 64) :
    sideRows (truncf (F := Ideal) .bf16 (A : FVec Ideal S50000x64 .f32) bitsLt_bf16_f32 : FVec Ideal S50000x64 .bf16)
        (catIdx ei nei) ![j.val, 0] hs (ix3 cc r k)
      = padRow A ei nei j (cc.val * 1003520 + r.val) k := by
  have hp : cc.val * 1003520 + r.val < 2007040 := by have := cc.isLt; have := r.isLt; omega
  unfold sideRows
  rw [shapeCast_apply _ _ (ix3 cc r k) (ix2 (⟨cc.val * 1003520 + r.val, hp⟩ : Fin 2007040) k) (by
    rw [Shape.rowMajor_val_two, Shape.rowMajor_val_three]
    rfl)]
  unfold padRow
  by_cases h2 : cc.val * 1003520 + r.val < 2000000
  · rw [pad_apply_of_inside _ _ _ _ _ _ _ (ix2 (⟨cc.val * 1003520 + r.val, hp⟩ : Fin 2007040) k)
      (ix2 (⟨cc.val * 1003520 + r.val, h2⟩ : Fin 2000000) k) (fun a => by
        match a with
        | ⟨0, _⟩ => show cc.val * 1003520 + r.val = 0 + (cc.val * 1003520 + r.val) * (0 + 1); omega
        | ⟨1, _⟩ => show k.val = 0 + k.val * (0 + 1); omega)]
    refine (sideGather_apply A ei nei j hs ⟨cc.val * 1003520 + r.val, h2⟩ k).trans ?_
    dsimp only
    by_cases h1 : cc.val * 1003520 + r.val < 1000000
    · rw [dif_pos h1, dif_pos h1]
    · rw [dif_neg h1, dif_neg h1, dif_pos h2]
  · rw [pad_apply_of_not_inside _ _ _ _ _ _ _ (ix2 (⟨cc.val * 1003520 + r.val, hp⟩ : Fin 2007040) k) (0 : Fin 2) (by
      show ¬(0 ≤ cc.val * 1003520 + r.val ∧ (cc.val * 1003520 + r.val - 0) % (0 + 1) = 0
        ∧ (cc.val * 1003520 + r.val - 0) / (0 + 1) < 2000000)
      omega)]
    rw [padZero, dif_neg (by omega), dif_neg h2]

/-! ## The host operations in runs

  The operations before the region, cut into four runs; what a later run reads of an earlier one is the table and the
  joined index array. Each run is read over an arbitrary valuation `F` of the buffers before it. -/

/-- A run of host operations splits at any point. -/
theorem after_append (l₁ l₂ : List (HloOp τ sig (Elt Ideal))) (F : Valuation τ sig (Elt Ideal)) :
    StableHlo.after (l₁ ++ l₂) F = StableHlo.after l₂ (StableHlo.after l₁ F) := by
  induction l₁ generalizing F with
  | nil => rfl
  | cons op l ih => exact ih _

/-- Up to the converted table and the joined index arrays. -/
abbrev opsLo : List (HloOp τ sig (Elt Ideal)) := Gen.hostOps0 ++ (Gen.hostOps0_1 ++ (Gen.hostOps0_2 (F := Ideal)).take 22)
/-- The source rows' gather. -/
abbrev opsC : List (HloOp τ sig (Elt Ideal)) := ((Gen.hostOps0_2 (F := Ideal)).drop 22).take 11
/-- The destination rows' gather. -/
abbrev opsD : List (HloOp τ sig (Elt Ideal)) := ((Gen.hostOps0_2 (F := Ideal)).drop 33).take 11
/-- The paddings and the reshapes. -/
abbrev opsE : List (HloOp τ sig (Elt Ideal)) :=
  (Gen.hostOps0_2 (F := Ideal)).drop 44 ++ (Gen.hostOps0_3 ++ (Gen.hostOps0_4 ++ (Gen.hostOps0_5 ++ (Gen.hostOps0_6 ++ (Gen.hostOps0_7
    ++ (Gen.hostOps0_8 ++ (Gen.hostOps0_9 ++ Gen.hostOps0_10)))))))

theorem ops_split : List.flatten [Gen.hostOps0, Gen.hostOps0_1, Gen.hostOps0_2, Gen.hostOps0_3, Gen.hostOps0_4, Gen.hostOps0_5, Gen.hostOps0_6,
    Gen.hostOps0_7, Gen.hostOps0_8, Gen.hostOps0_9, Gen.hostOps0_10]
      = (opsLo ++ (opsC ++ (opsD ++ opsE)) : List (HloOp τ sig (Elt Ideal))) := by
  rfl

/-- The runs as literal lists. -/
local macro "stage_ops" : tactic =>
  `(tactic| simp only [opsLo, opsC, opsD, opsE, Gen.hostOps0, Gen.hostOps0_1, Gen.hostOps0_2, Gen.hostOps0_3, Gen.hostOps0_4, Gen.hostOps0_5,
      Gen.hostOps0_6, Gen.hostOps0_7, Gen.hostOps0_8, Gen.hostOps0_9, Gen.hostOps0_10, List.take_succ_cons, List.take_zero, List.drop_succ_cons,
      List.drop_zero, List.cons_append, List.nil_append, List.append_nil])

/-- A computed array against its term, entry by entry: the transports along a buffer's type are identities. -/
local macro "by_entries" : tactic =>
  `(tactic| (funext i; dsimp only [StableHlo.TRef.toBuf, StableHlo.TRef.ofBuf, id]; rfl))

section Runs
variable (F : Valuation τ sig (Elt Ideal))

/-- The last run pads the source rows and splits them per core … -/
theorem e_v51 : (StableHlo.after opsE F (Proc.devRef .tc main_v51) : S2x1003520x64.Idx → EReal)
    = shapeCast S2x1003520x64
        (pad S2007040x64 ![0, 0] ![7040, 0] ![0, 0] (F (Proc.devRef .tc main_v37) : S2000000x64.Idx → EReal)
          (sitofp (F := Ideal) .bf16 (constantI S_ 32 0#32) : FVec Ideal S_ .bf16) pads_S2000000x64_S2007040x64_070400_000 h_S_)
        shapeCasts_S2007040x64_S2x1003520x64 := by
  stage_ops
  after_results
  by_entries
/-- … and the destination rows likewise. -/
theorem e_v52 : (StableHlo.after opsE F (Proc.devRef .tc main_v52) : S2x1003520x64.Idx → EReal)
    = shapeCast S2x1003520x64
        (pad S2007040x64 ![0, 0] ![7040, 0] ![0, 0] (F (Proc.devRef .tc main_v46) : S2000000x64.Idx → EReal)
          (sitofp (F := Ideal) .bf16 (constantI S_ 32 0#32) : FVec Ideal S_ .bf16) pads_S2000000x64_S2007040x64_070400_000 h_S_)
        shapeCasts_S2007040x64_S2x1003520x64 := by
  stage_ops
  after_results
  by_entries

/-- The destination run gathers the destination rows from the table and the joined index array before it … -/
theorem d_v46 : (StableHlo.after opsD F (Proc.devRef .tc main_v46) : S2000000x64.Idx → EReal)
    = sideGather (F (Proc.devRef .tc main_v23)) (F (Proc.devRef .tc main_v24)) ![1, 0] slices_S2x2000000_S1x2000000_1_0 := by
  stage_ops
  after_results
  unfold sideGather sideWords
  by_entries
/-- … and leaves the source rows alone. -/
theorem d_v37 : StableHlo.after opsD F (Proc.devRef .tc main_v37) = F (Proc.devRef .tc main_v37) := by
  stage_ops
  after_results

/-- The source run gathers the source rows … -/
theorem c_v37 : (StableHlo.after opsC F (Proc.devRef .tc main_v37) : S2000000x64.Idx → EReal)
    = sideGather (F (Proc.devRef .tc main_v23)) (F (Proc.devRef .tc main_v24)) ![0, 0] slices_S2x2000000_S1x2000000_0_0 := by
  stage_ops
  after_results
  unfold sideGather sideWords
  by_entries
/-- … and leaves the table … -/
theorem c_v23 : StableHlo.after opsC F (Proc.devRef .tc main_v23) = F (Proc.devRef .tc main_v23) := by
  stage_ops
  after_results
/-- … and the joined index array alone. -/
theorem c_v24 : StableHlo.after opsC F (Proc.devRef .tc main_v24) = F (Proc.devRef .tc main_v24) := by
  stage_ops
  after_results

/-- The first run converts the table … -/
theorem lo_v23 : (StableHlo.after opsLo F (Proc.devRef .tc main_v23) : S50000x64.Idx → EReal)
    = (truncf (F := Ideal) .bf16 (F (Proc.devRef .tc main_arg0) : FVec Ideal S50000x64 .f32) bitsLt_bf16_f32 : FVec Ideal S50000x64 .bf16) := by
  stage_ops
  after_results_simp
/-- … and joins the two streams' node words. -/
theorem lo_v24 : (StableHlo.after opsLo F (Proc.devRef .tc main_v24) : S2x2000000.Idx → BitVec 32)
    = catIdx (F (Proc.devRef .tc main_arg4)) (F (Proc.devRef .tc main_arg6)) := by
  stage_ops
  after_results_simp
  rfl

end Runs

/-! ## The row arrays as terms of the arguments -/

variable (m : (ℓ : Loc nD τ sig) → Buf (Elt Ideal) ℓ)

theorem v51_term (c : Dev nD) :
    (V m c main_v51 : S2x1003520x64.Idx → EReal)
      = sideRows (truncf (F := Ideal) .bf16 (m ((c.tc : Thread nD τ).loc main_arg0) : FVec Ideal S50000x64 .f32) bitsLt_bf16_f32 : FVec Ideal S50000x64 .bf16)
          (catIdx (m ((c.tc : Thread nD τ).loc main_arg4)) (m ((c.tc : Thread nD τ).loc main_arg6)))
          ![0, 0] slices_S2x2000000_S1x2000000_0_0 := by
  dsimp only [Gen.V, Gen.V0]
  rw [ops_split, after_append, after_append, after_append, e_v51, d_v37, c_v37, lo_v23, lo_v24]
  rfl

theorem v52_term (c : Dev nD) :
    (V m c main_v52 : S2x1003520x64.Idx → EReal)
      = sideRows (truncf (F := Ideal) .bf16 (m ((c.tc : Thread nD τ).loc main_arg0) : FVec Ideal S50000x64 .f32) bitsLt_bf16_f32 : FVec Ideal S50000x64 .bf16)
          (catIdx (m ((c.tc : Thread nD τ).loc main_arg4)) (m ((c.tc : Thread nD τ).loc main_arg6)))
          ![1, 0] slices_S2x2000000_S1x2000000_1_0 := by
  dsimp only [Gen.V, Gen.V0]
  rw [ops_split, after_append, after_append, after_append, e_v52, d_v46, c_v23, c_v24, lo_v23, lo_v24]
  rfl

end Rows

open Rows

variable (m : (ℓ : Loc nD τ sig) → Buf (Elt Ideal) ℓ)

/-- The source rows, gathered, padded and split per core: core `cc`'s row `r` is padded position `1003520 cc + r`. -/
theorem v51_apply (c : Dev nD) (cc : Fin 2) (r : Fin 1003520) (k : Fin 64) :
    (V m c main_v51 : S2x1003520x64.Idx → EReal) (ix3 cc r k)
      = padRow (m ((c.tc : Thread nD τ).loc main_arg0)) (m ((c.tc : Thread nD τ).loc main_arg4)) (m ((c.tc : Thread nD τ).loc main_arg6)) 0 (cc.val * 1003520 + r.val) k := by
  rw [v51_term]
  exact sideRows_apply _ _ _ (0 : Fin 2) slices_S2x2000000_S1x2000000_0_0 cc r k

/-- The destination rows likewise. -/
theorem v52_apply (c : Dev nD) (cc : Fin 2) (r : Fin 1003520) (k : Fin 64) :
    (V m c main_v52 : S2x1003520x64.Idx → EReal) (ix3 cc r k)
      = padRow (m ((c.tc : Thread nD τ).loc main_arg0)) (m ((c.tc : Thread nD τ).loc main_arg4)) (m ((c.tc : Thread nD τ).loc main_arg6)) 1 (cc.val * 1003520 + r.val) k := by
  rw [v52_term]
  exact sideRows_apply _ _ _ (1 : Fin 2) slices_S2x2000000_S1x2000000_1_0 cc r k

/-- The relation words, padded with −1. -/
theorem v53_apply (c : Dev nD) (cc : Fin 2) (r : Fin 1003520) :
    (V m c main_v53 : S2x1x1003520.Idx → BitVec 32) (ix3 cc (0 : Fin 1) r)
      = padTy (m ((c.tc : Thread nD τ).loc main_arg5)) (m ((c.tc : Thread nD τ).loc main_arg7)) (cc.val * 1003520 + r.val) :=
  v53_apply' m c cc r

/-- The signs: −1 on the positive stream, 1 on the negative stream, 0 on the padding. -/
theorem v54_apply (c : Dev nD) (cc : Fin 2) (r : Fin 1003520) :
    (V m c main_v54 : S2x1x1003520.Idx → EReal) (ix3 cc (0 : Fin 1) r) = padSign (cc.val * 1003520 + r.val) :=
  v54_apply' m c cc r

/-- The weights laid side by side. -/
theorem v21_apply (c : Dev nD) (a : Fin 64) (j : Fin 512) :
    (V m c main_v21 : S64x512.Idx → EReal) (ix2 a j) = wcat (weights (F := Ideal) (m ((c.tc : Thread nD τ).loc main_arg1)) (m ((c.tc : Thread nD τ).loc main_arg2))) a j :=
  v21_apply' m c a j

/-- The biases as a row. -/
theorem v22_apply (c : Dev nD) (r : Fin 8) :
    (V m c main_v22 : S1x8.Idx → EReal) (ix2 (0 : Fin 1) r) = (m ((c.tc : Thread nD τ).loc main_arg3)) (ix1 r) :=
  v22_apply' m c r

end Cert.KernelIdeal.HostVal

end
-- ==== Proof.KerBlocks.lean ====
/-
  The six input blocks of a grid point, read at an index: point `t` is step `t % 196` of core `t / 196`, and row `row` of
  its blocks is padded position  1003520 · (t / 196) + 5120 · (t % 196) + row  of the edge layout; the weights and the
  biases are handed over whole at every point.
-/
import proofs.«421868_j31318901522602_3_alg».proof.Proof.Gen.KernelIdeal.Frame.Runs
import proofs.«421868_j31318901522602_3_alg».proof.Proof.KerHost
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.HostVal Cert.EdgeLoss

variable (m : (ℓ : Loc nD τ sig) → Buf (Elt Ideal) ℓ)

/-- The blocks of point `t`, each at its literal type. -/
abbrev xblk0 (c : Dev nD) (t : Fin cfg0.N) : Vec Ideal S1x5120x64 .bf16 := iblk m c 0 t
abbrev xblk1 (c : Dev nD) (t : Fin cfg0.N) : Vec Ideal S1x5120x64 .bf16 := iblk m c 1 t
abbrev xblk2 (c : Dev nD) (t : Fin cfg0.N) : Vec Ideal S1x1x5120 .i32 := iblk m c 2 t
abbrev xblk3 (c : Dev nD) (t : Fin cfg0.N) : Vec Ideal S1x1x5120 .f32 := iblk m c 3 t
abbrev xblk4 (c : Dev nD) (t : Fin cfg0.N) : Vec Ideal S64x512 .bf16 := iblk m c 4 t
abbrev xblk5 (c : Dev nD) (t : Fin cfg0.N) : Vec Ideal S1x8 .f32 := iblk m c 5 t

/-! ## The windows' block indices, decided once over the grid -/

/-- The grid has 392 points. -/
theorem point_lt (t : Fin cfg0.N) : t.val < 392 := lt_of_lt_of_eq t.isLt (show cfg0.N = 392 from N_0)

/-- The two row windows step through their core's rows: block (core, step, 0). -/
theorem rows_idx : ∀ t : Fin cfg0.N,
    (win0_0.index t (0 : Fin 3) = t.val / 196 ∧ win0_0.index t (1 : Fin 3) = t.val % 196 ∧ win0_0.index t (2 : Fin 3) = 0)
      ∧ (win0_1.index t (0 : Fin 3) = t.val / 196 ∧ win0_1.index t (1 : Fin 3) = t.val % 196 ∧ win0_1.index t (2 : Fin 3) = 0) :=
  (by decide +kernel : ∀ t : Fin grid0.N, _)

/-- The relation words and the signs lie along the last axis: block (core, 0, step). -/
theorem lanes_idx : ∀ t : Fin cfg0.N,
    (win0_2.index t (0 : Fin 3) = t.val / 196 ∧ win0_2.index t (1 : Fin 3) = 0 ∧ win0_2.index t (2 : Fin 3) = t.val % 196)
      ∧ (win0_3.index t (0 : Fin 3) = t.val / 196 ∧ win0_3.index t (1 : Fin 3) = 0 ∧ win0_3.index t (2 : Fin 3) = t.val % 196) :=
  (by decide +kernel : ∀ t : Fin grid0.N, _)

/-- The weights and the biases are one block each: block (0, 0) at every point. -/
theorem whole_idx : ∀ t : Fin cfg0.N,
    (win0_4.index t (0 : Fin 2) = 0 ∧ win0_4.index t (1 : Fin 2) = 0) ∧ (win0_5.index t (0 : Fin 2) = 0 ∧ win0_5.index t (1 : Fin 2) = 0) :=
  (by decide +kernel : ∀ t : Fin grid0.N, _)

/-! ## A block read through its window, for any contents of the array: a block's coordinate on an axis is the block index
    times the block's extent plus the coordinate inside the block -/

theorem read0 (f : S2x1003520x64.Idx → EReal) (t : Fin cfg0.N) (row : Fin 5120) (b : Fin 64) :
    ((cfg0.win 0).blk t).view.read (Elt Ideal) f (ix3 (0 : Fin 1) row b)
      = f (ix3 (⟨t.val / 196, by have := point_lt t; omega⟩ : Fin 2) (⟨(t.val % 196) * 5120 + row.val, by have := row.isLt; omega⟩ : Fin 1003520) b) := by
  obtain ⟨⟨e0, e1, e2⟩, -⟩ := rows_idx t
  rw [View.read_apply]
  show f _ = f _
  congr 1
  funext a; apply Fin.ext
  match a with
  | ⟨0, _⟩ => show win0_0.index t (0 : Fin 3) * 1 + 1 * (0 : Fin 1).val = t.val / 196; rw [e0]; simp
  | ⟨1, _⟩ => show win0_0.index t (1 : Fin 3) * 5120 + 1 * row.val = (t.val % 196) * 5120 + row.val; rw [e1]; omega
  | ⟨2, _⟩ => show win0_0.index t (2 : Fin 3) * 64 + 1 * b.val = b.val; rw [e2]; omega

theorem read1 (f : S2x1003520x64.Idx → EReal) (t : Fin cfg0.N) (row : Fin 5120) (b : Fin 64) :
    ((cfg0.win 1).blk t).view.read (Elt Ideal) f (ix3 (0 : Fin 1) row b)
      = f (ix3 (⟨t.val / 196, by have := point_lt t; omega⟩ : Fin 2) (⟨(t.val % 196) * 5120 + row.val, by have := row.isLt; omega⟩ : Fin 1003520) b) := by
  obtain ⟨-, e0, e1, e2⟩ := rows_idx t
  rw [View.read_apply]
  show f _ = f _
  congr 1
  funext a; apply Fin.ext
  match a with
  | ⟨0, _⟩ => show win0_1.index t (0 : Fin 3) * 1 + 1 * (0 : Fin 1).val = t.val / 196; rw [e0]; simp
  | ⟨1, _⟩ => show win0_1.index t (1 : Fin 3) * 5120 + 1 * row.val = (t.val % 196) * 5120 + row.val; rw [e1]; omega
  | ⟨2, _⟩ => show win0_1.index t (2 : Fin 3) * 64 + 1 * b.val = b.val; rw [e2]; omega

theorem read2 (f : S2x1x1003520.Idx → BitVec 32) (t : Fin cfg0.N) (row : Fin 5120) :
    ((cfg0.win 2).blk t).view.read (Elt Ideal) f (ix3 (0 : Fin 1) (0 : Fin 1) row)
      = f (ix3 (⟨t.val / 196, by have := point_lt t; omega⟩ : Fin 2) (0 : Fin 1) (⟨(t.val % 196) * 5120 + row.val, by have := row.isLt; omega⟩ : Fin 1003520)) := by
  obtain ⟨⟨e0, e1, e2⟩, -⟩ := lanes_idx t
  rw [View.read_apply]
  show f _ = f _
  congr 1
  funext a; apply Fin.ext
  match a with
  | ⟨0, _⟩ => show win0_2.index t (0 : Fin 3) * 1 + 1 * (0 : Fin 1).val = t.val / 196; rw [e0]; simp
  | ⟨1, _⟩ => show win0_2.index t (1 : Fin 3) * 1 + 1 * (0 : Fin 1).val = (0 : Fin 1).val; rw [e1]; simp
  | ⟨2, _⟩ => show win0_2.index t (2 : Fin 3) * 5120 + 1 * row.val = (t.val % 196) * 5120 + row.val; rw [e2]; omega

theorem read3 (f : S2x1x1003520.Idx → EReal) (t : Fin cfg0.N) (row : Fin 5120) :
    ((cfg0.win 3).blk t).view.read (Elt Ideal) f (ix3 (0 : Fin 1) (0 : Fin 1) row)
      = f (ix3 (⟨t.val / 196, by have := point_lt t; omega⟩ : Fin 2) (0 : Fin 1) (⟨(t.val % 196) * 5120 + row.val, by have := row.isLt; omega⟩ : Fin 1003520)) := by
  obtain ⟨-, e0, e1, e2⟩ := lanes_idx t
  rw [View.read_apply]
  show f _ = f _
  congr 1
  funext a; apply Fin.ext
  match a with
  | ⟨0, _⟩ => show win0_3.index t (0 : Fin 3) * 1 + 1 * (0 : Fin 1).val = t.val / 196; rw [e0]; simp
  | ⟨1, _⟩ => show win0_3.index t (1 : Fin 3) * 1 + 1 * (0 : Fin 1).val = (0 : Fin 1).val; rw [e1]; simp
  | ⟨2, _⟩ => show win0_3.index t (2 : Fin 3) * 5120 + 1 * row.val = (t.val % 196) * 5120 + row.val; rw [e2]; omega

theorem read4 (f : S64x512.Idx → EReal) (t : Fin cfg0.N) (a : Fin 64) (j : Fin 512) :
    ((cfg0.win 4).blk t).view.read (Elt Ideal) f (ix2 a j) = f (ix2 a j) := by
  obtain ⟨⟨e0, e1⟩, -⟩ := whole_idx t
  rw [View.read_apply]
  show f _ = f _
  congr 1
  funext d; apply Fin.ext
  match d with
  | ⟨0, _⟩ => show win0_4.index t (0 : Fin 2) * 64 + 1 * a.val = a.val; rw [e0]; omega
  | ⟨1, _⟩ => show win0_4.index t (1 : Fin 2) * 512 + 1 * j.val = j.val; rw [e1]; omega

theorem read5 (f : S1x8.Idx → EReal) (t : Fin cfg0.N) (r : Fin 8) :
    ((cfg0.win 5).blk t).view.read (Elt Ideal) f (ix2 (0 : Fin 1) r) = f (ix2 (0 : Fin 1) r) := by
  obtain ⟨-, e0, e1⟩ := whole_idx t
  rw [View.read_apply]
  show f _ = f _
  congr 1
  funext d; apply Fin.ext
  match d with
  | ⟨0, _⟩ => show win0_5.index t (0 : Fin 2) * 1 + 1 * (0 : Fin 1).val = (0 : Fin 1).val; rw [e0]; simp
  | ⟨1, _⟩ => show win0_5.index t (1 : Fin 2) * 8 + 1 * r.val = r.val; rw [e1]; omega

/-! ## The blocks of a point, at the arrays the region finds -/

/-- The source rows of point `t`. -/
theorem blk0_apply (c : Dev nD) (t : Fin cfg0.N) (row : Fin 5120) (b : Fin 64) :
    xblk0 m c t (ix3 (0 : Fin 1) row b) = padRow (m ((c.tc : Thread nD τ).loc main_arg0)) (m ((c.tc : Thread nD τ).loc main_arg4)) (m ((c.tc : Thread nD τ).loc main_arg6)) 0 ((t.val / 196) * 1003520 + (t.val % 196) * 5120 + row.val) b := by
  have h := read0 (V m c main_v51) t row b
  rw [v51_apply] at h
  rw [Nat.add_assoc]
  exact h

/-- The destination rows of point `t`. -/
theorem blk1_apply (c : Dev nD) (t : Fin cfg0.N) (row : Fin 5120) (b : Fin 64) :
    xblk1 m c t (ix3 (0 : Fin 1) row b) = padRow (m ((c.tc : Thread nD τ).loc main_arg0)) (m ((c.tc : Thread nD τ).loc main_arg4)) (m ((c.tc : Thread nD τ).loc main_arg6)) 1 ((t.val / 196) * 1003520 + (t.val % 196) * 5120 + row.val) b := by
  have h := read1 (V m c main_v52) t row b
  rw [v52_apply] at h
  rw [Nat.add_assoc]
  exact h

/-- The relation words of point `t`. -/
theorem blk2_apply (c : Dev nD) (t : Fin cfg0.N) (row : Fin 5120) :
    xblk2 m c t (ix3 (0 : Fin 1) (0 : Fin 1) row) = padTy (m ((c.tc : Thread nD τ).loc main_arg5)) (m ((c.tc : Thread nD τ).loc main_arg7)) ((t.val / 196) * 1003520 + (t.val % 196) * 5120 + row.val) := by
  have h := read2 (V m c main_v53) t row
  rw [v53_apply] at h
  rw [Nat.add_assoc]
  exact h

/-- The signs of point `t`. -/
theorem blk3_apply (c : Dev nD) (t : Fin cfg0.N) (row : Fin 5120) :
    xblk3 m c t (ix3 (0 : Fin 1) (0 : Fin 1) row) = padSign ((t.val / 196) * 1003520 + (t.val % 196) * 5120 + row.val) := by
  have h := read3 (V m c main_v54) t row
  rw [v54_apply] at h
  rw [Nat.add_assoc]
  exact h

/-- The weights, whole at every point. -/
theorem blk4_apply (c : Dev nD) (t : Fin cfg0.N) (a : Fin 64) (j : Fin 512) :
    xblk4 m c t (ix2 a j) = wcat (weights (F := Ideal) (m ((c.tc : Thread nD τ).loc main_arg1)) (m ((c.tc : Thread nD τ).loc main_arg2))) a j := by
  have h := read4 (V m c main_v21) t a j
  rw [v21_apply] at h
  exact h

/-- The biases, whole at every point. -/
theorem blk5_apply (c : Dev nD) (t : Fin cfg0.N) (r : Fin 8) :
    xblk5 m c t (ix2 (0 : Fin 1) r) = (m ((c.tc : Thread nD τ).loc main_arg3)) (ix1 r) := by
  have h := read5 (V m c main_v22) t r
  rw [v22_apply] at h
  exact h

/-- So the rows of point `t` are the padded positions of its block: what the point adds is the sum of their values. -/
theorem rows_eq (c : Dev nD) (t : Fin cfg0.N) :
    (∑ row : Fin 5120, rowLoss (fun a j => xblk4 m c t (ix2 a j)) (fun r => xblk5 m c t (ix2 (0 : Fin 1) r))
        (fun b => xblk0 m c t (ix3 (0 : Fin 1) row b)) (fun a => xblk1 m c t (ix3 (0 : Fin 1) row a))
        (xblk2 m c t (ix3 (0 : Fin 1) (0 : Fin 1) row)) (xblk3 m c t (ix3 (0 : Fin 1) (0 : Fin 1) row)))
      = ∑ row : Fin 5120, padLoss (m ((c.tc : Thread nD τ).loc main_arg0)) (weights (F := Ideal) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) ((t.val / 196) * 1003520 + (t.val % 196) * 5120 + row.val) := by
  have e4 : (fun a j => xblk4 m c t (ix2 a j))
      = wcat (weights (F := Ideal) (m ((c.tc : Thread nD τ).loc main_arg1)) (m ((c.tc : Thread nD τ).loc main_arg2))) :=
    funext fun a => funext fun j => blk4_apply m c t a j
  have e5 : (fun r => xblk5 m c t (ix2 (0 : Fin 1) r)) = fun r => (m ((c.tc : Thread nD τ).loc main_arg3)) (ix1 r) :=
    funext fun r => blk5_apply m c t r
  refine Finset.sum_congr rfl fun row _ => ?_
  have e0 : (fun b => xblk0 m c t (ix3 (0 : Fin 1) row b))
      = padRow (m ((c.tc : Thread nD τ).loc main_arg0)) (m ((c.tc : Thread nD τ).loc main_arg4)) (m ((c.tc : Thread nD τ).loc main_arg6)) 0 ((t.val / 196) * 1003520 + (t.val % 196) * 5120 + row.val) :=
    funext fun b => blk0_apply m c t row b
  have e1 : (fun a => xblk1 m c t (ix3 (0 : Fin 1) row a))
      = padRow (m ((c.tc : Thread nD τ).loc main_arg0)) (m ((c.tc : Thread nD τ).loc main_arg4)) (m ((c.tc : Thread nD τ).loc main_arg6)) 1 ((t.val / 196) * 1003520 + (t.val % 196) * 5120 + row.val) :=
    funext fun a => blk1_apply m c t row a
  rw [e4, e5, e0, e1, blk2_apply, blk3_apply]
  rfl

end Cert.KernelIdeal.Blocks

end
-- ==== Proof.KerAcc.lean ====
/-
  The accumulator across the grid. Point `t` is step `t % 196` of core `t / 196`. The first step of a core resets the
  accumulator and adds its block, every later step adds its block to what the step before left, so after step `k` of
  core `q` the accumulator holds the sum of the core's blocks 0 … k; the last step of a core also writes that sum times
  1/1000000 into the core's entry of the output.
-/
import proofs.«421868_j31318901522602_3_alg».proof.Proof.Gen.KernelIdeal.Frame
import proofs.«421868_j31318901522602_3_alg».proof.Proof.KerPay
import proofs.«421868_j31318901522602_3_alg».proof.Proof.KerPieces
import proofs.«421868_j31318901522602_3_alg».proof.Proof.KerBlocks

set_option maxRecDepth 16384

noncomputable section

namespace Cert.KernelIdeal.Acc

open Idealize.ShloMosaic Idealize.ShloMosaic.TcCoe Idealize.ShloMosaic.ValueIdx Idealize.SL.Sem
open Cert.KernelIdeal Cert.KernelIdeal.Gen Cert.KernelIdeal.Pay Cert.KernelIdeal.Pieces Cert.KernelIdeal.Blocks Cert.EdgeLoss

variable (m : (ℓ : Loc nD τ sig) → Buf (Elt Ideal) ℓ)

/-- The sum of the values of the 5120 rows of step `k` of core `q`: padded positions 1003520 q + 5120 k + row. -/
def blockSum (c : Dev nD) (q k : ℕ) : EReal :=
  ∑ row : Fin 5120, padLoss (m ((c.tc : Thread nD τ).loc main_arg0)) (weights (F := Ideal) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (q * 1003520 + k * 5120 + row.val)

/-- A point adds its block's sum to what the accumulator held. -/
theorem step_apply (c : Dev nD) (t : Fin cfg0.N) (acc : Vec Ideal S1x1 .f32) :
    blockAcc (F := Ideal) (xblk0 m c t) (xblk1 m c t) (xblk2 m c t) (xblk3 m c t) (xblk4 m c t) (xblk5 m c t) acc (ix2 (0 : Fin 1) (0 : Fin 1))
      = acc (ix2 (0 : Fin 1) (0 : Fin 1)) + blockSum m c (t.val / 196) (t.val % 196) :=
  (blockAcc_apply (xblk0 m c t) (xblk1 m c t) (xblk2 m c t) (xblk3 m c t) (xblk4 m c t) (xblk5 m c t) acc).trans (congrArg (fun s => acc (ix2 (0 : Fin 1) (0 : Fin 1)) + s) (rows_eq m c t))

/-- The accumulator after the first step of a core: reset, then the block added. -/
theorem scr_first (c : Dev nD) (t : Fin cfg0.N) (h0 : t.val % 196 = 0) (h1 : ¬t.val % 196 = 195) :
    (outsAt0 m c t.val t.isLt).2 = blockAcc (F := Ideal) (xblk0 m c t) (xblk1 m c t) (xblk2 m c t) (xblk3 m c t) (xblk4 m c t) (xblk5 m c t) (k0_pay3 (F := Ideal)) := by
  rw [outsAt0_A m c t h0 h1]; dsimp only
  exact sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (xblk0 m c t) (xblk1 m c t) (xblk2 m c t) (xblk3 m c t) (xblk4 m c t) (xblk5 m c t)

/-- The accumulator after a middle step: the block added to what the step before left. -/
theorem scr_mid (c : Dev nD) (t : Fin cfg0.N) (h0 : ¬t.val % 196 = 0) (h1 : ¬t.val % 196 = 195) :
    (outsAt0 m c t.val t.isLt).2 = blockAcc (F := Ideal) (xblk0 m c t) (xblk1 m c t) (xblk2 m c t) (xblk3 m c t) (xblk4 m c t) (xblk5 m c t) (outsAt0 m c (t.val - 1) (Nat.lt_of_le_of_lt (Nat.sub_le _ _) t.isLt)).2 := by
  rw [outsAt0_B m c t h0 h1]; dsimp only
  exact sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (xblk0 m c t) (xblk1 m c t) (xblk2 m c t) (xblk3 m c t) (xblk4 m c t) (xblk5 m c t) (outsAt0 m c (t.val - 1) (Nat.lt_of_le_of_lt (Nat.sub_le _ _) t.isLt)).2

/-- The accumulator after the last step of a core: the same. -/
theorem scr_last (c : Dev nD) (t : Fin cfg0.N) (h0 : ¬t.val % 196 = 0) (h1 : t.val % 196 = 195) :
    (outsAt0 m c t.val t.isLt).2 = blockAcc (F := Ideal) (xblk0 m c t) (xblk1 m c t) (xblk2 m c t) (xblk3 m c t) (xblk4 m c t) (xblk5 m c t) (outsAt0 m c (t.val - 1) (Nat.lt_of_le_of_lt (Nat.sub_le _ _) t.isLt)).2 := by
  rw [outsAt0_C m c t h0 h1]; dsimp only
  exact sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (xblk0 m c t) (xblk1 m c t) (xblk2 m c t) (xblk3 m c t) (xblk4 m c t) (xblk5 m c t) (outsAt0 m c (t.val - 1) (Nat.lt_of_le_of_lt (Nat.sub_le _ _) t.isLt)).2

/-- The output block after the last step of a core: the new accumulator, scaled. -/
theorem out_last (c : Dev nD) (t : Fin cfg0.N) (h0 : ¬t.val % 196 = 0) (h1 : t.val % 196 = 195) :
    (outsAt0 m c t.val t.isLt).1 = k0_pay2 (F := Ideal) (blockAcc (F := Ideal) (xblk0 m c t) (xblk1 m c t) (xblk2 m c t) (xblk3 m c t) (xblk4 m c t) (xblk5 m c t) (outsAt0 m c (t.val - 1) (Nat.lt_of_le_of_lt (Nat.sub_le _ _) t.isLt)).2) := by
  rw [outsAt0_C m c t h0 h1]; dsimp only
  exact out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (xblk0 m c t) (xblk1 m c t) (xblk2 m c t) (xblk3 m c t) (xblk4 m c t) (xblk5 m c t) (outsAt0 m c (t.val - 1) (Nat.lt_of_le_of_lt (Nat.sub_le _ _) t.isLt)).2

/-- The first step of a core leaves its block's sum. -/
theorem acc_first (c : Dev nD) (t : Fin cfg0.N) (h0 : t.val % 196 = 0) :
    (outsAt0 m c t.val t.isLt).2 (ix2 (0 : Fin 1) (0 : Fin 1)) = blockSum m c (t.val / 196) (t.val % 196) := by
  rw [scr_first m c t h0 (by omega), step_apply, pay3_apply, zero_add]

/-- A later step adds its block's sum to what the step before left. -/
theorem acc_step (c : Dev nD) (t : Fin cfg0.N) (h0 : ¬t.val % 196 = 0) :
    (outsAt0 m c t.val t.isLt).2 (ix2 (0 : Fin 1) (0 : Fin 1))
      = (outsAt0 m c (t.val - 1) (Nat.lt_of_le_of_lt (Nat.sub_le _ _) t.isLt)).2 (ix2 (0 : Fin 1) (0 : Fin 1)) + blockSum m c (t.val / 196) (t.val % 196) := by
  by_cases h1 : t.val % 196 = 195
  · rw [scr_last m c t h0 h1, step_apply]
  · rw [scr_mid m c t h0 h1, step_apply]

/-- After step `n % 196` of core `n / 196` the accumulator holds the sum of the core's blocks so far. -/
theorem acc_eq (c : Dev nD) : ∀ (n : ℕ) (hn : n < cfg0.N),
    (outsAt0 m c n hn).2 (ix2 (0 : Fin 1) (0 : Fin 1)) = ∑ k ∈ Finset.range (n % 196 + 1), blockSum m c (n / 196) k
  | 0, hn => by
    refine (acc_first m c ⟨0, hn⟩ (Nat.zero_mod _)).trans ?_
    show blockSum m c (0 / 196) (0 % 196) = _
    rw [Nat.zero_mod, Finset.sum_range_one]
  | n + 1, hn => by
    by_cases h0 : (n + 1) % 196 = 0
    · refine (acc_first m c ⟨n + 1, hn⟩ h0).trans ?_
      show blockSum m c ((n + 1) / 196) ((n + 1) % 196) = _
      rw [h0, Finset.sum_range_one]
    · refine (acc_step m c ⟨n + 1, hn⟩ h0).trans ?_
      show (outsAt0 m c n (Nat.lt_of_succ_lt hn)).2 (ix2 (0 : Fin 1) (0 : Fin 1)) + blockSum m c ((n + 1) / 196) ((n + 1) % 196) = _
      rw [acc_eq c n (Nat.lt_of_succ_lt hn), Finset.sum_range_succ _ ((n + 1) % 196),
        show n % 196 + 1 = (n + 1) % 196 by omega, show n / 196 = (n + 1) / 196 by omega]

/-- The last step of a core writes the sum of all the core's blocks, times 1/1000000. -/
theorem out_eq (c : Dev nD) (t : Fin cfg0.N) (h1 : t.val % 196 = 195) :
    (outsAt0 m c t.val t.isLt).1 (ix3 (0 : Fin 1) (0 : Fin 1) (0 : Fin 1))
      = (∑ k ∈ Finset.range 196, blockSum m c (t.val / 196) k) * kappa := by
  have h0 : ¬t.val % 196 = 0 := by omega
  rw [out_last m c t h0 h1, pay2_apply, ← scr_last m c t h0 h1, acc_eq m c t.val t.isLt, h1]

end Cert.KernelIdeal.Acc

end
-- ==== Proof.KerRun.lean ====
/-
  The kernel program's run with its result named: the accumulator after each grid point is the sum of the core's
  blocks so far, the last point of each core writes that sum scaled by 1/1000000, and the host adds the two cores.
-/
import proofs.«421868_j31318901522602_3_alg».proof.Proof.Gen.KernelIdeal.Frame
import proofs.«421868_j31318901522602_3_alg».proof.Proof.KerAcc
import Idealize.ShloMosaic.Lib.Pipeline.Value
import Idealize.ShloMosaic.Lib.StableHlo.Run

set_option maxRecDepth 16384

noncomputable section

namespace Cert.KernelIdeal.RunValue

open Idealize.ShloMosaic Idealize.ShloMosaic.TcCoe Idealize.ShloMosaic.ValueIdx Idealize.SL.Sem
open Cert.KernelIdeal Cert.KernelIdeal.Gen Cert.KernelIdeal.Acc Cert.EdgeLoss

variable (m : (ℓ : Loc nD τ sig) → Buf (Elt Ideal) ℓ) (ρ : Dev nD → PrngReg)

/-- What the output array holds after the run: the entry of core `q` is the sum of the core's 196 blocks, times
    1/1000000. -/
def coreOut (c : Dev nD) : Vec Ideal S2x1x1 .f32 :=
  fun idx => (∑ k ∈ Finset.range 196, blockSum m c (idx 0).val k) * kappa

/-- The output window's block at point `t` is the entry of core `t / 196`. -/
theorem index6 : ∀ t : Fin cfg0.N, win0_6.index t (0 : Fin 3) = t.val / 196 ∧ win0_6.index t (1 : Fin 3) = 0 ∧ win0_6.index t (2 : Fin 3) = 0 :=
  (by decide +kernel : ∀ t : Fin grid0.N, win0_6.index t (0 : Fin 3) = t.val / 196 ∧ win0_6.index t (1 : Fin 3) = 0 ∧ win0_6.index t (2 : Fin 3) = 0)

/-- A block of one entry has one index. -/
theorem idx111 (z : S1x1x1.Idx) : z = ix3 (0 : Fin 1) (0 : Fin 1) (0 : Fin 1) := by
  have h0 : (z 0).val < 1 := (z 0).isLt
  have h1 : (z 1).val < 1 := (z 1).isLt
  have h2 : (z 2).val < 1 := (z 2).isLt
  funext a
  apply Fin.ext
  match a with
  | ⟨0, _⟩ => show (z 0).val = 0; omega
  | ⟨1, _⟩ => show (z 1).val = 0; omega
  | ⟨2, _⟩ => show (z 2).val = 0; omega

/-- The output window's block at point `t`, written back from block contents `X`, is read off array contents `G`
    when the block's one entry is `G` at the entry of core `t / 196`. -/
theorem cut_read6 (t : Fin cfg0.N) (hq : t.val / 196 < 2) (X : Vec Ideal S1x1x1 .f32) (G : Vec Ideal S2x1x1 .f32)
    (h : X (ix3 (0 : Fin 1) (0 : Fin 1) (0 : Fin 1)) = G (ix3 (⟨t.val / 196, hq⟩ : Fin 2) (0 : Fin 1) (0 : Fin 1))) :
    (cfg0.win 6).cut (grid0.coords t) X = ((cfg0.win 6).blk t).view.read (Elt Ideal) G := by
  funext y
  rw [View.read_apply]
  show X (win0_6.xinj (grid0.coords t) y) = G (((cfg0.win 6).blk t).view.emb y)
  have e : ((cfg0.win 6).blk t).view.emb y = (ix3 (⟨t.val / 196, hq⟩ : Fin 2) (0 : Fin 1) (0 : Fin 1) : S2x1x1.Idx) := by
    have y0 : (y 0 : Nat) < 1 := (y 0).isLt
    have y1 : (y 1 : Nat) < 1 := (y 1).isLt
    have y2 : (y 2 : Nat) < 1 := (y 2).isLt
    funext a
    apply Fin.ext
    match a with
    | ⟨0, _⟩ => show win0_6.index t 0 * 1 + 1 * (y 0).val = t.val / 196; rw [(index6 t).1]; omega
    | ⟨1, _⟩ => show win0_6.index t 1 * 1 + 1 * (y 1).val = 0; rw [(index6 t).2.1]; omega
    | ⟨2, _⟩ => show win0_6.index t 2 * 1 + 1 * (y 2).val = 0; rw [(index6 t).2.2]; omega
  rw [e, idx111 (win0_6.xinj (grid0.coords t) y)]
  exact h

/-- What a core's last point writes back is its block of `coreOut`: the one entry of the core. -/
theorem flushed_eq (c : Dev nD) (t : Fin cfg0.N) (hf : (cfg0.win 6).flush t = true) :
    (dats m 0 c).flushed 6 t = ((cfg0.win 6).blk t).view.read (Elt Ideal) (coreOut m c) := by
  have h1 : t.val % 196 = 195 := (flush0_6 t).mp hf
  have hq : t.val / 196 < 2 := by have := t.isLt; have hN : cfg0.N = 392 := N_0; omega
  have h := cut_read6 t hq (outsAt0 m c t.val t.isLt).1 (coreOut m c) (out_eq m c t h1)
  rw [← after0_6 m c t] at h
  exact h

/-- Every entry of the output array lies in the block of its core's last point. -/
theorem cover6 (c : Dev nD) (i : ((cfg0.win 6).arr.view.loc (c.tc : Thread nD τ)).2.ty.Idx) :
    ∃ t : Fin cfg0.N, (cfg0.win 6).flush t = true ∧ i ∈ ((cfg0.win 6).blk t).view.set := by
  have i0 : (i 0 : Nat) < 2 := (i 0).isLt
  have i1 : (i 1 : Nat) < 1 := (i 1).isLt
  have i2 : (i 2 : Nat) < 1 := (i 2).isLt
  have hN : grid0.N = 392 := N_0
  obtain ⟨t, ht⟩ : ∃ t : Fin cfg0.N, t.val = (i 0 : Nat) * 196 + 195 := ⟨⟨(i 0 : Nat) * 196 + 195, by show _ < grid0.N; omega⟩, rfl⟩
  refine ⟨t, (flush0_6 t).mpr (by omega), ?_⟩
  show i ∈ ((View.whole main_v55).slice (win0_6.rect t)).set
  rw [View.set_slice_whole, Rect.mem_set_unit]
  intro a
  match a with
  | ⟨0, _⟩ =>
    show win0_6.index t 0 * 1 ≤ (i 0 : Nat) ∧ (i 0 : Nat) < win0_6.index t 0 * 1 + 1
    rw [(index6 t).1]; omega
  | ⟨1, _⟩ =>
    show win0_6.index t 1 * 1 ≤ (i 1 : Nat) ∧ (i 1 : Nat) < win0_6.index t 1 * 1 + 1
    rw [(index6 t).2.1]; omega
  | ⟨2, _⟩ =>
    show win0_6.index t 2 * 1 ≤ (i 2 : Nat) ∧ (i 2 : Nat) < win0_6.index t 2 * 1 + 1
    rw [(index6 t).2.2]; omega

/-- So the output array ends holding `coreOut`. -/
theorem final6 (c : Dev nD) : (dats m 0 c).arrAt 6 cfg0.N = coreOut m c :=
  (dats m 0 c).arrAt_eq_of_cover 6 (coreOut m c) (flushed_eq m c) (cover6 c)

/-- The entries of the output array are indexed by the core. -/
def coreEquiv : S2x1x1.Idx ≃ Fin 2 where
  toFun i := i 0
  invFun q := ix3 q (0 : Fin 1) (0 : Fin 1)
  left_inv i := by
    have h1 : (i 1).val < 1 := (i 1).isLt
    have h2 : (i 2).val < 1 := (i 2).isLt
    funext a
    apply Fin.ext
    match a with
    | ⟨0, _⟩ => rfl
    | ⟨1, _⟩ => show (0 : ℕ) = (i 1).val; omega
    | ⟨2, _⟩ => show (0 : ℕ) = (i 2).val; omega
  right_inv q := rfl

/-- The host's sum over the output array, from zero, is zero plus the two cores' entries. -/
theorem reduce_cores (X : Vec Ideal S2x1x1 .f32) (j : S_.Idx) :
    Host.reduceAdd (F := Ideal) X (constant (F := Ideal) S_ .f32 0x00000000#32) reducesTo_S2x1x1_S_d0_1_2 h_S_ j
      = 0 + ∑ q : Fin 2, X (ix3 q (0 : Fin 1) (0 : Fin 1)) := by
  show Ideal.hostReduceAdd reducesTo_S2x1x1_S_d0_1_2 X (Ideal.ofBits .f32 0x00000000#32) j = _
  rw [Ideal.hostReduceAdd_total reducesTo_S2x1x1_S_d0_1_2 (fun b => b.elim0), Ideal.ofBits_zero_f32,
    Fintype.sum_equiv coreEquiv X (fun q => X (ix3 q (0 : Fin 1) (0 : Fin 1))) (fun i => congrArg X (coreEquiv.left_inv i).symm)]

/-- The host's sum of the two cores' entries, from zero, is the blocked sum of the padded rows' values. -/
theorem tail_eq (c : Dev nD) :
    Pipeline.afterTail₀ cfgs (dats m) 0 (V0 m) [hostOps1] c main_v56 = (fun _ => kernelTotal (m ((c.tc : Thread nD τ).loc main_arg0)) (weights (F := Ideal) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  unfold Pipeline.afterTail₀
  show StableHlo.after hostOps1 _ (Proc.devRef .tc main_v56) = _
  after_results
  have e : Pipeline.withArrays (cfgs 0).spec c (V0 m c) (fun w => (dats m 0 c).arrAt w (cfgs 0).N) (Proc.devRef .tc main_v55) = coreOut m c :=
    (Pipeline.withArrays_arr spec0 launch0.win.arr_inj c (V0 m c) (fun w => (dats m 0 c).arrAt w cfg0.N) 6).trans (final6 m c)
  rw [e]
  funext j
  refine (reduce_cores (coreOut m c) j).trans ?_
  rfl

/-- Every weakly fair execution of the kernel program terminates with its result at the blocked sum of the padded rows'
    values and its arguments unchanged. -/
theorem run : θ_run (defs (F := Ideal)) (onTc (τ := τ) (main (F := Ideal))) ⟨m, fun _ => 0, ρ⟩ (fun r => ∀ c : Dev nD,
      r.2.mem ((c.tc : Thread nD τ).loc main_v56)
        = (fun _ => kernelTotal (m ((c.tc : Thread nD τ).loc main_arg0)) (weights (F := Ideal) (m ((c.tc : Thread nD τ).loc main_arg1)) (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v56 (Pipeline.mem_restRefs_of main_v56 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KernelIdeal.RunValue

end
-- ==== Proof.LibGathers.lean ====
/-
  Two `stablehlo.gather` shapes read at an index.

  (1) What `x[idx]` of a vector `x : [N]` at an integer vector `idx : [R]` lowers to: start indices `[R, 1]`, no offset
  dims, collapsed_slice_dims `[0]`, start_index_map `[0]`, index_vector_dim `1`, slice sizes `[1]`. Result element `r` is
  the operand at `idx[r, 0]`, read signed and clamped into `[0, N − 1]`.

  (2) What `take_along_axis(x, idx, axis = 1)` of `x : [R, C]` at `idx : [R, 1]` lowers to: start indices `[R, 1, 1]`,
  operand_batching_dims `[0]`, start_indices_batching_dims `[0]`, collapsed_slice_dims `[1]`, start_index_map `[1]`,
  index_vector_dim `2`, slice sizes `[1, 1]`. Result element `(r, 0)` is the operand at row `r` and at column
  `idx[r, 0, 0]`, read signed and clamped into `[0, C − 1]`.
-/
import Idealize.ShloMosaic.PureOps.Ideal
import Idealize.ShloMosaic.Lib.ValueIdx

noncomputable section

namespace Cert.LibGathers

open Idealize.ShloMosaic Idealize.ShloMosaic.ValueIdx

variable {α : Type}

/-- The dimension numbers of (1), for an operand `[N]`, start indices `[R, 1]` and result `[R]`. -/
abbrev vecDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- (1) read at `r`. -/
theorem gather_vec_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecDims N R wf) x idx (ix1 r)
      = x (ix1 (⟨min (idx (ix2 r (0 : Fin 1))).toInt.toNat (N - 1), by omega⟩ : Fin N)) := by
  unfold Host.gather
  congr 1
  funext a
  refine Fin.ext ?_
  show (vecDims N R wf).start (ix1 r) idx a + (vecDims N R wf).batchCoord (ix1 r) a
    + (vecDims N R wf).offCoord (ix1 r) a = _
  rw [GatherDims.batchCoord_eq_zero _ _ _ List.not_mem_nil]
  simp only [Nat.add_zero]
  match a with
  | ⟨0, h0⟩ =>
    -- the one operand axis: in the start index map and collapsed, so the coordinate is the clamped start alone
    have hm : (⟨0, h0⟩ : Fin 1) ∈ (vecDims N R wf).startIndexMap := List.mem_singleton.mpr rfl
    rw [GatherDims.offCoord_eq_zero _ _ _ (fun h => ((GatherDims.mem_sKept _ _).mp h).1 (List.mem_singleton.mpr rfl))]
    simp only [Nat.add_zero]
    unfold GatherDims.start
    rw [dif_pos hm]
    have hsi : (vecDims N R wf).siIdx (ix1 r) ⟨List.idxOf (⟨0, h0⟩ : Fin 1) (vecDims N R wf).startIndexMap,
        List.idxOf_lt_length_iff.2 hm⟩ = ix2 r (0 : Fin 1) := by
      funext b; refine Fin.ext ?_
      match b with
      | ⟨0, _⟩ => rfl
      | ⟨1, _⟩ => rfl
    rw [hsi]
    rfl

/-- The dimension numbers of (2), for an operand `[R, C]`, start indices `[R, 1, 1]` and result `[R, 1]`. -/
abbrev alongDims (R C : Nat)
    (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- (2) read at `(r, 0)`. -/
theorem gather_along_apply {R C w : Nat} (hC : 0 < C)
    (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (r : Fin R) :
    Host.gather (alongDims R C wf) x idx (ix2 r (0 : Fin 1))
      = x (ix2 r (⟨min (idx (ix3 r (0 : Fin 1) (0 : Fin 1))).toInt.toNat (C - 1), by omega⟩ : Fin C)) := by
  unfold Host.gather
  congr 1
  funext a
  refine Fin.ext ?_
  show (alongDims R C wf).start (ix2 r (0 : Fin 1)) idx a + (alongDims R C wf).batchCoord (ix2 r (0 : Fin 1)) a
    + (alongDims R C wf).offCoord (ix2 r (0 : Fin 1)) a = _
  match a with
  | ⟨0, h0⟩ =>
    -- operand axis 0 (rows): the batching axis, paired with start-indices axis 0, which the result's axis 0 reads;
    -- the start is 0 there and no offset axis reads it, so the coordinate is the result's row
    have hb : (⟨0, h0⟩ : Fin 2) ∈ (alongDims R C wf).operandBatchingDims := List.mem_singleton.mpr rfl
    rw [GatherDims.start_batching _ _ _ _ hb,
      GatherDims.offCoord_eq_zero _ _ _ (fun h => ((GatherDims.mem_sKept _ _).mp h).2 hb)]
    simp only [Nat.zero_add, Nat.add_zero]
    unfold GatherDims.batchCoord
    rw [dif_pos hb]
    rfl
  | ⟨1, h1⟩ =>
    -- operand axis 1 (columns): in the start index map and collapsed, not batching: the clamped start alone
    have hne : (⟨1, h1⟩ : Fin 2) ≠ 0 := fun h => Nat.one_ne_zero (congrArg Fin.val h)
    have hm : (⟨1, h1⟩ : Fin 2) ∈ (alongDims R C wf).startIndexMap := List.mem_singleton.mpr rfl
    rw [GatherDims.batchCoord_eq_zero _ _ _ (fun h => hne (List.mem_singleton.mp h)),
      GatherDims.offCoord_eq_zero _ _ _ (fun h => ((GatherDims.mem_sKept _ _).mp h).1 (List.mem_singleton.mpr rfl))]
    simp only [Nat.add_zero]
    unfold GatherDims.start
    rw [dif_pos hm]
    have hsi : (alongDims R C wf).siIdx (ix2 r (0 : Fin 1)) ⟨List.idxOf (⟨1, h1⟩ : Fin 2) (alongDims R C wf).startIndexMap,
        List.idxOf_lt_length_iff.2 hm⟩ = ix3 r (0 : Fin 1) (0 : Fin 1) := by
      funext b; refine Fin.ext ?_
      match b with
      | ⟨0, _⟩ => rfl
      | ⟨1, _⟩ => rfl
      | ⟨2, _⟩ => rfl
    rw [hsi]
    rfl

end Cert.LibGathers

end
-- ==== Proof.RefSel.lean ====
/-
  The reference's selection of an edge's relation: the eight per-relation score columns are laid side by side, the
  edge's relation word picks its column (a negative word is wrapped, an out-of-range word answers the fill value, a
  word in range is its own column), and the relation's bias is read the same way.
-/
import proofs.«421868_j31318901522602_3_alg».proof.Proof.RefRead
import proofs.«421868_j31318901522602_3_alg».proof.Proof.Spec
import proofs.«421868_j31318901522602_3_alg».proof.Proof.LibGathers
import Idealize.ShloMosaic.Lib.ReduceAll

noncomputable section

namespace Cert.ReferenceIdeal.RefValue

open Idealize.ShloMosaic Idealize.ShloMosaic.ValueIdx Cert.ReferenceIdeal Cert.ReferenceIdeal.Gen Cert.ReferenceIdeal.Read Cert.EdgeLoss

/-! ## A relation word in range -/

/-- A word below 8 read signed is the word. -/
theorem word_toInt (t : BitVec 32) (ht : t.toNat < 8) : t.toInt = (t.toNat : Int) :=
  BitVec.toInt_eq_toNat_of_lt (by omega)

/-- A word below 8 is not negative. -/
theorem word_not_neg (t : BitVec 32) (ht : t.toNat < 8) : IntOp.cmpi .slt t 0#32 ≠ 1#1 := by
  intro hc
  have h1 := IntOp.cmpi_slt.mp hc
  rw [word_toInt t ht, show (0#32 : BitVec 32).toInt = 0 from by decide] at h1
  omega

/-- Wrapping a negative word by 8 leaves a word below 8 as it is. -/
theorem word_wrap (t : BitVec 32) (ht : t.toNat < 8) :
    Scalar.select (IntOp.cmpi .slt t 0#32) (IntOp.addi t 8#32) t = t := by
  unfold Scalar.select
  rw [if_neg (show ¬ (IntOp.cmpi .slt t 0#32 = 1) from word_not_neg t ht)]

/-- A word below 8 lies in [0, 7]. -/
theorem word_valid (t : BitVec 32) (ht : t.toNat < 8) :
    IntOp.andi (IntOp.cmpi .sge t 0#32) (IntOp.cmpi .sle t 7#32) = 1#1 := by
  refine IntOp.andi_eq_one.mpr ⟨IntOp.cmpi_sge.mpr ?_, IntOp.cmpi_sle.mpr ?_⟩
  · rw [word_toInt t ht, show (0#32 : BitVec 32).toInt = 0 from by decide]; omega
  · rw [word_toInt t ht, show (7#32 : BitVec 32).toInt = 7 from by decide]; omega

/-- Clamping a word below 8 into [0, 7] gives its relation. -/
theorem word_clamp (t : BitVec 32) (ht : t.toNat < 8) : min t.toInt.toNat 7 = (rel t).val := by
  rw [word_toInt t ht, Int.toNat_natCast]
  show min t.toNat 7 = t.toNat % 8
  omega

/-- The positive stream's eight score vectors, by relation. -/
def posScore (x0 : FVec Ideal S50000x64 .f32) (x1 x2 : FVec Ideal S8x64x64 .f32) (x4 : IVec S2x1000000 32) : Fin 8 → FVec Ideal S1000000 .f32 := fun
  | 0 => val_main_v41 (F := Ideal) x0 x1 x2 x4
  | 1 => val_main_v47 (F := Ideal) x0 x1 x2 x4
  | 2 => val_main_v53 (F := Ideal) x0 x1 x2 x4
  | 3 => val_main_v59 (F := Ideal) x0 x1 x2 x4
  | 4 => val_main_v65 (F := Ideal) x0 x1 x2 x4
  | 5 => val_main_v71 (F := Ideal) x0 x1 x2 x4
  | 6 => val_main_v77 (F := Ideal) x0 x1 x2 x4
  | 7 => val_main_v83 (F := Ideal) x0 x1 x2 x4

/-! ## The wrapped word, its validity, and the columns side by side -/

/-- In range at every index of the stream. -/
theorem inRange_idx (x5 : IVec S1000000 32) (h : InRange x5) (j : S1000000.Idx) : (x5 j).toNat < 8 := by
  have h1 := h ⟨(j 0).val, (j 0).isLt⟩
  have h2 : ix1 (⟨(j 0).val, (j 0).isLt⟩ : Fin 1000000) = j := by
    funext a; match a with | ⟨0, _⟩ => rfl
  rwa [h2] at h1

/-- The wrapped word of the selection is the word, at every position. -/
theorem v4_word (x5 : IVec S1000000 32) (h : InRange x5) (i : S1000000x1.Idx) :
    val_main_call1_v4 (F := Ideal) x5 i = x5 (idx_main_v93 i) := by
  rw [val_main_call1_v4_apply, val_main_call1_v1_apply, val_main_call1_v3_apply, val_main_v93_apply,
    val_main_call1_v0_apply, val_main_call1_v2_apply, val_main_call1_c_apply, val_main_call1_c_0_apply]
  exact word_wrap _ (inRange_idx x5 h _)

/-- The start indices of the selection are the words. -/
theorem v5_word (x5 : IVec S1000000 32) (h : InRange x5) (i : S1000000x1x1.Idx) :
    val_main_call1_v5 (F := Ideal) x5 i = x5 (idx_main_v93 (idx_main_call1_v5 i)) := by
  rw [val_main_call1_v5_apply, v4_word x5 h]

/-- Every start index is valid. -/
theorem v11_one (x5 : IVec S1000000 32) (h : InRange x5) (i : S1000000x1x1.Idx) :
    val_main_call1_v11 (F := Ideal) x5 i = 1#1 := by
  rw [val_main_call1_v11_apply, val_main_call1_v7_apply, val_main_call1_v10_apply, v5_word x5 h,
    val_main_call1_v6_apply, val_main_call1_c_2_apply, val_main_call1_v9_apply, val_main_call1_v8_apply,
    val_main_call1_c_1_apply]
  exact word_valid _ (inRange_idx x5 h _)

/-- A fold by and from 1 over values that are all 1 is 1. -/
theorem fold_andi_one {ι : Type} (s : Finset ι) (f : ι → BitVec 1) (hf : ∀ i ∈ s, f i = 1#1) :
    s.fold IntOp.andi 1#1 f = 1#1 := by
  classical
  induction s using Finset.induction_on with
  | empty => rfl
  | insert a s ha ih =>
    rw [Finset.fold_insert ha, hf a (Finset.mem_insert_self a s),
      ih (fun i hi => hf i (Finset.mem_insert_of_mem hi))]
    decide

/-- The and over the index vector's axis of the validity bits is 1 at every position. -/
theorem v12_one (x5 : IVec S1000000 32) (h : InRange x5) (j : S1000000x1.Idx) :
    val_main_call1_v12 (F := Ideal) x5 j = 1#1 := by
  unfold val_main_call1_v12
  rw [Host.reduce_eq_fold, val_main_call1_c_3_apply]
  exact fold_andi_one _ _ (fun i _ => v11_one x5 h i)

/-- A vector broadcast to one column, read at (e, 0), is the vector at e. -/
theorem bcast_col_apply {α : Type} (y : S1000000.Idx → α) (e : Fin 1000000) :
    broadcastInDim S1000000x1 ![0] bcast_S1000000_S1000000x1_0 y (ix2 e (0 : Fin 1)) = y (ix1 e) :=
  broadcastInDim_apply _ bcast_S1000000_S1000000x1_0 y (ix2 e (0 : Fin 1)) (ix1 e) (fun a => match a with
    | ⟨0, _⟩ => by show e.val = if (1000000 : Nat) = 1 then 0 else e.val; rw [if_neg (by decide)])

/-- The eight score vectors side by side, read at (e, r): relation r's vector at e. -/
theorem v92_col (x0 : FVec Ideal S50000x64 .f32) (x1 x2 : FVec Ideal S8x64x64 .f32) (x4 : IVec S2x1000000 32)
    (e : Fin 1000000) (r : Fin 8) :
    val_main_v92 (F := Ideal) x0 x1 x2 x4 (ix2 e r) = posScore x0 x1 x2 x4 r (ix1 e) := by
  unfold val_main_v92
  show concatenate S1000000x8 1 (List.ofFn fun n : Fin 8 => (⟨S1000000x1,
      broadcastInDim S1000000x1 ![0] bcast_S1000000_S1000000x1_0 (posScore x0 x1 x2 x4 n)⟩ : (s : Shape) × (s.Idx → Ideal .f32)))
    concatenates_S1000000x1_S1000000x1_S1000000x1_S1000000x1_S1000000x1_S1000000x1_S1000000x1_S1000000x1_S1000000x8_d1
    (ix2 e r) = _
  exact (concatenate_ofFn_unit_apply (t := S1000000x8) (s₁ := S1000000x1) (1 : Fin 2) (fun n : Fin 8 =>
      broadcastInDim S1000000x1 ![0] bcast_S1000000_S1000000x1_0 (posScore x0 x1 x2 x4 n))
      concatenates_S1000000x1_S1000000x1_S1000000x1_S1000000x1_S1000000x1_S1000000x1_S1000000x1_S1000000x1_S1000000x8_d1
      rfl rfl (ix2 e r) r rfl (ix2 e (0 : Fin 1))
      (fun b hb => match b, hb with
        | ⟨0, _⟩, _ => rfl
        | ⟨1, _⟩, hb => absurd rfl hb)).trans (bcast_col_apply _ e)

/-- With its relation word in range, an edge's selected score is the score vector of its relation at the edge. -/
theorem select_score (x0 : FVec Ideal S50000x64 .f32) (x1 x2 : FVec Ideal S8x64x64 .f32) (x4 : IVec S2x1000000 32) (x5 : IVec S1000000 32) (h : InRange x5) (e : Fin 1000000) :
    val_main_v95 (F := Ideal) x0 x1 x2 x4 x5 (ix1 e) = posScore x0 x1 x2 x4 (rel (x5 (ix1 e))) (ix1 e) := by
  have hg : gather_S1000000x8_S1000000x1x1_S1000000x1_n_1_0_0_1_2_11
      = LibGathers.alongDims 1000000 8 gather_S1000000x8_S1000000x1x1_S1000000x1_n_1_0_0_1_2_11_wf := rfl
  have hi95 : idx_main_v95 (ix1 e) = ix2 e (0 : Fin 1) := by
    funext a
    match a with
    | ⟨0, _⟩ => exact Fin.ext (Nat.div_one _)
    | ⟨1, _⟩ => rfl
  have hsel : ∀ a b : Ideal .f32, Scalar.select (1#1) a b = a := fun a b => by
    unfold Scalar.select; rw [if_pos (show (1#1 : BitVec 1) = 1 from rfl)]
  have hv5 : val_main_call1_v5 (F := Ideal) x5 (ix3 e (0 : Fin 1) (0 : Fin 1)) = x5 (ix1 e) := by
    rw [v5_word x5 h]
    congr 1
    funext a
    match a with
    | ⟨0, _⟩ => exact Fin.ext (show ((e.val * 1 + 0) * 1 + 0) / 1 = e.val by omega)
  rw [val_main_v95_apply, hi95, val_main_v94_apply, v12_one x5 h, hsel]
  unfold val_main_call1_v13
  rw [hg, LibGathers.gather_along_apply (by decide) _ (val_main_v92 (F := Ideal) x0 x1 x2 x4)
    (val_main_call1_v5 (F := Ideal) x5) e]
  rw [← v92_col x0 x1 x2 x4 e (rel (x5 (ix1 e)))]
  refine congrArg (val_main_v92 (F := Ideal) x0 x1 x2 x4) (congrArg (ix2 e) (Fin.ext ?_))
  show min (val_main_call1_v5 (F := Ideal) x5 (ix3 e (0 : Fin 1) (0 : Fin 1))).toInt.toNat 7 = _
  rw [hv5]
  exact word_clamp _ (h e)

/-- With its relation word in range, an edge's bias is its relation's. -/
theorem bias_at (x3 : FVec Ideal S8 .f32) (x5 : IVec S1000000 32) (h : InRange x5) (e : Fin 1000000) :
    val_main_v102 (F := Ideal) x3 x5 (ix1 e) = x3 (ix1 (rel (x5 (ix1 e)))) := by
  have hg : gather_S8_S1000000x1_S1000000_n_0_n_n_0_1_1
      = LibGathers.vecDims 8 1000000 gather_S8_S1000000x1_S1000000_n_0_n_n_0_1_1_wf := rfl
  have hw : val_main_v100 (F := Ideal) x5 (ix1 e) = x5 (ix1 e) := by
    rw [val_main_v100_apply, val_main_v97_apply, val_main_v99_apply, val_main_v96_apply, val_main_v98_apply,
      val_main_c_18_apply, val_main_c_19_apply]
    exact word_wrap _ (h e)
  have hidx : val_main_v101 (F := Ideal) x5 (ix2 e (0 : Fin 1)) = x5 (ix1 e) := by
    rw [val_main_v101_apply]
    have hi : idx_main_v101 (ix2 e (0 : Fin 1)) = ix1 e := by
      funext a; match a with | ⟨0, _⟩ => rfl
    rw [hi, hw]
  unfold val_main_v102
  rw [hg, LibGathers.gather_vec_apply (by decide) _ x3 (val_main_v101 (F := Ideal) x5) e]
  refine congrArg x3 (congrArg ix1 (Fin.ext ?_))
  show min (val_main_v101 (F := Ideal) x5 (ix2 e (0 : Fin 1))).toInt.toNat 7 = _
  rw [hidx]
  exact word_clamp _ (h e)

end Cert.ReferenceIdeal.RefValue

end
-- ==== Proof.RefPos.lean ====
/-
  The reference's logits on the positive stream, edge by edge.

  The weights are the shared chain. The two row gathers read the node table at the rows the edge's source and
  destination words name. Each of the eight relations has a stage of the same six operations whose value at an edge is
  the edge's score under that relation, Σ_b A[s, b] · Σ_a A[d, a] · W[r, b, a]: one lemma carries that argument, and
  the eight relations instantiate it. The edge's relation word then selects its relation's score and its relation's
  bias, and their sum is the edge's logit.
-/
import proofs.«421868_j31318901522602_3_alg».proof.Proof.RefRead
import proofs.«421868_j31318901522602_3_alg».proof.Proof.Spec
import proofs.«421868_j31318901522602_3_alg».proof.Proof.LibRowGather
import proofs.«421868_j31318901522602_3_alg».proof.Proof.RefSel

noncomputable section

namespace Cert.ReferenceIdeal.RefValue

open Idealize.ShloMosaic Idealize.ShloMosaic.ValueIdx Cert.ReferenceIdeal Cert.ReferenceIdeal.Gen Cert.ReferenceIdeal.Read Cert.EdgeLoss

/-! ## The weights -/

/-- The reference's weights are the shared chain. -/
theorem weights_eq {F : FTy → Type} [FloatOps F] (x1 x2 : FVec F S8x64x64 .f32) :
    val_main_v17 (F := F) x1 x2 = weights x1 x2 := by
  unfold val_main_v17 val_main_v16 val_main_v15 val_main_v14 val_main_v13 val_main_v12 val_main_v11 val_main_v10
    val_main_call0_v4 val_main_call0_v3 val_main_call0_v2 val_main_call0_v1 val_main_call0_v0
    val_main_v9 val_main_v8 val_main_v7 val_main_v6 val_main_v5 val_main_v4 val_main_v3 val_main_v2 val_main_v1 val_main_v0
    val_main_cst val_main_cst_0 val_main_cst_1 val_main_cst_2 val_main_cst_3 val_main_cst_4 val_main_cst_5 val_main_cst_6 weights
  rfl

/-! ## The two gathered rows -/

/-- The start index of the first gather at edge `e`: the source word, with 50000 added when it is negative. -/
theorem src_word (x4 : IVec S2x1000000 32) (e : Fin 1000000) :
    val_main_v25 (F := Ideal) x4 (ix2 e (0 : Fin 1))
      = Scalar.select (IntOp.cmpi .slt (x4 (ix2 (0 : Fin 2) e)) 0#32) (IntOp.addi (x4 (ix2 (0 : Fin 2) e)) 50000#32)
          (x4 (ix2 (0 : Fin 2) e)) := by
  have hi : idx_main_v18 (idx_main_v19 (idx_main_v25 (ix2 e (0 : Fin 1)))) = ix2 (0 : Fin 2) e :=
    funext fun a => Fin.ext (by
      match a with
      | ⟨0, _⟩ => rfl
      | ⟨1, _⟩ => exact Nat.mod_eq_of_lt e.isLt)
  rw [val_main_v25_apply, val_main_v24_apply, val_main_v21_apply, val_main_v23_apply, val_main_v19_apply, val_main_v18_apply,
    val_main_v20_apply, val_main_v22_apply, val_main_c_apply, val_main_c_7_apply, hi]

/-- The start index of the second gather at edge `e`: the destination word, with 50000 added when it is negative. -/
theorem dst_word (x4 : IVec S2x1000000 32) (e : Fin 1000000) :
    val_main_v34 (F := Ideal) x4 (ix2 e (0 : Fin 1))
      = Scalar.select (IntOp.cmpi .slt (x4 (ix2 (1 : Fin 2) e)) 0#32) (IntOp.addi (x4 (ix2 (1 : Fin 2) e)) 50000#32)
          (x4 (ix2 (1 : Fin 2) e)) := by
  have hi : idx_main_v27 (idx_main_v28 (idx_main_v34 (ix2 e (0 : Fin 1)))) = ix2 (1 : Fin 2) e :=
    funext fun a => Fin.ext (by
      match a with
      | ⟨0, _⟩ => rfl
      | ⟨1, _⟩ => exact Nat.mod_eq_of_lt e.isLt)
  rw [val_main_v34_apply, val_main_v33_apply, val_main_v30_apply, val_main_v32_apply, val_main_v28_apply, val_main_v27_apply,
    val_main_v29_apply, val_main_v31_apply, val_main_c_8_apply, val_main_c_9_apply, hi]

/-- Row `e` of the first gather is the table's row named by the edge's source word. -/
theorem src_row (x0 : FVec Ideal S50000x64 .f32) (x4 : IVec S2x1000000 32) (e : Fin 1000000) (k : Fin 64) :
    val_main_v26 (F := Ideal) x0 x4 (ix2 e k) = x0 (ix2 (nodeRow (x4 (ix2 (0 : Fin 2) e))) k) := by
  unfold val_main_v26
  show Host.gather (Cert.LibRowGather.rowDims 50000 64 1000000
    Facts₀.gather_S50000x64_S1000000x1_S1000000x64_1_0_n_n_0_1_164_wf) x0 _ _ = _
  rw [Cert.LibRowGather.gather_rows_apply (by decide)]
  refine congrArg x0 (funext fun a => Fin.ext ?_)
  match a with
  | ⟨0, _⟩ =>
    show min (val_main_v25 (F := Ideal) x4 (ix2 e (0 : Fin 1))).toInt.toNat (50000 - 1) = (nodeRow (x4 (ix2 (0 : Fin 2) e))).val
    rw [src_word]
    rfl
  | ⟨1, _⟩ => rfl

/-- Row `e` of the second gather is the table's row named by the edge's destination word. -/
theorem dst_row (x0 : FVec Ideal S50000x64 .f32) (x4 : IVec S2x1000000 32) (e : Fin 1000000) (k : Fin 64) :
    val_main_v35 (F := Ideal) x0 x4 (ix2 e k) = x0 (ix2 (nodeRow (x4 (ix2 (1 : Fin 2) e))) k) := by
  unfold val_main_v35
  show Host.gather (Cert.LibRowGather.rowDims 50000 64 1000000
    Facts₀.gather_S50000x64_S1000000x1_S1000000x64_1_0_n_n_0_1_164_wf) x0 _ _ = _
  rw [Cert.LibRowGather.gather_rows_apply (by decide)]
  refine congrArg x0 (funext fun a => Fin.ext ?_)
  match a with
  | ⟨0, _⟩ =>
    show min (val_main_v34 (F := Ideal) x4 (ix2 e (0 : Fin 1))).toInt.toNat (50000 - 1) = (nodeRow (x4 (ix2 (1 : Fin 2) e))).val
    rw [dst_word]
    rfl
  | ⟨1, _⟩ => rfl

/-! ## One relation's stage

  Each relation's score column is made by the same six operations: a slice of the weights, a reshape, a transpose, a
  contraction of the destination rows with it, a product with the source rows, a sum along the row. The lemma below
  is the argument, stated over what each operation reads; the eight relations instantiate it. -/

/-- The index a stage's row sum reads at edge `e`, summand `k`. -/
theorem red_idx (e : Fin 1000000) (k : Fin 64) : idx_main_v41 (ix1 e) k = ix2 e k :=
  funext fun c => Fin.ext (by match c with | ⟨0, _⟩ => rfl | ⟨1, _⟩ => rfl)

/-- The left index a stage's contraction reads at `(e, b)`, summand `a`. -/
theorem lhs_idx (e : Fin 1000000) (b a : Fin 64) : lidx_main_v39 (ix2 e b) a = ix2 e a :=
  funext fun c => Fin.ext (by match c with | ⟨0, _⟩ => rfl | ⟨1, _⟩ => rfl)

/-- The right index a stage's contraction reads at `(e, b)`, summand `a`. -/
theorem rhs_idx (e : Fin 1000000) (b a : Fin 64) : ridx_main_v39 (ix2 e b) a = ix2 a b :=
  funext fun c => Fin.ext (by match c with | ⟨0, _⟩ => rfl | ⟨1, _⟩ => rfl)

/-- The transpose and the reshape of a stage, composed: `(a, b)` reads the one-relation slice at `(0, b, a)`. -/
theorem tr_idx (a b : Fin 64) : idx_main_v37 (idx_main_v38 (ix2 a b)) = ix3 (0 : Fin 1) b a :=
  funext fun c => Fin.ext (by
    match c with
    | ⟨0, _⟩ => rfl
    | ⟨1, _⟩ => show (b.val * 64 + a.val) / 64 % 64 = b.val; omega
    | ⟨2, _⟩ => show (b.val * 64 + a.val) % 64 = a.val; omega)

/-- ONE RELATION'S STAGE at edge `e`. Given what the stage's operations read — the transposed slice `Wt` reads the
    weights `W` through `isl ∘ itr`, which at `(a, b)` is `(r, b, a)`; the contraction `dot` is the sum over `a` of the
    destination rows at `il` times `Wt` at `ir`; `mul` is the source rows times `dot`; `red` is the constant `c = 0` plus
    the sum of `mul` along the row — the stage's value at `e` is
    `Σ_b A[s, b] · Σ_a A[d, a] · W[r, b, a]`, the edge's score under relation `r`. -/
theorem stage_score (x0 : FVec Ideal S50000x64 .f32) (x4 : IVec S2x1000000 32) (W : S8x64x64.Idx → EReal) (r : Fin 8)
    (e : Fin 1000000) (Wt : S64x64.Idx → EReal) (dot mul : S1000000x64.Idx → EReal) (red : S1000000.Idx → EReal) (c : EReal)
    (itr : S64x64.Idx → S1x64x64.Idx) (isl : S1x64x64.Idx → S8x64x64.Idx)
    (il : S1000000x64.Idx → Fin 64 → S1000000x64.Idx) (ir : S1000000x64.Idx → Fin 64 → S64x64.Idx)
    (ired : S1000000.Idx → Fin 64 → S1000000x64.Idx)
    (hW : ∀ i, Wt i = W (isl (itr i)))
    (hitr : ∀ a b : Fin 64, itr (ix2 a b) = ix3 (0 : Fin 1) b a)
    (hisl : ∀ b a : Fin 64, isl (ix3 (0 : Fin 1) b a) = ix3 r b a)
    (hdot : ∀ i, dot i = ∑ a : Fin 64, val_main_v35 (F := Ideal) x0 x4 (il i a) * Wt (ir i a))
    (hil : ∀ b a : Fin 64, il (ix2 e b) a = ix2 e a)
    (hir : ∀ b a : Fin 64, ir (ix2 e b) a = ix2 a b)
    (hmul : ∀ i, mul i = val_main_v26 (F := Ideal) x0 x4 i * dot i)
    (hc : c = 0)
    (hred : ∀ i, red i = c + ∑ k : Fin 64, mul (ired i k))
    (hired : ∀ k : Fin 64, ired (ix1 e) k = ix2 e k) :
    red (ix1 e) = score x0 W (x4 (ix2 (0 : Fin 2) e)) (x4 (ix2 (1 : Fin 2) e)) r := by
  rw [hred, hc, zero_add]
  unfold score
  refine Finset.sum_congr rfl fun b _ => ?_
  rw [hired, hmul, hdot, src_row]
  refine congrArg (_ * ·) (Finset.sum_congr rfl fun a _ => ?_)
  rw [hil, hir, dst_row, hW, hitr, hisl]

/-! ## The eight relations -/

/-- Relation 0. -/
theorem score0 (x0 : FVec Ideal S50000x64 .f32) (x1 x2 : FVec Ideal S8x64x64 .f32) (x4 : IVec S2x1000000 32) (e : Fin 1000000) :
    val_main_v41 (F := Ideal) x0 x1 x2 x4 (ix1 e)
      = score x0 (val_main_v17 (F := Ideal) x1 x2) (x4 (ix2 (0 : Fin 2) e)) (x4 (ix2 (1 : Fin 2) e)) (0 : Fin 8) :=
  stage_score x0 x4 _ 0 e (val_main_v38 (F := Ideal) x1 x2) (val_main_v39 (F := Ideal) x0 x1 x2 x4)
    (val_main_v40 (F := Ideal) x0 x1 x2 x4) (val_main_v41 (F := Ideal) x0 x1 x2 x4) _
    (fun i => idx_main_v37 (idx_main_v38 i)) idx_main_v36 lidx_main_v39 ridx_main_v39 idx_main_v41
    (fun i => by rw [val_main_v38_apply, val_main_v37_apply, val_main_v36_apply])
    tr_idx
    (fun b a => funext fun c => Fin.ext (by match c with | ⟨0, _⟩ => rfl | ⟨1, _⟩ => rfl | ⟨2, _⟩ => rfl))
    (val_main_v39_apply x0 x1 x2 x4) (lhs_idx e) (rhs_idx e)
    (val_main_v40_apply (F := Ideal) x0 x1 x2 x4)
    Ideal.ofBits_zero_f32
    (val_main_v41_apply x0 x1 x2 x4) (red_idx e)

/-- Relation 1. -/
theorem score1 (x0 : FVec Ideal S50000x64 .f32) (x1 x2 : FVec Ideal S8x64x64 .f32) (x4 : IVec S2x1000000 32) (e : Fin 1000000) :
    val_main_v47 (F := Ideal) x0 x1 x2 x4 (ix1 e)
      = score x0 (val_main_v17 (F := Ideal) x1 x2) (x4 (ix2 (0 : Fin 2) e)) (x4 (ix2 (1 : Fin 2) e)) (1 : Fin 8) :=
  stage_score x0 x4 _ 1 e (val_main_v44 (F := Ideal) x1 x2) (val_main_v45 (F := Ideal) x0 x1 x2 x4)
    (val_main_v46 (F := Ideal) x0 x1 x2 x4) (val_main_v47 (F := Ideal) x0 x1 x2 x4) _
    (fun i => idx_main_v43 (idx_main_v44 i)) idx_main_v42 lidx_main_v45 ridx_main_v45 idx_main_v47
    (fun i => by rw [val_main_v44_apply, val_main_v43_apply, val_main_v42_apply])
    tr_idx
    (fun b a => funext fun c => Fin.ext (by match c with | ⟨0, _⟩ => rfl | ⟨1, _⟩ => rfl | ⟨2, _⟩ => rfl))
    (val_main_v45_apply x0 x1 x2 x4) (lhs_idx e) (rhs_idx e)
    (val_main_v46_apply (F := Ideal) x0 x1 x2 x4)
    Ideal.ofBits_zero_f32
    (val_main_v47_apply x0 x1 x2 x4) (red_idx e)

/-- Relation 2. -/
theorem score2 (x0 : FVec Ideal S50000x64 .f32) (x1 x2 : FVec Ideal S8x64x64 .f32) (x4 : IVec S2x1000000 32) (e : Fin 1000000) :
    val_main_v53 (F := Ideal) x0 x1 x2 x4 (ix1 e)
      = score x0 (val_main_v17 (F := Ideal) x1 x2) (x4 (ix2 (0 : Fin 2) e)) (x4 (ix2 (1 : Fin 2) e)) (2 : Fin 8) :=
  stage_score x0 x4 _ 2 e (val_main_v50 (F := Ideal) x1 x2) (val_main_v51 (F := Ideal) x0 x1 x2 x4)
    (val_main_v52 (F := Ideal) x0 x1 x2 x4) (val_main_v53 (F := Ideal) x0 x1 x2 x4) _
    (fun i => idx_main_v49 (idx_main_v50 i)) idx_main_v48 lidx_main_v51 ridx_main_v51 idx_main_v53
    (fun i => by rw [val_main_v50_apply, val_main_v49_apply, val_main_v48_apply])
    tr_idx
    (fun b a => funext fun c => Fin.ext (by match c with | ⟨0, _⟩ => rfl | ⟨1, _⟩ => rfl | ⟨2, _⟩ => rfl))
    (val_main_v51_apply x0 x1 x2 x4) (lhs_idx e) (rhs_idx e)
    (val_main_v52_apply (F := Ideal) x0 x1 x2 x4)
    Ideal.ofBits_zero_f32
    (val_main_v53_apply x0 x1 x2 x4) (red_idx e)

/-- Relation 3. -/
theorem score3 (x0 : FVec Ideal S50000x64 .f32) (x1 x2 : FVec Ideal S8x64x64 .f32) (x4 : IVec S2x1000000 32) (e : Fin 1000000) :
    val_main_v59 (F := Ideal) x0 x1 x2 x4 (ix1 e)
      = score x0 (val_main_v17 (F := Ideal) x1 x2) (x4 (ix2 (0 : Fin 2) e)) (x4 (ix2 (1 : Fin 2) e)) (3 : Fin 8) :=
  stage_score x0 x4 _ 3 e (val_main_v56 (F := Ideal) x1 x2) (val_main_v57 (F := Ideal) x0 x1 x2 x4)
    (val_main_v58 (F := Ideal) x0 x1 x2 x4) (val_main_v59 (F := Ideal) x0 x1 x2 x4) _
    (fun i => idx_main_v55 (idx_main_v56 i)) idx_main_v54 lidx_main_v57 ridx_main_v57 idx_main_v59
    (fun i => by rw [val_main_v56_apply, val_main_v55_apply, val_main_v54_apply])
    tr_idx
    (fun b a => funext fun c => Fin.ext (by match c with | ⟨0, _⟩ => rfl | ⟨1, _⟩ => rfl | ⟨2, _⟩ => rfl))
    (val_main_v57_apply x0 x1 x2 x4) (lhs_idx e) (rhs_idx e)
    (val_main_v58_apply (F := Ideal) x0 x1 x2 x4)
    Ideal.ofBits_zero_f32
    (val_main_v59_apply x0 x1 x2 x4) (red_idx e)

/-- Relation 4. -/
theorem score4 (x0 : FVec Ideal S50000x64 .f32) (x1 x2 : FVec Ideal S8x64x64 .f32) (x4 : IVec S2x1000000 32) (e : Fin 1000000) :
    val_main_v65 (F := Ideal) x0 x1 x2 x4 (ix1 e)
      = score x0 (val_main_v17 (F := Ideal) x1 x2) (x4 (ix2 (0 : Fin 2) e)) (x4 (ix2 (1 : Fin 2) e)) (4 : Fin 8) :=
  stage_score x0 x4 _ 4 e (val_main_v62 (F := Ideal) x1 x2) (val_main_v63 (F := Ideal) x0 x1 x2 x4)
    (val_main_v64 (F := Ideal) x0 x1 x2 x4) (val_main_v65 (F := Ideal) x0 x1 x2 x4) _
    (fun i => idx_main_v61 (idx_main_v62 i)) idx_main_v60 lidx_main_v63 ridx_main_v63 idx_main_v65
    (fun i => by rw [val_main_v62_apply, val_main_v61_apply, val_main_v60_apply])
    tr_idx
    (fun b a => funext fun c => Fin.ext (by match c with | ⟨0, _⟩ => rfl | ⟨1, _⟩ => rfl | ⟨2, _⟩ => rfl))
    (val_main_v63_apply x0 x1 x2 x4) (lhs_idx e) (rhs_idx e)
    (val_main_v64_apply (F := Ideal) x0 x1 x2 x4)
    Ideal.ofBits_zero_f32
    (val_main_v65_apply x0 x1 x2 x4) (red_idx e)

/-- Relation 5. -/
theorem score5 (x0 : FVec Ideal S50000x64 .f32) (x1 x2 : FVec Ideal S8x64x64 .f32) (x4 : IVec S2x1000000 32) (e : Fin 1000000) :
    val_main_v71 (F := Ideal) x0 x1 x2 x4 (ix1 e)
      = score x0 (val_main_v17 (F := Ideal) x1 x2) (x4 (ix2 (0 : Fin 2) e)) (x4 (ix2 (1 : Fin 2) e)) (5 : Fin 8) :=
  stage_score x0 x4 _ 5 e (val_main_v68 (F := Ideal) x1 x2) (val_main_v69 (F := Ideal) x0 x1 x2 x4)
    (val_main_v70 (F := Ideal) x0 x1 x2 x4) (val_main_v71 (F := Ideal) x0 x1 x2 x4) _
    (fun i => idx_main_v67 (idx_main_v68 i)) idx_main_v66 lidx_main_v69 ridx_main_v69 idx_main_v71
    (fun i => by rw [val_main_v68_apply, val_main_v67_apply, val_main_v66_apply])
    tr_idx
    (fun b a => funext fun c => Fin.ext (by match c with | ⟨0, _⟩ => rfl | ⟨1, _⟩ => rfl | ⟨2, _⟩ => rfl))
    (val_main_v69_apply x0 x1 x2 x4) (lhs_idx e) (rhs_idx e)
    (val_main_v70_apply (F := Ideal) x0 x1 x2 x4)
    Ideal.ofBits_zero_f32
    (val_main_v71_apply x0 x1 x2 x4) (red_idx e)

/-- Relation 6. -/
theorem score6 (x0 : FVec Ideal S50000x64 .f32) (x1 x2 : FVec Ideal S8x64x64 .f32) (x4 : IVec S2x1000000 32) (e : Fin 1000000) :
    val_main_v77 (F := Ideal) x0 x1 x2 x4 (ix1 e)
      = score x0 (val_main_v17 (F := Ideal) x1 x2) (x4 (ix2 (0 : Fin 2) e)) (x4 (ix2 (1 : Fin 2) e)) (6 : Fin 8) :=
  stage_score x0 x4 _ 6 e (val_main_v74 (F := Ideal) x1 x2) (val_main_v75 (F := Ideal) x0 x1 x2 x4)
    (val_main_v76 (F := Ideal) x0 x1 x2 x4) (val_main_v77 (F := Ideal) x0 x1 x2 x4) _
    (fun i => idx_main_v73 (idx_main_v74 i)) idx_main_v72 lidx_main_v75 ridx_main_v75 idx_main_v77
    (fun i => by rw [val_main_v74_apply, val_main_v73_apply, val_main_v72_apply])
    tr_idx
    (fun b a => funext fun c => Fin.ext (by match c with | ⟨0, _⟩ => rfl | ⟨1, _⟩ => rfl | ⟨2, _⟩ => rfl))
    (val_main_v75_apply x0 x1 x2 x4) (lhs_idx e) (rhs_idx e)
    (val_main_v76_apply (F := Ideal) x0 x1 x2 x4)
    Ideal.ofBits_zero_f32
    (val_main_v77_apply x0 x1 x2 x4) (red_idx e)

/-- Relation 7. -/
theorem score7 (x0 : FVec Ideal S50000x64 .f32) (x1 x2 : FVec Ideal S8x64x64 .f32) (x4 : IVec S2x1000000 32) (e : Fin 1000000) :
    val_main_v83 (F := Ideal) x0 x1 x2 x4 (ix1 e)
      = score x0 (val_main_v17 (F := Ideal) x1 x2) (x4 (ix2 (0 : Fin 2) e)) (x4 (ix2 (1 : Fin 2) e)) (7 : Fin 8) :=
  stage_score x0 x4 _ 7 e (val_main_v80 (F := Ideal) x1 x2) (val_main_v81 (F := Ideal) x0 x1 x2 x4)
    (val_main_v82 (F := Ideal) x0 x1 x2 x4) (val_main_v83 (F := Ideal) x0 x1 x2 x4) _
    (fun i => idx_main_v79 (idx_main_v80 i)) idx_main_v78 lidx_main_v81 ridx_main_v81 idx_main_v83
    (fun i => by rw [val_main_v80_apply, val_main_v79_apply, val_main_v78_apply])
    tr_idx
    (fun b a => funext fun c => Fin.ext (by match c with | ⟨0, _⟩ => rfl | ⟨1, _⟩ => rfl | ⟨2, _⟩ => rfl))
    (val_main_v81_apply x0 x1 x2 x4) (lhs_idx e) (rhs_idx e)
    (val_main_v82_apply (F := Ideal) x0 x1 x2 x4)
    Ideal.ofBits_zero_f32
    (val_main_v83_apply x0 x1 x2 x4) (red_idx e)

/-! ## The scores by relation, and the logit -/

/-- The score vector of relation `r` at edge `e` is the edge's score under `r`. -/
theorem pos_score (x0 : FVec Ideal S50000x64 .f32) (x1 x2 : FVec Ideal S8x64x64 .f32) (x4 : IVec S2x1000000 32) (e : Fin 1000000) (r : Fin 8) :
    posScore x0 x1 x2 x4 r (ix1 e) = score x0 (weights x1 x2) (x4 (ix2 (0 : Fin 2) e)) (x4 (ix2 (1 : Fin 2) e)) r := by
  rw [← weights_eq]
  match r with
  | ⟨0, _⟩ => exact score0 x0 x1 x2 x4 e
  | ⟨1, _⟩ => exact score1 x0 x1 x2 x4 e
  | ⟨2, _⟩ => exact score2 x0 x1 x2 x4 e
  | ⟨3, _⟩ => exact score3 x0 x1 x2 x4 e
  | ⟨4, _⟩ => exact score4 x0 x1 x2 x4 e
  | ⟨5, _⟩ => exact score5 x0 x1 x2 x4 e
  | ⟨6, _⟩ => exact score6 x0 x1 x2 x4 e
  | ⟨7, _⟩ => exact score7 x0 x1 x2 x4 e

/-- The positive stream's logit at edge `e`, when its relation words are in range. -/
theorem logits_pos (x0 : FVec Ideal S50000x64 .f32) (x1 x2 : FVec Ideal S8x64x64 .f32) (x3 : FVec Ideal S8 .f32) (x4 : IVec S2x1000000 32) (x5 : IVec S1000000 32) (h : InRange x5) (e : Fin 1000000) :
    val_main_v103 (F := Ideal) x0 x1 x2 x3 x4 x5 (ix1 e)
      = logit x0 (weights x1 x2) x3 (x4 (ix2 (0 : Fin 2) e)) (x4 (ix2 (1 : Fin 2) e)) (x5 (ix1 e)) := by
  rw [val_main_v103_apply]
  show _ + _ = _
  rw [select_score x0 x1 x2 x4 x5 h e, bias_at x3 x5 h e, pos_score]
  rfl

end Cert.ReferenceIdeal.RefValue

end
-- ==== Proof.RefNeg.lean ====
/-
  The reference's logits on the negative stream: the same operations as on the positive stream, applied to the negative
  edges' index and relation arrays.
-/
import proofs.«421868_j31318901522602_3_alg».proof.Proof.RefPos

noncomputable section

namespace Cert.ReferenceIdeal.RefValue

open Idealize.ShloMosaic Idealize.ShloMosaic.ValueIdx Cert.ReferenceIdeal Cert.ReferenceIdeal.Gen Cert.ReferenceIdeal.Read Cert.EdgeLoss

/-- The negative stream's logits are the positive stream's chain of operations read at the negative stream's arrays:
    the two chains are the same term. -/
theorem neg_eq_pos {F : FTy → Type} [FloatOps F] (x0 : FVec F S50000x64 .f32) (x1 x2 : FVec F S8x64x64 .f32) (x3 : FVec F S8 .f32) (x6 : IVec S2x1000000 32) (x7 : IVec S1000000 32) :
    val_main_v189 (F := F) x0 x1 x2 x3 x6 x7 = val_main_v103 (F := F) x0 x1 x2 x3 x6 x7 := rfl

/-- The negative stream's logit at edge `e`, when its relation words are in range. -/
theorem logits_neg (x0 : FVec Ideal S50000x64 .f32) (x1 x2 : FVec Ideal S8x64x64 .f32) (x3 : FVec Ideal S8 .f32) (x6 : IVec S2x1000000 32) (x7 : IVec S1000000 32) (h : InRange x7) (e : Fin 1000000) :
    val_main_v189 (F := Ideal) x0 x1 x2 x3 x6 x7 (ix1 e)
      = logit x0 (weights x1 x2) x3 (x6 (ix2 (0 : Fin 2) e)) (x6 (ix2 (1 : Fin 2) e)) (x7 (ix1 e)) :=
  (congrFun (neg_eq_pos x0 x1 x2 x3 x6 x7) (ix1 e)).trans (logits_pos x0 x1 x2 x3 x6 x7 h e)

end Cert.ReferenceIdeal.RefValue

end
-- ==== Proof.RefTail.lean ====
/-
  The reference's result: softplus of the negated positive logits and of the negative logits, each summed over its
  stream and divided by 1000000, the two means added.
-/
import proofs.«421868_j31318901522602_3_alg».proof.Proof.RefPos
import proofs.«421868_j31318901522602_3_alg».proof.Proof.RefNeg

noncomputable section

namespace Cert.ReferenceIdeal.RefValue

open Idealize.ShloMosaic Idealize.ShloMosaic.ValueIdx Cert.ReferenceIdeal Cert.ReferenceIdeal.Gen Cert.ReferenceIdeal.Read Cert.EdgeLoss

/-! ## The scalar pieces -/

/-- The program's softplus of one value: the comparison of `x − 0` with itself for inequality is false on the extended
    reals (nothing is unordered), so the selection takes its second branch, which is `softplus x` once `x − 0 = x`. -/
theorem softplus_read (x : EReal) :
    Scalar.select (Ideal.cmp .une (x - 0) (x - 0)) (x + 0)
        (max x 0 + Ideal.log1p (Ideal.exp (-(max (x - 0) (-(x - 0)))))) = softplus x := by
  have h : Ideal.cmp .une (x - 0) (x - 0) = 0#1 := by simp [Ideal.cmp]
  rw [h, sub_zero]
  simp [Scalar.select, softplus]

/-- The divisor's word is the real number 1000000. -/
theorem word_million : Ideal.ofBits .f32 0x49742400#32 = ((1000000 : ℝ) : EReal) := by
  simp [Ideal.ofBits, Ideal.ieee, -EReal.coe_mul]; norm_num

/-- A quotient by the divisor's word is the product with 1/1000000. -/
theorem div_million (x : EReal) : Ideal.div x (Ideal.ofBits .f32 0x49742400#32) = x * kappa := by
  rw [word_million]
  exact Ideal.div_coe (by norm_num) x

/-- A sum over the rank-1 indices of a stream is the sum over its edges. -/
theorem sum_edges (f : S1000000.Idx → EReal) : ∑ j : S1000000.Idx, f j = ∑ e : Fin 1000000, f (ix1 e) := by
  let φ : Fin 1000000 ≃ S1000000.Idx :=
    { toFun := ix1, invFun := fun j => j 0, left_inv := fun e => rfl, right_inv := fun j => (eq_ix1 j).symm }
  exact (Equiv.sum_comp φ f).symm

/-! ## The two streams' terms -/

/-- The program's softplus of one value, spelled with the program's own operations at the extended reals (the zero
    constants as their words): it is `softplus v`. -/
theorem softplus_ops (v : Ideal .f32) :
    Scalar.select
        (FloatOps.cmpf .une (FloatOps.subf v (FloatOps.ofBits .f32 0#32)) (FloatOps.subf v (FloatOps.ofBits .f32 0#32)))
        (FloatOps.addf v (FloatOps.ofBits .f32 0#32))
        (FloatOps.addf (FloatOps.maximumf v (FloatOps.ofBits .f32 0#32))
          (FloatOps.hostUnary .log1p (FloatOps.hostUnary .exp
            (FloatOps.hostNegf (FloatOps.hostAbsf (FloatOps.subf v (FloatOps.ofBits .f32 0#32)))))))
      = softplus v := by
  simp only [Ideal.ofBits_def, Ideal.ofBits_zero_f32, Ideal.addf_def, Ideal.subf_def, Ideal.maximumf_def,
    Ideal.hostNegf_def, Ideal.negf_def, Ideal.hostAbsf_def, Ideal.absf_def, Ideal.hostUnary_exp_def,
    Ideal.hostUnary_log1p_def, Ideal.cmpf_def]
  exact softplus_read v

/-- The positive stream's term at an index: softplus of the negated logit. -/
theorem pos_term (x0 : FVec Ideal S50000x64 .f32) (x1 x2 : FVec Ideal S8x64x64 .f32) (x3 : FVec Ideal S8 .f32) (x4 : IVec S2x1000000 32) (x5 : IVec S1000000 32) (i : S1000000.Idx) :
    val_main_v191 (F := Ideal) x0 x1 x2 x3 x4 x5 i = softplus (-(val_main_v103 (F := Ideal) x0 x1 x2 x3 x4 x5 i)) := by
  rw [val_main_v191_apply, val_main_call3_v4_apply, val_main_call3_v6_apply, val_main_call3_v11_apply,
    val_main_call3_v1_apply, val_main_call3_v10_apply, val_main_call3_v9_apply, val_main_call3_v8_apply,
    val_main_call3_v7_apply, val_main_call3_v3_apply, val_main_call3_v0_apply, val_main_call3_v2_apply,
    val_main_call3_v5_apply, val_main_call3_cst_apply, val_main_v190_apply]
  generalize val_main_v103 (F := Ideal) x0 x1 x2 x3 x4 x5 i = v
  exact softplus_ops (FloatOps.hostNegf v)

/-- The negative stream's term at an index: softplus of the logit. -/
theorem neg_term (x0 : FVec Ideal S50000x64 .f32) (x1 x2 : FVec Ideal S8x64x64 .f32) (x3 : FVec Ideal S8 .f32) (x6 : IVec S2x1000000 32) (x7 : IVec S1000000 32) (i : S1000000.Idx) :
    val_main_v194 (F := Ideal) x0 x1 x2 x3 x6 x7 i = softplus (val_main_v189 (F := Ideal) x0 x1 x2 x3 x6 x7 i) := by
  rw [val_main_v194_apply, val_main_call4_v4_apply, val_main_call4_v6_apply, val_main_call4_v11_apply,
    val_main_call4_v1_apply, val_main_call4_v10_apply, val_main_call4_v9_apply, val_main_call4_v8_apply,
    val_main_call4_v7_apply, val_main_call4_v3_apply, val_main_call4_v0_apply, val_main_call4_v2_apply,
    val_main_call4_v5_apply, val_main_call4_cst_apply]
  generalize val_main_v189 (F := Ideal) x0 x1 x2 x3 x6 x7 i = v
  exact softplus_ops v

/-! ## The two means -/

/-- A sum from the zero word divided by the divisor's word is the sum times 1/1000000. -/
theorem mean_ops (s : Ideal .f32) :
    FloatOps.hostDivf (FloatOps.ofBits .f32 0x00000000#32 + s) (FloatOps.ofBits .f32 0x49742400#32) = s * kappa := by
  rw [Ideal.hostDivf_def, Ideal.ofBits_def, Ideal.ofBits_def, Ideal.ofBits_zero_f32, zero_add]
  exact div_million s

/-- The positive stream's terms summed: the sum over the edges of softplus of the negated logit. -/
theorem pos_sum (x0 : FVec Ideal S50000x64 .f32) (x1 x2 : FVec Ideal S8x64x64 .f32) (x3 : FVec Ideal S8 .f32) (x4 : IVec S2x1000000 32) (x5 : IVec S1000000 32) (h : InRange x5) :
    ∑ j : S1000000.Idx, val_main_v191 (F := Ideal) x0 x1 x2 x3 x4 x5 j
      = ∑ e : Fin 1000000, softplus (-(logit x0 (weights x1 x2) x3 (x4 (ix2 (0 : Fin 2) e)) (x4 (ix2 (1 : Fin 2) e)) (x5 (ix1 e)))) := by
  rw [sum_edges]
  exact Finset.sum_congr rfl fun e _ => by rw [pos_term, logits_pos x0 x1 x2 x3 x4 x5 h e]

/-- The negative stream's terms summed: the sum over the edges of softplus of the logit. -/
theorem neg_sum (x0 : FVec Ideal S50000x64 .f32) (x1 x2 : FVec Ideal S8x64x64 .f32) (x3 : FVec Ideal S8 .f32) (x6 : IVec S2x1000000 32) (x7 : IVec S1000000 32) (h : InRange x7) :
    ∑ j : S1000000.Idx, val_main_v194 (F := Ideal) x0 x1 x2 x3 x6 x7 j
      = ∑ e : Fin 1000000, softplus (logit x0 (weights x1 x2) x3 (x6 (ix2 (0 : Fin 2) e)) (x6 (ix2 (1 : Fin 2) e)) (x7 (ix1 e))) := by
  rw [sum_edges]
  exact Finset.sum_congr rfl fun e _ => by rw [neg_term, logits_neg x0 x1 x2 x3 x6 x7 h e]

/-- The positive stream's mean. -/
theorem pos_mean (x0 : FVec Ideal S50000x64 .f32) (x1 x2 : FVec Ideal S8x64x64 .f32) (x3 : FVec Ideal S8 .f32) (x4 : IVec S2x1000000 32) (x5 : IVec S1000000 32) (h : InRange x5) (i : S_.Idx) :
    val_main_v193 (F := Ideal) x0 x1 x2 x3 x4 x5 i
      = (∑ e : Fin 1000000, softplus (-(logit x0 (weights x1 x2) x3 (x4 (ix2 (0 : Fin 2) e)) (x4 (ix2 (1 : Fin 2) e)) (x5 (ix1 e))))) * kappa := by
  rw [val_main_v193_apply, val_main_v192_apply, val_main_cst_34_apply, val_main_cst_35_apply,
    pos_sum x0 x1 x2 x3 x4 x5 h]
  exact mean_ops _

/-- The negative stream's mean. -/
theorem neg_mean (x0 : FVec Ideal S50000x64 .f32) (x1 x2 : FVec Ideal S8x64x64 .f32) (x3 : FVec Ideal S8 .f32) (x6 : IVec S2x1000000 32) (x7 : IVec S1000000 32) (h : InRange x7) (i : S_.Idx) :
    val_main_v196 (F := Ideal) x0 x1 x2 x3 x6 x7 i
      = (∑ e : Fin 1000000, softplus (logit x0 (weights x1 x2) x3 (x6 (ix2 (0 : Fin 2) e)) (x6 (ix2 (1 : Fin 2) e)) (x7 (ix1 e)))) * kappa := by
  rw [val_main_v196_apply, val_main_v195_apply, val_main_cst_36_apply, val_main_cst_37_apply,
    neg_sum x0 x1 x2 x3 x6 x7 h]
  exact mean_ops _

/-- The reference's result is the loss, when every relation word names a relation. -/
theorem ref_value (x0 : FVec Ideal S50000x64 .f32) (x1 x2 : FVec Ideal S8x64x64 .f32) (x3 : FVec Ideal S8 .f32) (x4 : IVec S2x1000000 32) (x5 : IVec S1000000 32) (x6 : IVec S2x1000000 32) (x7 : IVec S1000000 32)
    (hp : InRange x5) (hn : InRange x7) :
    val_main_v197 (F := Ideal) x0 x1 x2 x3 x4 x5 x6 x7 = fun _ => total x0 (weights x1 x2) x3 x4 x5 x6 x7 := by
  funext i
  rw [val_main_v197_apply, pos_mean x0 x1 x2 x3 x4 x5 hp i, neg_mean x0 x1 x2 x3 x6 x7 hn i]
  unfold total
  exact Ideal.addf_def _ _

end Cert.ReferenceIdeal.RefValue

end
-- ==== Proof.lean ====
/-
  The certificate of the fused edge-loss kernel against its reference.

  The reference computes, edge by edge, the logit  Σ_b A[s, b] · (Σ_a A[d, a] · W[t, b, a]) + bias[t]  of each positive and
  each negative edge, and returns  mean softplus(−logit)  over the positive edges plus  mean softplus(logit)  over the
  negative ones. The kernel lays both streams end to end, pads them to 2 · 196 · 5120 rows (relation word −1, sign 0),
  computes all eight relation scores of a row with one matrix product and keeps the edge's own by eight equality masks,
  sums each core's blocks in a carried accumulator, scales by the named constant 1/1000000 and adds the two cores.
  Where every relation word names one of the eight relations (the precondition) the masks select exactly the edge's
  relation, the padding rows add nothing, and multiplying by 1/1000000 distributes over the two streams' sums: the two
  results are one extended real.
-/
import proofs.«421868_j31318901522602_3_alg».proof.Defs
import proofs.«421868_j31318901522602_3_alg».proof.Proof.Gen.Kernel
import proofs.«421868_j31318901522602_3_alg».proof.Proof.Gen.Kernel.Skeleton
import proofs.«421868_j31318901522602_3_alg».proof.Proof.Gen.Kernel.Launch
import proofs.«421868_j31318901522602_3_alg».proof.Proof.Gen.Kernel.Points
import proofs.«421868_j31318901522602_3_alg».proof.Proof.Gen.Kernel.Frame
import proofs.«421868_j31318901522602_3_alg».proof.Proof.Gen.KernelIdeal
import proofs.«421868_j31318901522602_3_alg».proof.Proof.Gen.KernelIdeal.Skeleton
import proofs.«421868_j31318901522602_3_alg».proof.Proof.Gen.KernelIdeal.Launch
import proofs.«421868_j31318901522602_3_alg».proof.Proof.Gen.KernelIdeal.Points
import proofs.«421868_j31318901522602_3_alg».proof.Proof.Gen.KernelIdeal.Frame
import proofs.«421868_j31318901522602_3_alg».proof.Proof.Gen.ReferenceIdeal
import proofs.«421868_j31318901522602_3_alg».proof.Proof.Gen.Pre_finite_inputs
import proofs.«421868_j31318901522602_3_alg».proof.Proof.RefRunOps
import proofs.«421868_j31318901522602_3_alg».proof.Proof.RefRunVal
import proofs.«421868_j31318901522602_3_alg».proof.Proof.RefRead
import proofs.«421868_j31318901522602_3_alg».proof.Proof.Spec
import proofs.«421868_j31318901522602_3_alg».proof.Proof.Algebra
import proofs.«421868_j31318901522602_3_alg».proof.Proof.PreRange
import proofs.«421868_j31318901522602_3_alg».proof.Proof.KerRun
import proofs.«421868_j31318901522602_3_alg».proof.Proof.RefTail
import Idealize.ShloMosaic.Adequacy
import Idealize.ShloMosaic.Init

noncomputable section

namespace Cert.Proof

open Idealize.ShloMosaic Idealize.SL.Sem Cert.Kernel

/-- The reference has no kernel: its frame is its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.RefValue.run_val (F := Ideal) m ρ)

/-- The one ledger entry: the named constant denotes 1/1000000. -/
theorem preserves : Cert.preserves_Kernel_KernelIdeal :=
  IdealRules.named_const.statement Cert.KernelIdeal.κ "inv_1000000" .f32 0x358637BD#32 ((1 / 1000000 : ℝ) : EReal) rfl

/-- Both programs end at the loss of the shared arguments: the kernel at its blocked sum, which is the loss where the
    relation words are in range; the reference at the loss itself. -/
theorem algebraic : @Cert.algebraic_KernelIdeal_ReferenceIdeal Cert.KernelIdeal.Gen.facts Cert.ReferenceIdeal.Gen.facts Cert.Pre_finite_inputs.Gen.facts := by
  intro m ρ m' ρ' hpre hagree
  have hr : ∀ c : Dev Cert.KernelIdeal.nD, Cert.EdgeLoss.InRange (m ((c.tc : Thread Cert.KernelIdeal.nD Cert.KernelIdeal.τ).loc Cert.KernelIdeal.main_arg5)) ∧ Cert.EdgeLoss.InRange (m ((c.tc : Thread Cert.KernelIdeal.nD Cert.KernelIdeal.τ).loc Cert.KernelIdeal.main_arg7)) :=
    fun c => Cert.EdgeLoss.range_of_pre _ _ _ _ _ _ _ _ (hpre c)
  refine ⟨fun c => fun _ => Cert.EdgeLoss.total (m ((c.tc : Thread Cert.KernelIdeal.nD Cert.KernelIdeal.τ).loc Cert.KernelIdeal.main_arg0)) (Cert.EdgeLoss.weights (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩) (Cert.KernelIdeal.RunValue.run m ρ)
    exact funext fun _ => Cert.EdgeLoss.kernelTotal_eq _ _ _ _ _ _ _ (hr c).1 (hr c).2
  · refine (θ_run Cert.ReferenceIdeal.defs _ _).mono (fun r h c => ⟨(h c).1.trans ?_, (h c).2⟩)
      (Cert.ReferenceIdeal.RefValue.run_val (F := Ideal) m' ρ')
    rw [(hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.ReferenceIdeal.RefValue.ref_value _ _ _ _ _ _ _ _ (hr c).1 (hr c).2

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, preserves, algebraic⟩

end Cert.Proof

end
